-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S50000x3 : Shape := ⟨2, ![50000, 3]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S3x131x64 : Shape := ⟨3, ![3, 131, 64]⟩
abbrev S3x64 : Shape := ⟨2, ![3, 64]⟩
abbrev S3x64x64 : Shape := ⟨3, ![3, 64, 64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x131x64 : S_.BroadcastsInDim S3x131x64 (![] : Fin 0 → Fin S3x131x64.rank)
  reducesTo_S3x131x64_S_d0_1_2 : S3x131x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg2 : IVec S2x800000 32) (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  let main_c_34 : IVec S_ 32 := constantI S_ 32 0#32
  let main_v89 : IVec S2x800000 32 := broadcastInDim S2x800000 ![] bcast_S_S2x800000 main_c_34
  let main_v90 : IVec S2x800000 1 := cmpi .sge main_arg2 main_v89
  let main_c_35 : IVec S_ 32 := constantI S_ 32 50000#32
  let main_v91 : IVec S2x800000 32 := broadcastInDim S2x800000 ![] bcast_S_S2x800000 main_c_35
  let main_v92 : IVec S2x800000 1 := cmpi .slt main_arg2 main_v91
  let main_v93 : IVec S2x800000 1 := andi main_v90 main_v92
  let main_c_36 : IVec S_ 1 := constantI S_ 1 1#1
  let main_v94 : IVec S_ 1 := (fun x v => Host.reduce IntOp.andi x v reducesTo_S2x800000_S_d0_1 h_S_) main_v93 main_c_36
  let main_v95 : IVec S_ 1 := andi main_v88 main_v94
  main_v95

def fn_part4 {F : FTy → Type} [FloatOps F] (main_arg2 : IVec S2x800000 32) (main_arg16 : FVec F S64x32 .f32) (main_arg17 : FVec F S32 .f32) (main_arg18 : FVec F S32x8 .f32) (main_arg19 : FVec F S8 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x8 .f32 := Host.absf main_arg18
  let main_cst_30 : FVec F S_ .f32 := constant S_ .f32 0x7F800000#32
  let main_v80 : FVec F S32x8 .f32 := broadcastInDim S32x8 ![] bcast_S_S32x8 main_cst_30
  let main_v81 : IVec S32x8 1 := cmpf .olt main_v79 main_v80
  let main_c_31 : IVec S_ 1 := constantI S_ 1 1#1
  let main_v82 : IVec S_ 1 := (fun x v => Host.reduce IntOp.andi x v reducesTo_S32x8_S_d0_1 h_S_) main_v81 main_c_31
  let main_v83 : IVec S_ 1 := andi main_v78 main_v82
  let main_v84 : FVec F S8 .f32 := Host.absf main_arg19
  let main_cst_32 : FVec F S_ .f32 := constant S_ .f32 0x7F800000#32
  fn_part5 (F := F) main_arg2 main_v83 main_v84 main_cst_32

def fn_part3 {F : FTy → Type} [FloatOps F] (main_arg2 : IVec S2x800000 32) (main_arg13 : FVec F S3x64 .f32) (main_arg14 : FVec F S3x64x64 .f32) (main_arg15 : FVec F S3x64 .f32) (main_arg16 : FVec F S64x32 .f32) (main_arg17 : FVec F S32 .f32) (main_arg18 : FVec F S32x8 .f32) (main_arg19 : FVec F S8 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg14
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg2 main_arg16 main_arg17 main_arg18 main_arg19 main_v63 main_v67

def fn_part2 {F : FTy → Type} [FloatOps F] (main_arg2 : IVec S2x800000 32) (main_arg9 : FVec F S3x64 .f32) (main_arg10 : FVec F S3x64x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S64x32 .f32) (main_arg17 : FVec F S32 .f32) (main_arg18 : FVec F S32x8 .f32) (main_arg19 : FVec F S8 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg10
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg12
  let main_cst_18 : FVec F S_ .f32 := constant S_ .f32 0x7F800000#32
  let main_v50 : FVec F S3x64x64 .f32 := broadcastInDim S3x64x64 ![] bcast_S_S3x64x64 main_cst_18
  fn_part3 (F := F) main_arg2 main_arg13 main_arg14 main_arg15 main_arg16 main_arg17 main_arg18 main_arg19 main_v48 main_v49 main_v50

def fn_part1 {F : FTy → Type} [FloatOps F] (main_arg2 : IVec S2x800000 32) (main_arg6 : FVec F S64x64 .f32) (main_arg7 : FVec F S64 .f32) (main_arg8 : FVec F S3x131x64 .f32) (main_arg9 : FVec F S3x64 .f32) (main_arg10 : FVec F S3x64x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S64x32 .f32) (main_arg17 : FVec F S32 .f32) (main_arg18 : FVec F S32x8 .f32) (main_arg19 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x131x64 .f32 := Host.absf main_arg8
  let main_cst_10 : FVec F S_ .f32 := constant S_ .f32 0x7F800000#32
  let main_v30 : FVec F S3x131x64 .f32 := broadcastInDim S3x131x64 ![] bcast_S_S3x131x64 main_cst_10
  let main_v31 : IVec S3x131x64 1 := cmpf .olt main_v29 main_v30
  let main_c_11 : IVec S_ 1 := constantI S_ 1 1#1
  let main_v32 : IVec S_ 1 := (fun x v => Host.reduce IntOp.andi x v reducesTo_S3x131x64_S_d0_1_2 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_v33

def fn {F : FTy → Type} [FloatOps F] (main_arg0 : FVec F S50000x16 .f32) (main_arg1 : FVec F S50000x3 .f32) (main_arg2 : IVec S2x800000 32) (main_arg3 : IVec S50000 32) (main_arg4 : FVec F S16x64 .f32) (main_arg5 : FVec F S64 .f32) (main_arg6 : FVec F S64x64 .f32) (main_arg7 : FVec F S64 .f32) (main_arg8 : FVec F S3x131x64 .f32) (main_arg9 : FVec F S3x64 .f32) (main_arg10 : FVec F S3x64x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S64x32 .f32) (main_arg17 : FVec F S32 .f32) (main_arg18 : FVec F S32x8 .f32) (main_arg19 : FVec F S8 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_v13 main_v16
-- ==== Kernel.lean ====
abbrev S50000x16 : Shape := ⟨2, ![50000, 16]⟩
abbrev S50000x3 : Shape := ⟨2, ![50000, 3]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S3x131x64 : Shape := ⟨3, ![3, 131, 64]⟩
abbrev S3x64 : Shape := ⟨2, ![3, 64]⟩
abbrev S3x64x64 : Shape := ⟨3, ![3, 64, 64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x16 : Shape := ⟨2, ![5000, 16]⟩
abbrev S5000x64 : Shape := ⟨2, ![5000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x3 : Shape := ⟨2, ![800000, 3]⟩
abbrev S1x131x64 : Shape := ⟨3, ![1, 131, 64]⟩
abbrev S131x64 : Shape := ⟨2, ![131, 64]⟩
abbrev S1x64x64 : Shape := ⟨3, ![1, 64, 64]⟩
abbrev S4000x64 : Shape := ⟨2, ![4000, 64]⟩
abbrev S4000x3 : Shape := ⟨2, ![4000, 3]⟩
abbrev S1x32 : Shape := ⟨2, ![1, 32]⟩
abbrev S1x8 : Shape := ⟨2, ![1, 8]⟩
abbrev S50000x8 : Shape := ⟨2, ![50000, 8]⟩
abbrev S5000x8 : Shape := ⟨2, ![5000, 8]⟩
abbrev S5000x32 : Shape := ⟨2, ![5000, 32]⟩
abbrev S50000x1 : Shape := ⟨2, ![50000, 1]⟩
abbrev S128x8 : Shape := ⟨2, ![128, 8]⟩
abbrev S5000x1 : Shape := ⟨2, ![5000, 1]⟩
abbrev S5000x128 : Shape := ⟨2, ![5000, 128]⟩
abbrev S128x5000 : Shape := ⟨2, ![128, 5000]⟩

abbrev nBuf : Space → Nat
  | .hbm => 326
  | .vmem => 87
  | .smem => 0
  | _ => 0

abbrev hbmTy0_0 (i : Nat) : BufTy := match i % 128 with
  | 0 => ⟨S50000x16, .f32⟩
  | 1 => ⟨S50000x3, .f32⟩
  | 2 => ⟨S2x800000, .i32⟩
  | 3 => ⟨S50000, .i32⟩
  | 4 => ⟨S16x64, .f32⟩
  | 5 => ⟨S64, .f32⟩
  | 6 => ⟨S64x64, .f32⟩
  | 7 => ⟨S64, .f32⟩
  | 8 => ⟨S3x131x64, .f32⟩
  | 9 => ⟨S3x64, .f32⟩
  | 10 => ⟨S3x64x64, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S64x32, .f32⟩
  | 17 => ⟨S32, .f32⟩
  | 18 => ⟨S32x8, .f32⟩
  | 19 => ⟨S8, .f32⟩
  | 20 => ⟨S1x800000, .i32⟩
  | 21 => ⟨S800000, .i32⟩
  | 22 => ⟨S1x800000, .i32⟩
  | 23 => ⟨S800000, .i32⟩
  | 24 => ⟨S1x64, .f32⟩
  | 25 => ⟨S1x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S1, .i32⟩
  | 36 => ⟨S_, .i32⟩
  | 37 => ⟨S800000x1, .i32⟩
  | 38 => ⟨S800000x1, .i1⟩
  | 39 => ⟨S1x1, .i32⟩
  | 40 => ⟨S800000x1, .i32⟩
  | 41 => ⟨S800000x1, .i1⟩
  | 42 => ⟨S800000x1, .i1⟩
  | 43 => ⟨S_, .i1⟩
  | 44 => ⟨S800000, .i1⟩
  | 45 => ⟨S800000x64, .f32⟩
  | 46 => ⟨S800000x64, .i1⟩
  | 47 => ⟨S_, .f32⟩
  | 48 => ⟨S800000x64, .f32⟩
  | 49 => ⟨S800000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x64, .f32⟩
  | 69 => ⟨S800000x64, .i1⟩
  | 70 => ⟨S_, .f32⟩
  | 71 => ⟨S800000x64, .f32⟩
  | 72 => ⟨S800000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S1, .i32⟩
  | 82 => ⟨S_, .i32⟩
  | 83 => ⟨S800000x1, .i32⟩
  | 84 => ⟨S800000x1, .i1⟩
  | 85 => ⟨S1x1, .i32⟩
  | 86 => ⟨S800000x1, .i32⟩
  | 87 => ⟨S800000x1, .i1⟩
  | 88 => ⟨S800000x1, .i1⟩
  | 89 => ⟨S_, .i1⟩
  | 90 => ⟨S800000, .i1⟩
  | 91 => ⟨S800000x3, .f32⟩
  | 92 => ⟨S800000x3, .i1⟩
  | 93 => ⟨S_, .f32⟩
  | 94 => ⟨S800000x3, .f32⟩
  | 95 => ⟨S800000x3, .f32⟩
  | 96 => ⟨S1x131x64, .f32⟩
  | 97 => ⟨S131x64, .f32⟩
  | 98 => ⟨S64x64, .f32⟩
  | 99 => ⟨S64x64, .f32⟩
  | 100 => ⟨S3x64, .f32⟩
  | 101 => ⟨S1x64, .f32⟩
  | 102 => ⟨S64, .f32⟩
  | 103 => ⟨S1x64x64, .f32⟩
  | 104 => ⟨S64x64, .f32⟩
  | 105 => ⟨S1x64, .f32⟩
  | 106 => ⟨S64, .f32⟩
  | 107 => ⟨S1x64, .f32⟩
  | 108 => ⟨S1x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S1x64x64, .f32⟩
  | 115 => ⟨S64x64, .f32⟩
  | 116 => ⟨S1x64, .f32⟩
  | 117 => ⟨S64, .f32⟩
  | 118 => ⟨S1x64x64, .f32⟩
  | 119 => ⟨S64x64, .f32⟩
  | 120 => ⟨S1x64, .f32⟩
  | 121 => ⟨S64, .f32⟩
  | 122 => ⟨S1x64, .f32⟩
  | 123 => ⟨S1x64, .f32⟩
  | 124 => ⟨S50000x64, .f32⟩
  | 125 => ⟨S_, .i32⟩
  | 126 => ⟨S800000, .i32⟩
  | 127 => ⟨S800000, .i1⟩
  | _ => ⟨S50000x16, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S1, .i32⟩
  | 6 => ⟨S_, .i32⟩
  | 7 => ⟨S800000x1, .i32⟩
  | 8 => ⟨S800000x1, .i1⟩
  | 9 => ⟨S1x1, .i32⟩
  | 10 => ⟨S800000x1, .i32⟩
  | 11 => ⟨S800000x1, .i1⟩
  | 12 => ⟨S800000x1, .i1⟩
  | 13 => ⟨S_, .i1⟩
  | 14 => ⟨S800000, .i1⟩
  | 15 => ⟨S800000x64, .f32⟩
  | 16 => ⟨S800000x64, .i1⟩
  | 17 => ⟨S_, .f32⟩
  | 18 => ⟨S800000x64, .f32⟩
  | 19 => ⟨S800000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x3, .f32⟩
  | 62 => ⟨S800000x3, .i1⟩
  | 63 => ⟨S_, .f32⟩
  | 64 => ⟨S800000x3, .f32⟩
  | 65 => ⟨S800000x3, .f32⟩
  | 66 => ⟨S1x131x64, .f32⟩
  | 67 => ⟨S131x64, .f32⟩
  | 68 => ⟨S64x64, .f32⟩
  | 69 => ⟨S64x64, .f32⟩
  | 70 => ⟨S3x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S1x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S1x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S1, .i32⟩
  | 104 => ⟨S_, .i32⟩
  | 105 => ⟨S800000x1, .i32⟩
  | 106 => ⟨S800000x1, .i1⟩
  | 107 => ⟨S1x1, .i32⟩
  | 108 => ⟨S800000x1, .i32⟩
  | 109 => ⟨S800000x1, .i1⟩
  | 110 => ⟨S800000x1, .i1⟩
  | 111 => ⟨S_, .i1⟩
  | 112 => ⟨S800000, .i1⟩
  | 113 => ⟨S800000x64, .f32⟩
  | 114 => ⟨S800000x64, .i1⟩
  | 115 => ⟨S_, .f32⟩
  | 116 => ⟨S800000x64, .f32⟩
  | 117 => ⟨S800000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S1, .i32⟩
  | 127 => ⟨S_, .i32⟩
  | _ => ⟨S50000x16, .f32⟩

abbrev hbmTy0_2 (i : Nat) : BufTy := match i % 128 with
  | 0 => ⟨S800000x1, .i32⟩
  | 1 => ⟨S800000x1, .i1⟩
  | 2 => ⟨S1x1, .i32⟩
  | 3 => ⟨S800000x1, .i32⟩
  | 4 => ⟨S800000x1, .i1⟩
  | 5 => ⟨S800000x1, .i1⟩
  | 6 => ⟨S_, .i1⟩
  | 7 => ⟨S800000, .i1⟩
  | 8 => ⟨S800000x64, .f32⟩
  | 9 => ⟨S800000x64, .i1⟩
  | 10 => ⟨S_, .f32⟩
  | 11 => ⟨S800000x64, .f32⟩
  | 12 => ⟨S800000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000x3, .f32⟩
  | 32 => ⟨S800000x3, .i1⟩
  | 33 => ⟨S_, .f32⟩
  | 34 => ⟨S800000x3, .f32⟩
  | 35 => ⟨S800000x3, .f32⟩
  | 36 => ⟨S1x131x64, .f32⟩
  | 37 => ⟨S131x64, .f32⟩
  | 38 => ⟨S64x64, .f32⟩
  | 39 => ⟨S64x64, .f32⟩
  | 40 => ⟨S3x64, .f32⟩
  | 41 => ⟨S1x64, .f32⟩
  | 42 => ⟨S64, .f32⟩
  | 43 => ⟨S1x64x64, .f32⟩
  | 44 => ⟨S64x64, .f32⟩
  | 45 => ⟨S1x64, .f32⟩
  | 46 => ⟨S64, .f32⟩
  | 47 => ⟨S1x64, .f32⟩
  | 48 => ⟨S1x64, .f32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S1x64x64, .f32⟩
  | 55 => ⟨S64x64, .f32⟩
  | 56 => ⟨S1x64, .f32⟩
  | 57 => ⟨S64, .f32⟩
  | 58 => ⟨S1x64x64, .f32⟩
  | 59 => ⟨S64x64, .f32⟩
  | 60 => ⟨S1x64, .f32⟩
  | 61 => ⟨S64, .f32⟩
  | 62 => ⟨S1x64, .f32⟩
  | 63 => ⟨S1x64, .f32⟩
  | 64 => ⟨S50000x64, .f32⟩
  | 65 => ⟨S1x32, .f32⟩
  | 66 => ⟨S1x8, .f32⟩
  | 67 => ⟨S50000x8, .f32⟩
  | 68 => ⟨S50000x1, .i32⟩
  | 69 => ⟨S128x8, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x3, .f32⟩
  | .local _ .vmem, ⟨13, _⟩ => ⟨S4000x3, .f32⟩
  | .local _ .vmem, ⟨14, _⟩ => ⟨S64x64, .f32⟩
  | .local _ .vmem, ⟨15, _⟩ => ⟨S64x64, .f32⟩
  | .local _ .vmem, ⟨16, _⟩ => ⟨S3x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x3, .f32⟩
  | .local _ .vmem, ⟨35, _⟩ => ⟨S4000x3, .f32⟩
  | .local _ .vmem, ⟨36, _⟩ => ⟨S64x64, .f32⟩
  | .local _ .vmem, ⟨37, _⟩ => ⟨S64x64, .f32⟩
  | .local _ .vmem, ⟨38, _⟩ => ⟨S3x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S4000x64, .f32⟩
  | .local _ .vmem, ⟨43, _⟩ => ⟨S4000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S4000x3, .f32⟩
  | .local _ .vmem, ⟨57, _⟩ => ⟨S4000x3, .f32⟩
  | .local _ .vmem, ⟨58, _⟩ => ⟨S64x64, .f32⟩
  | .local _ .vmem, ⟨59, _⟩ => ⟨S64x64, .f32⟩
  | .local _ .vmem, ⟨60, _⟩ => ⟨S3x64, .f32⟩
  | .local _ .vmem, ⟨61, _⟩ => ⟨S1x64, .f32⟩
  | .local _ .vmem, ⟨62, _⟩ => ⟨S64x64, .f32⟩
  | .local _ .vmem, ⟨63, _⟩ => ⟨S1x64, .f32⟩
  | .local _ .vmem, ⟨64, _⟩ => ⟨S4000x64, .f32⟩
  | .local _ .vmem, ⟨65, _⟩ => ⟨S4000x64, .f32⟩
  | .local _ .vmem, ⟨66, _⟩ => ⟨S5000x64, .f32⟩
  | .local _ .vmem, ⟨67, _⟩ => ⟨S5000x64, .f32⟩
  | .local _ .vmem, ⟨68, _⟩ => ⟨S64x64, .f32⟩
  | .local _ .vmem, ⟨69, _⟩ => ⟨S1x64, .f32⟩
  | .local _ .vmem, ⟨70, _⟩ => ⟨S64x64, .f32⟩
  | .local _ .vmem, ⟨71, _⟩ => ⟨S1x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S64x32, .f32⟩
  | .local _ .vmem, ⟨77, _⟩ => ⟨S1x32, .f32⟩
  | .local _ .vmem, ⟨78, _⟩ => ⟨S32x8, .f32⟩
  | .local _ .vmem, ⟨79, _⟩ => ⟨S1x8, .f32⟩
  | .local _ .vmem, ⟨80, _⟩ => ⟨S5000x8, .f32⟩
  | .local _ .vmem, ⟨81, _⟩ => ⟨S5000x8, .f32⟩
  | .local _ .vmem, ⟨82, _⟩ => ⟨S5000x8, .f32⟩
  | .local _ .vmem, ⟨83, _⟩ => ⟨S5000x8, .f32⟩
  | .local _ .vmem, ⟨84, _⟩ => ⟨S5000x1, .i32⟩
  | .local _ .vmem, ⟨85, _⟩ => ⟨S5000x1, .i32⟩
  | .local _ .vmem, ⟨86, _⟩ => ⟨S128x8, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v7 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v8 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v9 : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_cst : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v38 : Ref sig .tc := ⟨.hbm, 147, rfl⟩
abbrev main_call4_c : Ref sig .tc := ⟨.hbm, 148, rfl⟩
abbrev main_call4_v0 : Ref sig .tc := ⟨.hbm, 149, rfl⟩
abbrev main_call4_v1 : Ref sig .tc := ⟨.hbm, 150, rfl⟩
abbrev main_call4_c_0 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_c_1 : Ref sig .tc := ⟨.hbm, 156, rfl⟩
abbrev main_call4_c_2 : Ref sig .tc := ⟨.hbm, 157, rfl⟩
abbrev main_call4_v6 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_call4_c_3 : Ref sig .tc := ⟨.hbm, 164, rfl⟩
abbrev main_call4_v12 : Ref sig .tc := ⟨.hbm, 165, rfl⟩
abbrev main_call4_v13 : Ref sig .tc := ⟨.hbm, 166, rfl⟩
abbrev main_call4_v14 : Ref sig .tc := ⟨.hbm, 167, rfl⟩
abbrev main_call4_cst : Ref sig .tc := ⟨.hbm, 168, rfl⟩
abbrev main_call4_v15 : Ref sig .tc := ⟨.hbm, 169, rfl⟩
abbrev main_v39 : Ref sig .tc := ⟨.hbm, 170, rfl⟩
abbrev main_call5_c : Ref sig .tc := ⟨.hbm, 171, rfl⟩
abbrev main_call5_v0 : Ref sig .tc := ⟨.hbm, 172, rfl⟩
abbrev main_call5_v1 : Ref sig .tc := ⟨.hbm, 173, rfl⟩
abbrev main_call5_c_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_v5 : Ref sig .tc := ⟨.hbm, 178, rfl⟩
abbrev main_call5_c_1 : Ref sig .tc := ⟨.hbm, 179, rfl⟩
abbrev main_call5_c_2 : Ref sig .tc := ⟨.hbm, 180, rfl⟩
abbrev main_call5_v6 : Ref sig .tc := ⟨.hbm, 181, rfl⟩
abbrev main_call5_v7 : Ref sig .tc := ⟨.hbm, 182, rfl⟩
abbrev main_call5_v8 : Ref sig .tc := ⟨.hbm, 183, rfl⟩
abbrev main_call5_v9 : Ref sig .tc := ⟨.hbm, 184, rfl⟩
abbrev main_call5_v10 : Ref sig .tc := ⟨.hbm, 185, rfl⟩
abbrev main_call5_v11 : Ref sig .tc := ⟨.hbm, 186, rfl⟩
abbrev main_call5_c_3 : Ref sig .tc := ⟨.hbm, 187, rfl⟩
abbrev main_call5_v12 : Ref sig .tc := ⟨.hbm, 188, rfl⟩
abbrev main_call5_v13 : Ref sig .tc := ⟨.hbm, 189, rfl⟩
abbrev main_call5_v14 : Ref sig .tc := ⟨.hbm, 190, rfl⟩
abbrev main_call5_cst : Ref sig .tc := ⟨.hbm, 191, rfl⟩
abbrev main_call5_v15 : Ref sig .tc := ⟨.hbm, 192, rfl⟩
abbrev main_v40 : Ref sig .tc := ⟨.hbm, 193, rfl⟩
abbrev main_v41 : Ref sig .tc := ⟨.hbm, 194, rfl⟩
abbrev main_v42 : Ref sig .tc := ⟨.hbm, 195, rfl⟩
abbrev main_v43 : Ref sig .tc := ⟨.hbm, 196, rfl⟩
abbrev main_v44 : Ref sig .tc := ⟨.hbm, 197, rfl⟩
abbrev main_v45 : Ref sig .tc := ⟨.hbm, 198, rfl⟩
abbrev main_v46 : Ref sig .tc := ⟨.hbm, 199, rfl⟩
abbrev main_v47 : Ref sig .tc := ⟨.hbm, 200, rfl⟩
abbrev main_v48 : Ref sig .tc := ⟨.hbm, 201, rfl⟩
abbrev main_v49 : Ref sig .tc := ⟨.hbm, 202, rfl⟩
abbrev main_v50 : Ref sig .tc := ⟨.hbm, 203, rfl⟩
abbrev main_v51 : Ref sig .tc := ⟨.hbm, 204, rfl⟩
abbrev main_v52 : Ref sig .tc := ⟨.hbm, 205, rfl⟩
abbrev main_v53 : Ref sig .tc := ⟨.hbm, 206, rfl⟩
abbrev main_v54 : Ref sig .tc := ⟨.hbm, 207, rfl⟩
abbrev main_cst_0 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_v58 : Ref sig .tc := ⟨.hbm, 212, rfl⟩
abbrev main_v59 : Ref sig .tc := ⟨.hbm, 213, rfl⟩
abbrev main_v60 : Ref sig .tc := ⟨.hbm, 214, rfl⟩
abbrev main_v61 : Ref sig .tc := ⟨.hbm, 215, rfl⟩
abbrev main_v62 : Ref sig .tc := ⟨.hbm, 216, rfl⟩
abbrev main_v63 : Ref sig .tc := ⟨.hbm, 217, rfl⟩
abbrev main_v64 : Ref sig .tc := ⟨.hbm, 218, rfl⟩
abbrev main_v65 : Ref sig .tc := ⟨.hbm, 219, rfl⟩
abbrev main_v66 : Ref sig .tc := ⟨.hbm, 220, rfl⟩
abbrev main_v67 : Ref sig .tc := ⟨.hbm, 221, rfl⟩
abbrev main_v68 : Ref sig .tc := ⟨.hbm, 222, rfl⟩
abbrev main_call6_c : Ref sig .tc := ⟨.hbm, 223, rfl⟩
abbrev main_call6_v0 : Ref sig .tc := ⟨.hbm, 224, rfl⟩
abbrev main_call6_v1 : Ref sig .tc := ⟨.hbm, 225, rfl⟩
abbrev main_call6_c_0 : Ref sig .tc := ⟨.hbm, 226, rfl⟩
abbrev main_call6_v2 : Ref sig .tc := ⟨.hbm, 227, rfl⟩
abbrev main_call6_v3 : Ref sig .tc := ⟨.hbm, 228, rfl⟩
abbrev main_call6_v4 : Ref sig .tc := ⟨.hbm, 229, rfl⟩
abbrev main_call6_v5 : Ref sig .tc := ⟨.hbm, 230, rfl⟩
abbrev main_call6_c_1 : Ref sig .tc := ⟨.hbm, 231, rfl⟩
abbrev main_call6_c_2 : Ref sig .tc := ⟨.hbm, 232, rfl⟩
abbrev main_call6_v6 : Ref sig .tc := ⟨.hbm, 233, rfl⟩
abbrev main_call6_v7 : Ref sig .tc := ⟨.hbm, 234, rfl⟩
abbrev main_call6_v8 : Ref sig .tc := ⟨.hbm, 235, rfl⟩
abbrev main_call6_v9 : Ref sig .tc := ⟨.hbm, 236, rfl⟩
abbrev main_call6_v10 : Ref sig .tc := ⟨.hbm, 237, rfl⟩
abbrev main_call6_v11 : Ref sig .tc := ⟨.hbm, 238, rfl⟩
abbrev main_call6_c_3 : Ref sig .tc := ⟨.hbm, 239, rfl⟩
abbrev main_call6_v12 : Ref sig .tc := ⟨.hbm, 240, rfl⟩
abbrev main_call6_v13 : Ref sig .tc := ⟨.hbm, 241, rfl⟩
abbrev main_call6_v14 : Ref sig .tc := ⟨.hbm, 242, rfl⟩
abbrev main_call6_cst : Ref sig .tc := ⟨.hbm, 243, rfl⟩
abbrev main_call6_v15 : Ref sig .tc := ⟨.hbm, 244, rfl⟩
abbrev main_v69 : Ref sig .tc := ⟨.hbm, 245, rfl⟩
abbrev main_call7_c : Ref sig .tc := ⟨.hbm, 246, rfl⟩
abbrev main_call7_v0 : Ref sig .tc := ⟨.hbm, 247, rfl⟩
abbrev main_call7_v1 : Ref sig .tc := ⟨.hbm, 248, rfl⟩
abbrev main_call7_c_0 : Ref sig .tc := ⟨.hbm, 249, rfl⟩
abbrev main_call7_v2 : Ref sig .tc := ⟨.hbm, 250, rfl⟩
abbrev main_call7_v3 : Ref sig .tc := ⟨.hbm, 251, rfl⟩
abbrev main_call7_v4 : Ref sig .tc := ⟨.hbm, 252, rfl⟩
abbrev main_call7_v5 : Ref sig .tc := ⟨.hbm, 253, rfl⟩
abbrev main_call7_c_1 : Ref sig .tc := ⟨.hbm, 254, rfl⟩
abbrev main_call7_c_2 : Ref sig .tc := ⟨.hbm, 255, rfl⟩
abbrev main_call7_v6 : Ref sig .tc := ⟨.hbm, 256, rfl⟩
abbrev main_call7_v7 : Ref sig .tc := ⟨.hbm, 257, rfl⟩
abbrev main_call7_v8 : Ref sig .tc := ⟨.hbm, 258, rfl⟩
abbrev main_call7_v9 : Ref sig .tc := ⟨.hbm, 259, rfl⟩
abbrev main_call7_v10 : Ref sig .tc := ⟨.hbm, 260, rfl⟩
abbrev main_call7_v11 : Ref sig .tc := ⟨.hbm, 261, rfl⟩
abbrev main_call7_c_3 : Ref sig .tc := ⟨.hbm, 262, rfl⟩
abbrev main_call7_v12 : Ref sig .tc := ⟨.hbm, 263, rfl⟩
abbrev main_call7_v13 : Ref sig .tc := ⟨.hbm, 264, rfl⟩
abbrev main_call7_v14 : Ref sig .tc := ⟨.hbm, 265, rfl⟩
abbrev main_call7_cst : Ref sig .tc := ⟨.hbm, 266, rfl⟩
abbrev main_call7_v15 : Ref sig .tc := ⟨.hbm, 267, rfl⟩
abbrev main_v70 : Ref sig .tc := ⟨.hbm, 268, rfl⟩
abbrev main_call8_c : Ref sig .tc := ⟨.hbm, 269, rfl⟩
abbrev main_call8_v0 : Ref sig .tc := ⟨.hbm, 270, rfl⟩
abbrev main_call8_v1 : Ref sig .tc := ⟨.hbm, 271, rfl⟩
abbrev main_call8_c_0 : Ref sig .tc := ⟨.hbm, 272, rfl⟩
abbrev main_call8_v2 : Ref sig .tc := ⟨.hbm, 273, rfl⟩
abbrev main_call8_v3 : Ref sig .tc := ⟨.hbm, 274, rfl⟩
abbrev main_call8_v4 : Ref sig .tc := ⟨.hbm, 275, rfl⟩
abbrev main_call8_v5 : Ref sig .tc := ⟨.hbm, 276, rfl⟩
abbrev main_call8_c_1 : Ref sig .tc := ⟨.hbm, 277, rfl⟩
abbrev main_call8_c_2 : Ref sig .tc := ⟨.hbm, 278, rfl⟩
abbrev main_call8_v6 : Ref sig .tc := ⟨.hbm, 279, rfl⟩
abbrev main_call8_v7 : Ref sig .tc := ⟨.hbm, 280, rfl⟩
abbrev main_call8_v8 : Ref sig .tc := ⟨.hbm, 281, rfl⟩
abbrev main_call8_v9 : Ref sig .tc := ⟨.hbm, 282, rfl⟩
abbrev main_call8_v10 : Ref sig .tc := ⟨.hbm, 283, rfl⟩
abbrev main_call8_v11 : Ref sig .tc := ⟨.hbm, 284, rfl⟩
abbrev main_call8_c_3 : Ref sig .tc := ⟨.hbm, 285, rfl⟩
abbrev main_call8_v12 : Ref sig .tc := ⟨.hbm, 286, rfl⟩
abbrev main_call8_v13 : Ref sig .tc := ⟨.hbm, 287, rfl⟩
abbrev main_call8_v14 : Ref sig .tc := ⟨.hbm, 288, rfl⟩
abbrev main_call8_cst : Ref sig .tc := ⟨.hbm, 289, rfl⟩
abbrev main_call8_v15 : Ref sig .tc := ⟨.hbm, 290, rfl⟩
abbrev main_v71 : Ref sig .tc := ⟨.hbm, 291, rfl⟩
abbrev main_v72 : Ref sig .tc := ⟨.hbm, 292, rfl⟩
abbrev main_v73 : Ref sig .tc := ⟨.hbm, 293, rfl⟩
abbrev main_v74 : Ref sig .tc := ⟨.hbm, 294, rfl⟩
abbrev main_v75 : Ref sig .tc := ⟨.hbm, 295, rfl⟩
abbrev main_v76 : Ref sig .tc := ⟨.hbm, 296, rfl⟩
abbrev main_v77 : Ref sig .tc := ⟨.hbm, 297, rfl⟩
abbrev main_v78 : Ref sig .tc := ⟨.hbm, 298, rfl⟩
abbrev main_v79 : Ref sig .tc := ⟨.hbm, 299, rfl⟩
abbrev main_v80 : Ref sig .tc := ⟨.hbm, 300, rfl⟩
abbrev main_v81 : Ref sig .tc := ⟨.hbm, 301, rfl⟩
abbrev main_v82 : Ref sig .tc := ⟨.hbm, 302, rfl⟩
abbrev main_v83 : Ref sig .tc := ⟨.hbm, 303, rfl⟩
abbrev main_v84 : Ref sig .tc := ⟨.hbm, 304, rfl⟩
abbrev main_v85 : Ref sig .tc := ⟨.hbm, 305, rfl⟩
abbrev main_cst_1 : Ref sig .tc := ⟨.hbm, 306, rfl⟩
abbrev main_v86 : Ref sig .tc := ⟨.hbm, 307, rfl⟩
abbrev main_v87 : Ref sig .tc := ⟨.hbm, 308, rfl⟩
abbrev main_v88 : Ref sig .tc := ⟨.hbm, 309, rfl⟩
abbrev main_v89 : Ref sig .tc := ⟨.hbm, 310, rfl⟩
abbrev main_v90 : Ref sig .tc := ⟨.hbm, 311, rfl⟩
abbrev main_v91 : Ref sig .tc := ⟨.hbm, 312, rfl⟩
abbrev main_v92 : Ref sig .tc := ⟨.hbm, 313, rfl⟩
abbrev main_v93 : Ref sig .tc := ⟨.hbm, 314, rfl⟩
abbrev main_v94 : Ref sig .tc := ⟨.hbm, 315, rfl⟩
abbrev main_v95 : Ref sig .tc := ⟨.hbm, 316, rfl⟩
abbrev main_v96 : Ref sig .tc := ⟨.hbm, 317, rfl⟩
abbrev main_v97 : Ref sig .tc := ⟨.hbm, 318, rfl⟩
abbrev main_v98 : Ref sig .tc := ⟨.hbm, 319, rfl⟩
abbrev main_v99 : Ref sig .tc := ⟨.hbm, 320, rfl⟩
abbrev main_v100 : Ref sig .tc := ⟨.hbm, 321, rfl⟩
abbrev main_v101 : Ref sig .tc := ⟨.hbm, 322, rfl⟩
abbrev main_v102 : Ref sig .tc := ⟨.hbm, 323, rfl⟩
abbrev main_v103 : Ref sig .tc := ⟨.hbm, 324, rfl⟩
abbrev main_v104 : Ref sig .tc := ⟨.hbm, 325, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg5_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg5_1 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg1_1 : Ref sig .tc := ⟨.vmem, 85, rfl⟩
abbrev cc8_stg2_0 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem7_0 : DmaSem sig := 62
abbrev cc5_sem8_0 : DmaSem sig := 63
abbrev cc5_sem9_0 : DmaSem sig := 64
abbrev cc5_sem9_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem5_1 : DmaSem sig := 73
abbrev cc7_sem0_0 : DmaSem sig := 74
abbrev cc7_sem0_1 : DmaSem sig := 75
abbrev cc7_sem1_0 : DmaSem sig := 76
abbrev cc7_sem2_0 : DmaSem sig := 77
abbrev cc7_sem3_0 : DmaSem sig := 78
abbrev cc7_sem4_0 : DmaSem sig := 79
abbrev cc7_sem5_0 : DmaSem sig := 80
abbrev cc7_sem5_1 : DmaSem sig := 81
abbrev cc8_sem0_0 : DmaSem sig := 82
abbrev cc8_sem0_1 : DmaSem sig := 83
abbrev cc8_sem1_0 : DmaSem sig := 84
abbrev cc8_sem1_1 : DmaSem sig := 85
abbrev cc8_sem2_0 : DmaSem sig := 86

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x3 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S3x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S4000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x8 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x8 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x8 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x8 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x3_0 : S800000.BroadcastsInDim S800000x3 (![0] : Fin 1 → Fin S800000x3.rank)
  bcast_S_S800000x3 : S_.BroadcastsInDim S800000x3 (![] : Fin 0 → Fin S800000x3.rank)
  slices_S3x131x64_S1x131x64_0_0_0 : S3x131x64.Slices ![0, 0, 0] S1x131x64
  shapeCasts_S1x131x64_S131x64 : S1x131x64.ShapeCasts S131x64
  slices_S131x64_S64x64_0_0 : S131x64.Slices ![0, 0] S64x64
  slices_S131x64_S64x64_64_0 : S131x64.Slices ![64, 0] S64x64
  slices_S131x64_S3x64_128_0 : S131x64.Slices ![128, 0] S3x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  broadcasts_S1x64_S4000x64 : S1x64.Broadcasts S4000x64
  bcast_S_S50000x64 : S_.BroadcastsInDim S50000x64 (![] : Fin 0 → Fin S50000x64.rank)
  shapeCasts_S5000x64_S5000x64 : S5000x64.ShapeCasts S5000x64
  slices_S3x131x64_S1x131x64_1_0_0 : S3x131x64.Slices ![1, 0, 0] S1x131x64
  slices_S3x64_S1x64_1_0 : S3x64.Slices ![1, 0] S1x64
  slices_S3x64x64_S1x64x64_1_0_0 : S3x64x64.Slices ![1, 0, 0] S1x64x64
  slices_S3x131x64_S1x131x64_2_0_0 : S3x131x64.Slices ![2, 0, 0] S1x131x64
  slices_S3x64_S1x64_2_0 : S3x64.Slices ![2, 0] S1x64
  slices_S3x64x64_S1x64x64_2_0_0 : S3x64x64.Slices ![2, 0, 0] S1x64x64
  shapeCasts_S32_S1x32 : S32.ShapeCasts S1x32
  shapeCasts_S8_S1x8 : S8.ShapeCasts S1x8
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  shapeCasts_S50000_S50000x1 : S50000.ShapeCasts S50000x1
  inb_S128x8_S128x8_0_0 : ∀ a, (![0, 0] : Fin 2 → Nat) a + S128x8.size a ≤ S128x8.size a
  h_S128x8 : 0 < S128x8.numel
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  shapeCasts_S5000x8_S5000x8 : S5000x8.ShapeCasts S5000x8
  transposes_S5000x128_p1_0_S128x5000 : S5000x128.Transposes [1, 0] S128x5000
  shapeCasts_S128x8_S128x8 : S128x8.ShapeCasts S128x8
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S4000x64_S64x64_S4000x64_1_0_0_1_n_n_wf : DotDims.WF S4000x64 S64x64 S4000x64 [1] [0] [0] [1] [] []
  dot_S4000x3_S3x64_S4000x64_1_0_0_1_n_n_wf : DotDims.WF S4000x3 S3x64 S4000x64 [1] [0] [0] [1] [] []
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  dot_S5000x32_S32x8_S5000x8_1_0_0_1_n_n_wf : DotDims.WF S5000x32 S32x8 S5000x8 [1] [0] [0] [1] [] []
  dot_S128x5000_S5000x8_S128x8_1_0_0_1_n_n_wf : DotDims.WF S128x5000 S5000x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S800000x3.size a
  hwx1_2 : ∀ i : grid1.Coords, EltTy.bits .f32 = 32 ∨ (Rect.block (s := S800000x3) S4000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64.size a ≤ S3x64.size a
  hwx1_5 : ∀ i : grid1.Coords, EltTy.bits .f32 = 32 ∨ (Rect.block (s := S3x64) S3x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x64.size a ≤ S800000x64.size a
  hwx1_9 : ∀ i : grid1.Coords, EltTy.bits .f32 = 32 ∨ (Rect.block (s := S800000x64) S4000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .f32 = 32 ∨ (Rect.block (s := S800000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S800000x64.size a
  hwx3_1 : ∀ i : grid3.Coords, EltTy.bits .f32 = 32 ∨ (Rect.block (s := S800000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x3.size a ≤ S800000x3.size a
  hwx3_2 : ∀ i : grid3.Coords, EltTy.bits .f32 = 32 ∨ (Rect.block (s := S800000x3) S4000x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x64.size a ≤ S3x64.size a
  hwx3_5 : ∀ i : grid3.Coords, EltTy.bits .f32 = 32 ∨ (Rect.block (s := S3x64) S3x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x64.size a ≤ S800000x64.size a
  hwx3_9 : ∀ i : grid3.Coords, EltTy.bits .f32 = 32 ∨ (Rect.block (s := S800000x64) S4000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S800000x64.size a
  hwx5_0 : ∀ i : grid5.Coords, EltTy.bits .f32 = 32 ∨ (Rect.block (s := S800000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S800000x64.size a
  hwx5_1 : ∀ i : grid5.Coords, EltTy.bits .f32 = 32 ∨ (Rect.block (s := S800000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x3.size a ≤ S800000x3.size a
  hwx5_2 : ∀ i : grid5.Coords, EltTy.bits .f32 = 32 ∨ (Rect.block (s := S800000x3) S4000x3.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S3x64.size a ≤ S3x64.size a
  hwx5_5 : ∀ i : grid5.Coords, EltTy.bits .f32 = 32 ∨ (Rect.block (s := S3x64) S3x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x64.size a ≤ S64x64.size a
  hwx5_7 : ∀ i : grid5.Coords, EltTy.bits .f32 = 32 ∨ (Rect.block (s := S64x64) S64x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S4000x64.size a ≤ S800000x64.size a
  hwx5_9 : ∀ i : grid5.Coords, EltTy.bits .f32 = 32 ∨ (Rect.block (s := S800000x64) S4000x64.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x8.size a ≤ S32x8.size a
  hwx7_3 : ∀ i : grid7.Coords, EltTy.bits .f32 = 32 ∨ (Rect.block (s := S32x8) S32x8.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x8.size a ≤ S1x8.size a
  hwx7_4 : ∀ i : grid7.Coords, EltTy.bits .f32 = 32 ∨ (Rect.block (s := S1x8) S1x8.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x8.size a ≤ S50000x8.size a
  hwx7_5 : ∀ i : grid7.Coords, EltTy.bits .f32 = 32 ∨ (Rect.block (s := S50000x8) S5000x8.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x8.size a ≤ S50000x8.size a
  hwx8_0 : ∀ i : grid8.Coords, EltTy.bits .f32 = 32 ∨ (Rect.block (s := S50000x8) S5000x8.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .i32 = 32 ∨ (Rect.block (s := S50000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x8.size a ≤ S128x8.size a
  hwx8_2 : ∀ i : grid8.Coords, EltTy.bits .f32 = 32 ∨ (Rect.block (s := S128x8) S128x8.size (cc8_transform_2 i) (hinb8_2 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x8_S5000x8_1_0_0_1_n_n : DotDims S5000x32 S32x8 S5000x8 where
  lhsContracting := [1]
  rhsContracting := [0]
  lhsNonContracting := [0]
  rhsNonContracting := [1]
  lhsBatch := []
  rhsBatch := []
  wf := dot_S5000x32_S32x8_S5000x8_1_0_0_1_n_n_wf
def dot_S128x5000_S5000x8_S128x8_1_0_0_1_n_n : DotDims S128x5000 S5000x8 S128x8 where
  lhsContracting := [1]
  rhsContracting := [0]
  lhsNonContracting := [0]
  rhsNonContracting := [1]
  lhsBatch := []
  rhsBatch := []
  wf := dot_S128x5000_S5000x8_S128x8_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S3x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S4000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S4000x3.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S3x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v53) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v54) S4000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v57) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S4000x3.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S3x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v83) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v80) S64x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v84) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v85) S4000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v88) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v98) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v99) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v99) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg16) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S32x8.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v101) S1x8.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v102) S5000x8.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v102) S5000x8.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v104) S128x8.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x16 : Shape := ⟨2, ![50000, 16]⟩
abbrev S50000x3 : Shape := ⟨2, ![50000, 3]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S3x131x64 : Shape := ⟨3, ![3, 131, 64]⟩
abbrev S3x64 : Shape := ⟨2, ![3, 64]⟩
abbrev S3x64x64 : Shape := ⟨3, ![3, 64, 64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x131 : Shape := ⟨2, ![800000, 131]⟩
abbrev S1x131x64 : Shape := ⟨3, ![1, 131, 64]⟩
abbrev S131x64 : Shape := ⟨2, ![131, 64]⟩
abbrev S1x64x64 : Shape := ⟨3, ![1, 64, 64]⟩
abbrev S50000x32 : Shape := ⟨2, ![50000, 32]⟩
abbrev S1x32 : Shape := ⟨2, ![1, 32]⟩
abbrev S50000x8 : Shape := ⟨2, ![50000, 8]⟩
abbrev S1x8 : Shape := ⟨2, ![1, 8]⟩
abbrev S128x8 : Shape := ⟨2, ![128, 8]⟩
abbrev S50000x1 : Shape := ⟨2, ![50000, 1]⟩

abbrev nBuf : Space → Nat
  | .hbm => 269
  | .vmem => 0
  | .smem => 0
  | _ => 0

abbrev hbmTy0_0 (i : Nat) : BufTy := match i % 128 with
  | 0 => ⟨S50000x16, .f32⟩
  | 1 => ⟨S50000x3, .f32⟩
  | 2 => ⟨S2x800000, .i32⟩
  | 3 => ⟨S50000, .i32⟩
  | 4 => ⟨S16x64, .f32⟩
  | 5 => ⟨S64, .f32⟩
  | 6 => ⟨S64x64, .f32⟩
  | 7 => ⟨S64, .f32⟩
  | 8 => ⟨S3x131x64, .f32⟩
  | 9 => ⟨S3x64, .f32⟩
  | 10 => ⟨S3x64x64, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S64x32, .f32⟩
  | 17 => ⟨S32, .f32⟩
  | 18 => ⟨S32x8, .f32⟩
  | 19 => ⟨S8, .f32⟩
  | 20 => ⟨S1x800000, .i32⟩
  | 21 => ⟨S800000, .i32⟩
  | 22 => ⟨S1x800000, .i32⟩
  | 23 => ⟨S800000, .i32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x3, .f32⟩
  | 62 => ⟨S800000x131, .f32⟩
  | 63 => ⟨S1x131x64, .f32⟩
  | 64 => ⟨S131x64, .f32⟩
  | 65 => ⟨S800000x64, .f32⟩
  | 66 => ⟨S1x64, .f32⟩
  | 67 => ⟨S64, .f32⟩
  | 68 => ⟨S1x64, .f32⟩
  | 69 => ⟨S800000x64, .f32⟩
  | 70 => ⟨S800000x64, .f32⟩
  | 71 => ⟨S_, .f32⟩
  | 72 => ⟨S800000x64, .f32⟩
  | 73 => ⟨S800000x64, .f32⟩
  | 74 => ⟨S1x64x64, .f32⟩
  | 75 => ⟨S64x64, .f32⟩
  | 76 => ⟨S800000x64, .f32⟩
  | 77 => ⟨S1x64, .f32⟩
  | 78 => ⟨S64, .f32⟩
  | 79 => ⟨S1x64, .f32⟩
  | 80 => ⟨S800000x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S1x64x64, .f32⟩
  | 87 => ⟨S64x64, .f32⟩
  | 88 => ⟨S50000x64, .f32⟩
  | 89 => ⟨S1x64, .f32⟩
  | 90 => ⟨S64, .f32⟩
  | 91 => ⟨S1x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S1x64x64, .f32⟩
  | 98 => ⟨S64x64, .f32⟩
  | 99 => ⟨S50000x64, .f32⟩
  | 100 => ⟨S1x64, .f32⟩
  | 101 => ⟨S64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S_, .i32⟩
  | 127 => ⟨S800000, .i32⟩
  | _ => ⟨S50000x16, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x3, .f32⟩
  | 7 => ⟨S800000x131, .f32⟩
  | 8 => ⟨S1x131x64, .f32⟩
  | 9 => ⟨S131x64, .f32⟩
  | 10 => ⟨S800000x64, .f32⟩
  | 11 => ⟨S1x64, .f32⟩
  | 12 => ⟨S64, .f32⟩
  | 13 => ⟨S1x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S1x64x64, .f32⟩
  | 20 => ⟨S64x64, .f32⟩
  | 21 => ⟨S800000x64, .f32⟩
  | 22 => ⟨S1x64, .f32⟩
  | 23 => ⟨S64, .f32⟩
  | 24 => ⟨S1x64, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S1x64x64, .f32⟩
  | 32 => ⟨S64x64, .f32⟩
  | 33 => ⟨S50000x64, .f32⟩
  | 34 => ⟨S1x64, .f32⟩
  | 35 => ⟨S64, .f32⟩
  | 36 => ⟨S1x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S1x64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x3, .f32⟩
  | 80 => ⟨S800000x131, .f32⟩
  | 81 => ⟨S1x131x64, .f32⟩
  | 82 => ⟨S131x64, .f32⟩
  | 83 => ⟨S800000x64, .f32⟩
  | 84 => ⟨S1x64, .f32⟩
  | 85 => ⟨S64, .f32⟩
  | 86 => ⟨S1x64, .f32⟩
  | 87 => ⟨S800000x64, .f32⟩
  | 88 => ⟨S800000x64, .f32⟩
  | 89 => ⟨S_, .f32⟩
  | 90 => ⟨S800000x64, .f32⟩
  | 91 => ⟨S800000x64, .f32⟩
  | 92 => ⟨S1x64x64, .f32⟩
  | 93 => ⟨S64x64, .f32⟩
  | 94 => ⟨S800000x64, .f32⟩
  | 95 => ⟨S1x64, .f32⟩
  | 96 => ⟨S64, .f32⟩
  | 97 => ⟨S1x64, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S1x64x64, .f32⟩
  | 105 => ⟨S64x64, .f32⟩
  | 106 => ⟨S50000x64, .f32⟩
  | 107 => ⟨S1x64, .f32⟩
  | 108 => ⟨S64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S1x64x64, .f32⟩
  | 116 => ⟨S64x64, .f32⟩
  | 117 => ⟨S50000x64, .f32⟩
  | 118 => ⟨S1x64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x32, .f32⟩
  | 127 => ⟨S1x32, .f32⟩
  | _ => ⟨S50000x16, .f32⟩

abbrev hbmTy0_2 (i : Nat) : BufTy := match i % 128 with
  | 0 => ⟨S50000x32, .f32⟩
  | 1 => ⟨S50000x32, .f32⟩
  | 2 => ⟨S_, .f32⟩
  | 3 => ⟨S50000x32, .f32⟩
  | 4 => ⟨S50000x32, .f32⟩
  | 5 => ⟨S50000x8, .f32⟩
  | 6 => ⟨S1x8, .f32⟩
  | 7 => ⟨S50000x8, .f32⟩
  | 8 => ⟨S50000x8, .f32⟩
  | 9 => ⟨S_, .f32⟩
  | 10 => ⟨S128x8, .f32⟩
  | 11 => ⟨S50000x1, .i32⟩
  | 12 => ⟨S128x8, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_c_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_8 : Ref sig .tc := ⟨.hbm, 105, rfl⟩
abbrev main_v75 : Ref sig .tc := ⟨.hbm, 106, rfl⟩
abbrev main_v76 : Ref sig .tc := ⟨.hbm, 107, rfl⟩
abbrev main_c_9 : Ref sig .tc := ⟨.hbm, 108, rfl⟩
abbrev main_v77 : Ref sig .tc := ⟨.hbm, 109, rfl⟩
abbrev main_v78 : Ref sig .tc := ⟨.hbm, 110, rfl⟩
abbrev main_c_10 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_11 : Ref sig .tc := ⟨.hbm, 117, rfl⟩
abbrev main_v84 : Ref sig .tc := ⟨.hbm, 118, rfl⟩
abbrev main_v85 : Ref sig .tc := ⟨.hbm, 119, rfl⟩
abbrev main_c_12 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_13 : Ref sig .tc := ⟨.hbm, 126, rfl⟩
abbrev main_v91 : Ref sig .tc := ⟨.hbm, 127, rfl⟩
abbrev main_v92 : Ref sig .tc := ⟨.hbm, 128, rfl⟩
abbrev main_c_14 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_15 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_16 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_17 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_18 : Ref sig .tc := ⟨.hbm, 178, rfl⟩
abbrev main_v138 : Ref sig .tc := ⟨.hbm, 179, rfl⟩
abbrev main_v139 : Ref sig .tc := ⟨.hbm, 180, rfl⟩
abbrev main_c_19 : Ref sig .tc := ⟨.hbm, 181, rfl⟩
abbrev main_v140 : Ref sig .tc := ⟨.hbm, 182, rfl⟩
abbrev main_v141 : Ref sig .tc := ⟨.hbm, 183, rfl⟩
abbrev main_c_20 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_c_21 : Ref sig .tc := ⟨.hbm, 190, rfl⟩
abbrev main_v147 : Ref sig .tc := ⟨.hbm, 191, rfl⟩
abbrev main_v148 : Ref sig .tc := ⟨.hbm, 192, rfl⟩
abbrev main_c_22 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_c_23 : Ref sig .tc := ⟨.hbm, 199, rfl⟩
abbrev main_v154 : Ref sig .tc := ⟨.hbm, 200, rfl⟩
abbrev main_v155 : Ref sig .tc := ⟨.hbm, 201, rfl⟩
abbrev main_c_24 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_25 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_26 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_27 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_28 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_cst_29 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_cst_30 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x3_S800000x131_d1 : Shape.Concatenates [S800000x64, S800000x64, S800000x3] S800000x131 1
  slices_S3x131x64_S1x131x64_0_0_0 : S3x131x64.Slices ![0, 0, 0] S1x131x64
  shapeCasts_S1x131x64_S131x64 : S1x131x64.ShapeCasts S131x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S3x64x64_S1x64x64_0_0_0 : S3x64x64.Slices ![0, 0, 0] S1x64x64
  shapeCasts_S1x64x64_S64x64 : S1x64x64.ShapeCasts S64x64
  slices_S3x131x64_S1x131x64_1_0_0 : S3x131x64.Slices ![1, 0, 0] S1x131x64
  slices_S3x64_S1x64_1_0 : S3x64.Slices ![1, 0] S1x64
  slices_S3x64x64_S1x64x64_1_0_0 : S3x64x64.Slices ![1, 0, 0] S1x64x64
  slices_S3x131x64_S1x131x64_2_0_0 : S3x131x64.Slices ![2, 0, 0] S1x131x64
  slices_S3x64_S1x64_2_0 : S3x64.Slices ![2, 0] S1x64
  slices_S3x64x64_S1x64x64_2_0_0 : S3x64x64.Slices ![2, 0, 0] S1x64x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S_S128x8 : S_.BroadcastsInDim S128x8 (![] : Fin 0 → Fin S128x8.rank)
  bcast_S50000_S50000x1_0 : S50000.BroadcastsInDim S50000x1 (![0] : Fin 1 → Fin S50000x1.rank)
  dot_S50000x16_S16x64_S50000x64_1_0_0_1_n_n_wf : DotDims.WF S50000x16 S16x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S800000x131_S131x64_S800000x64_1_0_0_1_n_n_wf : DotDims.WF S800000x131 S131x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  dot_S50000x32_S32x8_S50000x8_1_0_0_1_n_n_wf : DotDims.WF S50000x32 S32x8 S50000x8 [1] [0] [0] [1] [] []
  scatter_S128x8_S50000x1_S50000x8_1_0_0_1_wf : ScatterDims.WF S128x8 S50000x1 S50000x8 [1] [0] [0] 1

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x131_S131x64_S800000x64_1_0_0_1_n_n : DotDims S800000x131 S131x64 S800000x64 where
  lhsContracting := [1]
  rhsContracting := [0]
  lhsNonContracting := [0]
  rhsNonContracting := [1]
  lhsBatch := []
  rhsBatch := []
  wf := dot_S800000x131_S131x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x8_S50000x8_1_0_0_1_n_n : DotDims S50000x32 S32x8 S50000x8 where
  lhsContracting := [1]
  rhsContracting := [0]
  lhsNonContracting := [0]
  rhsNonContracting := [1]
  lhsBatch := []
  rhsBatch := []
  wf := dot_S50000x32_S32x8_S50000x8_1_0_0_1_n_n_wf
def scatter_S128x8_S50000x1_S50000x8_1_0_0_1 : ScatterDims S128x8 S50000x1 S50000x8 where
  updateWindowDims := [1]
  insertedWindowDims := [0]
  scatterDimsToOperandDims := [0]
  indexVectorDim := 1
  wf := scatter_S128x8_S50000x1_S50000x8_1_0_0_1_wf

class Facts : Prop extends Facts₀ where

variable [Facts]
-- ==== Proof.Spec.lean ====
/-
  A message-passing network on a graph, stage by stage, as functions of whole arrays over the extended reals.

  Node features h : [n, 64]; an edge e carries a source word and a destination word.  One round:
  every edge reads the rows of h at its destination and its source and the row of the positions at its source
  (a row index is the word read signed, a negative one moved up by n, the result clamped into [0, n - 1]),
  lays the three side by side as a row of 131 numbers, and sends it through a two-layer perceptron
  (x W + b, the positive part, x W + b); every node sums the messages of the edges whose destination word,
  read signed, is that node (an edge whose word is outside [0, n) is dropped); the sums go through a second
  two-layer perceptron and a positive part.  Before the three rounds the input features go through a two-layer
  perceptron; after them a last one maps to 8 numbers per node, and every graph sums the rows of its nodes.
  All sums are sums in the extended reals, so their order is immaterial.
-/
import Idealize.ShloMosaic.PureOps.Ideal
import Idealize.ShloMosaic.Lib.ValueIdx

noncomputable section

namespace Gnn

open Idealize.ShloMosaic Idealize.ShloMosaic.ValueIdx

/-- A matrix of extended reals, indexed by (row, column). -/
abbrev Mat (n m : Nat) : Type := (⟨2, ![n, m]⟩ : Shape).Idx → EReal
/-- A vector of extended reals. -/
abbrev Vc (n : Nat) : Type := (⟨1, ![n]⟩ : Shape).Idx → EReal
/-- A stack of matrices, indexed by (layer, row, column). -/
abbrev Cube (a b c : Nat) : Type := (⟨3, ![a, b, c]⟩ : Shape).Idx → EReal
/-- A vector of 32-bit words. -/
abbrev Words (n : Nat) : Type := (⟨1, ![n]⟩ : Shape).Idx → BitVec 32
/-- A one-column matrix of 32-bit words. -/
abbrev WordsCol (n : Nat) : Type := (⟨2, ![n, 1]⟩ : Shape).Idx → BitVec 32
/-- A matrix of 32-bit words. -/
abbrev WordsMat (n m : Nat) : Type := (⟨2, ![n, m]⟩ : Shape).Idx → BitVec 32

/-- One linear layer: entry (r, j) is the sum over a of x[r, a] W[a, j], plus b[j]. -/
def dense {N A B : Nat} (x : Mat N A) (W : Mat A B) (b : Vc B) : Mat N B :=
  fun i => (∑ a : Fin A, x (ix2 (i 0) a) * W (ix2 a (i 1))) + b (ix1 (i 1))

/-- The same layer with the bias held as a one-row matrix. -/
def denseRow {N A B : Nat} (x : Mat N A) (W : Mat A B) (b : Mat 1 B) : Mat N B :=
  fun i => (∑ a : Fin A, x (ix2 (i 0) a) * W (ix2 a (i 1))) + b (ix2 (0 : Fin 1) (i 1))

/-- The positive part, entry by entry. -/
def relu {N B : Nat} (x : Mat N B) : Mat N B := fun i => max (x i) 0

/-- The first layer of the edge perceptron on the three gathered pieces, against ONE weight matrix of 131 rows:
    rows 0..63 meet the destination's features, rows 64..127 the source's, rows 128..130 the source's position. -/
def edgePre {E : Nat} (hd hs : Mat E 64) (ps : Mat E 3) (W : Mat 131 64) (b : Vc 64) : Mat E 64 :=
  fun i =>
    (((∑ a : Fin 64, hd (ix2 (i 0) a) * W (ix2 (⟨a.val, Nat.lt_trans a.isLt (by decide)⟩ : Fin 131) (i 1)))
      + (∑ a : Fin 64, hs (ix2 (i 0) a) * W (ix2 (⟨64 + a.val, by have := a.isLt; omega⟩ : Fin 131) (i 1))))
      + (∑ a : Fin 3, ps (ix2 (i 0) a) * W (ix2 (⟨128 + a.val, by have := a.isLt; omega⟩ : Fin 131) (i 1))))
    + b (ix1 (i 1))

/-- The same against the three row blocks of the weight matrix held apart, the bias a one-row matrix. -/
def edgePreRow {E : Nat} (hd hs : Mat E 64) (ps : Mat E 3) (Wh Wx : Mat 64 64) (Wp : Mat 3 64) (b : Mat 1 64) : Mat E 64 :=
  fun i =>
    (((∑ a : Fin 64, hd (ix2 (i 0) a) * Wh (ix2 a (i 1)))
      + (∑ a : Fin 64, hs (ix2 (i 0) a) * Wx (ix2 a (i 1))))
      + (∑ a : Fin 3, ps (ix2 (i 0) a) * Wp (ix2 a (i 1))))
    + b (ix2 (0 : Fin 1) (i 1))

/-- Layer l of a stack of matrices. -/
def layerMat {L A B : Nat} (l : Fin L) (W : Cube L A B) : Mat A B := fun i => W (ix3 l (i 0) (i 1))
/-- Row l of a matrix, as a vector. -/
def layerVec {L B : Nat} (l : Fin L) (b : Mat L B) : Vc B := fun i => b (ix2 l (i 0))
/-- Row r of a matrix of words, as a vector of words. -/
def rowWords {R E : Nat} (r : Fin R) (ei : WordsMat R E) : Words E := fun i => ei (ix2 r (i 0))
/-- A vector of words as a one-column matrix. -/
def colWords {E : Nat} (w : Words E) : WordsCol E := fun i => w (ix1 (i 0))
/-- A vector as a one-row matrix. -/
def rowVec {B : Nat} (b : Vc B) : Mat 1 B := fun i => b (ix1 (i 1))

/-- A row word as numpy reads it: a negative word counts from the end. -/
def wrapWord (N : Nat) (w : BitVec 32) : BitVec 32 := if w.toInt < 0 then w + BitVec.ofNat 32 N else w

/-- The row of an [N, C] table a word selects: the wrapped word read signed and clamped into [0, N - 1]. -/
def rowOf (N : Nat) (hN : 0 < N) (w : BitVec 32) : Fin N := ⟨min (wrapWord N w).toInt.toNat (N - 1), by omega⟩

/-- Row gather: result row e is the table's row selected by word e. -/
def takeRows {N E C : Nat} (hN : 0 < N) (h : Mat N C) (idx : Words E) : Mat E C :=
  fun i => h (ix2 (rowOf N hN (idx (ix1 (i 0)))) (i 1))

/-- Row scatter-add into zeros: row n is the sum of the update rows whose word, read signed, is n. -/
def scatterRows {N E C : Nat} (dst : Words E) (m : Mat E C) : Mat N C :=
  fun i => ∑ e ∈ Finset.univ.filter (fun e : Fin E => (dst (ix1 e)).toInt = (((i 0 : Fin N).val : ℕ) : ℤ)), m (ix2 e (i 1))

/-- The same sum written with an indicator: row g is the sum over ALL rows e of [word e = g] times row e. -/
def onehotRows {N E C : Nat} (out : Mat E C) (b : WordsCol E) : Mat N C :=
  fun i => ∑ e : Fin E, (if b (ix2 e (0 : Fin 1)) = BitVec.ofNat 32 (i 0 : Fin N).val then (1 : EReal) else 0) * out (ix2 e (i 1))

/-- The node perceptron, and the head: two linear layers with a positive part between. -/
def mlp {N A H O : Nat} (x : Mat N A) (W1 : Mat A H) (b1 : Vc H) (W2 : Mat H O) (b2 : Vc O) : Mat N O :=
  dense (relu (dense x W1 b1)) W2 b2

/-- The messages of one round, one row per edge. -/
def message {N E : Nat} (hN : 0 < N) (h : Mat N 64) (pos : Mat N 3) (src dst : Words E)
    (W1 : Mat 131 64) (b1 : Vc 64) (W2 : Mat 64 64) (b2 : Vc 64) : Mat E 64 :=
  dense (relu (edgePre (takeRows hN h dst) (takeRows hN h src) (takeRows hN pos src) W1 b1)) W2 b2

/-- One round: gather, edge perceptron, sum at the destinations, node perceptron, positive part. -/
def round {N E : Nat} (hN : 0 < N) (h : Mat N 64) (pos : Mat N 3) (src dst : Words E)
    (W1 : Mat 131 64) (b1 : Vc 64) (W2 : Mat 64 64) (b2 : Vc 64)
    (G1 : Mat 64 64) (c1 : Vc 64) (G2 : Mat 64 64) (c2 : Vc 64) : Mat N 64 :=
  relu (mlp (scatterRows dst (message hN h pos src dst W1 b1 W2 b2)) G1 c1 G2 c2)

/-- Round l of the network, its weights the layer-l slices of the stacked weights. -/
def roundAt (l : Fin 3) (h : Mat 50000 64) (pos : Mat 50000 3) (ei : WordsMat 2 800000)
    (lW1 : Cube 3 131 64) (lb1 : Mat 3 64) (lW2 : Cube 3 64 64) (lb2 : Mat 3 64)
    (gW1 : Cube 3 64 64) (gb1 : Mat 3 64) (gW2 : Cube 3 64 64) (gb2 : Mat 3 64) : Mat 50000 64 :=
  round (N := 50000) (E := 800000) (by decide) h pos (rowWords (0 : Fin 2) ei) (rowWords (1 : Fin 2) ei)
    (layerMat l lW1) (layerVec l lb1) (layerMat l lW2) (layerVec l lb2)
    (layerMat l gW1) (layerVec l gb1) (layerMat l gW2) (layerVec l gb2)

/-- The whole network: node perceptron, three rounds, head, and the sum of the nodes' rows per graph. -/
def forward (x : Mat 50000 16) (pos : Mat 50000 3) (ei : WordsMat 2 800000) (batch : Words 50000)
    (nW1 : Mat 16 64) (nb1 : Vc 64) (nW2 : Mat 64 64) (nb2 : Vc 64)
    (lW1 : Cube 3 131 64) (lb1 : Mat 3 64) (lW2 : Cube 3 64 64) (lb2 : Mat 3 64)
    (gW1 : Cube 3 64 64) (gb1 : Mat 3 64) (gW2 : Cube 3 64 64) (gb2 : Mat 3 64)
    (hW1 : Mat 64 32) (hb1 : Vc 32) (hW2 : Mat 32 8) (hb2 : Vc 8) : Mat 128 8 :=
  scatterRows batch
    (mlp
      (roundAt 2 (roundAt 1 (roundAt 0 (mlp x nW1 nb1 nW2 nb2) pos ei lW1 lb1 lW2 lb2 gW1 gb1 gW2 gb2)
        pos ei lW1 lb1 lW2 lb2 gW1 gb1 gW2 gb2) pos ei lW1 lb1 lW2 lb2 gW1 gb1 gW2 gb2)
      hW1 hb1 hW2 hb2)

end Gnn

end
-- ==== Proof.OpsDense.lean ====
/-
  The matrix products and the layer arithmetic of both programs, read entry by entry at the extended reals.

  A product of an [N, A] matrix and an [A, B] matrix with one contracted axis, into a zero accumulator or with none,
  is at entry (i, j) the sum over a of x[i, a] W[a, j]; rounding to a narrower format is the identity; adding a bias
  row stretched down the rows adds b[j]; the maximum with a zero splat is the positive part.  So the tile arithmetic
  "x W + b" and "max(., 0)" and the host's "x @ W + b" and "max(., 0)" are the layer functions of the network.
-/
import Idealize.ShloMosaic.PureOps.Ideal.Laws
import Idealize.ShloMosaic.Lib.ValueIdx
import Idealize.ShloMosaic.Lib.Pipeline.Value
import proofs.«429355_j34995393528525_1_alg».proof.Proof.Spec

noncomputable section

namespace Gnn.Ops

open Idealize.ShloMosaic Idealize.ShloMosaic.ValueIdx Gnn

/-! ## The operand indices of a plain product -/

/-- At result entry (i, j) and contraction coordinate a, the left operand of a plain product is read at (i, a). -/
theorem plain_lhsIdx {T A B : Nat} (i : Fin T) (j : Fin B) (a : Fin A) :
    (DotDims.plain T A B).lhsIdx (ix2 i j) ((contrEquiv1 (DotDims.plain T A B) A rfl rfl).symm a) = ix2 i a := by
  funext c
  refine Fin.ext ?_
  match c with
  | ⟨0, _⟩ => rfl
  | ⟨1, _⟩ =>
    exact ((DotDims.plain T A B).lhsIdx_val_of_single (cl := 1) rfl (ix2 i j) _).trans
      (contrEquiv1_symm_val (DotDims.plain T A B) A rfl rfl a)

/-- ... and the right operand at (a, j). -/
theorem plain_rhsIdx {T A B : Nat} (i : Fin T) (j : Fin B) (a : Fin A) :
    (DotDims.plain T A B).rhsIdx (ix2 i j) ((contrEquiv1 (DotDims.plain T A B) A rfl rfl).symm a) = ix2 a j := by
  funext c
  refine Fin.ext ?_
  match c with
  | ⟨0, _⟩ =>
    exact ((DotDims.plain T A B).rhsIdx_val_of_single (cr := 0) rfl (ix2 i j) _).trans
      (contrEquiv1_symm_val (DotDims.plain T A B) A rfl rfl a)
  | ⟨1, _⟩ => rfl

/-- The sum over the contraction index of a plain product is the sum over the shared coordinate. -/
theorem plain_sum {T A B : Nat} (x : Mat T A) (W : Mat A B) (i : Fin T) (j : Fin B) :
    (∑ k : (DotDims.plain T A B).contr.Idx,
        x ((DotDims.plain T A B).lhsIdx (ix2 i j) k) * W ((DotDims.plain T A B).rhsIdx (ix2 i j) k))
      = ∑ a : Fin A, x (ix2 i a) * W (ix2 a j) := by
  refine (Equiv.sum_comp (contrEquiv1 (DotDims.plain T A B) A rfl rfl).symm
    (fun k => x ((DotDims.plain T A B).lhsIdx (ix2 i j) k) * W ((DotDims.plain T A B).rhsIdx (ix2 i j) k))).symm.trans ?_
  refine Finset.sum_congr rfl fun a _ => ?_
  show x ((DotDims.plain T A B).lhsIdx (ix2 i j) ((contrEquiv1 (DotDims.plain T A B) A rfl rfl).symm a))
      * W ((DotDims.plain T A B).rhsIdx (ix2 i j) ((contrEquiv1 (DotDims.plain T A B) A rfl rfl).symm a)) = _
  rw [plain_lhsIdx, plain_rhsIdx]

/-! ## The two products read at an entry -/

/-- A plain product into the zero accumulator, whatever the operands' formats: the sum over the shared coordinate. -/
theorem plain_matmul_zero_apply_fmt {T A B : Nat} {φ₁ φ₂ : FTy} (x : Mat T A) (W : Mat A B) (i : Fin T) (j : Fin B) :
    matmul (F := Ideal) (φ₁ := φ₁) (φ₂ := φ₂) (DotDims.plain T A B) none x W
      (constant ⟨2, ![T, B]⟩ .f32 0x00000000#32) (ix2 i j) = ∑ a : Fin A, x (ix2 i a) * W (ix2 a j) :=
  (Ideal.matmul_constant_zero_apply (φ₁ := φ₁) (φ₂ := φ₂) (DotDims.plain T A B) none x W (ix2 i j)).trans
    (plain_sum x W i j)

theorem plain_matmul_zero_apply {T A B : Nat} (x : Mat T A) (W : Mat A B) (i : Fin T) (j : Fin B) :
    matmul (F := Ideal) (φ₁ := .f32) (φ₂ := .f32) (DotDims.plain T A B) none x W
      (constant ⟨2, ![T, B]⟩ .f32 0x00000000#32) (ix2 i j) = ∑ a : Fin A, x (ix2 i a) * W (ix2 a j) :=
  plain_matmul_zero_apply_fmt x W i j

theorem plain_dotGeneral_apply {N A B : Nat} (x : Mat N A) (W : Mat A B) (i : Fin N) (j : Fin B) :
    Host.dotGeneral (F := Ideal) (φ₁ := .f32) (φ₂ := .f32) (DotDims.plain N A B) none x W (ix2 i j)
      = ∑ a : Fin A, x (ix2 i a) * W (ix2 a j) :=
  (Ideal.dotGeneral_apply (φ₁ := .f32) (φ₂ := .f32) (DotDims.plain N A B) none .single x W (ix2 i j)).trans
    (plain_sum x W i j)

/-! ## A bias row stretched down the rows -/

/-- A one-row matrix stretched to T rows reads its one row at every row. -/
theorem broadcastTo_row_apply {T B : Nat} (b : Mat 1 B) (hbt : (⟨2, ![1, B]⟩ : Shape).Broadcasts ⟨2, ![T, B]⟩)
    (i : Fin T) (j : Fin B) : broadcastTo ⟨2, ![T, B]⟩ b hbt (ix2 i j) = b (ix2 (0 : Fin 1) j) := by
  refine broadcastTo_apply b hbt (ix2 i j) (ix2 (0 : Fin 1) j) fun a => ?_
  match a with
  | ⟨0, _⟩ => rfl
  | ⟨1, _⟩ =>
    show j.val = if B = 1 then 0 else j.val
    split
    · have := j.isLt; omega
    · rfl

/-- A vector laid as a one-row matrix and stretched to N rows reads entry j in column j. -/
theorem broadcastInDim_vec_apply {N B : Nat} (b : Vc B)
    (hb1 : (⟨1, ![B]⟩ : Shape).BroadcastsInDim ⟨2, ![1, B]⟩ (![1] : Fin 1 → Fin 2))
    (hb2 : (⟨2, ![1, B]⟩ : Shape).BroadcastsInDim ⟨2, ![N, B]⟩ (![0, 1] : Fin 2 → Fin 2)) (i : Fin N) (j : Fin B) :
    broadcastInDim ⟨2, ![N, B]⟩ ![0, 1] hb2 (broadcastInDim ⟨2, ![1, B]⟩ ![1] hb1 b) (ix2 i j) = b (ix1 j) := by
  refine (broadcastInDim_apply ![0, 1] hb2 _ (ix2 i j) (ix2 (0 : Fin 1) j) fun a => ?_).trans ?_
  · match a with
    | ⟨0, _⟩ => rfl
    | ⟨1, _⟩ =>
      show j.val = if B = 1 then 0 else j.val
      split
      · have := j.isLt; omega
      · rfl
  · refine broadcastInDim_apply ![1] hb1 b (ix2 (0 : Fin 1) j) (ix1 j) fun a => ?_
    match a with
    | ⟨0, _⟩ =>
      show j.val = if B = 1 then 0 else j.val
      split
      · have := j.isLt; omega
      · rfl

/-! ## The layers -/

theorem tile_dense {T A B : Nat} (d : DotDims ⟨2, ![T, A]⟩ ⟨2, ![A, B]⟩ ⟨2, ![T, B]⟩) (hd : d = DotDims.plain T A B)
    (x : Mat T A) (W : Mat A B) (b : Mat 1 B)
    (h1 h2 : FTy.bf16.bits < FTy.f32.bits) (hsc : (⟨2, ![1, B]⟩ : Shape).ShapeCasts ⟨2, ![1, B]⟩)
    (hbt : (⟨2, ![1, B]⟩ : Shape).Broadcasts ⟨2, ![T, B]⟩) :
    addf (F := Ideal) (matmul d none (truncf .bf16 (x : FVec Ideal _ .f32) h1) (truncf .bf16 (W : FVec Ideal _ .f32) h2)
        (constant ⟨2, ![T, B]⟩ .f32 0x00000000#32))
      (broadcastTo ⟨2, ![T, B]⟩ (shapeCast ⟨2, ![1, B]⟩ b hsc) hbt) = denseRow x W b := by
  subst hd
  funext idx
  obtain ⟨i, j, rfl⟩ : ∃ (i : Fin T) (j : Fin B), idx = ix2 i j := ⟨idx 0, idx 1, eq_ix2 idx⟩
  have hm : matmul (F := Ideal) (DotDims.plain T A B) none (truncf .bf16 (x : FVec Ideal _ .f32) h1)
      (truncf .bf16 (W : FVec Ideal _ .f32) h2) (constant ⟨2, ![T, B]⟩ .f32 0x00000000#32) (ix2 i j)
      = ∑ a : Fin A, x (ix2 i a) * W (ix2 a j) :=
    plain_matmul_zero_apply_fmt (φ₁ := .bf16) (φ₂ := .bf16) x W i j
  have hb : broadcastTo ⟨2, ![T, B]⟩ (shapeCast ⟨2, ![1, B]⟩ b hsc) hbt (ix2 i j) = b (ix2 (0 : Fin 1) j) := by
    rw [shapeCast_self]
    exact broadcastTo_row_apply b hbt i j
  exact congrArg₂ (fun u v : EReal => u + v) hm hb

theorem tile_relu {T B : Nat} (y : Mat T B) :
    maximumf (F := Ideal) (y : FVec Ideal _ .f32) (broadcast ⟨2, ![T, B]⟩ (Scalar.ofBits (F := Ideal) .f32 0x00000000#32))
      = relu y := by
  funext idx
  show max (y idx) (Ideal.ofBits .f32 0x00000000#32) = max (y idx) 0
  rw [Ideal.ofBits_zero_f32]

theorem host_dense {N A B : Nat} (d : DotDims ⟨2, ![N, A]⟩ ⟨2, ![A, B]⟩ ⟨2, ![N, B]⟩) (hd : d = DotDims.plain N A B)
    (x : Mat N A) (W : Mat A B) (b : Vc B)
    (hb1 : (⟨1, ![B]⟩ : Shape).BroadcastsInDim ⟨2, ![1, B]⟩ (![1] : Fin 1 → Fin 2))
    (hb2 : (⟨2, ![1, B]⟩ : Shape).BroadcastsInDim ⟨2, ![N, B]⟩ (![0, 1] : Fin 2 → Fin 2)) :
    addf (F := Ideal) (Host.dotGeneral (φ₁ := .f32) (φ₂ := .f32) d none x W)
      (broadcastInDim ⟨2, ![N, B]⟩ ![0, 1] hb2 (broadcastInDim ⟨2, ![1, B]⟩ ![1] hb1 b)) = dense x W b := by
  subst hd
  funext idx
  obtain ⟨i, j, rfl⟩ : ∃ (i : Fin N) (j : Fin B), idx = ix2 i j := ⟨idx 0, idx 1, eq_ix2 idx⟩
  exact congrArg₂ (fun u v : EReal => u + v) (plain_dotGeneral_apply x W i j) (broadcastInDim_vec_apply b hb1 hb2 i j)

theorem host_relu {N B : Nat} (y : Mat N B)
    (h0 : (⟨0, ![]⟩ : Shape).BroadcastsInDim ⟨2, ![N, B]⟩ (![] : Fin 0 → Fin 2)) :
    maximumf (F := Ideal) (y : FVec Ideal _ .f32)
      (broadcastInDim ⟨2, ![N, B]⟩ ![] h0 (constant (F := Ideal) ⟨0, ![]⟩ .f32 0x00000000#32)) = relu y := by
  funext idx
  show max (y idx) (Ideal.ofBits .f32 0x00000000#32) = max (y idx) 0
  rw [Ideal.ofBits_zero_f32]

theorem denseRow_rowVec {N A B : Nat} (x : Mat N A) (W : Mat A B) (b : Vc B) : denseRow x W (rowVec b) = dense x W b :=
  rfl

end Gnn.Ops

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.OpsIndex.lean ====
/-
  The host-side indexing operations read as index-level functions: a layer cut out of a stack, a row of a matrix as a
  vector, a vector as a one-row or one-column matrix, a negative row word moved up by the table's height, the row
  gather, its out-of-range mask, the row scatter-add into zeros, and the indicator form of the same sum.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.ReduceAll
import proofs.«429355_j34995393528525_1_alg».proof.Proof.Spec
import proofs.«429355_j34995393528525_1_alg».proof.Proof.LibRowOps

noncomputable section

namespace Gnn.Ops

open Idealize.ShloMosaic Idealize.ShloMosaic.ValueIdx

/-! ## Layers, rows, and vectors as thin matrices -/

/-- Layer `l` cut out of a stack and its unit axis dropped: element (p, q) is the stack's element (l, p, q). -/
theorem slice_layerMat {L A B : Nat} (l : Nat) (hl : l < L) (W : Cube L A B)
    (hs : (⟨3, ![L, A, B]⟩ : Shape).Slices ![l, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![l, 0, 0] W hs) hc = layerMat ⟨l, hl⟩ W := by
  funext i
  obtain ⟨p, q, rfl⟩ : ∃ (p : Fin A) (q : Fin B), i = ix2 p q := ⟨i 0, i 1, eq_ix2 i⟩
  refine (shapeCast_1ab_ab_apply _ hc p q).trans ?_
  exact extractStridedSlice_apply _ W hs _ (ix3 (⟨l, hl⟩ : Fin L) p q) (fun ax => by
    match ax with
    | ⟨0, _⟩ => exact (Nat.add_zero _).symm
    | ⟨1, _⟩ => exact (Nat.zero_add _).symm
    | ⟨2, _⟩ => exact (Nat.zero_add _).symm)

/-- Row `l` cut out of a matrix and its unit axis dropped: element q is the matrix's element (l, q). -/
theorem slice_layerVec {L B : Nat} (l : Nat) (hl : l < L) (b : Mat L B)
    (hs : (⟨2, ![L, B]⟩ : Shape).Slices ![l, 0] ⟨2, ![1, B]⟩)
    (hc : (⟨2, ![1, B]⟩ : Shape).ShapeCasts ⟨1, ![B]⟩) :
    shapeCast ⟨1, ![B]⟩ (extractStridedSlice ⟨2, ![1, B]⟩ ![l, 0] b hs) hc = layerVec ⟨l, hl⟩ b := by
  funext i
  obtain ⟨q, rfl⟩ : ∃ (q : Fin B), i = ix1 q := ⟨i 0, eq_ix1 i⟩
  refine (shapeCast_1a_a_apply _ hc q).trans ?_
  exact slice2_axis0_apply l b hs (0 : Fin 1) q (⟨l, hl⟩ : Fin L) (Nat.add_zero _).symm

/-- The same for a matrix of words. -/
theorem slice_rowWords {R E : Nat} (r : Nat) (hr : r < R) (ei : WordsMat R E)
    (hs : (⟨2, ![R, E]⟩ : Shape).Slices ![r, 0] ⟨2, ![1, E]⟩)
    (hc : (⟨2, ![1, E]⟩ : Shape).ShapeCasts ⟨1, ![E]⟩) :
    shapeCast ⟨1, ![E]⟩ (extractStridedSlice ⟨2, ![1, E]⟩ ![r, 0] ei hs) hc = rowWords ⟨r, hr⟩ ei := by
  funext i
  obtain ⟨q, rfl⟩ : ∃ (q : Fin E), i = ix1 q := ⟨i 0, eq_ix1 i⟩
  refine (shapeCast_1a_a_apply _ hc q).trans ?_
  exact slice2_axis0_apply r ei hs (0 : Fin 1) q (⟨r, hr⟩ : Fin R) (Nat.add_zero _).symm

/-- A vector reshaped to one row. -/
theorem reshape_rowVec {B : Nat} (b : Vc B) (hc : (⟨1, ![B]⟩ : Shape).ShapeCasts ⟨2, ![1, B]⟩) :
    shapeCast ⟨2, ![1, B]⟩ b hc = rowVec b := by
  funext i
  obtain ⟨u, q, rfl⟩ : ∃ (u : Fin 1) (q : Fin B), i = ix2 u q := ⟨i 0, i 1, eq_ix2 i⟩
  exact shapeCast_a_1a_apply b hc u q

/-- A vector of words reshaped to one column: the row-major position of (e, 0) in [E, 1] is e. -/
theorem reshape_colWords {E : Nat} (w : Words E) (hc : (⟨1, ![E]⟩ : Shape).ShapeCasts ⟨2, ![E, 1]⟩) :
    shapeCast ⟨2, ![E, 1]⟩ w hc = colWords w := by
  funext i
  obtain ⟨e, u, rfl⟩ : ∃ (e : Fin E) (u : Fin 1), i = ix2 e u := ⟨i 0, i 1, eq_ix2 i⟩
  exact shapeCast_apply w hc _ (ix1 e) (by
    have hu : u.val = 0 := by omega
    rw [Shape.rowMajor_val_two, Shape.rowMajor_val_one]
    show e.val = e.val * 1 + u.val
    rw [hu, Nat.mul_one, Nat.add_zero])

/-- A vector of words broadcast along a new trailing unit axis is the same column. -/
theorem bcast_colWords {E : Nat} (w : Words E)
    (hb : (⟨1, ![E]⟩ : Shape).BroadcastsInDim ⟨2, ![E, 1]⟩ (![0] : Fin 1 → Fin 2)) :
    broadcastInDim ⟨2, ![E, 1]⟩ ![0] hb w = colWords w := by
  funext i
  obtain ⟨e, u, rfl⟩ : ∃ (e : Fin E) (u : Fin 1), i = ix2 e u := ⟨i 0, i 1, eq_ix2 i⟩
  exact broadcastInDim_apply _ hb w _ (ix1 e) (fun a => by
    match a with
    | ⟨0, _⟩ =>
      show e.val = if E = 1 then 0 else e.val
      have he := e.isLt
      split
      · omega
      · rfl)

/-! ## A negative row word moved up by the table's height -/

/-- The wrap, word by word: where the word read signed is below zero, the word plus the height; else the word. -/
theorem wrap_words {N E : Nat} (hN32 : N < 2 ^ 31) (idx : Words E)
    (h0 : (⟨0, ![]⟩ : Shape).BroadcastsInDim ⟨1, ![E]⟩ (![] : Fin 0 → Fin 1)) :
    select (cmpi .slt idx (broadcastInDim ⟨1, ![E]⟩ ![] h0 (constantI ⟨0, ![]⟩ 32 0#32)))
        (addi idx (broadcastInDim ⟨1, ![E]⟩ ![] h0 (constantI ⟨0, ![]⟩ 32 (BitVec.ofNat 32 N)))) idx
      = fun i => wrapWord N (idx i) := by
  funext i
  show Scalar.select (IntOp.cmpi .slt (idx i) 0#32) (IntOp.addi (idx i) (BitVec.ofNat 32 N)) (idx i)
    = wrapWord N (idx i)
  have hz : (0#32 : BitVec 32).toInt = 0 := by decide
  unfold wrapWord
  by_cases h : (idx i).toInt < 0
  · have hc : IntOp.cmpi .slt (idx i) 0#32 = 1#1 := IntOp.cmpi_slt.mpr (by rw [hz]; exact h)
    rw [hc, select_one, if_pos h]
    rfl
  · have hc : IntOp.cmpi .slt (idx i) 0#32 = 0#1 :=
      eq_zero_of_ne_one (fun hc => h (by have := IntOp.cmpi_slt.mp hc; rw [hz] at this; exact this))
    rw [hc, select_zero, if_neg h]

/-! ## The row gather and its out-of-range mask -/

/-- The row gather at wrapped words is the specification's gather: row e is the table's row at the wrapped word of e,
    read signed and clamped into [0, N - 1]. -/
theorem host_gather {N E C : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = RowOps.rowGather N E C wf)
    (h : Mat N C) (idx : Words E) :
    Host.gather d h (colWords (fun i => wrapWord N (idx i))) = takeRows hN h idx := by
  subst hd
  funext i
  obtain ⟨e, c, rfl⟩ : ∃ (e : Fin E) (c : Fin C), i = ix2 e c := ⟨i 0, i 1, eq_ix2 i⟩
  exact RowOps.rowGather_apply hN wf h _ e c

/-- A left fold by `and` over ones, from one, is one. -/
private theorem foldl_andi_ones {ι : Type} (l : List ι) :
    l.foldl (fun (r : BitVec 1) (_ : ι) => IntOp.andi r 1#1) 1#1 = 1#1 := by
  induction l with
  | nil => rfl
  | cons a l ih =>
    rw [List.foldl_cons, show IntOp.andi 1#1 1#1 = 1#1 from by decide]
    exact ih

/-- With every word in [0, N) the wrapped word is the word, both comparisons of the mask hold at every row, their
    conjunction folded along the unit axis is one, and the select keeps the gathered value everywhere. -/
theorem take_in_range {N E C : Nat} (hN : 0 < N) (hN32 : N < 2 ^ 31) (idx : Words E)
    (hin : ∀ i, 0 ≤ (idx i).toInt ∧ (idx i).toInt < (N : ℤ)) (g nan : Mat E C)
    (hz : (⟨0, ![]⟩ : Shape).BroadcastsInDim ⟨2, ![E, 1]⟩ (![] : Fin 0 → Fin 2))
    (hp : (⟨1, ![1]⟩ : Shape).BroadcastsInDim ⟨2, ![1, 1]⟩ (![1] : Fin 1 → Fin 2))
    (hq : (⟨2, ![1, 1]⟩ : Shape).BroadcastsInDim ⟨2, ![E, 1]⟩ (![0, 1] : Fin 2 → Fin 2))
    (hred : (⟨2, ![E, 1]⟩ : Shape).ReducesTo [1] ⟨1, ![E]⟩)
    (hS : 0 < (⟨0, ![]⟩ : Shape).numel)
    (hbm : (⟨1, ![E]⟩ : Shape).BroadcastsInDim ⟨2, ![E, C]⟩ (![0] : Fin 1 → Fin 2)) :
    select
        (broadcastInDim ⟨2, ![E, C]⟩ ![0] hbm
          (Host.reduce IntOp.andi
            (andi
              (cmpi .sge (colWords (fun i => wrapWord N (idx i)))
                (broadcastInDim ⟨2, ![E, 1]⟩ ![] hz (constantI ⟨0, ![]⟩ 32 0#32)))
              (cmpi .sle (colWords (fun i => wrapWord N (idx i)))
                (broadcastInDim ⟨2, ![E, 1]⟩ ![0, 1] hq
                  (broadcastInDim ⟨2, ![1, 1]⟩ ![1] hp (constantI ⟨1, ![1]⟩ 32 (BitVec.ofNat 32 (N - 1)))))))
            (constantI ⟨0, ![]⟩ 1 1#1) hred hS))
        g nan
      = g := by
  have hmask :
      (andi
        (cmpi .sge (colWords (fun i => wrapWord N (idx i)))
          (broadcastInDim ⟨2, ![E, 1]⟩ ![] hz (constantI ⟨0, ![]⟩ 32 0#32)))
        (cmpi .sle (colWords (fun i => wrapWord N (idx i)))
          (broadcastInDim ⟨2, ![E, 1]⟩ ![0, 1] hq
            (broadcastInDim ⟨2, ![1, 1]⟩ ![1] hp (constantI ⟨1, ![1]⟩ 32 (BitVec.ofNat 32 (N - 1)))))))
        = fun _ => 1#1 := by
    funext j
    obtain ⟨e, u, rfl⟩ : ∃ (e : Fin E) (u : Fin 1), j = ix2 e u := ⟨j 0, j 1, eq_ix2 j⟩
    show IntOp.andi (IntOp.cmpi .sge (wrapWord N (idx (ix1 e))) 0#32)
      (IntOp.cmpi .sle (wrapWord N (idx (ix1 e))) (BitVec.ofNat 32 (N - 1))) = 1#1
    have hw : wrapWord N (idx (ix1 e)) = idx (ix1 e) := by
      unfold wrapWord
      rw [if_neg (not_lt.mpr (hin (ix1 e)).1)]
    have hz0 : (0#32 : BitVec 32).toInt = 0 := by decide
    have hN1 : (BitVec.ofNat 32 (N - 1)).toInt = ((N - 1 : ℕ) : ℤ) :=
      StableHlo.Predicate.toInt_ofNat_small (N - 1) (by omega)
    rw [hw, IntOp.andi_eq_one, IntOp.cmpi_sge, IntOp.cmpi_sle, hz0, hN1]
    have h1 := (hin (ix1 e)).1
    have h2 := (hin (ix1 e)).2
    constructor
    · exact h1
    · omega
  have hone :
      Host.reduce IntOp.andi
        (andi
          (cmpi .sge (colWords (fun i => wrapWord N (idx i)))
            (broadcastInDim ⟨2, ![E, 1]⟩ ![] hz (constantI ⟨0, ![]⟩ 32 0#32)))
          (cmpi .sle (colWords (fun i => wrapWord N (idx i)))
            (broadcastInDim ⟨2, ![E, 1]⟩ ![0, 1] hq
              (broadcastInDim ⟨2, ![1, 1]⟩ ![1] hp (constantI ⟨1, ![1]⟩ 32 (BitVec.ofNat 32 (N - 1)))))))
        (constantI ⟨0, ![]⟩ 1 1#1) hred hS
        = fun _ => 1#1 := by
    rw [hmask]
    funext j
    rw [Host.reduce_eq_foldl]
    exact foldl_andi_ones _
  rw [hone]
  funext i
  show Scalar.select 1#1 (g i) (nan i) = g i
  exact select_one _ _

/-! ## The row scatter-add into zeros, and its indicator form -/

/-- The accumulating row scatter into a zero table is the specification's scatter: element (n, c) is the sum of the
    updates' column c over the rows whose destination word, read signed, is n. -/
theorem host_scatter {N E C : Nat}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = RowOps.rowScatter N E C wf)
    (dst : Words E) (m : Mat E C)
    (h0 : (⟨0, ![]⟩ : Shape).BroadcastsInDim ⟨2, ![N, C]⟩ (![] : Fin 0 → Fin 2)) :
    Host.scatterAdd (F := Ideal) d
        (broadcastInDim ⟨2, ![N, C]⟩ ![] h0 (constant (F := Ideal) ⟨0, ![]⟩ .f32 0x00000000#32))
        (colWords dst) (m : FVec Ideal _ .f32)
      = scatterRows dst m := by
  subst hd
  funext i
  obtain ⟨n, c, rfl⟩ : ∃ (n : Fin N) (c : Fin C), i = ix2 n c := ⟨i 0, i 1, eq_ix2 i⟩
  refine (RowOps.rowScatterAdd_apply wf _ (colWords dst) m n c).trans ?_
  show Ideal.ofBits .f32 0x00000000#32 + _ = _
  rw [Ideal.ofBits_zero_f32, zero_add]
  rfl

/-- A word equals the word of a number below 2³¹ exactly when, read signed, it is that number. -/
private theorem eq_ofNat_iff_toInt {n : Nat} (hn : n < 2 ^ 31) (w : BitVec 32) :
    w = BitVec.ofNat 32 n ↔ w.toInt = (n : ℤ) := by
  have hs := StableHlo.Predicate.toInt_ofNat_small n hn
  constructor
  · intro h; rw [h]; exact hs
  · intro h; exact BitVec.eq_of_toInt_eq (h.trans hs.symm)

/-- The indicator sum over all rows is the sum over the rows the indicator keeps. -/
theorem onehot_scatter {N E C : Nat} (hN32 : N < 2 ^ 31) (out : Mat E C) (batch : Words E) :
    onehotRows (N := N) out (colWords batch) = scatterRows batch out := by
  funext i
  obtain ⟨n, c, rfl⟩ : ∃ (n : Fin N) (c : Fin C), i = ix2 n c := ⟨i 0, i 1, eq_ix2 i⟩
  show (∑ e : Fin E, (if batch (ix1 e) = BitVec.ofNat 32 n.val then (1 : EReal) else 0) * out (ix2 e c))
    = ∑ e ∈ Finset.univ.filter (fun e : Fin E => (batch (ix1 e)).toInt = ((n.val : ℕ) : ℤ)), out (ix2 e c)
  rw [Finset.sum_filter]
  refine Finset.sum_congr rfl (fun e _ => ?_)
  have hiff := eq_ofNat_iff_toInt (show n.val < 2 ^ 31 from Nat.lt_trans n.isLt hN32) (batch (ix1 e))
  by_cases h : (batch (ix1 e)).toInt = ((n.val : ℕ) : ℤ)
  · rw [if_pos h, if_pos (hiff.mpr h), one_mul]
  · rw [if_neg h, if_neg (fun h' => h (hiff.mp h')), zero_mul]

end Gnn.Ops

end
-- ==== Proof.KHostA.lean ====
/-
  The host stretches of the first round of message passing, each read at the buffer it writes, over any contents of
  the buffers it reads.

  A row gather by words is printed as: move the negative words up by the table's height, lay the words out as a
  column, gather, compute the mask "the word is in range" and fold it along the unit axis, stretch it over the
  columns, and select the gathered value against a fill.  With every word in range the mask is one everywhere and
  the whole is the gather of the table's rows.  The other stretches cut a layer out of a stack of weights (a slice
  and a reshape), lay a bias vector out as a one-row matrix, and sum update rows at their destination words.
-/
import proofs.«429355_j34995393528525_1_alg».proof.Proof.Gen.KernelIdeal.Launch
import proofs.«429355_j34995393528525_1_alg».proof.Proof.Spec
import proofs.«429355_j34995393528525_1_alg».proof.Proof.OpsIndex
import Idealize.ShloMosaic.Lib.StableHlo.Run

set_option maxRecDepth 16384
set_option maxHeartbeats 2000000

noncomputable section

namespace Cert.KernelIdeal.Chain

open Cert.KernelIdeal Cert.KernelIdeal.Gen Idealize.ShloMosaic Idealize.ShloMosaic.ValueIdx Idealize.SL.Sem
open Idealize.ShloMosaic.StableHlo Idealize.ShloMosaic.TcCoe

/-! ## The printed row gather, over generic sizes -/

/-- The whole printed term of a row gather by words (negative words moved up, the words as a column, the gather, the
    range mask folded along the unit axis and stretched over the columns, the select against a fill) is, with every
    word in range, the specification's gather. -/
theorem take_term {N E C : Nat} (hN : 0 < N) (hN32 : N < 2 ^ 31) (idx : Gnn.Words E)
    (hin : ∀ i, 0 ≤ (idx i).toInt ∧ (idx i).toInt < (N : ℤ))
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = RowOps.rowGather N E C wf)
    (h : Gnn.Mat N C) (nan : Gnn.Mat E C)
    (h0 : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (hz : (⟨0, ![]⟩ : Shape).BroadcastsInDim ⟨2, ![E, 1]⟩ (![] : Fin 0 → Fin 2))
    (hp : (⟨1, ![1]⟩ : Shape).BroadcastsInDim ⟨2, ![1, 1]⟩ (![1] : Fin 1 → Fin 2))
    (hq : (⟨2, ![1, 1]⟩ : Shape).BroadcastsInDim ⟨2, ![E, 1]⟩ (![0, 1] : Fin 2 → Fin 2))
    (hred : (⟨2, ![E, 1]⟩ : Shape).ReducesTo [1] ⟨1, ![E]⟩)
    (hS : 0 < (⟨0, ![]⟩ : Shape).numel)
    (hbm : (⟨1, ![E]⟩ : Shape).BroadcastsInDim ⟨2, ![E, C]⟩ (![0] : Fin 1 → Fin 2)) :
    select
        (broadcastInDim ⟨2, ![E, C]⟩ ![0] hbm
          (Host.reduce IntOp.andi
            (andi
              (cmpi .sge
                (broadcastInDim ⟨2, ![E, 1]⟩ ![0] hb
                  (select (cmpi .slt idx (broadcastInDim ⟨1, ![E]⟩ ![] h0 (constantI ⟨0, ![]⟩ 32 0#32)))
                    (addi idx (broadcastInDim ⟨1, ![E]⟩ ![] h0 (constantI ⟨0, ![]⟩ 32 (BitVec.ofNat 32 N)))) idx))
                (broadcastInDim ⟨2, ![E, 1]⟩ ![] hz (constantI ⟨0, ![]⟩ 32 0#32)))
              (cmpi .sle
                (broadcastInDim ⟨2, ![E, 1]⟩ ![0] hb
                  (select (cmpi .slt idx (broadcastInDim ⟨1, ![E]⟩ ![] h0 (constantI ⟨0, ![]⟩ 32 0#32)))
                    (addi idx (broadcastInDim ⟨1, ![E]⟩ ![] h0 (constantI ⟨0, ![]⟩ 32 (BitVec.ofNat 32 N)))) idx))
                (broadcastInDim ⟨2, ![E, 1]⟩ ![0, 1] hq
                  (broadcastInDim ⟨2, ![1, 1]⟩ ![1] hp (constantI ⟨1, ![1]⟩ 32 (BitVec.ofNat 32 (N - 1)))))))
            (constantI ⟨0, ![]⟩ 1 1#1) hred hS))
        (Host.gather d h
          (broadcastInDim ⟨2, ![E, 1]⟩ ![0] hb
            (select (cmpi .slt idx (broadcastInDim ⟨1, ![E]⟩ ![] h0 (constantI ⟨0, ![]⟩ 32 0#32)))
              (addi idx (broadcastInDim ⟨1, ![E]⟩ ![] h0 (constantI ⟨0, ![]⟩ 32 (BitVec.ofNat 32 N)))) idx)))
        nan
      = Gnn.takeRows hN h idx := by
  rw [Gnn.Ops.wrap_words hN32 idx h0, Gnn.Ops.bcast_colWords _ hb, Gnn.Ops.host_gather hN wf d hd h idx]
  exact Gnn.Ops.take_in_range hN hN32 idx hin _ nan hz hp hq hred hS hbm

/-! ## Contents at a buffer's own type

A reference that carries the type of the tensor value it holds moves contents between that type and the buffer's own
type along the equation of the two; there and back is the identity. -/

theorem ofBuf_toBuf {T : BufTy} (x : TRef sig T) (v : T.Contents (Elt Ideal)) : x.ofBuf (x.toBuf v) = v := by
  obtain ⟨r, h, a, b⟩ := x
  subst h
  rfl

/-! ## Each host stretch over any buffer contents -/

/-- One row gather of the program, over any buffer contents: with the words in range the masked gather is the
    specification's gather of the table's rows. -/
theorem take_a (V : Valuation τ sig (Elt Ideal)) (h : Gnn.Mat 50000 64) (idx : Gnn.Words 800000)
    (hh : V (Proc.devRef .tc main_v6) = h) (hi : V (Proc.devRef .tc main_v3) = idx)
    (hin : ∀ i, 0 ≤ (idx i).toInt ∧ (idx i).toInt < ((50000 : ℕ) : ℤ)) :
    StableHlo.after hostOps1 V (Proc.devRef .tc main_v7) = Gnn.takeRows (N := 50000) (by decide) h idx := by
  subst hh
  subst hi
  simp only [hostOps1]
  after_results_simp
  simp only [ofBuf_toBuf]
  simp only [TRef.toBuf, TRef.ofBuf, cast_eq]
  exact take_term (N := 50000) (E := 800000) (C := 64) (by decide) (by decide) _ hin gather_S50000x64_S800000x1_S800000x64_1_0_n_n_0_1_164.wf gather_S50000x64_S800000x1_S800000x64_1_0_n_n_0_1_164 rfl _
    (broadcastInDim S800000x64 ![] bcast_S_S800000x64 (constant (F := Ideal) S_ .f32 0x7FC00000#32))
    bcast_S_S800000 bcast_S800000_S800000x1_0 bcast_S_S800000x1 bcast_S1_S1x1_1 bcast_S1x1_S800000x1_0_1
    reducesTo_S800000x1_S800000_d1 h_S_ bcast_S800000_S800000x64_0

/-- One row gather of the program, over any buffer contents: with the words in range the masked gather is the
    specification's gather of the table's rows. -/
theorem take_b (V : Valuation τ sig (Elt Ideal)) (h : Gnn.Mat 50000 64) (idx : Gnn.Words 800000)
    (hh : V (Proc.devRef .tc main_v6) = h) (hi : V (Proc.devRef .tc main_v1) = idx)
    (hin : ∀ i, 0 ≤ (idx i).toInt ∧ (idx i).toInt < ((50000 : ℕ) : ℤ)) :
    StableHlo.after hostOps1_1 V (Proc.devRef .tc main_v8) = Gnn.takeRows (N := 50000) (by decide) h idx := by
  subst hh
  subst hi
  simp only [hostOps1_1]
  after_results_simp
  simp only [ofBuf_toBuf]
  simp only [TRef.toBuf, TRef.ofBuf, cast_eq]
  exact take_term (N := 50000) (E := 800000) (C := 64) (by decide) (by decide) _ hin gather_S50000x64_S800000x1_S800000x64_1_0_n_n_0_1_164.wf gather_S50000x64_S800000x1_S800000x64_1_0_n_n_0_1_164 rfl _
    (broadcastInDim S800000x64 ![] bcast_S_S800000x64 (constant (F := Ideal) S_ .f32 0x7FC00000#32))
    bcast_S_S800000 bcast_S800000_S800000x1_0 bcast_S_S800000x1 bcast_S1_S1x1_1 bcast_S1x1_S800000x1_0_1
    reducesTo_S800000x1_S800000_d1 h_S_ bcast_S800000_S800000x64_0

/-- One row gather of the program, over any buffer contents: with the words in range the masked gather is the
    specification's gather of the table's rows. -/
theorem take_c (V : Valuation τ sig (Elt Ideal)) (h : Gnn.Mat 50000 3) (idx : Gnn.Words 800000)
    (hh : V (Proc.devRef .tc main_arg1) = h) (hi : V (Proc.devRef .tc main_v1) = idx)
    (hin : ∀ i, 0 ≤ (idx i).toInt ∧ (idx i).toInt < ((50000 : ℕ) : ℤ)) :
    StableHlo.after hostOps1_2 V (Proc.devRef .tc main_v9) = Gnn.takeRows (N := 50000) (by decide) h idx := by
  subst hh
  subst hi
  simp only [hostOps1_2]
  after_results_simp
  simp only [ofBuf_toBuf]
  simp only [TRef.toBuf, TRef.ofBuf, cast_eq]
  exact take_term (N := 50000) (E := 800000) (C := 3) (by decide) (by decide) _ hin gather_S50000x3_S800000x1_S800000x3_1_0_n_n_0_1_13.wf gather_S50000x3_S800000x1_S800000x3_1_0_n_n_0_1_13 rfl _
    (broadcastInDim S800000x3 ![] bcast_S_S800000x3 (constant (F := Ideal) S_ .f32 0x7FC00000#32))
    bcast_S_S800000 bcast_S800000_S800000x1_0 bcast_S_S800000x1 bcast_S1_S1x1_1 bcast_S1x1_S800000x1_0_1
    reducesTo_S800000x1_S800000_d1 h_S_ bcast_S800000_S800000x3_0

/-- The layer-0 weights of the edge perceptron's first layer: the three row blocks of the layer-0 matrix. -/
theorem lw_v12 (V : Valuation τ sig (Elt Ideal)) (W : Gnn.Cube 3 131 64) (hW : V (Proc.devRef .tc main_arg8) = W)
    (hs0 : (⟨2, ![131, 64]⟩ : Shape).Slices ![0, 0] ⟨2, ![64, 64]⟩) :
    StableHlo.after hostOps1_3 V (Proc.devRef .tc main_v12)
      = extractStridedSlice ⟨2, ![64, 64]⟩ ![0, 0] (Gnn.layerMat (0 : Fin 3) W) hs0 := by
  subst hW
  have raw : StableHlo.after hostOps1_3 V (Proc.devRef .tc main_v12)
      = extractStridedSlice S64x64 ![0, 0]
          (shapeCast S131x64 (extractStridedSlice S1x131x64 ![0, 0, 0] (V (Proc.devRef .tc main_arg8))
            slices_S3x131x64_S1x131x64_0_0_0) shapeCasts_S1x131x64_S131x64) slices_S131x64_S64x64_0_0 := by
    simp only [hostOps1_3]
    after_results_simp
    rfl
  rw [raw, Gnn.Ops.slice_layerMat (L := 3) 0 (by decide)]
  rfl
theorem lw_v13 (V : Valuation τ sig (Elt Ideal)) (W : Gnn.Cube 3 131 64) (hW : V (Proc.devRef .tc main_arg8) = W)
    (hs64 : (⟨2, ![131, 64]⟩ : Shape).Slices ![64, 0] ⟨2, ![64, 64]⟩) :
    StableHlo.after hostOps1_3 V (Proc.devRef .tc main_v13)
      = extractStridedSlice ⟨2, ![64, 64]⟩ ![64, 0] (Gnn.layerMat (0 : Fin 3) W) hs64 := by
  subst hW
  have raw : StableHlo.after hostOps1_3 V (Proc.devRef .tc main_v13)
      = extractStridedSlice S64x64 ![64, 0]
          (shapeCast S131x64 (extractStridedSlice S1x131x64 ![0, 0, 0] (V (Proc.devRef .tc main_arg8))
            slices_S3x131x64_S1x131x64_0_0_0) shapeCasts_S1x131x64_S131x64) slices_S131x64_S64x64_64_0 := by
    simp only [hostOps1_3]
    after_results_simp
    rfl
  rw [raw, Gnn.Ops.slice_layerMat (L := 3) 0 (by decide)]
  rfl
theorem lw_v14 (V : Valuation τ sig (Elt Ideal)) (W : Gnn.Cube 3 131 64) (hW : V (Proc.devRef .tc main_arg8) = W)
    (hs128 : (⟨2, ![131, 64]⟩ : Shape).Slices ![128, 0] ⟨2, ![3, 64]⟩) :
    StableHlo.after hostOps1_3 V (Proc.devRef .tc main_v14)
      = extractStridedSlice ⟨2, ![3, 64]⟩ ![128, 0] (Gnn.layerMat (0 : Fin 3) W) hs128 := by
  subst hW
  have raw : StableHlo.after hostOps1_3 V (Proc.devRef .tc main_v14)
      = extractStridedSlice S3x64 ![128, 0]
          (shapeCast S131x64 (extractStridedSlice S1x131x64 ![0, 0, 0] (V (Proc.devRef .tc main_arg8))
            slices_S3x131x64_S1x131x64_0_0_0) shapeCasts_S1x131x64_S131x64) slices_S131x64_S3x64_128_0 := by
    simp only [hostOps1_3]
    after_results_simp
    rfl
  rw [raw, Gnn.Ops.slice_layerMat (L := 3) 0 (by decide)]
  rfl
/-- The layer-0 bias of the first layer as a one-row matrix. -/
theorem lw_v21 (V : Valuation τ sig (Elt Ideal)) (b : Gnn.Mat 3 64) (hb : V (Proc.devRef .tc main_arg9) = b) :
    StableHlo.after hostOps1_3 V (Proc.devRef .tc main_v21) = Gnn.rowVec (Gnn.layerVec (0 : Fin 3) b) := by
  subst hb
  simp only [hostOps1_3]
  after_results_simp
  exact (congrArg (fun X : Gnn.Vc 64 => shapeCast ⟨2, ![1, 64]⟩ X shapeCasts_S64_S1x64)
    (Gnn.Ops.slice_layerVec (L := 3) 0 (by decide) _ _ _)).trans (Gnn.Ops.reshape_rowVec _ _)
/-- The layer-0 matrix of the second layer. -/
theorem lw_v18 (V : Valuation τ sig (Elt Ideal)) (W : Gnn.Cube 3 64 64) (hW : V (Proc.devRef .tc main_arg10) = W) :
    StableHlo.after hostOps1_3 V (Proc.devRef .tc main_v18) = Gnn.layerMat (0 : Fin 3) W := by
  subst hW
  simp only [hostOps1_3]
  after_results_simp
  exact Gnn.Ops.slice_layerMat (L := 3) 0 (by decide) _ _ _
/-- The layer-0 bias of the second layer as a one-row matrix. -/
theorem lw_v22 (V : Valuation τ sig (Elt Ideal)) (b : Gnn.Mat 3 64) (hb : V (Proc.devRef .tc main_arg11) = b) :
    StableHlo.after hostOps1_3 V (Proc.devRef .tc main_v22) = Gnn.rowVec (Gnn.layerVec (0 : Fin 3) b) := by
  subst hb
  simp only [hostOps1_3]
  after_results_simp
  exact (congrArg (fun X : Gnn.Vc 64 => shapeCast ⟨2, ![1, 64]⟩ X shapeCasts_S64_S1x64)
    (Gnn.Ops.slice_layerVec (L := 3) 0 (by decide) _ _ _)).trans (Gnn.Ops.reshape_rowVec _ _)

/-- The messages summed at the destination words: the scatter-add into zeros. -/
theorem sc_v26 (V : Valuation τ sig (Elt Ideal)) (dst : Gnn.Words 800000) (msg : Gnn.Mat 800000 64)
    (hd : V (Proc.devRef .tc main_v3) = dst) (hm : V (Proc.devRef .tc main_v23) = msg) :
    StableHlo.after hostOps2 V (Proc.devRef .tc main_v26) = Gnn.scatterRows (N := 50000) dst msg := by
  subst hd
  subst hm
  simp only [hostOps2]
  after_results_simp
  rw [Gnn.Ops.bcast_colWords]
  exact Gnn.Ops.host_scatter _ _ rfl _ _ _
/-- The layer-0 weights of the node perceptron. -/
theorem gw_v28 (V : Valuation τ sig (Elt Ideal)) (W : Gnn.Cube 3 64 64) (hW : V (Proc.devRef .tc main_arg12) = W) :
    StableHlo.after hostOps2 V (Proc.devRef .tc main_v28) = Gnn.layerMat (0 : Fin 3) W := by
  subst hW
  simp only [hostOps2]
  after_results_simp
  exact Gnn.Ops.slice_layerMat (L := 3) 0 (by decide) _ _ _
theorem gw_v35 (V : Valuation τ sig (Elt Ideal)) (b : Gnn.Mat 3 64) (hb : V (Proc.devRef .tc main_arg13) = b) :
    StableHlo.after hostOps2 V (Proc.devRef .tc main_v35) = Gnn.rowVec (Gnn.layerVec (0 : Fin 3) b) := by
  subst hb
  simp only [hostOps2]
  after_results_simp
  exact (congrArg (fun X : Gnn.Vc 64 => shapeCast ⟨2, ![1, 64]⟩ X shapeCasts_S64_S1x64)
    (Gnn.Ops.slice_layerVec (L := 3) 0 (by decide) _ _ _)).trans (Gnn.Ops.reshape_rowVec _ _)
theorem gw_v32 (V : Valuation τ sig (Elt Ideal)) (W : Gnn.Cube 3 64 64) (hW : V (Proc.devRef .tc main_arg14) = W) :
    StableHlo.after hostOps2 V (Proc.devRef .tc main_v32) = Gnn.layerMat (0 : Fin 3) W := by
  subst hW
  simp only [hostOps2]
  after_results_simp
  exact Gnn.Ops.slice_layerMat (L := 3) 0 (by decide) _ _ _
theorem gw_v36 (V : Valuation τ sig (Elt Ideal)) (b : Gnn.Mat 3 64) (hb : V (Proc.devRef .tc main_arg15) = b) :
    StableHlo.after hostOps2 V (Proc.devRef .tc main_v36) = Gnn.rowVec (Gnn.layerVec (0 : Fin 3) b) := by
  subst hb
  simp only [hostOps2]
  after_results_simp
  exact (congrArg (fun X : Gnn.Vc 64 => shapeCast ⟨2, ![1, 64]⟩ X shapeCasts_S64_S1x64)
    (Gnn.Ops.slice_layerVec (L := 3) 0 (by decide) _ _ _)).trans (Gnn.Ops.reshape_rowVec _ _)

end Cert.KernelIdeal.Chain

end
-- ==== Proof.OpsEdge.lean ====
/-
  The first layer of the edge perceptron in its two spellings.

  On a tile of T edges the three gathered pieces meet the three row blocks of the weight matrix in three products,
  summed, and the bias is laid along the rows.  On all E edges at once the three pieces are laid side by side as rows of
  131 numbers and meet the whole weight matrix in one product.  A sum over 131 indices is the sum over its first 64,
  its next 64 and its last 3, so the two agree once the three blocks are the row blocks of the one matrix.
-/
import Mathlib.Algebra.BigOperators.Fin
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember
import proofs.«429355_j34995393528525_1_alg».proof.Proof.Spec

noncomputable section

namespace Gnn.Ops

open Idealize.ShloMosaic Idealize.ShloMosaic.ValueIdx

/-! ## Shared laws -/

/-- A product of a [T, A] by an [A, B] matrix into a zero accumulator, read at (i, j): the sum over the contracted
    index of the products of the entries, whatever formats the operands are held in. -/
private theorem matmul_zero_at {T A B : Nat} {φ₁ φ₂ : FTy}
    (x : FVec Ideal ⟨2, ![T, A]⟩ φ₁) (W : FVec Ideal ⟨2, ![A, B]⟩ φ₂) (i : Fin T) (j : Fin B) :
    matmul (F := Ideal) (φ₁ := φ₁) (φ₂ := φ₂) (DotDims.plain T A B) none x W
      (constant ⟨2, ![T, B]⟩ .f32 0x00000000#32) (ix2 i j) = ∑ a : Fin A, x (ix2 i a) * W (ix2 a j) := by
  rw [matmul_zero_eq_dotGeneral]
  exact StackMember.dotGeneral_plain_apply none x W i j

/-- At the extended reals a value cast to its own shape and then narrowed to the 16-bit format is the value. -/
private theorem truncf_shapeCast_self {s : Shape} (x : s.Idx → EReal) (h : s.ShapeCasts s)
    (hb : FTy.bits .bf16 < FTy.bits .f32) :
    truncf (F := Ideal) (φ := .f32) .bf16 (shapeCast s x h) hb = x := by
  rw [shapeCast_self]
  rfl

/-- A sum over 131 indices is the sum over the first 64, the next 64 and the last 3. -/
private theorem sum_131 (f : Fin 131 → EReal) :
    ∑ c : Fin 131, f c
      = ((∑ a : Fin 64, f ⟨a.val, by have := a.isLt; omega⟩)
          + (∑ a : Fin 64, f ⟨64 + a.val, by have := a.isLt; omega⟩))
        + (∑ a : Fin 3, f ⟨128 + a.val, by have := a.isLt; omega⟩) := by
  have h1 := Fin.sum_univ_add (a := 128) (b := 3) f
  have h2 := Fin.sum_univ_add (a := 64) (b := 64) (fun i : Fin 128 => f (Fin.castAdd 3 i))
  rw [h1, h2]
  rfl

/-! ## The tile's spelling -/

theorem tile_edgePre {T : Nat}
    (d64 : DotDims ⟨2, ![T, 64]⟩ ⟨2, ![64, 64]⟩ ⟨2, ![T, 64]⟩) (h64 : d64 = DotDims.plain T 64 64)
    (d3 : DotDims ⟨2, ![T, 3]⟩ ⟨2, ![3, 64]⟩ ⟨2, ![T, 64]⟩) (h3 : d3 = DotDims.plain T 3 64)
    (hd hs : Mat T 64) (ps : Mat T 3) (Wh Wx : Mat 64 64) (Wp : Mat 3 64) (b : Mat 1 64)
    (hcT64 : (⟨2, ![T, 64]⟩ : Shape).ShapeCasts ⟨2, ![T, 64]⟩)
    (hcT3 : (⟨2, ![T, 3]⟩ : Shape).ShapeCasts ⟨2, ![T, 3]⟩)
    (hc64 : (⟨2, ![64, 64]⟩ : Shape).ShapeCasts ⟨2, ![64, 64]⟩)
    (hc3 : (⟨2, ![3, 64]⟩ : Shape).ShapeCasts ⟨2, ![3, 64]⟩)
    (hc1 : (⟨2, ![1, 64]⟩ : Shape).ShapeCasts ⟨2, ![1, 64]⟩)
    (hbits : FTy.bits .bf16 < FTy.bits .f32)
    (hbr : (⟨2, ![1, 64]⟩ : Shape).Broadcasts ⟨2, ![T, 64]⟩) :
    addf (F := Ideal) (φ := .f32)
      (addf
        (addf
          (matmul (φ₁ := .bf16) (φ₂ := .bf16) d64 none
            (truncf (φ := .f32) .bf16 (shapeCast ⟨2, ![T, 64]⟩ hd hcT64) hbits)
            (truncf (φ := .f32) .bf16 (shapeCast ⟨2, ![64, 64]⟩ Wh hc64) hbits)
            (constant ⟨2, ![T, 64]⟩ .f32 0x00000000#32))
          (matmul (φ₁ := .bf16) (φ₂ := .bf16) d64 none
            (truncf (φ := .f32) .bf16 (shapeCast ⟨2, ![T, 64]⟩ hs hcT64) hbits)
            (truncf (φ := .f32) .bf16 (shapeCast ⟨2, ![64, 64]⟩ Wx hc64) hbits)
            (constant ⟨2, ![T, 64]⟩ .f32 0x00000000#32)))
        (matmul (φ₁ := .bf16) (φ₂ := .bf16) d3 none
          (truncf (φ := .f32) .bf16 (shapeCast ⟨2, ![T, 3]⟩ ps hcT3) hbits)
          (truncf (φ := .f32) .bf16 (shapeCast ⟨2, ![3, 64]⟩ Wp hc3) hbits)
          (constant ⟨2, ![T, 64]⟩ .f32 0x00000000#32)))
      (broadcastTo ⟨2, ![T, 64]⟩ (shapeCast ⟨2, ![1, 64]⟩ b hc1) hbr)
      = edgePreRow hd hs ps Wh Wx Wp b := by
  subst h64 h3
  funext i
  obtain ⟨e, j, rfl⟩ : ∃ (e : Fin T) (j : Fin 64), i = ix2 e j := ⟨i 0, i 1, eq_ix2 i⟩
  rw [truncf_shapeCast_self hd, truncf_shapeCast_self hs, truncf_shapeCast_self ps, truncf_shapeCast_self Wh,
    truncf_shapeCast_self Wx, truncf_shapeCast_self Wp, shapeCast_self b]
  have hb : broadcastTo ⟨2, ![T, 64]⟩ b hbr (ix2 e j) = b (ix2 (0 : Fin 1) j) :=
    broadcastTo_apply b hbr (ix2 e j) (ix2 (0 : Fin 1) j) (fun a => by
      match a with
      | ⟨0, _⟩ => rfl
      | ⟨1, _⟩ => rfl)
  show ((matmul (F := Ideal) (φ₁ := .bf16) (φ₂ := .bf16) _ none hd Wh _ (ix2 e j)
        + matmul (F := Ideal) (φ₁ := .bf16) (φ₂ := .bf16) _ none hs Wx _ (ix2 e j))
      + matmul (F := Ideal) (φ₁ := .bf16) (φ₂ := .bf16) _ none ps Wp _ (ix2 e j))
    + broadcastTo ⟨2, ![T, 64]⟩ b hbr (ix2 e j) = _
  rw [matmul_zero_at, matmul_zero_at, matmul_zero_at, hb]
  rfl

/-! ## The whole array's spelling -/

/-- The three pieces laid side by side, read in the first piece's columns. -/
private theorem cat_at_left {E : Nat} (hd hs : Mat E 64) (ps : Mat E 3)
    (hcat : Shape.Concatenates [⟨2, ![E, 64]⟩, ⟨2, ![E, 64]⟩, ⟨2, ![E, 3]⟩] ⟨2, ![E, 131]⟩ 1)
    (e : Fin E) (a : Fin 64) (c : Fin 131) (hc : c.val = a.val) :
    concatenate (α := EReal) ⟨2, ![E, 131]⟩ 1 [⟨⟨2, ![E, 64]⟩, hd⟩, ⟨⟨2, ![E, 64]⟩, hs⟩, ⟨⟨2, ![E, 3]⟩, ps⟩] hcat
      (ix2 e c) = hd (ix2 e a) :=
  concatenate_apply_piece (α := EReal) (t := ⟨2, ![E, 131]⟩) (1 : Fin 2) [⟨⟨2, ![E, 64]⟩, hd⟩, ⟨⟨2, ![E, 64]⟩, hs⟩, ⟨⟨2, ![E, 3]⟩, ps⟩] hcat (ix2 e c) 0 (by simp) ⟨2, ![E, 64]⟩ hd rfl rfl 0 rfl (ix2 e a)
    (fun b hb => by
      match b with
      | ⟨0, _⟩ => rfl
      | ⟨1, _⟩ => exact absurd rfl hb)
    (by show 0 + a.val = c.val; omega)

/-- The three pieces laid side by side, read in the second piece's columns. -/
private theorem cat_at_mid {E : Nat} (hd hs : Mat E 64) (ps : Mat E 3)
    (hcat : Shape.Concatenates [⟨2, ![E, 64]⟩, ⟨2, ![E, 64]⟩, ⟨2, ![E, 3]⟩] ⟨2, ![E, 131]⟩ 1)
    (e : Fin E) (a : Fin 64) (c : Fin 131) (hc : c.val = 64 + a.val) :
    concatenate (α := EReal) ⟨2, ![E, 131]⟩ 1 [⟨⟨2, ![E, 64]⟩, hd⟩, ⟨⟨2, ![E, 64]⟩, hs⟩, ⟨⟨2, ![E, 3]⟩, ps⟩] hcat
      (ix2 e c) = hs (ix2 e a) :=
  concatenate_apply_piece (α := EReal) (t := ⟨2, ![E, 131]⟩) (1 : Fin 2) [⟨⟨2, ![E, 64]⟩, hd⟩, ⟨⟨2, ![E, 64]⟩, hs⟩, ⟨⟨2, ![E, 3]⟩, ps⟩] hcat (ix2 e c) 1 (by simp) ⟨2, ![E, 64]⟩ hs rfl rfl 64 rfl (ix2 e a)
    (fun b hb => by
      match b with
      | ⟨0, _⟩ => rfl
      | ⟨1, _⟩ => exact absurd rfl hb)
    (by show 64 + a.val = c.val; omega)

/-- The three pieces laid side by side, read in the third piece's columns. -/
private theorem cat_at_right {E : Nat} (hd hs : Mat E 64) (ps : Mat E 3)
    (hcat : Shape.Concatenates [⟨2, ![E, 64]⟩, ⟨2, ![E, 64]⟩, ⟨2, ![E, 3]⟩] ⟨2, ![E, 131]⟩ 1)
    (e : Fin E) (a : Fin 3) (c : Fin 131) (hc : c.val = 128 + a.val) :
    concatenate (α := EReal) ⟨2, ![E, 131]⟩ 1 [⟨⟨2, ![E, 64]⟩, hd⟩, ⟨⟨2, ![E, 64]⟩, hs⟩, ⟨⟨2, ![E, 3]⟩, ps⟩] hcat
      (ix2 e c) = ps (ix2 e a) :=
  concatenate_apply_piece (α := EReal) (t := ⟨2, ![E, 131]⟩) (1 : Fin 2) [⟨⟨2, ![E, 64]⟩, hd⟩, ⟨⟨2, ![E, 64]⟩, hs⟩, ⟨⟨2, ![E, 3]⟩, ps⟩] hcat (ix2 e c) 2 (by simp) ⟨2, ![E, 3]⟩ ps rfl rfl 128 rfl (ix2 e a)
    (fun b hb => by
      match b with
      | ⟨0, _⟩ => rfl
      | ⟨1, _⟩ => exact absurd rfl hb)
    (by show 128 + a.val = c.val; omega)

theorem host_edgePre {E : Nat}
    (d : DotDims ⟨2, ![E, 131]⟩ ⟨2, ![131, 64]⟩ ⟨2, ![E, 64]⟩) (hd' : d = DotDims.plain E 131 64)
    (hd hs : Mat E 64) (ps : Mat E 3) (W : Mat 131 64) (b : Vc 64)
    (hcat : Shape.Concatenates [⟨2, ![E, 64]⟩, ⟨2, ![E, 64]⟩, ⟨2, ![E, 3]⟩] ⟨2, ![E, 131]⟩ 1)
    (hb1 : (⟨1, ![64]⟩ : Shape).BroadcastsInDim ⟨2, ![1, 64]⟩ ![1])
    (hb2 : (⟨2, ![1, 64]⟩ : Shape).BroadcastsInDim ⟨2, ![E, 64]⟩ ![0, 1]) :
    addf (F := Ideal) (φ := .f32)
      (Host.dotGeneral (φ₁ := .f32) (φ₂ := .f32) d none
        (concatenate ⟨2, ![E, 131]⟩ 1
          [⟨⟨2, ![E, 64]⟩, hd⟩, ⟨⟨2, ![E, 64]⟩, hs⟩, ⟨⟨2, ![E, 3]⟩, ps⟩] hcat)
        W)
      (broadcastInDim ⟨2, ![E, 64]⟩ ![0, 1] hb2 (broadcastInDim ⟨2, ![1, 64]⟩ ![1] hb1 b))
      = edgePre hd hs ps W b := by
  subst hd'
  funext i
  obtain ⟨e, j, rfl⟩ : ∃ (e : Fin E) (j : Fin 64), i = ix2 e j := ⟨i 0, i 1, eq_ix2 i⟩
  have hb : broadcastInDim ⟨2, ![E, 64]⟩ ![0, 1] hb2 (broadcastInDim ⟨2, ![1, 64]⟩ ![1] hb1 b) (ix2 e j)
      = b (ix1 j) := by
    rw [broadcastInDim_oneRow_apply]
    exact broadcastInDim_apply ![1] hb1 b (ix2 (0 : Fin 1) j) (ix1 j) (fun a => by
      match a with
      | ⟨0, _⟩ => rfl)
  show Host.dotGeneral (F := Ideal) (φ₁ := .f32) (φ₂ := .f32) (DotDims.plain E 131 64) none _ W (ix2 e j)
    + broadcastInDim ⟨2, ![E, 64]⟩ ![0, 1] hb2 (broadcastInDim ⟨2, ![1, 64]⟩ ![1] hb1 b) (ix2 e j) = _
  rw [StackMember.dotGeneral_plain_apply, hb, sum_131]
  have c0 : ∀ a : Fin 64, concatenate (α := EReal) ⟨2, ![E, 131]⟩ 1 [⟨⟨2, ![E, 64]⟩, hd⟩, ⟨⟨2, ![E, 64]⟩, hs⟩, ⟨⟨2, ![E, 3]⟩, ps⟩] hcat
      (ix2 e (⟨a.val, by have := a.isLt; omega⟩ : Fin 131)) = hd (ix2 e a) :=
    fun a => cat_at_left hd hs ps hcat e a _ rfl
  have c1 : ∀ a : Fin 64, concatenate (α := EReal) ⟨2, ![E, 131]⟩ 1 [⟨⟨2, ![E, 64]⟩, hd⟩, ⟨⟨2, ![E, 64]⟩, hs⟩, ⟨⟨2, ![E, 3]⟩, ps⟩] hcat
      (ix2 e (⟨64 + a.val, by have := a.isLt; omega⟩ : Fin 131)) = hs (ix2 e a) :=
    fun a => cat_at_mid hd hs ps hcat e a _ rfl
  have c2 : ∀ a : Fin 3, concatenate (α := EReal) ⟨2, ![E, 131]⟩ 1 [⟨⟨2, ![E, 64]⟩, hd⟩, ⟨⟨2, ![E, 64]⟩, hs⟩, ⟨⟨2, ![E, 3]⟩, ps⟩] hcat
      (ix2 e (⟨128 + a.val, by have := a.isLt; omega⟩ : Fin 131)) = ps (ix2 e a) :=
    fun a => cat_at_right hd hs ps hcat e a _ rfl
  simp only [c0, c1, c2]
  rfl

/-! ## The law between the two -/

theorem edgePreRow_slices {E : Nat} (hd hs : Mat E 64) (ps : Mat E 3) (W : Mat 131 64) (b : Vc 64)
    (hs0 : (⟨2, ![131, 64]⟩ : Shape).Slices ![0, 0] ⟨2, ![64, 64]⟩)
    (hs64 : (⟨2, ![131, 64]⟩ : Shape).Slices ![64, 0] ⟨2, ![64, 64]⟩)
    (hs128 : (⟨2, ![131, 64]⟩ : Shape).Slices ![128, 0] ⟨2, ![3, 64]⟩) :
    edgePreRow hd hs ps (extractStridedSlice ⟨2, ![64, 64]⟩ ![0, 0] W hs0)
      (extractStridedSlice ⟨2, ![64, 64]⟩ ![64, 0] W hs64)
      (extractStridedSlice ⟨2, ![3, 64]⟩ ![128, 0] W hs128) (rowVec b) = edgePre hd hs ps W b := by
  funext i
  have s0 : ∀ a : Fin 64, extractStridedSlice ⟨2, ![64, 64]⟩ ![0, 0] W hs0 (ix2 a (i 1))
      = W (ix2 (⟨a.val, by have := a.isLt; omega⟩ : Fin 131) (i 1)) := fun a =>
    extractStridedSlice_apply ![0, 0] W hs0 _ _ (fun c => by
      match c with
      | ⟨0, _⟩ => exact (Nat.zero_add _).symm
      | ⟨1, _⟩ => exact (Nat.zero_add _).symm)
  have s64 : ∀ a : Fin 64, extractStridedSlice ⟨2, ![64, 64]⟩ ![64, 0] W hs64 (ix2 a (i 1))
      = W (ix2 (⟨64 + a.val, by have := a.isLt; omega⟩ : Fin 131) (i 1)) := fun a =>
    extractStridedSlice_apply ![64, 0] W hs64 _ _ (fun c => by
      match c with
      | ⟨0, _⟩ => rfl
      | ⟨1, _⟩ => exact (Nat.zero_add _).symm)
  have s128 : ∀ a : Fin 3, extractStridedSlice ⟨2, ![3, 64]⟩ ![128, 0] W hs128 (ix2 a (i 1))
      = W (ix2 (⟨128 + a.val, by have := a.isLt; omega⟩ : Fin 131) (i 1)) := fun a =>
    extractStridedSlice_apply ![128, 0] W hs128 _ _ (fun c => by
      match c with
      | ⟨0, _⟩ => rfl
      | ⟨1, _⟩ => exact (Nat.zero_add _).symm)
  unfold edgePreRow edgePre
  simp only [s0, s64, s128]
  rfl

end Gnn.Ops

end
-- ==== Proof.KKeep.lean ====
import proofs.«429355_j34995393528525_1_alg».proof.Proof.Gen.KernelIdeal.Frame
import Idealize.ShloMosaic.Lib.StableHlo.Run
import Mathlib.Data.Finset.Insert
import Mathlib.Data.Finset.Dedup

/-! # What a segment does not write, it keeps

The run of the program is a fold of 27 segments over the launch memory: 18 stretches of host operations and 9
pipelined regions. A stretch rewrites exactly the result buffers of its operations; a region rewrites exactly its
one output array (an input array is read back unchanged, every other buffer is untouched). Hence a buffer outside
a segment's written set holds at the segment's exit what it held at its entry, and the 20 argument buffers, written
by no segment, hold their launch contents at every boundary. -/

set_option maxRecDepth 16384

noncomputable section

namespace Cert.KernelIdeal.Keep

open Cert.KernelIdeal Cert.KernelIdeal.Gen Idealize.ShloMosaic Idealize.SL.Sem Idealize.ShloMosaic.StableHlo
open Idealize.ShloMosaic.TcCoe

variable {F : FTy → Type} [FloatOps F]
variable (m : (ℓ : Loc nD τ sig) → Buf (Elt F) ℓ) (ρ : Dev nD → PrngReg)

/-- A singleton of a listed reference lies in the list's image as a set of device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The host stretches: the buffers each writes (the result buffer of each operation, in order) -/

/-- The buffers that the stretch `hostOps0` writes. -/
abbrev hostOps0_W : List (Ref sig .tc) := [main_v0, main_v1, main_v2, main_v3, main_v4, main_v5]
/-- Each operation of `hostOps0` writes its one result buffer, a member of the list. -/
theorem hostOps0_writes : (hostOps0 : List (HloOp τ sig (Elt F))).Forall fun op => op.writes ⊆ (hostOps0_W.map (Proc.devRef (τ := τ) .tc)).toFinset :=
  ⟨single_sub (y := main_v0) (by decide),
   single_sub (y := main_v1) (by decide),
   single_sub (y := main_v2) (by decide),
   single_sub (y := main_v3) (by decide),
   single_sub (y := main_v4) (by decide),
   single_sub (y := main_v5) (by decide)⟩

/-- The buffers that the stretch `hostOps1` writes. -/
abbrev hostOps1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]
/-- Each operation of `hostOps1` writes its one result buffer, a member of the list. -/
theorem hostOps1_writes : (hostOps1 : List (HloOp τ sig (Elt F))).Forall fun op => op.writes ⊆ (hostOps1_W.map (Proc.devRef (τ := τ) .tc)).toFinset :=
  ⟨single_sub (y := main_call0_c) (by decide),
   single_sub (y := main_call0_v0) (by decide),
   single_sub (y := main_call0_v1) (by decide),
   single_sub (y := main_call0_c_0) (by decide),
   single_sub (y := main_call0_v2) (by decide),
   single_sub (y := main_call0_v3) (by decide),
   single_sub (y := main_call0_v4) (by decide),
   single_sub (y := main_call0_v5) (by decide),
   single_sub (y := main_call0_c_1) (by decide),
   single_sub (y := main_call0_c_2) (by decide),
   single_sub (y := main_call0_v6) (by decide),
   single_sub (y := main_call0_v7) (by decide),
   single_sub (y := main_call0_v8) (by decide),
   single_sub (y := main_call0_v9) (by decide),
   single_sub (y := main_call0_v10) (by decide),
   single_sub (y := main_call0_v11) (by decide),
   single_sub (y := main_call0_c_3) (by decide),
   single_sub (y := main_call0_v12) (by decide),
   single_sub (y := main_call0_v13) (by decide),
   single_sub (y := main_call0_v14) (by decide),
   single_sub (y := main_call0_cst) (by decide),
   single_sub (y := main_call0_v15) (by decide),
   single_sub (y := main_v7) (by decide)⟩

/-- The buffers that the stretch `hostOps1_1` writes. -/
abbrev hostOps1_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
/-- Each operation of `hostOps1_1` writes its one result buffer, a member of the list. -/
theorem hostOps1_1_writes : (hostOps1_1 : List (HloOp τ sig (Elt F))).Forall fun op => op.writes ⊆ (hostOps1_1_W.map (Proc.devRef (τ := τ) .tc)).toFinset :=
  ⟨single_sub (y := main_call1_c) (by decide),
   single_sub (y := main_call1_v0) (by decide),
   single_sub (y := main_call1_v1) (by decide),
   single_sub (y := main_call1_c_0) (by decide),
   single_sub (y := main_call1_v2) (by decide),
   single_sub (y := main_call1_v3) (by decide),
   single_sub (y := main_call1_v4) (by decide),
   single_sub (y := main_call1_v5) (by decide),
   single_sub (y := main_call1_c_1) (by decide),
   single_sub (y := main_call1_c_2) (by decide),
   single_sub (y := main_call1_v6) (by decide),
   single_sub (y := main_call1_v7) (by decide),
   single_sub (y := main_call1_v8) (by decide),
   single_sub (y := main_call1_v9) (by decide),
   single_sub (y := main_call1_v10) (by decide),
   single_sub (y := main_call1_v11) (by decide),
   single_sub (y := main_call1_c_3) (by decide),
   single_sub (y := main_call1_v12) (by decide),
   single_sub (y := main_call1_v13) (by decide),
   single_sub (y := main_call1_v14) (by decide),
   single_sub (y := main_call1_cst) (by decide),
   single_sub (y := main_call1_v15) (by decide),
   single_sub (y := main_v8) (by decide)⟩

/-- The buffers that the stretch `hostOps1_2` writes. -/
abbrev hostOps1_2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v9]
/-- Each operation of `hostOps1_2` writes its one result buffer, a member of the list. -/
theorem hostOps1_2_writes : (hostOps1_2 : List (HloOp τ sig (Elt F))).Forall fun op => op.writes ⊆ (hostOps1_2_W.map (Proc.devRef (τ := τ) .tc)).toFinset :=
  ⟨single_sub (y := main_call2_c) (by decide),
   single_sub (y := main_call2_v0) (by decide),
   single_sub (y := main_call2_v1) (by decide),
   single_sub (y := main_call2_c_0) (by decide),
   single_sub (y := main_call2_v2) (by decide),
   single_sub (y := main_call2_v3) (by decide),
   single_sub (y := main_call2_v4) (by decide),
   single_sub (y := main_call2_v5) (by decide),
   single_sub (y := main_call2_c_1) (by decide),
   single_sub (y := main_call2_c_2) (by decide),
   single_sub (y := main_call2_v6) (by decide),
   single_sub (y := main_call2_v7) (by decide),
   single_sub (y := main_call2_v8) (by decide),
   single_sub (y := main_call2_v9) (by decide),
   single_sub (y := main_call2_v10) (by decide),
   single_sub (y := main_call2_v11) (by decide),
   single_sub (y := main_call2_c_3) (by decide),
   single_sub (y := main_call2_v12) (by decide),
   single_sub (y := main_call2_v13) (by decide),
   single_sub (y := main_call2_v14) (by decide),
   single_sub (y := main_call2_cst) (by decide),
   single_sub (y := main_call2_v15) (by decide),
   single_sub (y := main_v9) (by decide)⟩

/-- The buffers that the stretch `hostOps1_3` writes. -/
abbrev hostOps1_3_W : List (Ref sig .tc) := [main_v10, main_v11, main_v12, main_v13, main_v14, main_v15, main_v16, main_v17, main_v18, main_v19, main_v20, main_v21, main_v22]
/-- Each operation of `hostOps1_3` writes its one result buffer, a member of the list. -/
theorem hostOps1_3_writes : (hostOps1_3 : List (HloOp τ sig (Elt F))).Forall fun op => op.writes ⊆ (hostOps1_3_W.map (Proc.devRef (τ := τ) .tc)).toFinset :=
  ⟨single_sub (y := main_v10) (by decide),
   single_sub (y := main_v11) (by decide),
   single_sub (y := main_v12) (by decide),
   single_sub (y := main_v13) (by decide),
   single_sub (y := main_v14) (by decide),
   single_sub (y := main_v15) (by decide),
   single_sub (y := main_v16) (by decide),
   single_sub (y := main_v17) (by decide),
   single_sub (y := main_v18) (by decide),
   single_sub (y := main_v19) (by decide),
   single_sub (y := main_v20) (by decide),
   single_sub (y := main_v21) (by decide),
   single_sub (y := main_v22) (by decide)⟩

/-- The buffers that the stretch `hostOps2` writes. -/
abbrev hostOps2_W : List (Ref sig .tc) := [main_cst, main_v24, main_v25, main_v26, main_v27, main_v28, main_v29, main_v30, main_v31, main_v32, main_v33, main_v34, main_v35, main_v36]
/-- Each operation of `hostOps2` writes its one result buffer, a member of the list. -/
theorem hostOps2_writes : (hostOps2 : List (HloOp τ sig (Elt F))).Forall fun op => op.writes ⊆ (hostOps2_W.map (Proc.devRef (τ := τ) .tc)).toFinset :=
  ⟨single_sub (y := main_cst) (by decide),
   single_sub (y := main_v24) (by decide),
   single_sub (y := main_v25) (by decide),
   single_sub (y := main_v26) (by decide),
   single_sub (y := main_v27) (by decide),
   single_sub (y := main_v28) (by decide),
   single_sub (y := main_v29) (by decide),
   single_sub (y := main_v30) (by decide),
   single_sub (y := main_v31) (by decide),
   single_sub (y := main_v32) (by decide),
   single_sub (y := main_v33) (by decide),
   single_sub (y := main_v34) (by decide),
   single_sub (y := main_v35) (by decide),
   single_sub (y := main_v36) (by decide)⟩

/-- The buffers that the stretch `hostOps3` writes. -/
abbrev hostOps3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v38]
/-- Each operation of `hostOps3` writes its one result buffer, a member of the list. -/
theorem hostOps3_writes : (hostOps3 : List (HloOp τ sig (Elt F))).Forall fun op => op.writes ⊆ (hostOps3_W.map (Proc.devRef (τ := τ) .tc)).toFinset :=
  ⟨single_sub (y := main_call3_c) (by decide),
   single_sub (y := main_call3_v0) (by decide),
   single_sub (y := main_call3_v1) (by decide),
   single_sub (y := main_call3_c_0) (by decide),
   single_sub (y := main_call3_v2) (by decide),
   single_sub (y := main_call3_v3) (by decide),
   single_sub (y := main_call3_v4) (by decide),
   single_sub (y := main_call3_v5) (by decide),
   single_sub (y := main_call3_c_1) (by decide),
   single_sub (y := main_call3_c_2) (by decide),
   single_sub (y := main_call3_v6) (by decide),
   single_sub (y := main_call3_v7) (by decide),
   single_sub (y := main_call3_v8) (by decide),
   single_sub (y := main_call3_v9) (by decide),
   single_sub (y := main_call3_v10) (by decide),
   single_sub (y := main_call3_v11) (by decide),
   single_sub (y := main_call3_c_3) (by decide),
   single_sub (y := main_call3_v12) (by decide),
   single_sub (y := main_call3_v13) (by decide),
   single_sub (y := main_call3_v14) (by decide),
   single_sub (y := main_call3_cst) (by decide),
   single_sub (y := main_call3_v15) (by decide),
   single_sub (y := main_v38) (by decide)⟩

/-- The buffers that the stretch `hostOps3_1` writes. -/
abbrev hostOps3_1_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v39]
/-- Each operation of `hostOps3_1` writes its one result buffer, a member of the list. -/
theorem hostOps3_1_writes : (hostOps3_1 : List (HloOp τ sig (Elt F))).Forall fun op => op.writes ⊆ (hostOps3_1_W.map (Proc.devRef (τ := τ) .tc)).toFinset :=
  ⟨single_sub (y := main_call4_c) (by decide),
   single_sub (y := main_call4_v0) (by decide),
   single_sub (y := main_call4_v1) (by decide),
   single_sub (y := main_call4_c_0) (by decide),
   single_sub (y := main_call4_v2) (by decide),
   single_sub (y := main_call4_v3) (by decide),
   single_sub (y := main_call4_v4) (by decide),
   single_sub (y := main_call4_v5) (by decide),
   single_sub (y := main_call4_c_1) (by decide),
   single_sub (y := main_call4_c_2) (by decide),
   single_sub (y := main_call4_v6) (by decide),
   single_sub (y := main_call4_v7) (by decide),
   single_sub (y := main_call4_v8) (by decide),
   single_sub (y := main_call4_v9) (by decide),
   single_sub (y := main_call4_v10) (by decide),
   single_sub (y := main_call4_v11) (by decide),
   single_sub (y := main_call4_c_3) (by decide),
   single_sub (y := main_call4_v12) (by decide),
   single_sub (y := main_call4_v13) (by decide),
   single_sub (y := main_call4_v14) (by decide),
   single_sub (y := main_call4_cst) (by decide),
   single_sub (y := main_call4_v15) (by decide),
   single_sub (y := main_v39) (by decide)⟩

/-- The buffers that the stretch `hostOps3_2` writes. -/
abbrev hostOps3_2_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v40]
/-- Each operation of `hostOps3_2` writes its one result buffer, a member of the list. -/
theorem hostOps3_2_writes : (hostOps3_2 : List (HloOp τ sig (Elt F))).Forall fun op => op.writes ⊆ (hostOps3_2_W.map (Proc.devRef (τ := τ) .tc)).toFinset :=
  ⟨single_sub (y := main_call5_c) (by decide),
   single_sub (y := main_call5_v0) (by decide),
   single_sub (y := main_call5_v1) (by decide),
   single_sub (y := main_call5_c_0) (by decide),
   single_sub (y := main_call5_v2) (by decide),
   single_sub (y := main_call5_v3) (by decide),
   single_sub (y := main_call5_v4) (by decide),
   single_sub (y := main_call5_v5) (by decide),
   single_sub (y := main_call5_c_1) (by decide),
   single_sub (y := main_call5_c_2) (by decide),
   single_sub (y := main_call5_v6) (by decide),
   single_sub (y := main_call5_v7) (by decide),
   single_sub (y := main_call5_v8) (by decide),
   single_sub (y := main_call5_v9) (by decide),
   single_sub (y := main_call5_v10) (by decide),
   single_sub (y := main_call5_v11) (by decide),
   single_sub (y := main_call5_c_3) (by decide),
   single_sub (y := main_call5_v12) (by decide),
   single_sub (y := main_call5_v13) (by decide),
   single_sub (y := main_call5_v14) (by decide),
   single_sub (y := main_call5_cst) (by decide),
   single_sub (y := main_call5_v15) (by decide),
   single_sub (y := main_v40) (by decide)⟩

/-- The buffers that the stretch `hostOps3_3` writes. -/
abbrev hostOps3_3_W : List (Ref sig .tc) := [main_v41, main_v42, main_v43, main_v44, main_v45, main_v46, main_v47, main_v48, main_v49, main_v50, main_v51, main_v52, main_v53]
/-- Each operation of `hostOps3_3` writes its one result buffer, a member of the list. -/
theorem hostOps3_3_writes : (hostOps3_3 : List (HloOp τ sig (Elt F))).Forall fun op => op.writes ⊆ (hostOps3_3_W.map (Proc.devRef (τ := τ) .tc)).toFinset :=
  ⟨single_sub (y := main_v41) (by decide),
   single_sub (y := main_v42) (by decide),
   single_sub (y := main_v43) (by decide),
   single_sub (y := main_v44) (by decide),
   single_sub (y := main_v45) (by decide),
   single_sub (y := main_v46) (by decide),
   single_sub (y := main_v47) (by decide),
   single_sub (y := main_v48) (by decide),
   single_sub (y := main_v49) (by decide),
   single_sub (y := main_v50) (by decide),
   single_sub (y := main_v51) (by decide),
   single_sub (y := main_v52) (by decide),
   single_sub (y := main_v53) (by decide)⟩

/-- The buffers that the stretch `hostOps4` writes. -/
abbrev hostOps4_W : List (Ref sig .tc) := [main_cst_0, main_v55, main_v56, main_v57, main_v58, main_v59, main_v60, main_v61, main_v62, main_v63, main_v64, main_v65, main_v66, main_v67]
/-- Each operation of `hostOps4` writes its one result buffer, a member of the list. -/
theorem hostOps4_writes : (hostOps4 : List (HloOp τ sig (Elt F))).Forall fun op => op.writes ⊆ (hostOps4_W.map (Proc.devRef (τ := τ) .tc)).toFinset :=
  ⟨single_sub (y := main_cst_0) (by decide),
   single_sub (y := main_v55) (by decide),
   single_sub (y := main_v56) (by decide),
   single_sub (y := main_v57) (by decide),
   single_sub (y := main_v58) (by decide),
   single_sub (y := main_v59) (by decide),
   single_sub (y := main_v60) (by decide),
   single_sub (y := main_v61) (by decide),
   single_sub (y := main_v62) (by decide),
   single_sub (y := main_v63) (by decide),
   single_sub (y := main_v64) (by decide),
   single_sub (y := main_v65) (by decide),
   single_sub (y := main_v66) (by decide),
   single_sub (y := main_v67) (by decide)⟩

/-- The buffers that the stretch `hostOps5` writes. -/
abbrev hostOps5_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v69]
/-- Each operation of `hostOps5` writes its one result buffer, a member of the list. -/
theorem hostOps5_writes : (hostOps5 : List (HloOp τ sig (Elt F))).Forall fun op => op.writes ⊆ (hostOps5_W.map (Proc.devRef (τ := τ) .tc)).toFinset :=
  ⟨single_sub (y := main_call6_c) (by decide),
   single_sub (y := main_call6_v0) (by decide),
   single_sub (y := main_call6_v1) (by decide),
   single_sub (y := main_call6_c_0) (by decide),
   single_sub (y := main_call6_v2) (by decide),
   single_sub (y := main_call6_v3) (by decide),
   single_sub (y := main_call6_v4) (by decide),
   single_sub (y := main_call6_v5) (by decide),
   single_sub (y := main_call6_c_1) (by decide),
   single_sub (y := main_call6_c_2) (by decide),
   single_sub (y := main_call6_v6) (by decide),
   single_sub (y := main_call6_v7) (by decide),
   single_sub (y := main_call6_v8) (by decide),
   single_sub (y := main_call6_v9) (by decide),
   single_sub (y := main_call6_v10) (by decide),
   single_sub (y := main_call6_v11) (by decide),
   single_sub (y := main_call6_c_3) (by decide),
   single_sub (y := main_call6_v12) (by decide),
   single_sub (y := main_call6_v13) (by decide),
   single_sub (y := main_call6_v14) (by decide),
   single_sub (y := main_call6_cst) (by decide),
   single_sub (y := main_call6_v15) (by decide),
   single_sub (y := main_v69) (by decide)⟩

/-- The buffers that the stretch `hostOps5_1` writes. -/
abbrev hostOps5_1_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v70]
/-- Each operation of `hostOps5_1` writes its one result buffer, a member of the list. -/
theorem hostOps5_1_writes : (hostOps5_1 : List (HloOp τ sig (Elt F))).Forall fun op => op.writes ⊆ (hostOps5_1_W.map (Proc.devRef (τ := τ) .tc)).toFinset :=
  ⟨single_sub (y := main_call7_c) (by decide),
   single_sub (y := main_call7_v0) (by decide),
   single_sub (y := main_call7_v1) (by decide),
   single_sub (y := main_call7_c_0) (by decide),
   single_sub (y := main_call7_v2) (by decide),
   single_sub (y := main_call7_v3) (by decide),
   single_sub (y := main_call7_v4) (by decide),
   single_sub (y := main_call7_v5) (by decide),
   single_sub (y := main_call7_c_1) (by decide),
   single_sub (y := main_call7_c_2) (by decide),
   single_sub (y := main_call7_v6) (by decide),
   single_sub (y := main_call7_v7) (by decide),
   single_sub (y := main_call7_v8) (by decide),
   single_sub (y := main_call7_v9) (by decide),
   single_sub (y := main_call7_v10) (by decide),
   single_sub (y := main_call7_v11) (by decide),
   single_sub (y := main_call7_c_3) (by decide),
   single_sub (y := main_call7_v12) (by decide),
   single_sub (y := main_call7_v13) (by decide),
   single_sub (y := main_call7_v14) (by decide),
   single_sub (y := main_call7_cst) (by decide),
   single_sub (y := main_call7_v15) (by decide),
   single_sub (y := main_v70) (by decide)⟩

/-- The buffers that the stretch `hostOps5_2` writes. -/
abbrev hostOps5_2_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v71]
/-- Each operation of `hostOps5_2` writes its one result buffer, a member of the list. -/
theorem hostOps5_2_writes : (hostOps5_2 : List (HloOp τ sig (Elt F))).Forall fun op => op.writes ⊆ (hostOps5_2_W.map (Proc.devRef (τ := τ) .tc)).toFinset :=
  ⟨single_sub (y := main_call8_c) (by decide),
   single_sub (y := main_call8_v0) (by decide),
   single_sub (y := main_call8_v1) (by decide),
   single_sub (y := main_call8_c_0) (by decide),
   single_sub (y := main_call8_v2) (by decide),
   single_sub (y := main_call8_v3) (by decide),
   single_sub (y := main_call8_v4) (by decide),
   single_sub (y := main_call8_v5) (by decide),
   single_sub (y := main_call8_c_1) (by decide),
   single_sub (y := main_call8_c_2) (by decide),
   single_sub (y := main_call8_v6) (by decide),
   single_sub (y := main_call8_v7) (by decide),
   single_sub (y := main_call8_v8) (by decide),
   single_sub (y := main_call8_v9) (by decide),
   single_sub (y := main_call8_v10) (by decide),
   single_sub (y := main_call8_v11) (by decide),
   single_sub (y := main_call8_c_3) (by decide),
   single_sub (y := main_call8_v12) (by decide),
   single_sub (y := main_call8_v13) (by decide),
   single_sub (y := main_call8_v14) (by decide),
   single_sub (y := main_call8_cst) (by decide),
   single_sub (y := main_call8_v15) (by decide),
   single_sub (y := main_v71) (by decide)⟩

/-- The buffers that the stretch `hostOps5_3` writes. -/
abbrev hostOps5_3_W : List (Ref sig .tc) := [main_v72, main_v73, main_v74, main_v75, main_v76, main_v77, main_v78, main_v79, main_v80, main_v81, main_v82, main_v83, main_v84]
/-- Each operation of `hostOps5_3` writes its one result buffer, a member of the list. -/
theorem hostOps5_3_writes : (hostOps5_3 : List (HloOp τ sig (Elt F))).Forall fun op => op.writes ⊆ (hostOps5_3_W.map (Proc.devRef (τ := τ) .tc)).toFinset :=
  ⟨single_sub (y := main_v72) (by decide),
   single_sub (y := main_v73) (by decide),
   single_sub (y := main_v74) (by decide),
   single_sub (y := main_v75) (by decide),
   single_sub (y := main_v76) (by decide),
   single_sub (y := main_v77) (by decide),
   single_sub (y := main_v78) (by decide),
   single_sub (y := main_v79) (by decide),
   single_sub (y := main_v80) (by decide),
   single_sub (y := main_v81) (by decide),
   single_sub (y := main_v82) (by decide),
   single_sub (y := main_v83) (by decide),
   single_sub (y := main_v84) (by decide)⟩

/-- The buffers that the stretch `hostOps6` writes. -/
abbrev hostOps6_W : List (Ref sig .tc) := [main_cst_1, main_v86, main_v87, main_v88, main_v89, main_v90, main_v91, main_v92, main_v93, main_v94, main_v95, main_v96, main_v97, main_v98]
/-- Each operation of `hostOps6` writes its one result buffer, a member of the list. -/
theorem hostOps6_writes : (hostOps6 : List (HloOp τ sig (Elt F))).Forall fun op => op.writes ⊆ (hostOps6_W.map (Proc.devRef (τ := τ) .tc)).toFinset :=
  ⟨single_sub (y := main_cst_1) (by decide),
   single_sub (y := main_v86) (by decide),
   single_sub (y := main_v87) (by decide),
   single_sub (y := main_v88) (by decide),
   single_sub (y := main_v89) (by decide),
   single_sub (y := main_v90) (by decide),
   single_sub (y := main_v91) (by decide),
   single_sub (y := main_v92) (by decide),
   single_sub (y := main_v93) (by decide),
   single_sub (y := main_v94) (by decide),
   single_sub (y := main_v95) (by decide),
   single_sub (y := main_v96) (by decide),
   single_sub (y := main_v97) (by decide),
   single_sub (y := main_v98) (by decide)⟩

/-- The buffers that the stretch `hostOps7` writes. -/
abbrev hostOps7_W : List (Ref sig .tc) := [main_v100, main_v101]
/-- Each operation of `hostOps7` writes its one result buffer, a member of the list. -/
theorem hostOps7_writes : (hostOps7 : List (HloOp τ sig (Elt F))).Forall fun op => op.writes ⊆ (hostOps7_W.map (Proc.devRef (τ := τ) .tc)).toFinset :=
  ⟨single_sub (y := main_v100) (by decide),
   single_sub (y := main_v101) (by decide)⟩

/-- The buffers that the stretch `hostOps8` writes. -/
abbrev hostOps8_W : List (Ref sig .tc) := [main_v103]
/-- Each operation of `hostOps8` writes its one result buffer, a member of the list. -/
theorem hostOps8_writes : (hostOps8 : List (HloOp τ sig (Elt F))).Forall fun op => op.writes ⊆ (hostOps8_W.map (Proc.devRef (τ := τ) .tc)).toFinset :=
  single_sub (y := main_v103) (by decide)

/-! ## One segment: a buffer outside the written set keeps its contents -/

/-- Through `hostOps0` a buffer it does not write keeps its contents. -/
theorem keep1 (c : Dev nD) (b : Ref sig .tc) (hb : b ∉ hostOps0_W) :
    W1 m ρ c (Proc.devRef .tc b) = W0 m ρ c (Proc.devRef .tc b) :=
  after_of_writes_sub hostOps0 _ hostOps0_writes hb

/-- Through region 0 every buffer but its output array `main_v6` keeps its contents: an input array is read
    back as entered, a buffer that is none of the region's arrays is untouched. -/
theorem keep2 (c : Dev nD) (b : Ref sig .tc) (hb : b ≠ main_v6) :
    W2 m ρ c (Proc.devRef .tc b) = W1 m ρ c (Proc.devRef .tc b) := by
  by_cases h0 : b = main_arg0
  · subst h0
    exact (W2_arr m ρ c 0).trans (((dat0 (V1 m ρ) c).arrAt_in 0 rfl _).trans (A_eq0 (V1 m ρ) c 0))
  by_cases h1 : b = main_arg4
  · subst h1
    exact (W2_arr m ρ c 1).trans (((dat0 (V1 m ρ) c).arrAt_in 1 rfl _).trans (A_eq0 (V1 m ρ) c 1))
  by_cases h2 : b = main_v4
  · subst h2
    exact (W2_arr m ρ c 2).trans (((dat0 (V1 m ρ) c).arrAt_in 2 rfl _).trans (A_eq0 (V1 m ρ) c 2))
  by_cases h3 : b = main_arg6
  · subst h3
    exact (W2_arr m ρ c 3).trans (((dat0 (V1 m ρ) c).arrAt_in 3 rfl _).trans (A_eq0 (V1 m ρ) c 3))
  by_cases h4 : b = main_v5
  · subst h4
    exact (W2_arr m ρ c 4).trans (((dat0 (V1 m ρ) c).arrAt_in 4 rfl _).trans (A_eq0 (V1 m ρ) c 4))
  exact W2_of_ne m ρ c b fun
    | 0 => Ne.symm h0
    | 1 => Ne.symm h1
    | 2 => Ne.symm h2
    | 3 => Ne.symm h3
    | 4 => Ne.symm h4
    | 5 => Ne.symm hb
    | ⟨_ + 6, h⟩ => absurd h (Nat.not_lt.2 (Nat.le_add_left _ _))

/-- Through `hostOps1` a buffer it does not write keeps its contents. -/
theorem keep3 (c : Dev nD) (b : Ref sig .tc) (hb : b ∉ hostOps1_W) :
    W3 m ρ c (Proc.devRef .tc b) = W2 m ρ c (Proc.devRef .tc b) :=
  after_of_writes_sub hostOps1 _ hostOps1_writes hb

/-- Through `hostOps1_1` a buffer it does not write keeps its contents. -/
theorem keep4 (c : Dev nD) (b : Ref sig .tc) (hb : b ∉ hostOps1_1_W) :
    W4 m ρ c (Proc.devRef .tc b) = W3 m ρ c (Proc.devRef .tc b) :=
  after_of_writes_sub hostOps1_1 _ hostOps1_1_writes hb

/-- Through `hostOps1_2` a buffer it does not write keeps its contents. -/
theorem keep5 (c : Dev nD) (b : Ref sig .tc) (hb : b ∉ hostOps1_2_W) :
    W5 m ρ c (Proc.devRef .tc b) = W4 m ρ c (Proc.devRef .tc b) :=
  after_of_writes_sub hostOps1_2 _ hostOps1_2_writes hb

/-- Through `hostOps1_3` a buffer it does not write keeps its contents. -/
theorem keep6 (c : Dev nD) (b : Ref sig .tc) (hb : b ∉ hostOps1_3_W) :
    W6 m ρ c (Proc.devRef .tc b) = W5 m ρ c (Proc.devRef .tc b) :=
  after_of_writes_sub hostOps1_3 _ hostOps1_3_writes hb

/-- Through region 1 every buffer but its output array `main_v23` keeps its contents: an input array is read
    back as entered, a buffer that is none of the region's arrays is untouched. -/
theorem keep7 (c : Dev nD) (b : Ref sig .tc) (hb : b ≠ main_v23) :
    W7 m ρ c (Proc.devRef .tc b) = W6 m ρ c (Proc.devRef .tc b) := by
  by_cases h0 : b = main_v7
  · subst h0
    exact (W7_arr m ρ c 0).trans (((dat1 (V6 m ρ) c).arrAt_in 0 rfl _).trans (A_eq1 (V6 m ρ) c 0))
  by_cases h1 : b = main_v8
  · subst h1
    exact (W7_arr m ρ c 1).trans (((dat1 (V6 m ρ) c).arrAt_in 1 rfl _).trans (A_eq1 (V6 m ρ) c 1))
  by_cases h2 : b = main_v9
  · subst h2
    exact (W7_arr m ρ c 2).trans (((dat1 (V6 m ρ) c).arrAt_in 2 rfl _).trans (A_eq1 (V6 m ρ) c 2))
  by_cases h3 : b = main_v12
  · subst h3
    exact (W7_arr m ρ c 3).trans (((dat1 (V6 m ρ) c).arrAt_in 3 rfl _).trans (A_eq1 (V6 m ρ) c 3))
  by_cases h4 : b = main_v13
  · subst h4
    exact (W7_arr m ρ c 4).trans (((dat1 (V6 m ρ) c).arrAt_in 4 rfl _).trans (A_eq1 (V6 m ρ) c 4))
  by_cases h5 : b = main_v14
  · subst h5
    exact (W7_arr m ρ c 5).trans (((dat1 (V6 m ρ) c).arrAt_in 5 rfl _).trans (A_eq1 (V6 m ρ) c 5))
  by_cases h6 : b = main_v21
  · subst h6
    exact (W7_arr m ρ c 6).trans (((dat1 (V6 m ρ) c).arrAt_in 6 rfl _).trans (A_eq1 (V6 m ρ) c 6))
  by_cases h7 : b = main_v18
  · subst h7
    exact (W7_arr m ρ c 7).trans (((dat1 (V6 m ρ) c).arrAt_in 7 rfl _).trans (A_eq1 (V6 m ρ) c 7))
  by_cases h8 : b = main_v22
  · subst h8
    exact (W7_arr m ρ c 8).trans (((dat1 (V6 m ρ) c).arrAt_in 8 rfl _).trans (A_eq1 (V6 m ρ) c 8))
  exact W7_of_ne m ρ c b fun
    | 0 => Ne.symm h0
    | 1 => Ne.symm h1
    | 2 => Ne.symm h2
    | 3 => Ne.symm h3
    | 4 => Ne.symm h4
    | 5 => Ne.symm h5
    | 6 => Ne.symm h6
    | 7 => Ne.symm h7
    | 8 => Ne.symm h8
    | 9 => Ne.symm hb
    | ⟨_ + 10, h⟩ => absurd h (Nat.not_lt.2 (Nat.le_add_left _ _))

/-- Through `hostOps2` a buffer it does not write keeps its contents. -/
theorem keep8 (c : Dev nD) (b : Ref sig .tc) (hb : b ∉ hostOps2_W) :
    W8 m ρ c (Proc.devRef .tc b) = W7 m ρ c (Proc.devRef .tc b) :=
  after_of_writes_sub hostOps2 _ hostOps2_writes hb

/-- Through region 2 every buffer but its output array `main_v37` keeps its contents: an input array is read
    back as entered, a buffer that is none of the region's arrays is untouched. -/
theorem keep9 (c : Dev nD) (b : Ref sig .tc) (hb : b ≠ main_v37) :
    W9 m ρ c (Proc.devRef .tc b) = W8 m ρ c (Proc.devRef .tc b) := by
  by_cases h0 : b = main_v26
  · subst h0
    exact (W9_arr m ρ c 0).trans (((dat2 (V8 m ρ) c).arrAt_in 0 rfl _).trans (A_eq2 (V8 m ρ) c 0))
  by_cases h1 : b = main_v28
  · subst h1
    exact (W9_arr m ρ c 1).trans (((dat2 (V8 m ρ) c).arrAt_in 1 rfl _).trans (A_eq2 (V8 m ρ) c 1))
  by_cases h2 : b = main_v35
  · subst h2
    exact (W9_arr m ρ c 2).trans (((dat2 (V8 m ρ) c).arrAt_in 2 rfl _).trans (A_eq2 (V8 m ρ) c 2))
  by_cases h3 : b = main_v32
  · subst h3
    exact (W9_arr m ρ c 3).trans (((dat2 (V8 m ρ) c).arrAt_in 3 rfl _).trans (A_eq2 (V8 m ρ) c 3))
  by_cases h4 : b = main_v36
  · subst h4
    exact (W9_arr m ρ c 4).trans (((dat2 (V8 m ρ) c).arrAt_in 4 rfl _).trans (A_eq2 (V8 m ρ) c 4))
  exact W9_of_ne m ρ c b fun
    | 0 => Ne.symm h0
    | 1 => Ne.symm h1
    | 2 => Ne.symm h2
    | 3 => Ne.symm h3
    | 4 => Ne.symm h4
    | 5 => Ne.symm hb
    | ⟨_ + 6, h⟩ => absurd h (Nat.not_lt.2 (Nat.le_add_left _ _))

/-- Through `hostOps3` a buffer it does not write keeps its contents. -/
theorem keep10 (c : Dev nD) (b : Ref sig .tc) (hb : b ∉ hostOps3_W) :
    W10 m ρ c (Proc.devRef .tc b) = W9 m ρ c (Proc.devRef .tc b) :=
  after_of_writes_sub hostOps3 _ hostOps3_writes hb

/-- Through `hostOps3_1` a buffer it does not write keeps its contents. -/
theorem keep11 (c : Dev nD) (b : Ref sig .tc) (hb : b ∉ hostOps3_1_W) :
    W11 m ρ c (Proc.devRef .tc b) = W10 m ρ c (Proc.devRef .tc b) :=
  after_of_writes_sub hostOps3_1 _ hostOps3_1_writes hb

/-- Through `hostOps3_2` a buffer it does not write keeps its contents. -/
theorem keep12 (c : Dev nD) (b : Ref sig .tc) (hb : b ∉ hostOps3_2_W) :
    W12 m ρ c (Proc.devRef .tc b) = W11 m ρ c (Proc.devRef .tc b) :=
  after_of_writes_sub hostOps3_2 _ hostOps3_2_writes hb

/-- Through `hostOps3_3` a buffer it does not write keeps its contents. -/
theorem keep13 (c : Dev nD) (b : Ref sig .tc) (hb : b ∉ hostOps3_3_W) :
    W13 m ρ c (Proc.devRef .tc b) = W12 m ρ c (Proc.devRef .tc b) :=
  after_of_writes_sub hostOps3_3 _ hostOps3_3_writes hb

/-- Through region 3 every buffer but its output array `main_v54` keeps its contents: an input array is read
    back as entered, a buffer that is none of the region's arrays is untouched. -/
theorem keep14 (c : Dev nD) (b : Ref sig .tc) (hb : b ≠ main_v54) :
    W14 m ρ c (Proc.devRef .tc b) = W13 m ρ c (Proc.devRef .tc b) := by
  by_cases h0 : b = main_v38
  · subst h0
    exact (W14_arr m ρ c 0).trans (((dat3 (V13 m ρ) c).arrAt_in 0 rfl _).trans (A_eq3 (V13 m ρ) c 0))
  by_cases h1 : b = main_v39
  · subst h1
    exact (W14_arr m ρ c 1).trans (((dat3 (V13 m ρ) c).arrAt_in 1 rfl _).trans (A_eq3 (V13 m ρ) c 1))
  by_cases h2 : b = main_v40
  · subst h2
    exact (W14_arr m ρ c 2).trans (((dat3 (V13 m ρ) c).arrAt_in 2 rfl _).trans (A_eq3 (V13 m ρ) c 2))
  by_cases h3 : b = main_v43
  · subst h3
    exact (W14_arr m ρ c 3).trans (((dat3 (V13 m ρ) c).arrAt_in 3 rfl _).trans (A_eq3 (V13 m ρ) c 3))
  by_cases h4 : b = main_v44
  · subst h4
    exact (W14_arr m ρ c 4).trans (((dat3 (V13 m ρ) c).arrAt_in 4 rfl _).trans (A_eq3 (V13 m ρ) c 4))
  by_cases h5 : b = main_v45
  · subst h5
    exact (W14_arr m ρ c 5).trans (((dat3 (V13 m ρ) c).arrAt_in 5 rfl _).trans (A_eq3 (V13 m ρ) c 5))
  by_cases h6 : b = main_v52
  · subst h6
    exact (W14_arr m ρ c 6).trans (((dat3 (V13 m ρ) c).arrAt_in 6 rfl _).trans (A_eq3 (V13 m ρ) c 6))
  by_cases h7 : b = main_v49
  · subst h7
    exact (W14_arr m ρ c 7).trans (((dat3 (V13 m ρ) c).arrAt_in 7 rfl _).trans (A_eq3 (V13 m ρ) c 7))
  by_cases h8 : b = main_v53
  · subst h8
    exact (W14_arr m ρ c 8).trans (((dat3 (V13 m ρ) c).arrAt_in 8 rfl _).trans (A_eq3 (V13 m ρ) c 8))
  exact W14_of_ne m ρ c b fun
    | 0 => Ne.symm h0
    | 1 => Ne.symm h1
    | 2 => Ne.symm h2
    | 3 => Ne.symm h3
    | 4 => Ne.symm h4
    | 5 => Ne.symm h5
    | 6 => Ne.symm h6
    | 7 => Ne.symm h7
    | 8 => Ne.symm h8
    | 9 => Ne.symm hb
    | ⟨_ + 10, h⟩ => absurd h (Nat.not_lt.2 (Nat.le_add_left _ _))

/-- Through `hostOps4` a buffer it does not write keeps its contents. -/
theorem keep15 (c : Dev nD) (b : Ref sig .tc) (hb : b ∉ hostOps4_W) :
    W15 m ρ c (Proc.devRef .tc b) = W14 m ρ c (Proc.devRef .tc b) :=
  after_of_writes_sub hostOps4 _ hostOps4_writes hb

/-- Through region 4 every buffer but its output array `main_v68` keeps its contents: an input array is read
    back as entered, a buffer that is none of the region's arrays is untouched. -/
theorem keep16 (c : Dev nD) (b : Ref sig .tc) (hb : b ≠ main_v68) :
    W16 m ρ c (Proc.devRef .tc b) = W15 m ρ c (Proc.devRef .tc b) := by
  by_cases h0 : b = main_v57
  · subst h0
    exact (W16_arr m ρ c 0).trans (((dat4 (V15 m ρ) c).arrAt_in 0 rfl _).trans (A_eq4 (V15 m ρ) c 0))
  by_cases h1 : b = main_v59
  · subst h1
    exact (W16_arr m ρ c 1).trans (((dat4 (V15 m ρ) c).arrAt_in 1 rfl _).trans (A_eq4 (V15 m ρ) c 1))
  by_cases h2 : b = main_v66
  · subst h2
    exact (W16_arr m ρ c 2).trans (((dat4 (V15 m ρ) c).arrAt_in 2 rfl _).trans (A_eq4 (V15 m ρ) c 2))
  by_cases h3 : b = main_v63
  · subst h3
    exact (W16_arr m ρ c 3).trans (((dat4 (V15 m ρ) c).arrAt_in 3 rfl _).trans (A_eq4 (V15 m ρ) c 3))
  by_cases h4 : b = main_v67
  · subst h4
    exact (W16_arr m ρ c 4).trans (((dat4 (V15 m ρ) c).arrAt_in 4 rfl _).trans (A_eq4 (V15 m ρ) c 4))
  exact W16_of_ne m ρ c b fun
    | 0 => Ne.symm h0
    | 1 => Ne.symm h1
    | 2 => Ne.symm h2
    | 3 => Ne.symm h3
    | 4 => Ne.symm h4
    | 5 => Ne.symm hb
    | ⟨_ + 6, h⟩ => absurd h (Nat.not_lt.2 (Nat.le_add_left _ _))

/-- Through `hostOps5` a buffer it does not write keeps its contents. -/
theorem keep17 (c : Dev nD) (b : Ref sig .tc) (hb : b ∉ hostOps5_W) :
    W17 m ρ c (Proc.devRef .tc b) = W16 m ρ c (Proc.devRef .tc b) :=
  after_of_writes_sub hostOps5 _ hostOps5_writes hb

/-- Through `hostOps5_1` a buffer it does not write keeps its contents. -/
theorem keep18 (c : Dev nD) (b : Ref sig .tc) (hb : b ∉ hostOps5_1_W) :
    W18 m ρ c (Proc.devRef .tc b) = W17 m ρ c (Proc.devRef .tc b) :=
  after_of_writes_sub hostOps5_1 _ hostOps5_1_writes hb

/-- Through `hostOps5_2` a buffer it does not write keeps its contents. -/
theorem keep19 (c : Dev nD) (b : Ref sig .tc) (hb : b ∉ hostOps5_2_W) :
    W19 m ρ c (Proc.devRef .tc b) = W18 m ρ c (Proc.devRef .tc b) :=
  after_of_writes_sub hostOps5_2 _ hostOps5_2_writes hb

/-- Through `hostOps5_3` a buffer it does not write keeps its contents. -/
theorem keep20 (c : Dev nD) (b : Ref sig .tc) (hb : b ∉ hostOps5_3_W) :
    W20 m ρ c (Proc.devRef .tc b) = W19 m ρ c (Proc.devRef .tc b) :=
  after_of_writes_sub hostOps5_3 _ hostOps5_3_writes hb

/-- Through region 5 every buffer but its output array `main_v85` keeps its contents: an input array is read
    back as entered, a buffer that is none of the region's arrays is untouched. -/
theorem keep21 (c : Dev nD) (b : Ref sig .tc) (hb : b ≠ main_v85) :
    W21 m ρ c (Proc.devRef .tc b) = W20 m ρ c (Proc.devRef .tc b) := by
  by_cases h0 : b = main_v69
  · subst h0
    exact (W21_arr m ρ c 0).trans (((dat5 (V20 m ρ) c).arrAt_in 0 rfl _).trans (A_eq5 (V20 m ρ) c 0))
  by_cases h1 : b = main_v70
  · subst h1
    exact (W21_arr m ρ c 1).trans (((dat5 (V20 m ρ) c).arrAt_in 1 rfl _).trans (A_eq5 (V20 m ρ) c 1))
  by_cases h2 : b = main_v71
  · subst h2
    exact (W21_arr m ρ c 2).trans (((dat5 (V20 m ρ) c).arrAt_in 2 rfl _).trans (A_eq5 (V20 m ρ) c 2))
  by_cases h3 : b = main_v74
  · subst h3
    exact (W21_arr m ρ c 3).trans (((dat5 (V20 m ρ) c).arrAt_in 3 rfl _).trans (A_eq5 (V20 m ρ) c 3))
  by_cases h4 : b = main_v75
  · subst h4
    exact (W21_arr m ρ c 4).trans (((dat5 (V20 m ρ) c).arrAt_in 4 rfl _).trans (A_eq5 (V20 m ρ) c 4))
  by_cases h5 : b = main_v76
  · subst h5
    exact (W21_arr m ρ c 5).trans (((dat5 (V20 m ρ) c).arrAt_in 5 rfl _).trans (A_eq5 (V20 m ρ) c 5))
  by_cases h6 : b = main_v83
  · subst h6
    exact (W21_arr m ρ c 6).trans (((dat5 (V20 m ρ) c).arrAt_in 6 rfl _).trans (A_eq5 (V20 m ρ) c 6))
  by_cases h7 : b = main_v80
  · subst h7
    exact (W21_arr m ρ c 7).trans (((dat5 (V20 m ρ) c).arrAt_in 7 rfl _).trans (A_eq5 (V20 m ρ) c 7))
  by_cases h8 : b = main_v84
  · subst h8
    exact (W21_arr m ρ c 8).trans (((dat5 (V20 m ρ) c).arrAt_in 8 rfl _).trans (A_eq5 (V20 m ρ) c 8))
  exact W21_of_ne m ρ c b fun
    | 0 => Ne.symm h0
    | 1 => Ne.symm h1
    | 2 => Ne.symm h2
    | 3 => Ne.symm h3
    | 4 => Ne.symm h4
    | 5 => Ne.symm h5
    | 6 => Ne.symm h6
    | 7 => Ne.symm h7
    | 8 => Ne.symm h8
    | 9 => Ne.symm hb
    | ⟨_ + 10, h⟩ => absurd h (Nat.not_lt.2 (Nat.le_add_left _ _))

/-- Through `hostOps6` a buffer it does not write keeps its contents. -/
theorem keep22 (c : Dev nD) (b : Ref sig .tc) (hb : b ∉ hostOps6_W) :
    W22 m ρ c (Proc.devRef .tc b) = W21 m ρ c (Proc.devRef .tc b) :=
  after_of_writes_sub hostOps6 _ hostOps6_writes hb

/-- Through region 6 every buffer but its output array `main_v99` keeps its contents: an input array is read
    back as entered, a buffer that is none of the region's arrays is untouched. -/
theorem keep23 (c : Dev nD) (b : Ref sig .tc) (hb : b ≠ main_v99) :
    W23 m ρ c (Proc.devRef .tc b) = W22 m ρ c (Proc.devRef .tc b) := by
  by_cases h0 : b = main_v88
  · subst h0
    exact (W23_arr m ρ c 0).trans (((dat6 (V22 m ρ) c).arrAt_in 0 rfl _).trans (A_eq6 (V22 m ρ) c 0))
  by_cases h1 : b = main_v90
  · subst h1
    exact (W23_arr m ρ c 1).trans (((dat6 (V22 m ρ) c).arrAt_in 1 rfl _).trans (A_eq6 (V22 m ρ) c 1))
  by_cases h2 : b = main_v97
  · subst h2
    exact (W23_arr m ρ c 2).trans (((dat6 (V22 m ρ) c).arrAt_in 2 rfl _).trans (A_eq6 (V22 m ρ) c 2))
  by_cases h3 : b = main_v94
  · subst h3
    exact (W23_arr m ρ c 3).trans (((dat6 (V22 m ρ) c).arrAt_in 3 rfl _).trans (A_eq6 (V22 m ρ) c 3))
  by_cases h4 : b = main_v98
  · subst h4
    exact (W23_arr m ρ c 4).trans (((dat6 (V22 m ρ) c).arrAt_in 4 rfl _).trans (A_eq6 (V22 m ρ) c 4))
  exact W23_of_ne m ρ c b fun
    | 0 => Ne.symm h0
    | 1 => Ne.symm h1
    | 2 => Ne.symm h2
    | 3 => Ne.symm h3
    | 4 => Ne.symm h4
    | 5 => Ne.symm hb
    | ⟨_ + 6, h⟩ => absurd h (Nat.not_lt.2 (Nat.le_add_left _ _))

/-- Through `hostOps7` a buffer it does not write keeps its contents. -/
theorem keep24 (c : Dev nD) (b : Ref sig .tc) (hb : b ∉ hostOps7_W) :
    W24 m ρ c (Proc.devRef .tc b) = W23 m ρ c (Proc.devRef .tc b) :=
  after_of_writes_sub hostOps7 _ hostOps7_writes hb

/-- Through region 7 every buffer but its output array `main_v102` keeps its contents: an input array is read
    back as entered, a buffer that is none of the region's arrays is untouched. -/
theorem keep25 (c : Dev nD) (b : Ref sig .tc) (hb : b ≠ main_v102) :
    W25 m ρ c (Proc.devRef .tc b) = W24 m ρ c (Proc.devRef .tc b) := by
  by_cases h0 : b = main_v99
  · subst h0
    exact (W25_arr m ρ c 0).trans (((dat7 (V24 m ρ) c).arrAt_in 0 rfl _).trans (A_eq7 (V24 m ρ) c 0))
  by_cases h1 : b = main_arg16
  · subst h1
    exact (W25_arr m ρ c 1).trans (((dat7 (V24 m ρ) c).arrAt_in 1 rfl _).trans (A_eq7 (V24 m ρ) c 1))
  by_cases h2 : b = main_v100
  · subst h2
    exact (W25_arr m ρ c 2).trans (((dat7 (V24 m ρ) c).arrAt_in 2 rfl _).trans (A_eq7 (V24 m ρ) c 2))
  by_cases h3 : b = main_arg18
  · subst h3
    exact (W25_arr m ρ c 3).trans (((dat7 (V24 m ρ) c).arrAt_in 3 rfl _).trans (A_eq7 (V24 m ρ) c 3))
  by_cases h4 : b = main_v101
  · subst h4
    exact (W25_arr m ρ c 4).trans (((dat7 (V24 m ρ) c).arrAt_in 4 rfl _).trans (A_eq7 (V24 m ρ) c 4))
  exact W25_of_ne m ρ c b fun
    | 0 => Ne.symm h0
    | 1 => Ne.symm h1
    | 2 => Ne.symm h2
    | 3 => Ne.symm h3
    | 4 => Ne.symm h4
    | 5 => Ne.symm hb
    | ⟨_ + 6, h⟩ => absurd h (Nat.not_lt.2 (Nat.le_add_left _ _))

/-- Through `hostOps8` a buffer it does not write keeps its contents. -/
theorem keep26 (c : Dev nD) (b : Ref sig .tc) (hb : b ∉ hostOps8_W) :
    W26 m ρ c (Proc.devRef .tc b) = W25 m ρ c (Proc.devRef .tc b) :=
  after_of_writes_sub hostOps8 _ hostOps8_writes hb

/-- Through region 8 every buffer but its output array `main_v104` keeps its contents: an input array is read
    back as entered, a buffer that is none of the region's arrays is untouched. -/
theorem keep27 (c : Dev nD) (b : Ref sig .tc) (hb : b ≠ main_v104) :
    W27 m ρ c (Proc.devRef .tc b) = W26 m ρ c (Proc.devRef .tc b) := by
  by_cases h0 : b = main_v102
  · subst h0
    exact (W27_arr m ρ c 0).trans (((dat8 (V26 m ρ) c).arrAt_in 0 rfl _).trans (A_eq8 (V26 m ρ) c 0))
  by_cases h1 : b = main_v103
  · subst h1
    exact (W27_arr m ρ c 1).trans (((dat8 (V26 m ρ) c).arrAt_in 1 rfl _).trans (A_eq8 (V26 m ρ) c 1))
  exact W27_of_ne m ρ c b fun
    | 0 => Ne.symm h0
    | 1 => Ne.symm h1
    | 2 => Ne.symm hb
    | ⟨_ + 3, h⟩ => absurd h (Nat.not_lt.2 (Nat.le_add_left _ _))

/-! ## The arguments: written by no segment, they hold their launch contents at every boundary -/

/-- Each of the 20 argument buffers holds in `W` what core `c` was launched with. -/
def ArgsAt (W : Valuation τ sig (Elt F)) (c : Dev nD) : Prop :=
  W (Proc.devRef .tc main_arg0) = m ((c : Thread nD τ).loc main_arg0) ∧
  W (Proc.devRef .tc main_arg1) = m ((c : Thread nD τ).loc main_arg1) ∧
  W (Proc.devRef .tc main_arg2) = m ((c : Thread nD τ).loc main_arg2) ∧
  W (Proc.devRef .tc main_arg3) = m ((c : Thread nD τ).loc main_arg3) ∧
  W (Proc.devRef .tc main_arg4) = m ((c : Thread nD τ).loc main_arg4) ∧
  W (Proc.devRef .tc main_arg5) = m ((c : Thread nD τ).loc main_arg5) ∧
  W (Proc.devRef .tc main_arg6) = m ((c : Thread nD τ).loc main_arg6) ∧
  W (Proc.devRef .tc main_arg7) = m ((c : Thread nD τ).loc main_arg7) ∧
  W (Proc.devRef .tc main_arg8) = m ((c : Thread nD τ).loc main_arg8) ∧
  W (Proc.devRef .tc main_arg9) = m ((c : Thread nD τ).loc main_arg9) ∧
  W (Proc.devRef .tc main_arg10) = m ((c : Thread nD τ).loc main_arg10) ∧
  W (Proc.devRef .tc main_arg11) = m ((c : Thread nD τ).loc main_arg11) ∧
  W (Proc.devRef .tc main_arg12) = m ((c : Thread nD τ).loc main_arg12) ∧
  W (Proc.devRef .tc main_arg13) = m ((c : Thread nD τ).loc main_arg13) ∧
  W (Proc.devRef .tc main_arg14) = m ((c : Thread nD τ).loc main_arg14) ∧
  W (Proc.devRef .tc main_arg15) = m ((c : Thread nD τ).loc main_arg15) ∧
  W (Proc.devRef .tc main_arg16) = m ((c : Thread nD τ).loc main_arg16) ∧
  W (Proc.devRef .tc main_arg17) = m ((c : Thread nD τ).loc main_arg17) ∧
  W (Proc.devRef .tc main_arg18) = m ((c : Thread nD τ).loc main_arg18) ∧
  W (Proc.devRef .tc main_arg19) = m ((c : Thread nD τ).loc main_arg19)

/-- At launch. -/
theorem args0 (c : Dev nD) : ArgsAt m (W0 m ρ c) c :=
  ⟨rfl, rfl, rfl, rfl, rfl, rfl, rfl, rfl, rfl, rfl, rfl, rfl, rfl, rfl, rfl, rfl, rfl, rfl, rfl, rfl⟩

theorem args1 (c : Dev nD) : ArgsAt m (W1 m ρ c) c :=
  have h := args0 m ρ c
  ⟨(keep1 m ρ c main_arg0 (by decide)).trans h.1,
   (keep1 m ρ c main_arg1 (by decide)).trans h.2.1,
   (keep1 m ρ c main_arg2 (by decide)).trans h.2.2.1,
   (keep1 m ρ c main_arg3 (by decide)).trans h.2.2.2.1,
   (keep1 m ρ c main_arg4 (by decide)).trans h.2.2.2.2.1,
   (keep1 m ρ c main_arg5 (by decide)).trans h.2.2.2.2.2.1,
   (keep1 m ρ c main_arg6 (by decide)).trans h.2.2.2.2.2.2.1,
   (keep1 m ρ c main_arg7 (by decide)).trans h.2.2.2.2.2.2.2.1,
   (keep1 m ρ c main_arg8 (by decide)).trans h.2.2.2.2.2.2.2.2.1,
   (keep1 m ρ c main_arg9 (by decide)).trans h.2.2.2.2.2.2.2.2.2.1,
   (keep1 m ρ c main_arg10 (by decide)).trans h.2.2.2.2.2.2.2.2.2.2.1,
   (keep1 m ρ c main_arg11 (by decide)).trans h.2.2.2.2.2.2.2.2.2.2.2.1,
   (keep1 m ρ c main_arg12 (by decide)).trans h.2.2.2.2.2.2.2.2.2.2.2.2.1,
   (keep1 m ρ c main_arg13 (by decide)).trans h.2.2.2.2.2.2.2.2.2.2.2.2.2.1,
   (keep1 m ρ c main_arg14 (by decide)).trans h.2.2.2.2.2.2.2.2.2.2.2.2.2.2.1,
   (keep1 m ρ c main_arg15 (by decide)).trans h.2.2.2.2.2.2.2.2.2.2.2.2.2.2.2.1,
   (keep1 m ρ c main_arg16 (by decide)).trans h.2.2.2.2.2.2.2.2.2.2.2.2.2.2.2.2.1,
   (keep1 m ρ c main_arg17 (by decide)).trans h.2.2.2.2.2.2.2.2.2.2.2.2.2.2.2.2.2.1,
   (keep1 m ρ c main_arg18 (by decide)).trans h.2.2.2.2.2.2.2.2.2.2.2.2.2.2.2.2.2.2.1,
   (keep1 m ρ c main_arg19 (by decide)).trans h.2.2.2.2.2.2.2.2.2.2.2.2.2.2.2.2.2.2.2⟩

theorem args2 (c : Dev nD) : ArgsAt m (W2 m ρ c) c :=
  have h := args1 m ρ c
  ⟨(keep2 m ρ c main_arg0 (by decide)).trans h.1,
   (keep2 m ρ c main_arg1 (by decide)).trans h.2.1,
   (keep2 m ρ c main_arg2 (by decide)).trans h.2.2.1,
   (keep2 m ρ c main_arg3 (by decide)).trans h.2.2.2.1,
   (keep2 m ρ c main_arg4 (by decide)).trans h.2.2.2.2.1,
   (keep2 m ρ c main_arg5 (by decide)).trans h.2.2.2.2.2.1,
   (keep2 m ρ c main_arg6 (by decide)).trans h.2.2.2.2.2.2.1,
   (keep2 m ρ c main_arg7 (by decide)).trans h.2.2.2.2.2.2.2.1,
   (keep2 m ρ c main_arg8 (by decide)).trans h.2.2.2.2.2.2.2.2.1,
   (keep2 m ρ c main_arg9 (by decide)).trans h.2.2.2.2.2.2.2.2.2.1,
   (keep2 m ρ c main_arg10 (by decide)).trans h.2.2.2.2.2.2.2.2.2.2.1,
   (keep2 m ρ c main_arg11 (by decide)).trans h.2.2.2.2.2.2.2.2.2.2.2.1,
   (keep2 m ρ c main_arg12 (by decide)).trans h.2.2.2.2.2.2.2.2.2.2.2.2.1,
   (keep2 m ρ c main_arg13 (by decide)).trans h.2.2.2.2.2.2.2.2.2.2.2.2.2.1,
   (keep2 m ρ c main_arg14 (by decide)).trans h.2.2.2.2.2.2.2.2.2.2.2.2.2.2.1,
   (keep2 m ρ c main_arg15 (by decide)).trans h.2.2.2.2.2.2.2.2.2.2.2.2.2.2.2.1,
   (keep2 m ρ c main_arg16 (by decide)).trans h.2.2.2.2.2.2.2.2.2.2.2.2.2.2.2.2.1,
   (keep2 m ρ c main_arg17 (by decide)).trans h.2.2.2.2.2.2.2.2.2.2.2.2.2.2.2.2.2.1,
   (keep2 m ρ c main_arg18 (by decide)).trans h.2.2.2.2.2.2.2.2.2.2.2.2.2.2.2.2.2.2.1,
   (keep2 m ρ c main_arg19 (by decide)).trans h.2.2.2.2.2.2.2.2.2.2.2.2.2.2.2.2.2.2.2⟩

theorem args3 (c : Dev nD) : ArgsAt m (W3 m ρ c) c :=
  have h := args2 m ρ c
  ⟨(keep3 m ρ c main_arg0 (by decide)).trans h.1,
   (keep3 m ρ c main_arg1 (by decide)).trans h.2.1,
   (keep3 m ρ c main_arg2 (by decide)).trans h.2.2.1,
   (keep3 m ρ c main_arg3 (by decide)).trans h.2.2.2.1,
   (keep3 m ρ c main_arg4 (by decide)).trans h.2.2.2.2.1,
   (keep3 m ρ c main_arg5 (by decide)).trans h.2.2.2.2.2.1,
   (keep3 m ρ c main_arg6 (by decide)).trans h.2.2.2.2.2.2.1,
   (keep3 m ρ c main_arg7 (by decide)).trans h.2.2.2.2.2.2.2.1,
   (keep3 m ρ c main_arg8 (by decide)).trans h.2.2.2.2.2.2.2.2.1,
   (keep3 m ρ c main_arg9 (by decide)).trans h.2.2.2.2.2.2.2.2.2.1,
   (keep3 m ρ c main_arg10 (by decide)).trans h.2.2.2.2.2.2.2.2.2.2.1,
   (keep3 m ρ c main_arg11 (by decide)).trans h.2.2.2.2.2.2.2.2.2.2.2.1,
   (keep3 m ρ c main_arg12 (by decide)).trans h.2.2.2.2.2.2.2.2.2.2.2.2.1,
   (keep3 m ρ c main_arg13 (by decide)).trans h.2.2.2.2.2.2.2.2.2.2.2.2.2.1,
   (keep3 m ρ c main_arg14 (by decide)).trans h.2.2.2.2.2.2.2.2.2.2.2.2.2.2.1,
   (keep3 m ρ c main_arg15 (by decide)).trans h.2.2.2.2.2.2.2.2.2.2.2.2.2.2.2.1,
   (keep3 m ρ c main_arg16 (by decide)).trans h.2.2.2.2.2.2.2.2.2.2.2.2.2.2.2.2.1,
   (keep3 m ρ c main_arg17 (by decide)).trans h.2.2.2.2.2.2.2.2.2.2.2.2.2.2.2.2.2.1,
   (keep3 m ρ c main_arg18 (by decide)).trans h.2.2.2.2.2.2.2.2.2.2.2.2.2.2.2.2.2.2.1,
   (keep3 m ρ c main_arg19 (by decide)).trans h.2.2.2.2.2.2.2.2.2.2.2.2.2.2.2.2.2.2.2⟩

theorem args4 (c : Dev nD) : ArgsAt m (W4 m ρ c) c :=
  have h := args3 m ρ c
  ⟨(keep4 m ρ c main_arg0 (by decide)).trans h.1,
   (keep4 m ρ c main_arg1 (by decide)).trans h.2.1,
   (keep4 m ρ c main_arg2 (by decide)).trans h.2.2.1,
   (keep4 m ρ c main_arg3 (by decide)).trans h.2.2.2.1,
   (keep4 m ρ c main_arg4 (by decide)).trans h.2.2.2.2.1,
   (keep4 m ρ c main_arg5 (by decide)).trans h.2.2.2.2.2.1,
   (keep4 m ρ c main_arg6 (by decide)).trans h.2.2.2.2.2.2.1,
   (keep4 m ρ c main_arg7 (by decide)).trans h.2.2.2.2.2.2.2.1,
   (keep4 m ρ c main_arg8 (by decide)).trans h.2.2.2.2.2.2.2.2.1,
   (keep4 m ρ c main_arg9 (by decide)).trans h.2.2.2.2.2.2.2.2.2.1,
   (keep4 m ρ c main_arg10 (by decide)).trans h.2.2.2.2.2.2.2.2.2.2.1,
   (keep4 m ρ c main_arg11 (by decide)).trans h.2.2.2.2.2.2.2.2.2.2.2.1,
   (keep4 m ρ c main_arg12 (by decide)).trans h.2.2.2.2.2.2.2.2.2.2.2.2.1,
   (keep4 m ρ c main_arg13 (by decide)).trans h.2.2.2.2.2.2.2.2.2.2.2.2.2.1,
   (keep4 m ρ c main_arg14 (by decide)).trans h.2.2.2.2.2.2.2.2.2.2.2.2.2.2.1,
   (keep4 m ρ c main_arg15 (by decide)).trans h.2.2.2.2.2.2.2.2.2.2.2.2.2.2.2.1,
   (keep4 m ρ c main_arg16 (by decide)).trans h.2.2.2.2.2.2.2.2.2.2.2.2.2.2.2.2.1,
   (keep4 m ρ c main_arg17 (by decide)).trans h.2.2.2.2.2.2.2.2.2.2.2.2.2.2.2.2.2.1,
   (keep4 m ρ c main_arg18 (by decide)).trans h.2.2.2.2.2.2.2.2.2.2.2.2.2.2.2.2.2.2.1,
   (keep4 m ρ c main_arg19 (by decide)).trans h.2.2.2.2.2.2.2.2.2.2.2.2.2.2.2.2.2.2.2⟩

theorem args5 (c : Dev nD) : ArgsAt m (W5 m ρ c) c :=
  have h := args4 m ρ c
  ⟨(keep5 m ρ c main_arg0 (by decide)).trans h.1,
   (keep5 m ρ c main_arg1 (by decide)).trans h.2.1,
   (keep5 m ρ c main_arg2 (by decide)).trans h.2.2.1,
   (keep5 m ρ c main_arg3 (by decide)).trans h.2.2.2.1,
   (keep5 m ρ c main_arg4 (by decide)).trans h.2.2.2.2.1,
   (keep5 m ρ c main_arg5 (by decide)).trans h.2.2.2.2.2.1,
   (keep5 m ρ c main_arg6 (by decide)).trans h.2.2.2.2.2.2.1,
   (keep5 m ρ c main_arg7 (by decide)).trans h.2.2.2.2.2.2.2.1,
   (keep5 m ρ c main_arg8 (by decide)).trans h.2.2.2.2.2.2.2.2.1,
   (keep5 m ρ c main_arg9 (by decide)).trans h.2.2.2.2.2.2.2.2.2.1,
   (keep5 m ρ c main_arg10 (by decide)).trans h.2.2.2.2.2.2.2.2.2.2.1,
   (keep5 m ρ c main_arg11 (by decide)).trans h.2.2.2.2.2.2.2.2.2.2.2.1,
   (keep5 m ρ c main_arg12 (by decide)).trans h.2.2.2.2.2.2.2.2.2.2.2.2.1,
   (keep5 m ρ c main_arg13 (by decide)).trans h.2.2.2.2.2.2.2.2.2.2.2.2.2.1,
   (keep5 m ρ c main_arg14 (by decide)).trans h.2.2.2.2.2.2.2.2.2.2.2.2.2.2.1,
   (keep5 m ρ c main_arg15 (by decide)).trans h.2.2.2.2.2.2.2.2.2.2.2.2.2.2.2.1,
   (keep5 m ρ c main_arg16 (by decide)).trans h.2.2.2.2.2.2.2.2.2.2.2.2.2.2.2.2.1,
   (keep5 m ρ c main_arg17 (by decide)).trans h.2.2.2.2.2.2.2.2.2.2.2.2.2.2.2.2.2.1,
   (keep5 m ρ c main_arg18 (by decide)).trans h.2.2.2.2.2.2.2.2.2.2.2.2.2.2.2.2.2.2.1,
   (keep5 m ρ c main_arg19 (by decide)).trans h.2.2.2.2.2.2.2.2.2.2.2.2.2.2.2.2.2.2.2⟩

theorem args6 (c : Dev nD) : ArgsAt m (W6 m ρ c) c :=
  have h := args5 m ρ c
  ⟨(keep6 m ρ c main_arg0 (by decide)).trans h.1,
   (keep6 m ρ c main_arg1 (by decide)).trans h.2.1,
   (keep6 m ρ c main_arg2 (by decide)).trans h.2.2.1,
   (keep6 m ρ c main_arg3 (by decide)).trans h.2.2.2.1,
   (keep6 m ρ c main_arg4 (by decide)).trans h.2.2.2.2.1,
   (keep6 m ρ c main_arg5 (by decide)).trans h.2.2.2.2.2.1,
   (keep6 m ρ c main_arg6 (by decide)).trans h.2.2.2.2.2.2.1,
   (keep6 m ρ c main_arg7 (by decide)).trans h.2.2.2.2.2.2.2.1,
   (keep6 m ρ c main_arg8 (by decide)).trans h.2.2.2.2.2.2.2.2.1,
   (keep6 m ρ c main_arg9 (by decide)).trans h.2.2.2.2.2.2.2.2.2.1,
   (keep6 m ρ c main_arg10 (by decide)).trans h.2.2.2.2.2.2.2.2.2.2.1,
   (keep6 m ρ c main_arg11 (by decide)).trans h.2.2.2.2.2.2.2.2.2.2.2.1,
   (keep6 m ρ c main_arg12 (by decide)).trans h.2.2.2.2.2.2.2.2.2.2.2.2.1,
   (keep6 m ρ c main_arg13 (by decide)).trans h.2.2.2.2.2.2.2.2.2.2.2.2.2.1,
   (keep6 m ρ c main_arg14 (by decide)).trans h.2.2.2.2.2.2.2.2.2.2.2.2.2.2.1,
   (keep6 m ρ c main_arg15 (by decide)).trans h.2.2.2.2.2.2.2.2.2.2.2.2.2.2.2.1,
   (keep6 m ρ c main_arg16 (by decide)).trans h.2.2.2.2.2.2.2.2.2.2.2.2.2.2.2.2.1,
   (keep6 m ρ c main_arg17 (by decide)).trans h.2.2.2.2.2.2.2.2.2.2.2.2.2.2.2.2.2.1,
   (keep6 m ρ c main_arg18 (by decide)).trans h.2.2.2.2.2.2.2.2.2.2.2.2.2.2.2.2.2.2.1,
   (keep6 m ρ c main_arg19 (by decide)).trans h.2.2.2.2.2.2.2.2.2.2.2.2.2.2.2.2.2.2.2⟩

theorem args7 (c : Dev nD) : ArgsAt m (W7 m ρ c) c :=
  have h := args6 m ρ c
  ⟨(keep7 m ρ c main_arg0 (by decide)).trans h.1,
   (keep7 m ρ c main_arg1 (by decide)).trans h.2.1,
   (keep7 m ρ c main_arg2 (by decide)).trans h.2.2.1,
   (keep7 m ρ c main_arg3 (by decide)).trans h.2.2.2.1,
   (keep7 m ρ c main_arg4 (by decide)).trans h.2.2.2.2.1,
   (keep7 m ρ c main_arg5 (by decide)).trans h.2.2.2.2.2.1,
   (keep7 m ρ c main_arg6 (by decide)).trans h.2.2.2.2.2.2.1,
   (keep7 m ρ c main_arg7 (by decide)).trans h.2.2.2.2.2.2.2.1,
   (keep7 m ρ c main_arg8 (by decide)).trans h.2.2.2.2.2.2.2.2.1,
   (keep7 m ρ c main_arg9 (by decide)).trans h.2.2.2.2.2.2.2.2.2.1,
   (keep7 m ρ c main_arg10 (by decide)).trans h.2.2.2.2.2.2.2.2.2.2.1,
   (keep7 m ρ c main_arg11 (by decide)).trans h.2.2.2.2.2.2.2.2.2.2.2.1,
   (keep7 m ρ c main_arg12 (by decide)).trans h.2.2.2.2.2.2.2.2.2.2.2.2.1,
   (keep7 m ρ c main_arg13 (by decide)).trans h.2.2.2.2.2.2.2.2.2.2.2.2.2.1,
   (keep7 m ρ c main_arg14 (by decide)).trans h.2.2.2.2.2.2.2.2.2.2.2.2.2.2.1,
   (keep7 m ρ c main_arg15 (by decide)).trans h.2.2.2.2.2.2.2.2.2.2.2.2.2.2.2.1,
   (keep7 m ρ c main_arg16 (by decide)).trans h.2.2.2.2.2.2.2.2.2.2.2.2.2.2.2.2.1,
   (keep7 m ρ c main_arg17 (by decide)).trans h.2.2.2.2.2.2.2.2.2.2.2.2.2.2.2.2.2.1,
   (keep7 m ρ c main_arg18 (by decide)).trans h.2.2.2.2.2.2.2.2.2.2.2.2.2.2.2.2.2.2.1,
   (keep7 m ρ c main_arg19 (by decide)).trans h.2.2.2.2.2.2.2.2.2.2.2.2.2.2.2.2.2.2.2⟩

theorem args8 (c : Dev nD) : ArgsAt m (W8 m ρ c) c :=
  have h := args7 m ρ c
  ⟨(keep8 m ρ c main_arg0 (by decide)).trans h.1,
   (keep8 m ρ c main_arg1 (by decide)).trans h.2.1,
   (keep8 m ρ c main_arg2 (by decide)).trans h.2.2.1,
   (keep8 m ρ c main_arg3 (by decide)).trans h.2.2.2.1,
   (keep8 m ρ c main_arg4 (by decide)).trans h.2.2.2.2.1,
   (keep8 m ρ c main_arg5 (by decide)).trans h.2.2.2.2.2.1,
   (keep8 m ρ c main_arg6 (by decide)).trans h.2.2.2.2.2.2.1,
   (keep8 m ρ c main_arg7 (by decide)).trans h.2.2.2.2.2.2.2.1,
   (keep8 m ρ c main_arg8 (by decide)).trans h.2.2.2.2.2.2.2.2.1,
   (keep8 m ρ c main_arg9 (by decide)).trans h.2.2.2.2.2.2.2.2.2.1,
   (keep8 m ρ c main_arg10 (by decide)).trans h.2.2.2.2.2.2.2.2.2.2.1,
   (keep8 m ρ c main_arg11 (by decide)).trans h.2.2.2.2.2.2.2.2.2.2.2.1,
   (keep8 m ρ c main_arg12 (by decide)).trans h.2.2.2.2.2.2.2.2.2.2.2.2.1,
   (keep8 m ρ c main_arg13 (by decide)).trans h.2.2.2.2.2.2.2.2.2.2.2.2.2.1,
   (keep8 m ρ c main_arg14 (by decide)).trans h.2.2.2.2.2.2.2.2.2.2.2.2.2.2.1,
   (keep8 m ρ c main_arg15 (by decide)).trans h.2.2.2.2.2.2.2.2.2.2.2.2.2.2.2.1,
   (keep8 m ρ c main_arg16 (by decide)).trans h.2.2.2.2.2.2.2.2.2.2.2.2.2.2.2.2.1,
   (keep8 m ρ c main_arg17 (by decide)).trans h.2.2.2.2.2.2.2.2.2.2.2.2.2.2.2.2.2.1,
   (keep8 m ρ c main_arg18 (by decide)).trans h.2.2.2.2.2.2.2.2.2.2.2.2.2.2.2.2.2.2.1,
   (keep8 m ρ c main_arg19 (by decide)).trans h.2.2.2.2.2.2.2.2.2.2.2.2.2.2.2.2.2.2.2⟩

theorem args9 (c : Dev nD) : ArgsAt m (W9 m ρ c) c :=
  have h := args8 m ρ c
  ⟨(keep9 m ρ c main_arg0 (by decide)).trans h.1,
   (keep9 m ρ c main_arg1 (by decide)).trans h.2.1,
   (keep9 m ρ c main_arg2 (by decide)).trans h.2.2.1,
   (keep9 m ρ c main_arg3 (by decide)).trans h.2.2.2.1,
   (keep9 m ρ c main_arg4 (by decide)).trans h.2.2.2.2.1,
   (keep9 m ρ c main_arg5 (by decide)).trans h.2.2.2.2.2.1,
   (keep9 m ρ c main_arg6 (by decide)).trans h.2.2.2.2.2.2.1,
   (keep9 m ρ c main_arg7 (by decide)).trans h.2.2.2.2.2.2.2.1,
   (keep9 m ρ c main_arg8 (by decide)).trans h.2.2.2.2.2.2.2.2.1,
   (keep9 m ρ c main_arg9 (by decide)).trans h.2.2.2.2.2.2.2.2.2.1,
   (keep9 m ρ c main_arg10 (by decide)).trans h.2.2.2.2.2.2.2.2.2.2.1,
   (keep9 m ρ c main_arg11 (by decide)).trans h.2.2.2.2.2.2.2.2.2.2.2.1,
   (keep9 m ρ c main_arg12 (by decide)).trans h.2.2.2.2.2.2.2.2.2.2.2.2.1,
   (keep9 m ρ c main_arg13 (by decide)).trans h.2.2.2.2.2.2.2.2.2.2.2.2.2.1,
   (keep9 m ρ c main_arg14 (by decide)).trans h.2.2.2.2.2.2.2.2.2.2.2.2.2.2.1,
   (keep9 m ρ c main_arg15 (by decide)).trans h.2.2.2.2.2.2.2.2.2.2.2.2.2.2.2.1,
   (keep9 m ρ c main_arg16 (by decide)).trans h.2.2.2.2.2.2.2.2.2.2.2.2.2.2.2.2.1,
   (keep9 m ρ c main_arg17 (by decide)).trans h.2.2.2.2.2.2.2.2.2.2.2.2.2.2.2.2.2.1,
   (keep9 m ρ c main_arg18 (by decide)).trans h.2.2.2.2.2.2.2.2.2.2.2.2.2.2.2.2.2.2.1,
   (keep9 m ρ c main_arg19 (by decide)).trans h.2.2.2.2.2.2.2.2.2.2.2.2.2.2.2.2.2.2.2⟩

theorem args10 (c : Dev nD) : ArgsAt m (W10 m ρ c) c :=
  have h := args9 m ρ c
  ⟨(keep10 m ρ c main_arg0 (by decide)).trans h.1,
   (keep10 m ρ c main_arg1 (by decide)).trans h.2.1,
   (keep10 m ρ c main_arg2 (by decide)).trans h.2.2.1,
   (keep10 m ρ c main_arg3 (by decide)).trans h.2.2.2.1,
   (keep10 m ρ c main_arg4 (by decide)).trans h.2.2.2.2.1,
   (keep10 m ρ c main_arg5 (by decide)).trans h.2.2.2.2.2.1,
   (keep10 m ρ c main_arg6 (by decide)).trans h.2.2.2.2.2.2.1,
   (keep10 m ρ c main_arg7 (by decide)).trans h.2.2.2.2.2.2.2.1,
   (keep10 m ρ c main_arg8 (by decide)).trans h.2.2.2.2.2.2.2.2.1,
   (keep10 m ρ c main_arg9 (by decide)).trans h.2.2.2.2.2.2.2.2.2.1,
   (keep10 m ρ c main_arg10 (by decide)).trans h.2.2.2.2.2.2.2.2.2.2.1,
   (keep10 m ρ c main_arg11 (by decide)).trans h.2.2.2.2.2.2.2.2.2.2.2.1,
   (keep10 m ρ c main_arg12 (by decide)).trans h.2.2.2.2.2.2.2.2.2.2.2.2.1,
   (keep10 m ρ c main_arg13 (by decide)).trans h.2.2.2.2.2.2.2.2.2.2.2.2.2.1,
   (keep10 m ρ c main_arg14 (by decide)).trans h.2.2.2.2.2.2.2.2.2.2.2.2.2.2.1,
   (keep10 m ρ c main_arg15 (by decide)).trans h.2.2.2.2.2.2.2.2.2.2.2.2.2.2.2.1,
   (keep10 m ρ c main_arg16 (by decide)).trans h.2.2.2.2.2.2.2.2.2.2.2.2.2.2.2.2.1,
   (keep10 m ρ c main_arg17 (by decide)).trans h.2.2.2.2.2.2.2.2.2.2.2.2.2.2.2.2.2.1,
   (keep10 m ρ c main_arg18 (by decide)).trans h.2.2.2.2.2.2.2.2.2.2.2.2.2.2.2.2.2.2.1,
   (keep10 m ρ c main_arg19 (by decide)).trans h.2.2.2.2.2.2.2.2.2.2.2.2.2.2.2.2.2.2.2⟩

theorem args11 (c : Dev nD) : ArgsAt m (W11 m ρ c) c :=
  have h := args10 m ρ c
  ⟨(keep11 m ρ c main_arg0 (by decide)).trans h.1,
   (keep11 m ρ c main_arg1 (by decide)).trans h.2.1,
   (keep11 m ρ c main_arg2 (by decide)).trans h.2.2.1,
   (keep11 m ρ c main_arg3 (by decide)).trans h.2.2.2.1,
   (keep11 m ρ c main_arg4 (by decide)).trans h.2.2.2.2.1,
   (keep11 m ρ c main_arg5 (by decide)).trans h.2.2.2.2.2.1,
   (keep11 m ρ c main_arg6 (by decide)).trans h.2.2.2.2.2.2.1,
   (keep11 m ρ c main_arg7 (by decide)).trans h.2.2.2.2.2.2.2.1,
   (keep11 m ρ c main_arg8 (by decide)).trans h.2.2.2.2.2.2.2.2.1,
   (keep11 m ρ c main_arg9 (by decide)).trans h.2.2.2.2.2.2.2.2.2.1,
   (keep11 m ρ c main_arg10 (by decide)).trans h.2.2.2.2.2.2.2.2.2.2.1,
   (keep11 m ρ c main_arg11 (by decide)).trans h.2.2.2.2.2.2.2.2.2.2.2.1,
   (keep11 m ρ c main_arg12 (by decide)).trans h.2.2.2.2.2.2.2.2.2.2.2.2.1,
   (keep11 m ρ c main_arg13 (by decide)).trans h.2.2.2.2.2.2.2.2.2.2.2.2.2.1,
   (keep11 m ρ c main_arg14 (by decide)).trans h.2.2.2.2.2.2.2.2.2.2.2.2.2.2.1,
   (keep11 m ρ c main_arg15 (by decide)).trans h.2.2.2.2.2.2.2.2.2.2.2.2.2.2.2.1,
   (keep11 m ρ c main_arg16 (by decide)).trans h.2.2.2.2.2.2.2.2.2.2.2.2.2.2.2.2.1,
   (keep11 m ρ c main_arg17 (by decide)).trans h.2.2.2.2.2.2.2.2.2.2.2.2.2.2.2.2.2.1,
   (keep11 m ρ c main_arg18 (by decide)).trans h.2.2.2.2.2.2.2.2.2.2.2.2.2.2.2.2.2.2.1,
   (keep11 m ρ c main_arg19 (by decide)).trans h.2.2.2.2.2.2.2.2.2.2.2.2.2.2.2.2.2.2.2⟩

theorem args12 (c : Dev nD) : ArgsAt m (W12 m ρ c) c :=
  have h := args11 m ρ c
  ⟨(keep12 m ρ c main_arg0 (by decide)).trans h.1,
   (keep12 m ρ c main_arg1 (by decide)).trans h.2.1,
   (keep12 m ρ c main_arg2 (by decide)).trans h.2.2.1,
   (keep12 m ρ c main_arg3 (by decide)).trans h.2.2.2.1,
   (keep12 m ρ c main_arg4 (by decide)).trans h.2.2.2.2.1,
   (keep12 m ρ c main_arg5 (by decide)).trans h.2.2.2.2.2.1,
   (keep12 m ρ c main_arg6 (by decide)).trans h.2.2.2.2.2.2.1,
   (keep12 m ρ c main_arg7 (by decide)).trans h.2.2.2.2.2.2.2.1,
   (keep12 m ρ c main_arg8 (by decide)).trans h.2.2.2.2.2.2.2.2.1,
   (keep12 m ρ c main_arg9 (by decide)).trans h.2.2.2.2.2.2.2.2.2.1,
   (keep12 m ρ c main_arg10 (by decide)).trans h.2.2.2.2.2.2.2.2.2.2.1,
   (keep12 m ρ c main_arg11 (by decide)).trans h.2.2.2.2.2.2.2.2.2.2.2.1,
   (keep12 m ρ c main_arg12 (by decide)).trans h.2.2.2.2.2.2.2.2.2.2.2.2.1,
   (keep12 m ρ c main_arg13 (by decide)).trans h.2.2.2.2.2.2.2.2.2.2.2.2.2.1,
   (keep12 m ρ c main_arg14 (by decide)).trans h.2.2.2.2.2.2.2.2.2.2.2.2.2.2.1,
   (keep12 m ρ c main_arg15 (by decide)).trans h.2.2.2.2.2.2.2.2.2.2.2.2.2.2.2.1,
   (keep12 m ρ c main_arg16 (by decide)).trans h.2.2.2.2.2.2.2.2.2.2.2.2.2.2.2.2.1,
   (keep12 m ρ c main_arg17 (by decide)).trans h.2.2.2.2.2.2.2.2.2.2.2.2.2.2.2.2.2.1,
   (keep12 m ρ c main_arg18 (by decide)).trans h.2.2.2.2.2.2.2.2.2.2.2.2.2.2.2.2.2.2.1,
   (keep12 m ρ c main_arg19 (by decide)).trans h.2.2.2.2.2.2.2.2.2.2.2.2.2.2.2.2.2.2.2⟩

theorem args13 (c : Dev nD) : ArgsAt m (W13 m ρ c) c :=
  have h := args12 m ρ c
  ⟨(keep13 m ρ c main_arg0 (by decide)).trans h.1,
   (keep13 m ρ c main_arg1 (by decide)).trans h.2.1,
   (keep13 m ρ c main_arg2 (by decide)).trans h.2.2.1,
   (keep13 m ρ c main_arg3 (by decide)).trans h.2.2.2.1,
   (keep13 m ρ c main_arg4 (by decide)).trans h.2.2.2.2.1,
   (keep13 m ρ c main_arg5 (by decide)).trans h.2.2.2.2.2.1,
   (keep13 m ρ c main_arg6 (by decide)).trans h.2.2.2.2.2.2.1,
   (keep13 m ρ c main_arg7 (by decide)).trans h.2.2.2.2.2.2.2.1,
   (keep13 m ρ c main_arg8 (by decide)).trans h.2.2.2.2.2.2.2.2.1,
   (keep13 m ρ c main_arg9 (by decide)).trans h.2.2.2.2.2.2.2.2.2.1,
   (keep13 m ρ c main_arg10 (by decide)).trans h.2.2.2.2.2.2.2.2.2.2.1,
   (keep13 m ρ c main_arg11 (by decide)).trans h.2.2.2.2.2.2.2.2.2.2.2.1,
   (keep13 m ρ c main_arg12 (by decide)).trans h.2.2.2.2.2.2.2.2.2.2.2.2.1,
   (keep13 m ρ c main_arg13 (by decide)).trans h.2.2.2.2.2.2.2.2.2.2.2.2.2.1,
   (keep13 m ρ c main_arg14 (by decide)).trans h.2.2.2.2.2.2.2.2.2.2.2.2.2.2.1,
   (keep13 m ρ c main_arg15 (by decide)).trans h.2.2.2.2.2.2.2.2.2.2.2.2.2.2.2.1,
   (keep13 m ρ c main_arg16 (by decide)).trans h.2.2.2.2.2.2.2.2.2.2.2.2.2.2.2.2.1,
   (keep13 m ρ c main_arg17 (by decide)).trans h.2.2.2.2.2.2.2.2.2.2.2.2.2.2.2.2.2.1,
   (keep13 m ρ c main_arg18 (by decide)).trans h.2.2.2.2.2.2.2.2.2.2.2.2.2.2.2.2.2.2.1,
   (keep13 m ρ c main_arg19 (by decide)).trans h.2.2.2.2.2.2.2.2.2.2.2.2.2.2.2.2.2.2.2⟩

theorem args14 (c : Dev nD) : ArgsAt m (W14 m ρ c) c :=
  have h := args13 m ρ c
  ⟨(keep14 m ρ c main_arg0 (by decide)).trans h.1,
   (keep14 m ρ c main_arg1 (by decide)).trans h.2.1,
   (keep14 m ρ c main_arg2 (by decide)).trans h.2.2.1,
   (keep14 m ρ c main_arg3 (by decide)).trans h.2.2.2.1,
   (keep14 m ρ c main_arg4 (by decide)).trans h.2.2.2.2.1,
   (keep14 m ρ c main_arg5 (by decide)).trans h.2.2.2.2.2.1,
   (keep14 m ρ c main_arg6 (by decide)).trans h.2.2.2.2.2.2.1,
   (keep14 m ρ c main_arg7 (by decide)).trans h.2.2.2.2.2.2.2.1,
   (keep14 m ρ c main_arg8 (by decide)).trans h.2.2.2.2.2.2.2.2.1,
   (keep14 m ρ c main_arg9 (by decide)).trans h.2.2.2.2.2.2.2.2.2.1,
   (keep14 m ρ c main_arg10 (by decide)).trans h.2.2.2.2.2.2.2.2.2.2.1,
   (keep14 m ρ c main_arg11 (by decide)).trans h.2.2.2.2.2.2.2.2.2.2.2.1,
   (keep14 m ρ c main_arg12 (by decide)).trans h.2.2.2.2.2.2.2.2.2.2.2.2.1,
   (keep14 m ρ c main_arg13 (by decide)).trans h.2.2.2.2.2.2.2.2.2.2.2.2.2.1,
   (keep14 m ρ c main_arg14 (by decide)).trans h.2.2.2.2.2.2.2.2.2.2.2.2.2.2.1,
   (keep14 m ρ c main_arg15 (by decide)).trans h.2.2.2.2.2.2.2.2.2.2.2.2.2.2.2.1,
   (keep14 m ρ c main_arg16 (by decide)).trans h.2.2.2.2.2.2.2.2.2.2.2.2.2.2.2.2.1,
   (keep14 m ρ c main_arg17 (by decide)).trans h.2.2.2.2.2.2.2.2.2.2.2.2.2.2.2.2.2.1,
   (keep14 m ρ c main_arg18 (by decide)).trans h.2.2.2.2.2.2.2.2.2.2.2.2.2.2.2.2.2.2.1,
   (keep14 m ρ c main_arg19 (by decide)).trans h.2.2.2.2.2.2.2.2.2.2.2.2.2.2.2.2.2.2.2⟩

theorem args15 (c : Dev nD) : ArgsAt m (W15 m ρ c) c :=
  have h := args14 m ρ c
  ⟨(keep15 m ρ c main_arg0 (by decide)).trans h.1,
   (keep15 m ρ c main_arg1 (by decide)).trans h.2.1,
   (keep15 m ρ c main_arg2 (by decide)).trans h.2.2.1,
   (keep15 m ρ c main_arg3 (by decide)).trans h.2.2.2.1,
   (keep15 m ρ c main_arg4 (by decide)).trans h.2.2.2.2.1,
   (keep15 m ρ c main_arg5 (by decide)).trans h.2.2.2.2.2.1,
   (keep15 m ρ c main_arg6 (by decide)).trans h.2.2.2.2.2.2.1,
   (keep15 m ρ c main_arg7 (by decide)).trans h.2.2.2.2.2.2.2.1,
   (keep15 m ρ c main_arg8 (by decide)).trans h.2.2.2.2.2.2.2.2.1,
   (keep15 m ρ c main_arg9 (by decide)).trans h.2.2.2.2.2.2.2.2.2.1,
   (keep15 m ρ c main_arg10 (by decide)).trans h.2.2.2.2.2.2.2.2.2.2.1,
   (keep15 m ρ c main_arg11 (by decide)).trans h.2.2.2.2.2.2.2.2.2.2.2.1,
   (keep15 m ρ c main_arg12 (by decide)).trans h.2.2.2.2.2.2.2.2.2.2.2.2.1,
   (keep15 m ρ c main_arg13 (by decide)).trans h.2.2.2.2.2.2.2.2.2.2.2.2.2.1,
   (keep15 m ρ c main_arg14 (by decide)).trans h.2.2.2.2.2.2.2.2.2.2.2.2.2.2.1,
   (keep15 m ρ c main_arg15 (by decide)).trans h.2.2.2.2.2.2.2.2.2.2.2.2.2.2.2.1,
   (keep15 m ρ c main_arg16 (by decide)).trans h.2.2.2.2.2.2.2.2.2.2.2.2.2.2.2.2.1,
   (keep15 m ρ c main_arg17 (by decide)).trans h.2.2.2.2.2.2.2.2.2.2.2.2.2.2.2.2.2.1,
   (keep15 m ρ c main_arg18 (by decide)).trans h.2.2.2.2.2.2.2.2.2.2.2.2.2.2.2.2.2.2.1,
   (keep15 m ρ c main_arg19 (by decide)).trans h.2.2.2.2.2.2.2.2.2.2.2.2.2.2.2.2.2.2.2⟩

theorem args16 (c : Dev nD) : ArgsAt m (W16 m ρ c) c :=
  have h := args15 m ρ c
  ⟨(keep16 m ρ c main_arg0 (by decide)).trans h.1,
   (keep16 m ρ c main_arg1 (by decide)).trans h.2.1,
   (keep16 m ρ c main_arg2 (by decide)).trans h.2.2.1,
   (keep16 m ρ c main_arg3 (by decide)).trans h.2.2.2.1,
   (keep16 m ρ c main_arg4 (by decide)).trans h.2.2.2.2.1,
   (keep16 m ρ c main_arg5 (by decide)).trans h.2.2.2.2.2.1,
   (keep16 m ρ c main_arg6 (by decide)).trans h.2.2.2.2.2.2.1,
   (keep16 m ρ c main_arg7 (by decide)).trans h.2.2.2.2.2.2.2.1,
   (keep16 m ρ c main_arg8 (by decide)).trans h.2.2.2.2.2.2.2.2.1,
   (keep16 m ρ c main_arg9 (by decide)).trans h.2.2.2.2.2.2.2.2.2.1,
   (keep16 m ρ c main_arg10 (by decide)).trans h.2.2.2.2.2.2.2.2.2.2.1,
   (keep16 m ρ c main_arg11 (by decide)).trans h.2.2.2.2.2.2.2.2.2.2.2.1,
   (keep16 m ρ c main_arg12 (by decide)).trans h.2.2.2.2.2.2.2.2.2.2.2.2.1,
   (keep16 m ρ c main_arg13 (by decide)).trans h.2.2.2.2.2.2.2.2.2.2.2.2.2.1,
   (keep16 m ρ c main_arg14 (by decide)).trans h.2.2.2.2.2.2.2.2.2.2.2.2.2.2.1,
   (keep16 m ρ c main_arg15 (by decide)).trans h.2.2.2.2.2.2.2.2.2.2.2.2.2.2.2.1,
   (keep16 m ρ c main_arg16 (by decide)).trans h.2.2.2.2.2.2.2.2.2.2.2.2.2.2.2.2.1,
   (keep16 m ρ c main_arg17 (by decide)).trans h.2.2.2.2.2.2.2.2.2.2.2.2.2.2.2.2.2.1,
   (keep16 m ρ c main_arg18 (by decide)).trans h.2.2.2.2.2.2.2.2.2.2.2.2.2.2.2.2.2.2.1,
   (keep16 m ρ c main_arg19 (by decide)).trans h.2.2.2.2.2.2.2.2.2.2.2.2.2.2.2.2.2.2.2⟩

theorem args17 (c : Dev nD) : ArgsAt m (W17 m ρ c) c :=
  have h := args16 m ρ c
  ⟨(keep17 m ρ c main_arg0 (by decide)).trans h.1,
   (keep17 m ρ c main_arg1 (by decide)).trans h.2.1,
   (keep17 m ρ c main_arg2 (by decide)).trans h.2.2.1,
   (keep17 m ρ c main_arg3 (by decide)).trans h.2.2.2.1,
   (keep17 m ρ c main_arg4 (by decide)).trans h.2.2.2.2.1,
   (keep17 m ρ c main_arg5 (by decide)).trans h.2.2.2.2.2.1,
   (keep17 m ρ c main_arg6 (by decide)).trans h.2.2.2.2.2.2.1,
   (keep17 m ρ c main_arg7 (by decide)).trans h.2.2.2.2.2.2.2.1,
   (keep17 m ρ c main_arg8 (by decide)).trans h.2.2.2.2.2.2.2.2.1,
   (keep17 m ρ c main_arg9 (by decide)).trans h.2.2.2.2.2.2.2.2.2.1,
   (keep17 m ρ c main_arg10 (by decide)).trans h.2.2.2.2.2.2.2.2.2.2.1,
   (keep17 m ρ c main_arg11 (by decide)).trans h.2.2.2.2.2.2.2.2.2.2.2.1,
   (keep17 m ρ c main_arg12 (by decide)).trans h.2.2.2.2.2.2.2.2.2.2.2.2.1,
   (keep17 m ρ c main_arg13 (by decide)).trans h.2.2.2.2.2.2.2.2.2.2.2.2.2.1,
   (keep17 m ρ c main_arg14 (by decide)).trans h.2.2.2.2.2.2.2.2.2.2.2.2.2.2.1,
   (keep17 m ρ c main_arg15 (by decide)).trans h.2.2.2.2.2.2.2.2.2.2.2.2.2.2.2.1,
   (keep17 m ρ c main_arg16 (by decide)).trans h.2.2.2.2.2.2.2.2.2.2.2.2.2.2.2.2.1,
   (keep17 m ρ c main_arg17 (by decide)).trans h.2.2.2.2.2.2.2.2.2.2.2.2.2.2.2.2.2.1,
   (keep17 m ρ c main_arg18 (by decide)).trans h.2.2.2.2.2.2.2.2.2.2.2.2.2.2.2.2.2.2.1,
   (keep17 m ρ c main_arg19 (by decide)).trans h.2.2.2.2.2.2.2.2.2.2.2.2.2.2.2.2.2.2.2⟩

theorem args18 (c : Dev nD) : ArgsAt m (W18 m ρ c) c :=
  have h := args17 m ρ c
  ⟨(keep18 m ρ c main_arg0 (by decide)).trans h.1,
   (keep18 m ρ c main_arg1 (by decide)).trans h.2.1,
   (keep18 m ρ c main_arg2 (by decide)).trans h.2.2.1,
   (keep18 m ρ c main_arg3 (by decide)).trans h.2.2.2.1,
   (keep18 m ρ c main_arg4 (by decide)).trans h.2.2.2.2.1,
   (keep18 m ρ c main_arg5 (by decide)).trans h.2.2.2.2.2.1,
   (keep18 m ρ c main_arg6 (by decide)).trans h.2.2.2.2.2.2.1,
   (keep18 m ρ c main_arg7 (by decide)).trans h.2.2.2.2.2.2.2.1,
   (keep18 m ρ c main_arg8 (by decide)).trans h.2.2.2.2.2.2.2.2.1,
   (keep18 m ρ c main_arg9 (by decide)).trans h.2.2.2.2.2.2.2.2.2.1,
   (keep18 m ρ c main_arg10 (by decide)).trans h.2.2.2.2.2.2.2.2.2.2.1,
   (keep18 m ρ c main_arg11 (by decide)).trans h.2.2.2.2.2.2.2.2.2.2.2.1,
   (keep18 m ρ c main_arg12 (by decide)).trans h.2.2.2.2.2.2.2.2.2.2.2.2.1,
   (keep18 m ρ c main_arg13 (by decide)).trans h.2.2.2.2.2.2.2.2.2.2.2.2.2.1,
   (keep18 m ρ c main_arg14 (by decide)).trans h.2.2.2.2.2.2.2.2.2.2.2.2.2.2.1,
   (keep18 m ρ c main_arg15 (by decide)).trans h.2.2.2.2.2.2.2.2.2.2.2.2.2.2.2.1,
   (keep18 m ρ c main_arg16 (by decide)).trans h.2.2.2.2.2.2.2.2.2.2.2.2.2.2.2.2.1,
   (keep18 m ρ c main_arg17 (by decide)).trans h.2.2.2.2.2.2.2.2.2.2.2.2.2.2.2.2.2.1,
   (keep18 m ρ c main_arg18 (by decide)).trans h.2.2.2.2.2.2.2.2.2.2.2.2.2.2.2.2.2.2.1,
   (keep18 m ρ c main_arg19 (by decide)).trans h.2.2.2.2.2.2.2.2.2.2.2.2.2.2.2.2.2.2.2⟩

theorem args19 (c : Dev nD) : ArgsAt m (W19 m ρ c) c :=
  have h := args18 m ρ c
  ⟨(keep19 m ρ c main_arg0 (by decide)).trans h.1,
   (keep19 m ρ c main_arg1 (by decide)).trans h.2.1,
   (keep19 m ρ c main_arg2 (by decide)).trans h.2.2.1,
   (keep19 m ρ c main_arg3 (by decide)).trans h.2.2.2.1,
   (keep19 m ρ c main_arg4 (by decide)).trans h.2.2.2.2.1,
   (keep19 m ρ c main_arg5 (by decide)).trans h.2.2.2.2.2.1,
   (keep19 m ρ c main_arg6 (by decide)).trans h.2.2.2.2.2.2.1,
   (keep19 m ρ c main_arg7 (by decide)).trans h.2.2.2.2.2.2.2.1,
   (keep19 m ρ c main_arg8 (by decide)).trans h.2.2.2.2.2.2.2.2.1,
   (keep19 m ρ c main_arg9 (by decide)).trans h.2.2.2.2.2.2.2.2.2.1,
   (keep19 m ρ c main_arg10 (by decide)).trans h.2.2.2.2.2.2.2.2.2.2.1,
   (keep19 m ρ c main_arg11 (by decide)).trans h.2.2.2.2.2.2.2.2.2.2.2.1,
   (keep19 m ρ c main_arg12 (by decide)).trans h.2.2.2.2.2.2.2.2.2.2.2.2.1,
   (keep19 m ρ c main_arg13 (by decide)).trans h.2.2.2.2.2.2.2.2.2.2.2.2.2.1,
   (keep19 m ρ c main_arg14 (by decide)).trans h.2.2.2.2.2.2.2.2.2.2.2.2.2.2.1,
   (keep19 m ρ c main_arg15 (by decide)).trans h.2.2.2.2.2.2.2.2.2.2.2.2.2.2.2.1,
   (keep19 m ρ c main_arg16 (by decide)).trans h.2.2.2.2.2.2.2.2.2.2.2.2.2.2.2.2.1,
   (keep19 m ρ c main_arg17 (by decide)).trans h.2.2.2.2.2.2.2.2.2.2.2.2.2.2.2.2.2.1,
   (keep19 m ρ c main_arg18 (by decide)).trans h.2.2.2.2.2.2.2.2.2.2.2.2.2.2.2.2.2.2.1,
   (keep19 m ρ c main_arg19 (by decide)).trans h.2.2.2.2.2.2.2.2.2.2.2.2.2.2.2.2.2.2.2⟩

theorem args20 (c : Dev nD) : ArgsAt m (W20 m ρ c) c :=
  have h := args19 m ρ c
  ⟨(keep20 m ρ c main_arg0 (by decide)).trans h.1,
   (keep20 m ρ c main_arg1 (by decide)).trans h.2.1,
   (keep20 m ρ c main_arg2 (by decide)).trans h.2.2.1,
   (keep20 m ρ c main_arg3 (by decide)).trans h.2.2.2.1,
   (keep20 m ρ c main_arg4 (by decide)).trans h.2.2.2.2.1,
   (keep20 m ρ c main_arg5 (by decide)).trans h.2.2.2.2.2.1,
   (keep20 m ρ c main_arg6 (by decide)).trans h.2.2.2.2.2.2.1,
   (keep20 m ρ c main_arg7 (by decide)).trans h.2.2.2.2.2.2.2.1,
   (keep20 m ρ c main_arg8 (by decide)).trans h.2.2.2.2.2.2.2.2.1,
   (keep20 m ρ c main_arg9 (by decide)).trans h.2.2.2.2.2.2.2.2.2.1,
   (keep20 m ρ c main_arg10 (by decide)).trans h.2.2.2.2.2.2.2.2.2.2.1,
   (keep20 m ρ c main_arg11 (by decide)).trans h.2.2.2.2.2.2.2.2.2.2.2.1,
   (keep20 m ρ c main_arg12 (by decide)).trans h.2.2.2.2.2.2.2.2.2.2.2.2.1,
   (keep20 m ρ c main_arg13 (by decide)).trans h.2.2.2.2.2.2.2.2.2.2.2.2.2.1,
   (keep20 m ρ c main_arg14 (by decide)).trans h.2.2.2.2.2.2.2.2.2.2.2.2.2.2.1,
   (keep20 m ρ c main_arg15 (by decide)).trans h.2.2.2.2.2.2.2.2.2.2.2.2.2.2.2.1,
   (keep20 m ρ c main_arg16 (by decide)).trans h.2.2.2.2.2.2.2.2.2.2.2.2.2.2.2.2.1,
   (keep20 m ρ c main_arg17 (by decide)).trans h.2.2.2.2.2.2.2.2.2.2.2.2.2.2.2.2.2.1,
   (keep20 m ρ c main_arg18 (by decide)).trans h.2.2.2.2.2.2.2.2.2.2.2.2.2.2.2.2.2.2.1,
   (keep20 m ρ c main_arg19 (by decide)).trans h.2.2.2.2.2.2.2.2.2.2.2.2.2.2.2.2.2.2.2⟩

theorem args21 (c : Dev nD) : ArgsAt m (W21 m ρ c) c :=
  have h := args20 m ρ c
  ⟨(keep21 m ρ c main_arg0 (by decide)).trans h.1,
   (keep21 m ρ c main_arg1 (by decide)).trans h.2.1,
   (keep21 m ρ c main_arg2 (by decide)).trans h.2.2.1,
   (keep21 m ρ c main_arg3 (by decide)).trans h.2.2.2.1,
   (keep21 m ρ c main_arg4 (by decide)).trans h.2.2.2.2.1,
   (keep21 m ρ c main_arg5 (by decide)).trans h.2.2.2.2.2.1,
   (keep21 m ρ c main_arg6 (by decide)).trans h.2.2.2.2.2.2.1,
   (keep21 m ρ c main_arg7 (by decide)).trans h.2.2.2.2.2.2.2.1,
   (keep21 m ρ c main_arg8 (by decide)).trans h.2.2.2.2.2.2.2.2.1,
   (keep21 m ρ c main_arg9 (by decide)).trans h.2.2.2.2.2.2.2.2.2.1,
   (keep21 m ρ c main_arg10 (by decide)).trans h.2.2.2.2.2.2.2.2.2.2.1,
   (keep21 m ρ c main_arg11 (by decide)).trans h.2.2.2.2.2.2.2.2.2.2.2.1,
   (keep21 m ρ c main_arg12 (by decide)).trans h.2.2.2.2.2.2.2.2.2.2.2.2.1,
   (keep21 m ρ c main_arg13 (by decide)).trans h.2.2.2.2.2.2.2.2.2.2.2.2.2.1,
   (keep21 m ρ c main_arg14 (by decide)).trans h.2.2.2.2.2.2.2.2.2.2.2.2.2.2.1,
   (keep21 m ρ c main_arg15 (by decide)).trans h.2.2.2.2.2.2.2.2.2.2.2.2.2.2.2.1,
   (keep21 m ρ c main_arg16 (by decide)).trans h.2.2.2.2.2.2.2.2.2.2.2.2.2.2.2.2.1,
   (keep21 m ρ c main_arg17 (by decide)).trans h.2.2.2.2.2.2.2.2.2.2.2.2.2.2.2.2.2.1,
   (keep21 m ρ c main_arg18 (by decide)).trans h.2.2.2.2.2.2.2.2.2.2.2.2.2.2.2.2.2.2.1,
   (keep21 m ρ c main_arg19 (by decide)).trans h.2.2.2.2.2.2.2.2.2.2.2.2.2.2.2.2.2.2.2⟩

theorem args22 (c : Dev nD) : ArgsAt m (W22 m ρ c) c :=
  have h := args21 m ρ c
  ⟨(keep22 m ρ c main_arg0 (by decide)).trans h.1,
   (keep22 m ρ c main_arg1 (by decide)).trans h.2.1,
   (keep22 m ρ c main_arg2 (by decide)).trans h.2.2.1,
   (keep22 m ρ c main_arg3 (by decide)).trans h.2.2.2.1,
   (keep22 m ρ c main_arg4 (by decide)).trans h.2.2.2.2.1,
   (keep22 m ρ c main_arg5 (by decide)).trans h.2.2.2.2.2.1,
   (keep22 m ρ c main_arg6 (by decide)).trans h.2.2.2.2.2.2.1,
   (keep22 m ρ c main_arg7 (by decide)).trans h.2.2.2.2.2.2.2.1,
   (keep22 m ρ c main_arg8 (by decide)).trans h.2.2.2.2.2.2.2.2.1,
   (keep22 m ρ c main_arg9 (by decide)).trans h.2.2.2.2.2.2.2.2.2.1,
   (keep22 m ρ c main_arg10 (by decide)).trans h.2.2.2.2.2.2.2.2.2.2.1,
   (keep22 m ρ c main_arg11 (by decide)).trans h.2.2.2.2.2.2.2.2.2.2.2.1,
   (keep22 m ρ c main_arg12 (by decide)).trans h.2.2.2.2.2.2.2.2.2.2.2.2.1,
   (keep22 m ρ c main_arg13 (by decide)).trans h.2.2.2.2.2.2.2.2.2.2.2.2.2.1,
   (keep22 m ρ c main_arg14 (by decide)).trans h.2.2.2.2.2.2.2.2.2.2.2.2.2.2.1,
   (keep22 m ρ c main_arg15 (by decide)).trans h.2.2.2.2.2.2.2.2.2.2.2.2.2.2.2.1,
   (keep22 m ρ c main_arg16 (by decide)).trans h.2.2.2.2.2.2.2.2.2.2.2.2.2.2.2.2.1,
   (keep22 m ρ c main_arg17 (by decide)).trans h.2.2.2.2.2.2.2.2.2.2.2.2.2.2.2.2.2.1,
   (keep22 m ρ c main_arg18 (by decide)).trans h.2.2.2.2.2.2.2.2.2.2.2.2.2.2.2.2.2.2.1,
   (keep22 m ρ c main_arg19 (by decide)).trans h.2.2.2.2.2.2.2.2.2.2.2.2.2.2.2.2.2.2.2⟩

theorem args23 (c : Dev nD) : ArgsAt m (W23 m ρ c) c :=
  have h := args22 m ρ c
  ⟨(keep23 m ρ c main_arg0 (by decide)).trans h.1,
   (keep23 m ρ c main_arg1 (by decide)).trans h.2.1,
   (keep23 m ρ c main_arg2 (by decide)).trans h.2.2.1,
   (keep23 m ρ c main_arg3 (by decide)).trans h.2.2.2.1,
   (keep23 m ρ c main_arg4 (by decide)).trans h.2.2.2.2.1,
   (keep23 m ρ c main_arg5 (by decide)).trans h.2.2.2.2.2.1,
   (keep23 m ρ c main_arg6 (by decide)).trans h.2.2.2.2.2.2.1,
   (keep23 m ρ c main_arg7 (by decide)).trans h.2.2.2.2.2.2.2.1,
   (keep23 m ρ c main_arg8 (by decide)).trans h.2.2.2.2.2.2.2.2.1,
   (keep23 m ρ c main_arg9 (by decide)).trans h.2.2.2.2.2.2.2.2.2.1,
   (keep23 m ρ c main_arg10 (by decide)).trans h.2.2.2.2.2.2.2.2.2.2.1,
   (keep23 m ρ c main_arg11 (by decide)).trans h.2.2.2.2.2.2.2.2.2.2.2.1,
   (keep23 m ρ c main_arg12 (by decide)).trans h.2.2.2.2.2.2.2.2.2.2.2.2.1,
   (keep23 m ρ c main_arg13 (by decide)).trans h.2.2.2.2.2.2.2.2.2.2.2.2.2.1,
   (keep23 m ρ c main_arg14 (by decide)).trans h.2.2.2.2.2.2.2.2.2.2.2.2.2.2.1,
   (keep23 m ρ c main_arg15 (by decide)).trans h.2.2.2.2.2.2.2.2.2.2.2.2.2.2.2.1,
   (keep23 m ρ c main_arg16 (by decide)).trans h.2.2.2.2.2.2.2.2.2.2.2.2.2.2.2.2.1,
   (keep23 m ρ c main_arg17 (by decide)).trans h.2.2.2.2.2.2.2.2.2.2.2.2.2.2.2.2.2.1,
   (keep23 m ρ c main_arg18 (by decide)).trans h.2.2.2.2.2.2.2.2.2.2.2.2.2.2.2.2.2.2.1,
   (keep23 m ρ c main_arg19 (by decide)).trans h.2.2.2.2.2.2.2.2.2.2.2.2.2.2.2.2.2.2.2⟩

theorem args24 (c : Dev nD) : ArgsAt m (W24 m ρ c) c :=
  have h := args23 m ρ c
  ⟨(keep24 m ρ c main_arg0 (by decide)).trans h.1,
   (keep24 m ρ c main_arg1 (by decide)).trans h.2.1,
   (keep24 m ρ c main_arg2 (by decide)).trans h.2.2.1,
   (keep24 m ρ c main_arg3 (by decide)).trans h.2.2.2.1,
   (keep24 m ρ c main_arg4 (by decide)).trans h.2.2.2.2.1,
   (keep24 m ρ c main_arg5 (by decide)).trans h.2.2.2.2.2.1,
   (keep24 m ρ c main_arg6 (by decide)).trans h.2.2.2.2.2.2.1,
   (keep24 m ρ c main_arg7 (by decide)).trans h.2.2.2.2.2.2.2.1,
   (keep24 m ρ c main_arg8 (by decide)).trans h.2.2.2.2.2.2.2.2.1,
   (keep24 m ρ c main_arg9 (by decide)).trans h.2.2.2.2.2.2.2.2.2.1,
   (keep24 m ρ c main_arg10 (by decide)).trans h.2.2.2.2.2.2.2.2.2.2.1,
   (keep24 m ρ c main_arg11 (by decide)).trans h.2.2.2.2.2.2.2.2.2.2.2.1,
   (keep24 m ρ c main_arg12 (by decide)).trans h.2.2.2.2.2.2.2.2.2.2.2.2.1,
   (keep24 m ρ c main_arg13 (by decide)).trans h.2.2.2.2.2.2.2.2.2.2.2.2.2.1,
   (keep24 m ρ c main_arg14 (by decide)).trans h.2.2.2.2.2.2.2.2.2.2.2.2.2.2.1,
   (keep24 m ρ c main_arg15 (by decide)).trans h.2.2.2.2.2.2.2.2.2.2.2.2.2.2.2.1,
   (keep24 m ρ c main_arg16 (by decide)).trans h.2.2.2.2.2.2.2.2.2.2.2.2.2.2.2.2.1,
   (keep24 m ρ c main_arg17 (by decide)).trans h.2.2.2.2.2.2.2.2.2.2.2.2.2.2.2.2.2.1,
   (keep24 m ρ c main_arg18 (by decide)).trans h.2.2.2.2.2.2.2.2.2.2.2.2.2.2.2.2.2.2.1,
   (keep24 m ρ c main_arg19 (by decide)).trans h.2.2.2.2.2.2.2.2.2.2.2.2.2.2.2.2.2.2.2⟩

theorem args25 (c : Dev nD) : ArgsAt m (W25 m ρ c) c :=
  have h := args24 m ρ c
  ⟨(keep25 m ρ c main_arg0 (by decide)).trans h.1,
   (keep25 m ρ c main_arg1 (by decide)).trans h.2.1,
   (keep25 m ρ c main_arg2 (by decide)).trans h.2.2.1,
   (keep25 m ρ c main_arg3 (by decide)).trans h.2.2.2.1,
   (keep25 m ρ c main_arg4 (by decide)).trans h.2.2.2.2.1,
   (keep25 m ρ c main_arg5 (by decide)).trans h.2.2.2.2.2.1,
   (keep25 m ρ c main_arg6 (by decide)).trans h.2.2.2.2.2.2.1,
   (keep25 m ρ c main_arg7 (by decide)).trans h.2.2.2.2.2.2.2.1,
   (keep25 m ρ c main_arg8 (by decide)).trans h.2.2.2.2.2.2.2.2.1,
   (keep25 m ρ c main_arg9 (by decide)).trans h.2.2.2.2.2.2.2.2.2.1,
   (keep25 m ρ c main_arg10 (by decide)).trans h.2.2.2.2.2.2.2.2.2.2.1,
   (keep25 m ρ c main_arg11 (by decide)).trans h.2.2.2.2.2.2.2.2.2.2.2.1,
   (keep25 m ρ c main_arg12 (by decide)).trans h.2.2.2.2.2.2.2.2.2.2.2.2.1,
   (keep25 m ρ c main_arg13 (by decide)).trans h.2.2.2.2.2.2.2.2.2.2.2.2.2.1,
   (keep25 m ρ c main_arg14 (by decide)).trans h.2.2.2.2.2.2.2.2.2.2.2.2.2.2.1,
   (keep25 m ρ c main_arg15 (by decide)).trans h.2.2.2.2.2.2.2.2.2.2.2.2.2.2.2.1,
   (keep25 m ρ c main_arg16 (by decide)).trans h.2.2.2.2.2.2.2.2.2.2.2.2.2.2.2.2.1,
   (keep25 m ρ c main_arg17 (by decide)).trans h.2.2.2.2.2.2.2.2.2.2.2.2.2.2.2.2.2.1,
   (keep25 m ρ c main_arg18 (by decide)).trans h.2.2.2.2.2.2.2.2.2.2.2.2.2.2.2.2.2.2.1,
   (keep25 m ρ c main_arg19 (by decide)).trans h.2.2.2.2.2.2.2.2.2.2.2.2.2.2.2.2.2.2.2⟩

theorem args26 (c : Dev nD) : ArgsAt m (W26 m ρ c) c :=
  have h := args25 m ρ c
  ⟨(keep26 m ρ c main_arg0 (by decide)).trans h.1,
   (keep26 m ρ c main_arg1 (by decide)).trans h.2.1,
   (keep26 m ρ c main_arg2 (by decide)).trans h.2.2.1,
   (keep26 m ρ c main_arg3 (by decide)).trans h.2.2.2.1,
   (keep26 m ρ c main_arg4 (by decide)).trans h.2.2.2.2.1,
   (keep26 m ρ c main_arg5 (by decide)).trans h.2.2.2.2.2.1,
   (keep26 m ρ c main_arg6 (by decide)).trans h.2.2.2.2.2.2.1,
   (keep26 m ρ c main_arg7 (by decide)).trans h.2.2.2.2.2.2.2.1,
   (keep26 m ρ c main_arg8 (by decide)).trans h.2.2.2.2.2.2.2.2.1,
   (keep26 m ρ c main_arg9 (by decide)).trans h.2.2.2.2.2.2.2.2.2.1,
   (keep26 m ρ c main_arg10 (by decide)).trans h.2.2.2.2.2.2.2.2.2.2.1,
   (keep26 m ρ c main_arg11 (by decide)).trans h.2.2.2.2.2.2.2.2.2.2.2.1,
   (keep26 m ρ c main_arg12 (by decide)).trans h.2.2.2.2.2.2.2.2.2.2.2.2.1,
   (keep26 m ρ c main_arg13 (by decide)).trans h.2.2.2.2.2.2.2.2.2.2.2.2.2.1,
   (keep26 m ρ c main_arg14 (by decide)).trans h.2.2.2.2.2.2.2.2.2.2.2.2.2.2.1,
   (keep26 m ρ c main_arg15 (by decide)).trans h.2.2.2.2.2.2.2.2.2.2.2.2.2.2.2.1,
   (keep26 m ρ c main_arg16 (by decide)).trans h.2.2.2.2.2.2.2.2.2.2.2.2.2.2.2.2.1,
   (keep26 m ρ c main_arg17 (by decide)).trans h.2.2.2.2.2.2.2.2.2.2.2.2.2.2.2.2.2.1,
   (keep26 m ρ c main_arg18 (by decide)).trans h.2.2.2.2.2.2.2.2.2.2.2.2.2.2.2.2.2.2.1,
   (keep26 m ρ c main_arg19 (by decide)).trans h.2.2.2.2.2.2.2.2.2.2.2.2.2.2.2.2.2.2.2⟩

theorem args27 (c : Dev nD) : ArgsAt m (W27 m ρ c) c :=
  have h := args26 m ρ c
  ⟨(keep27 m ρ c main_arg0 (by decide)).trans h.1,
   (keep27 m ρ c main_arg1 (by decide)).trans h.2.1,
   (keep27 m ρ c main_arg2 (by decide)).trans h.2.2.1,
   (keep27 m ρ c main_arg3 (by decide)).trans h.2.2.2.1,
   (keep27 m ρ c main_arg4 (by decide)).trans h.2.2.2.2.1,
   (keep27 m ρ c main_arg5 (by decide)).trans h.2.2.2.2.2.1,
   (keep27 m ρ c main_arg6 (by decide)).trans h.2.2.2.2.2.2.1,
   (keep27 m ρ c main_arg7 (by decide)).trans h.2.2.2.2.2.2.2.1,
   (keep27 m ρ c main_arg8 (by decide)).trans h.2.2.2.2.2.2.2.2.1,
   (keep27 m ρ c main_arg9 (by decide)).trans h.2.2.2.2.2.2.2.2.2.1,
   (keep27 m ρ c main_arg10 (by decide)).trans h.2.2.2.2.2.2.2.2.2.2.1,
   (keep27 m ρ c main_arg11 (by decide)).trans h.2.2.2.2.2.2.2.2.2.2.2.1,
   (keep27 m ρ c main_arg12 (by decide)).trans h.2.2.2.2.2.2.2.2.2.2.2.2.1,
   (keep27 m ρ c main_arg13 (by decide)).trans h.2.2.2.2.2.2.2.2.2.2.2.2.2.1,
   (keep27 m ρ c main_arg14 (by decide)).trans h.2.2.2.2.2.2.2.2.2.2.2.2.2.2.1,
   (keep27 m ρ c main_arg15 (by decide)).trans h.2.2.2.2.2.2.2.2.2.2.2.2.2.2.2.1,
   (keep27 m ρ c main_arg16 (by decide)).trans h.2.2.2.2.2.2.2.2.2.2.2.2.2.2.2.2.1,
   (keep27 m ρ c main_arg17 (by decide)).trans h.2.2.2.2.2.2.2.2.2.2.2.2.2.2.2.2.2.1,
   (keep27 m ρ c main_arg18 (by decide)).trans h.2.2.2.2.2.2.2.2.2.2.2.2.2.2.2.2.2.2.1,
   (keep27 m ρ c main_arg19 (by decide)).trans h.2.2.2.2.2.2.2.2.2.2.2.2.2.2.2.2.2.2.2⟩

end Cert.KernelIdeal.Keep
-- ==== Proof.RegMlp0.lean ====
/-
  Region 0: the first node perceptron, row tile by row tile.

  The grid has ten points; point t holds rows [5000 t, 5000 t + 5000) of the [50000, 16] input, the two weight
  matrices and the two bias rows whole, and writes rows [5000 t, 5000 t + 5000) of the [50000, 64] output.
  On its tile the body computes x W1 + b1, the positive part, then (.) W2 + b2.  Entry (r, j) of each of these
  layers reads only row r of its argument, so the tile of the layers of the whole input is the layers of the tile,
  and the ten tiles fill the output: the array after the region is the two-layer perceptron of the whole input.
-/
import proofs.«429355_j34995393528525_1_alg».proof.Proof.Gen.KernelIdeal.Frame
import proofs.«429355_j34995393528525_1_alg».proof.Proof.Spec
import proofs.«429355_j34995393528525_1_alg».proof.Proof.OpsDense
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace Mlp0

/-! ## The layers read one row at a time -/

/-- Entry (r, j) of a linear layer reads only row r of its argument: if row p of xt is row r of x, the layer of xt
    at (p, j) is the layer of x at (r, j). -/
theorem denseRow_row {T N A B : Nat} (xt : Gnn.Mat T A) (x : Gnn.Mat N A) (W : Gnn.Mat A B) (b : Gnn.Mat 1 B)
    (p : Fin T) (r : Fin N) (hx : ∀ a : Fin A, xt (ix2 p a) = x (ix2 r a)) (q : Fin B) :
    Gnn.denseRow xt W b (ix2 p q) = Gnn.denseRow x W b (ix2 r q) := by
  show (∑ a : Fin A, xt (ix2 p a) * W (ix2 a q)) + b (ix2 (0 : Fin 1) q)
      = (∑ a : Fin A, x (ix2 r a) * W (ix2 a q)) + b (ix2 (0 : Fin 1) q)
  simp only [hx]

/-- The same for the two layers with the positive part between them. -/
theorem mlp2_row {T N A H O : Nat} (xt : Gnn.Mat T A) (x : Gnn.Mat N A) (W1 : Gnn.Mat A H) (b1 : Gnn.Mat 1 H)
    (W2 : Gnn.Mat H O) (b2 : Gnn.Mat 1 O) (p : Fin T) (r : Fin N) (hx : ∀ a : Fin A, xt (ix2 p a) = x (ix2 r a)) (q : Fin O) :
    Gnn.denseRow (Gnn.relu (Gnn.denseRow xt W1 b1)) W2 b2 (ix2 p q)
      = Gnn.denseRow (Gnn.relu (Gnn.denseRow x W1 b1)) W2 b2 (ix2 r q) :=
  denseRow_row _ _ W2 b2 p r (fun a => by
    show max (Gnn.denseRow xt W1 b1 (ix2 p a)) 0 = max (Gnn.denseRow x W1 b1 (ix2 r a)) 0
    rw [denseRow_row xt x W1 b1 p r hx a]) q

/-! ## The body on one tile -/

/-- The two contractions of the body are the plain [T, A] by [A, B] products. -/
theorem dims_first : dot_S5000x16_S16x64_S5000x64_1_0_0_1_n_n = DotDims.plain 5000 16 64 := rfl
theorem dims_second : dot_S5000x64_S64x64_S5000x64_1_0_0_1_n_n = DotDims.plain 5000 64 64 := rfl

/-- What the body stores: the two-layer perceptron of its input tile. -/
theorem tile_mlp2 (x0 : Vec Ideal S5000x16 .f32) (x1 : Vec Ideal S16x64 .f32) (x2 : Vec Ideal S1x64 .f32)
    (x3 : Vec Ideal S64x64 .f32) (x4 : Vec Ideal S1x64 .f32) :
    k0_pay1 x0 x1 x2 x3 x4 = Gnn.denseRow (Gnn.relu (Gnn.denseRow x0 x1 x2)) x3 x4 := by
  have e1 := Gnn.Ops.tile_dense (T := 5000) (A := 16) (B := 64) dot_S5000x16_S16x64_S5000x64_1_0_0_1_n_n dims_first x0 x1 x2
    bitsLt_bf16_f32 bitsLt_bf16_f32 shapeCasts_S1x64_S1x64 broadcasts_S1x64_S5000x64
  have e2 := Gnn.Ops.tile_relu (T := 5000) (B := 64) (Gnn.denseRow x0 x1 x2)
  have e3 := Gnn.Ops.tile_dense (T := 5000) (A := 64) (B := 64) dot_S5000x64_S64x64_S5000x64_1_0_0_1_n_n dims_second (Gnn.relu (Gnn.denseRow x0 x1 x2)) x3 x4
    bitsLt_bf16_f32 bitsLt_bf16_f32 shapeCasts_S1x64_S1x64 broadcasts_S1x64_S5000x64
  refine Eq.trans ?_ e3
  rw [← e2, ← e1]
  rfl

/-! ## The tiles in the arrays -/

theorem zero_offsets : (![0, 0] : Fin 2 → Nat) = fun _ => 0 := funext fun a => by fin_cases a <;> rfl

/-- The block indices at point t, decided over the ten points: the input and the output are at row block t, the
    weights and biases at their one block. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input's block at point t is rows 5000 t … 5000 t + 4999 of its array. -/
theorem x_block (c : Dev nD) (t : Fin cfg0.N) (y : S5000x16.Idx) (k : S50000x16.Idx)
    (hk0 : (k 0).val = 5000 * t.val + (y 0).val) (hk1 : (k 1).val = (y 1).val) :
    (iblk0 V c 0 t : Vec Ideal S5000x16 .f32) y = (V c main_arg0 : S50000x16.Idx → Elt Ideal .f32) k := by
  obtain ⟨e0, e1, -⟩ := tile_index t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 16 + 1 * (y 1).val = (k 1).val; rw [e1, hk1]; omega

/-- The first weight matrix is held whole at every point. -/
theorem W1_block (c : Dev nD) (t : Fin cfg0.N) :
    (iblk0 V c 1 t : Vec Ideal S16x64 .f32) = (V c main_arg4 : S16x64.Idx → Elt Ideal .f32) := by
  obtain ⟨-, -, e0, e1, -, -, -, -, -, -, -⟩ := tile_index t
  funext y
  unfold iblk0
  rw [View.read_apply]
  show V c main_arg4 _ = V c main_arg4 y
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 64 + 1 * (y 1).val = (y 1).val; rw [e1]; omega

/-- The first bias row is held whole at every point. -/
theorem b1_block (c : Dev nD) (t : Fin cfg0.N) :
    (iblk0 V c 2 t : Vec Ideal S1x64 .f32) = (V c main_v4 : S1x64.Idx → Elt Ideal .f32) := by
  obtain ⟨-, -, -, -, e0, e1, -, -, -, -, -⟩ := tile_index t
  funext y
  unfold iblk0
  rw [View.read_apply]
  show V c main_v4 _ = V c main_v4 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second weight matrix is held whole at every point. -/
theorem W2_block (c : Dev nD) (t : Fin cfg0.N) :
    (iblk0 V c 3 t : Vec Ideal S64x64 .f32) = (V c main_arg6 : S64x64.Idx → Elt Ideal .f32) := by
  obtain ⟨-, -, -, -, -, -, e0, e1, -, -, -⟩ := tile_index t
  funext y
  unfold iblk0
  rw [View.read_apply]
  show V c main_arg6 _ = V c main_arg6 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The second bias row is held whole at every point. -/
theorem b2_block (c : Dev nD) (t : Fin cfg0.N) :
    (iblk0 V c 4 t : Vec Ideal S1x64 .f32) = (V c main_v5 : S1x64.Idx → Elt Ideal .f32) := by
  obtain ⟨-, -, -, -, -, -, -, -, e0, e1, -⟩ := tile_index t
  funext y
  unfold iblk0
  rw [View.read_apply]
  show V c main_v5 _ = V c main_v5 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- What point t writes back is block t of the two-layer perceptron of the whole input. -/
theorem tile_written (c : Dev nD) (t : Fin cfg0.N) :
    (dat0 V c).flushed 5 t = ((cfg0.win 5).blk t).view.read (Elt Ideal)
      (Gnn.denseRow (Gnn.relu (Gnn.denseRow (V c main_arg0) (V c main_arg4) (V c main_v4))) (V c main_arg6) (V c main_v5)) := by
  show (cfg0.win 5).cut (grid0.coords t) ((dat0 V c).after 5 t) = _
  rw [after0_5]
  unfold out0_5
  rw [View.canon_unit_zero zero_offsets]
  simp only [View.ld_unit_zero (S := S5000x16) zero_offsets, View.ld_unit_zero (S := S16x64) zero_offsets, View.ld_unit_zero (S := S1x64) zero_offsets, View.ld_unit_zero (S := S64x64) zero_offsets]
  rw [tile_mlp2, W1_block, b1_block, W2_block, b2_block]
  obtain ⟨-, -, -, -, -, -, -, -, -, -, e0, e1⟩ := tile_index t
  funext j
  obtain ⟨p, q, rfl⟩ : ∃ (p : Fin 5000) (q : Fin 64), j = ix2 p q := ⟨j 0, j 1, eq_ix2 j⟩
  have hN : cfg0.N = 10 := N_0
  have hr : 5000 * t.val + p.val < 50000 := by have := t.isLt; have := p.isLt; omega
  have hemb : ((cfg0.win 5).blk t).view.emb (ix2 p q) = ix2 (⟨5000 * t.val + p.val, hr⟩ : Fin 50000) q := by
    funext a
    apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  show Gnn.denseRow (Gnn.relu (Gnn.denseRow (iblk0 V c 0 t) (V c main_arg4) (V c main_v4))) (V c main_arg6) (V c main_v5) (ix2 p q)
    = Gnn.denseRow (Gnn.relu (Gnn.denseRow (V c main_arg0) (V c main_arg4) (V c main_v4))) (V c main_arg6) (V c main_v5)
        (((cfg0.win 5).blk t).view.emb (ix2 p q))
  rw [hemb]
  exact mlp2_row _ _ _ _ _ _ p ⟨5000 * t.val + p.val, hr⟩
    (fun a => x_block V c t (ix2 p a) (ix2 (⟨5000 * t.val + p.val, hr⟩ : Fin 50000) a) rfl rfl) q

/-- An index of the output array is in point t's block iff each coordinate is in the block's range on its axis. -/
theorem mem_tile (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v6).slice (win0_5.rect t)).set ↔ _
  rw [View.set_slice_whole, Rect.mem_set_unit]
  exact Iff.rfl

/-- The ten row tiles fill the output array: row r is in the tile of point r / 5000. -/
theorem tiles_cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have ht : (i 0).val / 5000 < cfg0.N := lt_of_lt_of_eq (by omega : (i 0).val / 5000 < 10) hN.symm
  obtain ⟨-, -, -, -, -, -, -, -, -, -, e0, e1⟩ := tile_index ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_tile]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0']; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e1]; omega

end Mlp0

/-- The output array after region 0: the two-layer perceptron of the input array as the region finds it. -/
theorem final0 (c : Dev nD) :
    (dat0 V c).arrAt 5 cfg0.N
      = Gnn.denseRow (Gnn.relu (Gnn.denseRow (V c main_arg0) (V c main_arg4) (V c main_v4))) (V c main_arg6) (V c main_v5) :=
  (dat0 V c).arrAt_eq_of_cover 5 _ (fun t _ => Mlp0.tile_written V c t) Mlp0.tiles_cover

end Cert.KernelIdeal.RegionValue

end
-- ==== Proof.RegEdge1.lean ====
/-
  The edge perceptron of a message-passing round, from row tiles to the whole array.

  The array of per-edge rows is cut into tiles of 4000 consecutive rows.  On one tile the program computes the
  first layer on the three gathered pieces (the features at the destination, the features at the source, the
  position at the source, each against its own row block of the first weight), the positive part, and the second
  layer.  Entry (r, j) of each of these layer functions reads only row r of its row-indexed arguments, so the
  function of a tile of rows is the tile of the function of all rows.  The tiles cover every row, hence the whole
  array ends holding the two-layer perceptron of the whole gathered arrays.
-/
import proofs.«429355_j34995393528525_1_alg».proof.Proof.Gen.KernelIdeal.Frame
import proofs.«429355_j34995393528525_1_alg».proof.Proof.Spec
import proofs.«429355_j34995393528525_1_alg».proof.Proof.OpsDense
import proofs.«429355_j34995393528525_1_alg».proof.Proof.OpsEdge
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.SL.Sem
open Idealize.ShloMosaic.TcCoe Idealize.ShloMosaic.Tactic
open Idealize.ShloMosaic.Pipeline (Dat Cfg Window)

/-! ## Rows picked out of a matrix, and the layer functions on them -/

/-- The rows of a matrix that a map of row numbers picks, in the map's order. -/
def edge1_rows {T N A : Nat} (ρ : Fin T → Fin N) (x : Gnn.Mat N A) : Gnn.Mat T A :=
  fun i => x (ix2 (ρ (i 0)) (i 1))

/-- Entry (r, j) of a linear layer reads only row r of its input: the layer of picked rows is the picked rows of the layer. -/
theorem edge1_denseRow_rows {T N A B : Nat} (ρ : Fin T → Fin N) (x : Gnn.Mat N A) (W : Gnn.Mat A B) (b : Gnn.Mat 1 B) :
    Gnn.denseRow (edge1_rows ρ x) W b = edge1_rows ρ (Gnn.denseRow x W b) := rfl

/-- The positive part is taken entry by entry, so it commutes with picking rows. -/
theorem edge1_relu_rows {T N B : Nat} (ρ : Fin T → Fin N) (x : Gnn.Mat N B) :
    Gnn.relu (edge1_rows ρ x) = edge1_rows ρ (Gnn.relu x) := rfl

/-- Entry (r, j) of the first edge layer reads only row r of each of the three gathered pieces. -/
theorem edge1_edgePreRow_rows {T N : Nat} (ρ : Fin T → Fin N) (hd hs : Gnn.Mat N 64) (ps : Gnn.Mat N 3)
    (Wh Wx : Gnn.Mat 64 64) (Wp : Gnn.Mat 3 64) (b : Gnn.Mat 1 64) :
    Gnn.edgePreRow (edge1_rows ρ hd) (edge1_rows ρ hs) (edge1_rows ρ ps) Wh Wx Wp b
      = edge1_rows ρ (Gnn.edgePreRow hd hs ps Wh Wx Wp b) := rfl

/-! ## One tile: the stored value is the two-layer perceptron of the tile's rows -/

/-- The value the body stores, as a function of the nine loaded blocks: the first layer on the three pieces, the
    positive part, the second layer (a cast of a value to its own shape is the value). -/
theorem edge1_tile (x0 x1 : Vec Ideal S4000x64 .f32) (x2 : Vec Ideal S4000x3 .f32) (x3 x4 : Vec Ideal S64x64 .f32)
    (x5 : Vec Ideal S3x64 .f32) (x6 : Vec Ideal S1x64 .f32) (x7 : Vec Ideal S64x64 .f32) (x8 : Vec Ideal S1x64 .f32) :
    k1_pay1 (k1_pay2 x0 x1 x2 x3 x4 x5 x6 x7) (k1_pay3 x8)
      = Gnn.denseRow (Gnn.relu (Gnn.edgePreRow x0 x1 x2 x3 x4 x5 x6)) x7 x8 := by
  have e1 := Gnn.Ops.tile_edgePre (T := 4000) dot_S4000x64_S64x64_S4000x64_1_0_0_1_n_n rfl
    dot_S4000x3_S3x64_S4000x64_1_0_0_1_n_n rfl x0 x1 x2 x3 x4 x5 x6
    shapeCasts_S4000x64_S4000x64 shapeCasts_S4000x3_S4000x3 shapeCasts_S64x64_S64x64 shapeCasts_S3x64_S3x64
    shapeCasts_S1x64_S1x64 bitsLt_bf16_f32 broadcasts_S1x64_S4000x64
  have e2 := Gnn.Ops.tile_relu (T := 4000) (B := 64) (Gnn.edgePreRow x0 x1 x2 x3 x4 x5 x6)
  have e3 := Gnn.Ops.tile_dense (T := 4000) (A := 64) (B := 64) dot_S4000x64_S64x64_S4000x64_1_0_0_1_n_n rfl
    (Gnn.relu (Gnn.edgePreRow x0 x1 x2 x3 x4 x5 x6)) x7 x8 bitsLt_bf16_f32 bitsLt_bf16_f32
    shapeCasts_S1x64_S1x64 broadcasts_S1x64_S4000x64
  unfold k1_pay1 k1_pay2 k1_pay3
  try dsimp only
  rw [shapeCast_self x7, e1, e2]
  exact e3

/-! ## The windows' blocks as rows of the arrays -/

theorem edge1_hz : (![0, 0] : Fin 2 → Nat) = fun _ => 0 := funext fun a => by fin_cases a <;> rfl

/-- The grid has 200 points. -/
theorem edge1_lt (t : Fin cfg1.N) : t.val < 200 := t.isLt.trans_eq N_1

/-- Row r of tile t is row 4000 t + r of the array. -/
def edge1_rowOf (t : Fin cfg1.N) : Fin 4000 → Fin 800000 :=
  fun r => ⟨4000 * t.val + r.val, by have := edge1_lt t; have := r.isLt; omega⟩

/-- Window 0's block index at point t, decided over the grid: the point's number along the rows, zero along the columns. -/
theorem edge1_idx0 : ∀ t : Fin cfg1.N, win1_0.index t (0 : Fin 2) = t.val ∧ win1_0.index t (1 : Fin 2) = 0 :=
  (by decide +kernel : ∀ t : Fin grid1.N, _)
/-- Window 1's block index at point t, decided over the grid: the point's number along the rows, zero along the columns. -/
theorem edge1_idx1 : ∀ t : Fin cfg1.N, win1_1.index t (0 : Fin 2) = t.val ∧ win1_1.index t (1 : Fin 2) = 0 :=
  (by decide +kernel : ∀ t : Fin grid1.N, _)
/-- Window 2's block index at point t, decided over the grid: the point's number along the rows, zero along the columns. -/
theorem edge1_idx2 : ∀ t : Fin cfg1.N, win1_2.index t (0 : Fin 2) = t.val ∧ win1_2.index t (1 : Fin 2) = 0 :=
  (by decide +kernel : ∀ t : Fin grid1.N, _)
/-- Window 3's block index at point t, decided over the grid: zero along the rows, zero along the columns. -/
theorem edge1_idx3 : ∀ t : Fin cfg1.N, win1_3.index t (0 : Fin 2) = 0 ∧ win1_3.index t (1 : Fin 2) = 0 :=
  (by decide +kernel : ∀ t : Fin grid1.N, _)
/-- Window 4's block index at point t, decided over the grid: zero along the rows, zero along the columns. -/
theorem edge1_idx4 : ∀ t : Fin cfg1.N, win1_4.index t (0 : Fin 2) = 0 ∧ win1_4.index t (1 : Fin 2) = 0 :=
  (by decide +kernel : ∀ t : Fin grid1.N, _)
/-- Window 5's block index at point t, decided over the grid: zero along the rows, zero along the columns. -/
theorem edge1_idx5 : ∀ t : Fin cfg1.N, win1_5.index t (0 : Fin 2) = 0 ∧ win1_5.index t (1 : Fin 2) = 0 :=
  (by decide +kernel : ∀ t : Fin grid1.N, _)
/-- Window 6's block index at point t, decided over the grid: zero along the rows, zero along the columns. -/
theorem edge1_idx6 : ∀ t : Fin cfg1.N, win1_6.index t (0 : Fin 2) = 0 ∧ win1_6.index t (1 : Fin 2) = 0 :=
  (by decide +kernel : ∀ t : Fin grid1.N, _)
/-- Window 7's block index at point t, decided over the grid: zero along the rows, zero along the columns. -/
theorem edge1_idx7 : ∀ t : Fin cfg1.N, win1_7.index t (0 : Fin 2) = 0 ∧ win1_7.index t (1 : Fin 2) = 0 :=
  (by decide +kernel : ∀ t : Fin grid1.N, _)
/-- Window 8's block index at point t, decided over the grid: zero along the rows, zero along the columns. -/
theorem edge1_idx8 : ∀ t : Fin cfg1.N, win1_8.index t (0 : Fin 2) = 0 ∧ win1_8.index t (1 : Fin 2) = 0 :=
  (by decide +kernel : ∀ t : Fin grid1.N, _)
/-- Window 9's block index at point t, decided over the grid: the point's number along the rows, zero along the columns. -/
theorem edge1_idx9 : ∀ t : Fin cfg1.N, win1_9.index t (0 : Fin 2) = t.val ∧ win1_9.index t (1 : Fin 2) = 0 :=
  (by decide +kernel : ∀ t : Fin grid1.N, _)

/-- Window 0's block at point t is the point's tile of rows of its array. -/
theorem edge1_blk0_apply (V : (c : Dev nD) → (b : Ref sig .tc) → Buf (Elt Ideal) ((c : Thread nD τ).loc b)) (c : Dev nD) (t : Fin cfg1.N) (y : S4000x64.Idx) :
    (iblk1 V c 0 t : Vec Ideal S4000x64 .f32) y = (V c main_v7 : Gnn.Mat 800000 64) (ix2 (edge1_rowOf t (y 0)) (y 1)) := by
  obtain ⟨e0, e1⟩ := edge1_idx0 t
  unfold iblk1
  rw [View.read_apply]
  show V c main_v7 _ = V c main_v7 _
  congr 1
  funext a
  apply Fin.ext
  match a with
  | ⟨0, _⟩ => show win1_0.index t (0 : Fin 2) * 4000 + 1 * (y 0).val = 4000 * t.val + (y 0).val; rw [e0]; omega
  | ⟨1, _⟩ => show win1_0.index t (1 : Fin 2) * 64 + 1 * (y 1).val = (y 1).val; rw [e1]; omega

theorem edge1_blk0 (V : (c : Dev nD) → (b : Ref sig .tc) → Buf (Elt Ideal) ((c : Thread nD τ).loc b)) (c : Dev nD) (t : Fin cfg1.N) :
    (iblk1 V c 0 t : Vec Ideal S4000x64 .f32) = edge1_rows (edge1_rowOf t) (V c main_v7) :=
  funext (edge1_blk0_apply V c t)

/-- Window 1's block at point t is the point's tile of rows of its array. -/
theorem edge1_blk1_apply (V : (c : Dev nD) → (b : Ref sig .tc) → Buf (Elt Ideal) ((c : Thread nD τ).loc b)) (c : Dev nD) (t : Fin cfg1.N) (y : S4000x64.Idx) :
    (iblk1 V c 1 t : Vec Ideal S4000x64 .f32) y = (V c main_v8 : Gnn.Mat 800000 64) (ix2 (edge1_rowOf t (y 0)) (y 1)) := by
  obtain ⟨e0, e1⟩ := edge1_idx1 t
  unfold iblk1
  rw [View.read_apply]
  show V c main_v8 _ = V c main_v8 _
  congr 1
  funext a
  apply Fin.ext
  match a with
  | ⟨0, _⟩ => show win1_1.index t (0 : Fin 2) * 4000 + 1 * (y 0).val = 4000 * t.val + (y 0).val; rw [e0]; omega
  | ⟨1, _⟩ => show win1_1.index t (1 : Fin 2) * 64 + 1 * (y 1).val = (y 1).val; rw [e1]; omega

theorem edge1_blk1 (V : (c : Dev nD) → (b : Ref sig .tc) → Buf (Elt Ideal) ((c : Thread nD τ).loc b)) (c : Dev nD) (t : Fin cfg1.N) :
    (iblk1 V c 1 t : Vec Ideal S4000x64 .f32) = edge1_rows (edge1_rowOf t) (V c main_v8) :=
  funext (edge1_blk1_apply V c t)

/-- Window 2's block at point t is the point's tile of rows of its array. -/
theorem edge1_blk2_apply (V : (c : Dev nD) → (b : Ref sig .tc) → Buf (Elt Ideal) ((c : Thread nD τ).loc b)) (c : Dev nD) (t : Fin cfg1.N) (y : S4000x3.Idx) :
    (iblk1 V c 2 t : Vec Ideal S4000x3 .f32) y = (V c main_v9 : Gnn.Mat 800000 3) (ix2 (edge1_rowOf t (y 0)) (y 1)) := by
  obtain ⟨e0, e1⟩ := edge1_idx2 t
  unfold iblk1
  rw [View.read_apply]
  show V c main_v9 _ = V c main_v9 _
  congr 1
  funext a
  apply Fin.ext
  match a with
  | ⟨0, _⟩ => show win1_2.index t (0 : Fin 2) * 4000 + 1 * (y 0).val = 4000 * t.val + (y 0).val; rw [e0]; omega
  | ⟨1, _⟩ => show win1_2.index t (1 : Fin 2) * 3 + 1 * (y 1).val = (y 1).val; rw [e1]; omega

theorem edge1_blk2 (V : (c : Dev nD) → (b : Ref sig .tc) → Buf (Elt Ideal) ((c : Thread nD τ).loc b)) (c : Dev nD) (t : Fin cfg1.N) :
    (iblk1 V c 2 t : Vec Ideal S4000x3 .f32) = edge1_rows (edge1_rowOf t) (V c main_v9) :=
  funext (edge1_blk2_apply V c t)

/-- Window 3's block at every point is its whole array. -/
theorem edge1_blk3_apply (V : (c : Dev nD) → (b : Ref sig .tc) → Buf (Elt Ideal) ((c : Thread nD τ).loc b)) (c : Dev nD) (t : Fin cfg1.N) (y : S64x64.Idx) :
    (iblk1 V c 3 t : Vec Ideal S64x64 .f32) y = (V c main_v12 : Gnn.Mat 64 64) y := by
  obtain ⟨e0, e1⟩ := edge1_idx3 t
  unfold iblk1
  rw [View.read_apply]
  show V c main_v12 _ = V c main_v12 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem edge1_blk3 (V : (c : Dev nD) → (b : Ref sig .tc) → Buf (Elt Ideal) ((c : Thread nD τ).loc b)) (c : Dev nD) (t : Fin cfg1.N) :
    (iblk1 V c 3 t : Vec Ideal S64x64 .f32) = V c main_v12 :=
  funext (edge1_blk3_apply V c t)

/-- Window 4's block at every point is its whole array. -/
theorem edge1_blk4_apply (V : (c : Dev nD) → (b : Ref sig .tc) → Buf (Elt Ideal) ((c : Thread nD τ).loc b)) (c : Dev nD) (t : Fin cfg1.N) (y : S64x64.Idx) :
    (iblk1 V c 4 t : Vec Ideal S64x64 .f32) y = (V c main_v13 : Gnn.Mat 64 64) y := by
  obtain ⟨e0, e1⟩ := edge1_idx4 t
  unfold iblk1
  rw [View.read_apply]
  show V c main_v13 _ = V c main_v13 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem edge1_blk4 (V : (c : Dev nD) → (b : Ref sig .tc) → Buf (Elt Ideal) ((c : Thread nD τ).loc b)) (c : Dev nD) (t : Fin cfg1.N) :
    (iblk1 V c 4 t : Vec Ideal S64x64 .f32) = V c main_v13 :=
  funext (edge1_blk4_apply V c t)

/-- Window 5's block at every point is its whole array. -/
theorem edge1_blk5_apply (V : (c : Dev nD) → (b : Ref sig .tc) → Buf (Elt Ideal) ((c : Thread nD τ).loc b)) (c : Dev nD) (t : Fin cfg1.N) (y : S3x64.Idx) :
    (iblk1 V c 5 t : Vec Ideal S3x64 .f32) y = (V c main_v14 : Gnn.Mat 3 64) y := by
  obtain ⟨e0, e1⟩ := edge1_idx5 t
  unfold iblk1
  rw [View.read_apply]
  show V c main_v14 _ = V c main_v14 _
  congr 1
  funext a
  apply Fin.ext
  match a with
  | ⟨0, _⟩ => show win1_5.index t (0 : Fin 2) * 3 + 1 * (y 0).val = (y 0).val; rw [e0]; omega
  | ⟨1, _⟩ => show win1_5.index t (1 : Fin 2) * 64 + 1 * (y 1).val = (y 1).val; rw [e1]; omega

theorem edge1_blk5 (V : (c : Dev nD) → (b : Ref sig .tc) → Buf (Elt Ideal) ((c : Thread nD τ).loc b)) (c : Dev nD) (t : Fin cfg1.N) :
    (iblk1 V c 5 t : Vec Ideal S3x64 .f32) = V c main_v14 :=
  funext (edge1_blk5_apply V c t)

/-- Window 6's block at every point is its whole array. -/
theorem edge1_blk6_apply (V : (c : Dev nD) → (b : Ref sig .tc) → Buf (Elt Ideal) ((c : Thread nD τ).loc b)) (c : Dev nD) (t : Fin cfg1.N) (y : S1x64.Idx) :
    (iblk1 V c 6 t : Vec Ideal S1x64 .f32) y = (V c main_v21 : Gnn.Mat 1 64) y := by
  obtain ⟨e0, e1⟩ := edge1_idx6 t
  unfold iblk1
  rw [View.read_apply]
  show V c main_v21 _ = V c main_v21 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

theorem edge1_blk6 (V : (c : Dev nD) → (b : Ref sig .tc) → Buf (Elt Ideal) ((c : Thread nD τ).loc b)) (c : Dev nD) (t : Fin cfg1.N) :
    (iblk1 V c 6 t : Vec Ideal S1x64 .f32) = V c main_v21 :=
  funext (edge1_blk6_apply V c t)

/-- Window 7's block at every point is its whole array. -/
theorem edge1_blk7_apply (V : (c : Dev nD) → (b : Ref sig .tc) → Buf (Elt Ideal) ((c : Thread nD τ).loc b)) (c : Dev nD) (t : Fin cfg1.N) (y : S64x64.Idx) :
    (iblk1 V c 7 t : Vec Ideal S64x64 .f32) y = (V c main_v18 : Gnn.Mat 64 64) y := by
  obtain ⟨e0, e1⟩ := edge1_idx7 t
  unfold iblk1
  rw [View.read_apply]
  show V c main_v18 _ = V c main_v18 _
  congr 1
  funext a
  apply Fin.ext
  match a with
  | ⟨0, _⟩ => show win1_7.index t (0 : Fin 2) * 64 + 1 * (y 0).val = (y 0).val; rw [e0]; omega
  | ⟨1, _⟩ => show win1_7.index t (1 : Fin 2) * 64 + 1 * (y 1).val = (y 1).val; rw [e1]; omega

theorem edge1_blk7 (V : (c : Dev nD) → (b : Ref sig .tc) → Buf (Elt Ideal) ((c : Thread nD τ).loc b)) (c : Dev nD) (t : Fin cfg1.N) :
    (iblk1 V c 7 t : Vec Ideal S64x64 .f32) = V c main_v18 :=
  funext (edge1_blk7_apply V c t)

/-- Window 8's block at every point is its whole array. -/
theorem edge1_blk8_apply (V : (c : Dev nD) → (b : Ref sig .tc) → Buf (Elt Ideal) ((c : Thread nD τ).loc b)) (c : Dev nD) (t : Fin cfg1.N) (y : S1x64.Idx) :
    (iblk1 V c 8 t : Vec Ideal S1x64 .f32) y = (V c main_v22 : Gnn.Mat 1 64) y := by
  obtain ⟨e0, e1⟩ := edge1_idx8 t
  unfold iblk1
  rw [View.read_apply]
  show V c main_v22 _ = V c main_v22 _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 64 + 1 * (y 1).val = (y 1).val; rw [e1]; omega

theorem edge1_blk8 (V : (c : Dev nD) → (b : Ref sig .tc) → Buf (Elt Ideal) ((c : Thread nD τ).loc b)) (c : Dev nD) (t : Fin cfg1.N) :
    (iblk1 V c 8 t : Vec Ideal S1x64 .f32) = V c main_v22 :=
  funext (edge1_blk8_apply V c t)

variable (V : (c : Dev nD) → (b : Ref sig .tc) → Buf (Elt Ideal) ((c : Thread nD τ).loc b))

/-- The two-layer edge perceptron of the whole gathered arrays as the region finds them. -/
abbrev edge1_whole (c : Dev nD) : Gnn.Mat 800000 64 :=
  Gnn.denseRow (Gnn.relu (Gnn.edgePreRow (V c main_v7) (V c main_v8) (V c main_v9) (V c main_v12) (V c main_v13) (V c main_v14) (V c main_v21))) (V c main_v18) (V c main_v22)

/-- The output window's block at point t of a whole-array function is the point's tile of rows of the function. -/
theorem edge1_read_out_apply (t : Fin cfg1.N) (G : Gnn.Mat 800000 64) (y : S4000x64.Idx) :
    (((cfg1.win 9).blk t).view.read (Elt Ideal) G : Vec Ideal S4000x64 .f32) y = G (ix2 (edge1_rowOf t (y 0)) (y 1)) := by
  obtain ⟨e0, e1⟩ := edge1_idx9 t
  rw [View.read_apply]
  show G _ = G _
  congr 1
  funext a
  apply Fin.ext
  match a with
  | ⟨0, _⟩ => show win1_9.index t (0 : Fin 2) * 4000 + 1 * (y 0).val = 4000 * t.val + (y 0).val; rw [e0]; omega
  | ⟨1, _⟩ => show win1_9.index t (1 : Fin 2) * 64 + 1 * (y 1).val = (y 1).val; rw [e1]; omega

/-! ## What a point writes back, the cover, the array -/

/-- What point t writes back is tile t of the perceptron of the whole arrays. -/
theorem edge1_flushed (c : Dev nD) (t : Fin cfg1.N) :
    (dat1 V c).flushed 9 t = ((cfg1.win 9).blk t).view.read (Elt Ideal) (edge1_whole V c) := by
  show (cfg1.win 9).cut (grid1.coords t) ((dat1 V c).after 9 t) = _
  rw [after1_9]
  unfold out1_9
  rw [View.canon_unit_zero edge1_hz]
  simp only [View.ld_unit_zero (S := S4000x64) edge1_hz, View.ld_unit_zero (S := S4000x3) edge1_hz,
    View.ld_unit_zero (S := S64x64) edge1_hz, View.ld_unit_zero (S := S3x64) edge1_hz, View.ld_unit_zero (S := S1x64) edge1_hz]
  rw [edge1_tile, edge1_blk0, edge1_blk1, edge1_blk2, edge1_blk3, edge1_blk4, edge1_blk5, edge1_blk6, edge1_blk7, edge1_blk8,
    edge1_edgePreRow_rows, edge1_relu_rows, edge1_denseRow_rows]
  funext y
  exact (edge1_read_out_apply t (edge1_whole V c) y).symm

/-- An index of the array is in point t's block iff each coordinate is in the block's range on its axis. -/
theorem edge1_mem_blk (t : Fin cfg1.N) (i : S800000x64.Idx) :
    i ∈ ((cfg1.win 9).blk t).view.set ↔ ∀ a : Fin 2, win1_9.index t a * S4000x64.size a ≤ (i a).val ∧ (i a).val < win1_9.index t a * S4000x64.size a + S4000x64.size a := by
  show i ∈ ((View.whole main_v23).slice (win1_9.rect t)).set ↔ _
  rw [View.set_slice_whole, Rect.mem_set_unit]
  exact Iff.rfl

/-- Row r of the array lies in the block of point r / 4000. -/
theorem edge1_cover (i : S800000x64.Idx) :
    ∃ t : Fin cfg1.N, (cfg1.win 9).flush t = true ∧ i ∈ ((cfg1.win 9).blk t).view.set := by
  have hi0 : (i 0).val < 800000 := (i 0).isLt
  have hi1 : (i 1).val < 64 := (i 1).isLt
  obtain ⟨t, ht⟩ : ∃ t : Fin cfg1.N, t.val = (i 0).val / 4000 :=
    ⟨⟨(i 0).val / 4000, by rw [show cfg1.N = 200 from N_1]; omega⟩, rfl⟩
  obtain ⟨e0, e1⟩ := edge1_idx9 t
  refine ⟨t, flush1_9 t, ?_⟩
  rw [edge1_mem_blk]
  intro a
  match a with
  | ⟨0, _⟩ => show win1_9.index t (0 : Fin 2) * 4000 ≤ (i 0).val ∧ (i 0).val < win1_9.index t (0 : Fin 2) * 4000 + 4000; rw [e0, ht]; omega
  | ⟨1, _⟩ => show win1_9.index t (1 : Fin 2) * 64 ≤ (i 1).val ∧ (i 1).val < win1_9.index t (1 : Fin 2) * 64 + 64; rw [e1]; omega

/-- The array after the region: the two-layer edge perceptron of the whole gathered arrays. -/
theorem final1 (c : Dev nD) : (dat1 V c).arrAt 9 cfg1.N = Gnn.denseRow (Gnn.relu (Gnn.edgePreRow (V c main_v7) (V c main_v8) (V c main_v9) (V c main_v12) (V c main_v13) (V c main_v14) (V c main_v21))) (V c main_v18) (V c main_v22) :=
  (dat1 V c).arrAt_eq_of_cover 9 (edge1_whole V c) (fun t _ => edge1_flushed V c t) edge1_cover

end Cert.KernelIdeal.RegionValue

end
-- ==== Proof.RegMlp2.lean ====
import proofs.«429355_j34995393528525_1_alg».proof.Proof.Gen.KernelIdeal.Frame
import proofs.«429355_j34995393528525_1_alg».proof.Proof.Spec
import proofs.«429355_j34995393528525_1_alg».proof.Proof.OpsDense
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.SL.Sem
open Idealize.ShloMosaic.TcCoe
open Idealize.ShloMosaic.Pipeline (Dat)

variable (V : (c : Dev nD) → (b : Ref sig .tc) → Buf (Elt Ideal) ((c : Thread nD τ).loc b))

/-! # Region 2: the node perceptron of a round, row tile by row tile

The region's grid has ten points; point t holds rows 5000 t … 5000 t + 4999 of the features, the two weight
matrices and the two bias rows whole, and writes back rows 5000 t … 5000 t + 4999 of the result.  On a tile the body is
x W₁ + b₁, the positive part, · W₂ + b₂, the positive part.  Every entry (r, j) of that function reads only row r of x,
so the function of a row tile is the row tile of the function, and the ten tiles fill the result. -/

namespace Mlp2

/-- Two linear layers, each followed by the positive part. -/
abbrev perceptron {N A H O : Nat} (x : Gnn.Mat N A) (W1 : Gnn.Mat A H) (b1 : Gnn.Mat 1 H) (W2 : Gnn.Mat H O) (b2 : Gnn.Mat 1 O) :
    Gnn.Mat N O :=
  Gnn.relu (Gnn.denseRow (Gnn.relu (Gnn.denseRow x W1 b1)) W2 b2)

/-- The rows of a matrix picked by a map of row indices. -/
def rowsOf {T N A : Nat} (f : Fin T → Fin N) (x : Gnn.Mat N A) : Gnn.Mat T A := fun j => x (ix2 (f (j 0)) (j 1))

/-- A linear layer acts row by row: entry (r, j) is a sum over row r of x alone. -/
theorem denseRow_rowsOf {T N A B : Nat} (f : Fin T → Fin N) (x : Gnn.Mat N A) (W : Gnn.Mat A B) (b : Gnn.Mat 1 B) :
    Gnn.denseRow (rowsOf f x) W b = rowsOf f (Gnn.denseRow x W b) := by
  funext j; rfl

/-- The positive part acts entry by entry. -/
theorem relu_rowsOf {T N B : Nat} (f : Fin T → Fin N) (x : Gnn.Mat N B) : Gnn.relu (rowsOf f x) = rowsOf f (Gnn.relu x) := by
  funext j; rfl

/-- So the perceptron of picked rows is the picked rows of the perceptron. -/
theorem perceptron_rowsOf {T N A H O : Nat} (f : Fin T → Fin N) (x : Gnn.Mat N A) (W1 : Gnn.Mat A H) (b1 : Gnn.Mat 1 H)
    (W2 : Gnn.Mat H O) (b2 : Gnn.Mat 1 O) :
    perceptron (rowsOf f x) W1 b1 W2 b2 = rowsOf f (perceptron x W1 b1 W2 b2) := by
  unfold perceptron
  rw [denseRow_rowsOf, relu_rowsOf, denseRow_rowsOf, relu_rowsOf]

/-! ## The tile's arithmetic -/

/-- The body's stored value is the perceptron of its five loaded blocks. -/
theorem payload_eq (x0 : Vec Ideal S5000x64 .f32) (x1 : Vec Ideal S64x64 .f32) (x2 : Vec Ideal S1x64 .f32)
    (x3 : Vec Ideal S64x64 .f32) (x4 : Vec Ideal S1x64 .f32) :
    k2_pay1 x0 x1 x2 x3 x4 = perceptron (N := 5000) (A := 64) (H := 64) (O := 64) x0 x1 x2 x3 x4 := by
  unfold k2_pay1
  dsimp only
  rw [shapeCast_self x0, shapeCast_self x1, shapeCast_self x3]
  rw [Gnn.Ops.tile_dense dot_S5000x64_S64x64_S5000x64_1_0_0_1_n_n rfl x0 x1 x2, Gnn.Ops.tile_relu,
    Gnn.Ops.tile_dense dot_S5000x64_S64x64_S5000x64_1_0_0_1_n_n rfl _ x3 x4, Gnn.Ops.tile_relu]

/-! ## Blocks -/

theorem zero_offsets : (![0, 0] : Fin 2 → Nat) = fun _ => 0 := funext fun a => by fin_cases a <;> rfl

/-- The windows' block indices over the grid: the feature window and the result window sit at block (t, 0), the four
    parameter windows at block (0, 0). -/
theorem index_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of tile t is row 5000 t + r of the array. -/
def tileRow (t : Fin cfg2.N) (r : Fin 5000) : Fin 50000 :=
  ⟨5000 * t.val + r.val, by have h := t.isLt; have e : cfg2.N = 10 := N_2; have := r.isLt; omega⟩

/-- The feature window's block at point t is row tile t of the features. -/
theorem block_features (c : Dev nD) (t : Fin cfg2.N) :
    (iblk2 V c 0 t : Vec Ideal S5000x64 .f32) = rowsOf (tileRow t) (V c main_v26) := by
  obtain ⟨e0, e1, -⟩ := index_facts t
  funext y
  show V c main_v26 (((cfg2.win 0).blk t).view.emb y) = V c main_v26 (ix2 (tileRow t (y 0)) (y 1))
  refine congrArg (V c main_v26) ?_
  funext a; apply Fin.ext
  match a with
  | ⟨0, _⟩ => show win2_0.index t (0 : Fin 2) * 5000 + 1 * (y 0).val = 5000 * t.val + (y 0).val; rw [e0]; omega
  | ⟨1, _⟩ => show win2_0.index t (1 : Fin 2) * 64 + 1 * (y 1).val = (y 1).val; rw [e1]; omega

/-- The first weight window's block is the whole matrix. -/
theorem block_weight1 (c : Dev nD) (t : Fin cfg2.N) : (iblk2 V c 1 t : Vec Ideal S64x64 .f32) = V c main_v28 := by
  obtain ⟨-, -, e0, e1, -⟩ := index_facts t
  funext y
  show V c main_v28 (((cfg2.win 1).blk t).view.emb y) = V c main_v28 y
  refine congrArg (V c main_v28) ?_
  funext a; apply Fin.ext
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- The first bias window's block is the whole row. -/
theorem block_bias1 (c : Dev nD) (t : Fin cfg2.N) : (iblk2 V c 2 t : Vec Ideal S1x64 .f32) = V c main_v35 := by
  obtain ⟨-, -, -, -, e0, e1, -⟩ := index_facts t
  funext y
  show V c main_v35 (((cfg2.win 2).blk t).view.emb y) = V c main_v35 y
  refine congrArg (V c main_v35) ?_
  funext a; apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The second weight window's block is the whole matrix. -/
theorem block_weight2 (c : Dev nD) (t : Fin cfg2.N) : (iblk2 V c 3 t : Vec Ideal S64x64 .f32) = V c main_v32 := by
  obtain ⟨-, -, -, -, -, -, e0, e1, -⟩ := index_facts t
  funext y
  show V c main_v32 (((cfg2.win 3).blk t).view.emb y) = V c main_v32 y
  refine congrArg (V c main_v32) ?_
  funext a; apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- The second bias window's block is the whole row. -/
theorem block_bias2 (c : Dev nD) (t : Fin cfg2.N) : (iblk2 V c 4 t : Vec Ideal S1x64 .f32) = V c main_v36 := by
  obtain ⟨-, -, -, -, -, -, -, -, e0, e1, -⟩ := index_facts t
  funext y
  show V c main_v36 (((cfg2.win 4).blk t).view.emb y) = V c main_v36 y
  refine congrArg (V c main_v36) ?_
  funext a; apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- What point t writes back is block t of the perceptron of the whole arrays. -/
theorem writeback_eq (c : Dev nD) (t : Fin cfg2.N) :
    (dat2 V c).flushed 5 t = ((cfg2.win 5).blk t).view.read (Elt Ideal)
      (perceptron (N := 50000) (A := 64) (H := 64) (O := 64) (V c main_v26) (V c main_v28) (V c main_v35) (V c main_v32) (V c main_v36)) := by
  show (cfg2.win 5).cut (grid2.coords t) ((dat2 V c).after 5 t) = _
  rw [after2_5]
  unfold out2_5
  rw [View.canon_unit_zero zero_offsets]
  simp only [View.ld_unit_zero (S := S5000x64) zero_offsets, View.ld_unit_zero (S := S64x64) zero_offsets,
    View.ld_unit_zero (S := S1x64) zero_offsets]
  rw [payload_eq, block_features, block_weight1, block_bias1, block_weight2, block_bias2, perceptron_rowsOf]
  obtain ⟨-, -, -, -, -, -, -, -, -, -, e0, e1⟩ := index_facts t
  funext j
  show perceptron (N := 50000) (A := 64) (H := 64) (O := 64) (V c main_v26) (V c main_v28) (V c main_v35) (V c main_v32) (V c main_v36) (ix2 (tileRow t (j 0)) (j 1))
    = perceptron (N := 50000) (A := 64) (H := 64) (O := 64) (V c main_v26) (V c main_v28) (V c main_v35) (V c main_v32) (V c main_v36) (((cfg2.win 5).blk t).view.emb j)
  refine congrArg _ ?_
  funext a; apply Fin.ext
  match a with
  | ⟨0, _⟩ => show 5000 * t.val + (j 0).val = win2_5.index t (0 : Fin 2) * 5000 + 1 * (j 0).val; rw [e0]; omega
  | ⟨1, _⟩ => show (j 1).val = win2_5.index t (1 : Fin 2) * 64 + 1 * (j 1).val; rw [e1]; omega

/-- An index of the result is in point t's block iff each coordinate is in the block's range on its axis. -/
theorem mem_block (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v37).slice (win2_5.rect t)).set ↔ _
  rw [View.set_slice_whole, Rect.mem_set_unit]
  exact Iff.rfl

/-- The ten row tiles fill the result: row r is in the block of point r / 5000. -/
theorem tiles_cover (i : S50000x64.Idx) :
    ∃ t : Fin cfg2.N, (cfg2.win 5).flush t = true ∧ i ∈ ((cfg2.win 5).blk t).view.set := by
  have hi0 : (i 0).val < 50000 := idx2_lt0 i
  have hi1 : (i 1).val < 64 := idx2_lt1 i
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, -, -, e0, e1⟩ := index_facts t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

end Mlp2

/-- The result array after the region: the perceptron, with its outer positive part, of the arrays the region found. -/
theorem final2 (c : Dev nD) : (dat2 V c).arrAt 5 cfg2.N = Gnn.relu (Gnn.denseRow (Gnn.relu (Gnn.denseRow (V c main_v26) (V c main_v28) (V c main_v35))) (V c main_v32) (V c main_v36)) :=
  (dat2 V c).arrAt_eq_of_cover 5 _ (fun t _ => Mlp2.writeback_eq V c t) Mlp2.tiles_cover

end Cert.KernelIdeal.RegionValue

end
-- ==== Proof.KChainA.lean ====
/-
  The program's buffers from the launch through the first round of message passing.

  The launch memory holds the arguments.  The first host stretch cuts the two rows of the edge words apart and lays
  two bias vectors out as one-row matrices; the first region sends the node features through a two-layer
  perceptron.  Three row gathers read the features at the destination words and at the source words and the
  positions at the source words; with every word in range the out-of-range mask keeps every gathered row.  The next
  stretch cuts the layer-0 weights out of the stacks; the second region computes the messages; a scatter-add into
  zeros sums them at the destination words; the third region sends the sums through the node perceptron and a
  positive part.  Each buffer a later step reads is carried across the steps that do not write it.
-/
import proofs.«429355_j34995393528525_1_alg».proof.Proof.Gen.KernelIdeal.Frame
import proofs.«429355_j34995393528525_1_alg».proof.Proof.Spec
import proofs.«429355_j34995393528525_1_alg».proof.Proof.OpsDense
import proofs.«429355_j34995393528525_1_alg».proof.Proof.OpsIndex
import proofs.«429355_j34995393528525_1_alg».proof.Proof.KHostA
import proofs.«429355_j34995393528525_1_alg».proof.Proof.OpsEdge
import proofs.«429355_j34995393528525_1_alg».proof.Proof.KKeep
import proofs.«429355_j34995393528525_1_alg».proof.Proof.RegMlp0
import proofs.«429355_j34995393528525_1_alg».proof.Proof.RegEdge1
import proofs.«429355_j34995393528525_1_alg».proof.Proof.RegMlp2
import Idealize.ShloMosaic.Lib.StableHlo.Run

set_option maxRecDepth 16384
set_option maxHeartbeats 2000000

noncomputable section

namespace Cert.KernelIdeal.Chain

open Cert.KernelIdeal Cert.KernelIdeal.Gen Idealize.ShloMosaic Idealize.ShloMosaic.ValueIdx Idealize.SL.Sem
open Idealize.ShloMosaic.StableHlo Idealize.ShloMosaic.TcCoe

variable (m : (ℓ : Loc nD τ sig) → Buf (Elt Ideal) ℓ) (ρ : Dev nD → PrngReg) (c : Dev nD)

/-! ## The buffers carried across the steps that do not write them, and the arguments as launched -/

theorem kp_2_v3 : W2 m ρ c (Proc.devRef .tc main_v3) = W1 m ρ c (Proc.devRef .tc main_v3) :=
  Keep.keep2 m ρ c main_v3 (by decide)
theorem kp_3_v3 : W3 m ρ c (Proc.devRef .tc main_v3) = W2 m ρ c (Proc.devRef .tc main_v3) :=
  Keep.keep3 m ρ c main_v3 (by decide)
theorem kp_4_v3 : W4 m ρ c (Proc.devRef .tc main_v3) = W3 m ρ c (Proc.devRef .tc main_v3) :=
  Keep.keep4 m ρ c main_v3 (by decide)
theorem kp_5_v3 : W5 m ρ c (Proc.devRef .tc main_v3) = W4 m ρ c (Proc.devRef .tc main_v3) :=
  Keep.keep5 m ρ c main_v3 (by decide)
theorem kp_6_v3 : W6 m ρ c (Proc.devRef .tc main_v3) = W5 m ρ c (Proc.devRef .tc main_v3) :=
  Keep.keep6 m ρ c main_v3 (by decide)
theorem kp_7_v3 : W7 m ρ c (Proc.devRef .tc main_v3) = W6 m ρ c (Proc.devRef .tc main_v3) :=
  Keep.keep7 m ρ c main_v3 (by decide)
theorem kp_2_v1 : W2 m ρ c (Proc.devRef .tc main_v1) = W1 m ρ c (Proc.devRef .tc main_v1) :=
  Keep.keep2 m ρ c main_v1 (by decide)
theorem kp_3_v1 : W3 m ρ c (Proc.devRef .tc main_v1) = W2 m ρ c (Proc.devRef .tc main_v1) :=
  Keep.keep3 m ρ c main_v1 (by decide)
theorem kp_4_v1 : W4 m ρ c (Proc.devRef .tc main_v1) = W3 m ρ c (Proc.devRef .tc main_v1) :=
  Keep.keep4 m ρ c main_v1 (by decide)
theorem kp_3_v6 : W3 m ρ c (Proc.devRef .tc main_v6) = W2 m ρ c (Proc.devRef .tc main_v6) :=
  Keep.keep3 m ρ c main_v6 (by decide)
theorem kp_4_v7 : W4 m ρ c (Proc.devRef .tc main_v7) = W3 m ρ c (Proc.devRef .tc main_v7) :=
  Keep.keep4 m ρ c main_v7 (by decide)
theorem kp_5_v7 : W5 m ρ c (Proc.devRef .tc main_v7) = W4 m ρ c (Proc.devRef .tc main_v7) :=
  Keep.keep5 m ρ c main_v7 (by decide)
theorem kp_6_v7 : W6 m ρ c (Proc.devRef .tc main_v7) = W5 m ρ c (Proc.devRef .tc main_v7) :=
  Keep.keep6 m ρ c main_v7 (by decide)
theorem kp_5_v8 : W5 m ρ c (Proc.devRef .tc main_v8) = W4 m ρ c (Proc.devRef .tc main_v8) :=
  Keep.keep5 m ρ c main_v8 (by decide)
theorem kp_6_v8 : W6 m ρ c (Proc.devRef .tc main_v8) = W5 m ρ c (Proc.devRef .tc main_v8) :=
  Keep.keep6 m ρ c main_v8 (by decide)
theorem kp_6_v9 : W6 m ρ c (Proc.devRef .tc main_v9) = W5 m ρ c (Proc.devRef .tc main_v9) :=
  Keep.keep6 m ρ c main_v9 (by decide)
theorem ag_1_0 : W1 m ρ c (Proc.devRef .tc main_arg0) = (m ((c : Thread nD τ).loc main_arg0)) :=
  (Keep.args1 m ρ c).1
theorem ag_1_4 : W1 m ρ c (Proc.devRef .tc main_arg4) = (m ((c : Thread nD τ).loc main_arg4)) :=
  (Keep.args1 m ρ c).2.2.2.2.1
theorem ag_1_6 : W1 m ρ c (Proc.devRef .tc main_arg6) = (m ((c : Thread nD τ).loc main_arg6)) :=
  (Keep.args1 m ρ c).2.2.2.2.2.2.1
theorem ag_4_1 : W4 m ρ c (Proc.devRef .tc main_arg1) = (m ((c : Thread nD τ).loc main_arg1)) :=
  (Keep.args4 m ρ c).2.1
theorem ag_5_8 : W5 m ρ c (Proc.devRef .tc main_arg8) = (m ((c : Thread nD τ).loc main_arg8)) :=
  (Keep.args5 m ρ c).2.2.2.2.2.2.2.2.1
theorem ag_5_9 : W5 m ρ c (Proc.devRef .tc main_arg9) = (m ((c : Thread nD τ).loc main_arg9)) :=
  (Keep.args5 m ρ c).2.2.2.2.2.2.2.2.2.1
theorem ag_5_10 : W5 m ρ c (Proc.devRef .tc main_arg10) = (m ((c : Thread nD τ).loc main_arg10)) :=
  (Keep.args5 m ρ c).2.2.2.2.2.2.2.2.2.2.1
theorem ag_5_11 : W5 m ρ c (Proc.devRef .tc main_arg11) = (m ((c : Thread nD τ).loc main_arg11)) :=
  (Keep.args5 m ρ c).2.2.2.2.2.2.2.2.2.2.2.1
theorem ag_7_12 : W7 m ρ c (Proc.devRef .tc main_arg12) = (m ((c : Thread nD τ).loc main_arg12)) :=
  (Keep.args7 m ρ c).2.2.2.2.2.2.2.2.2.2.2.2.1
theorem ag_7_13 : W7 m ρ c (Proc.devRef .tc main_arg13) = (m ((c : Thread nD τ).loc main_arg13)) :=
  (Keep.args7 m ρ c).2.2.2.2.2.2.2.2.2.2.2.2.2.1
theorem ag_7_14 : W7 m ρ c (Proc.devRef .tc main_arg14) = (m ((c : Thread nD τ).loc main_arg14)) :=
  (Keep.args7 m ρ c).2.2.2.2.2.2.2.2.2.2.2.2.2.2.1
theorem ag_7_15 : W7 m ρ c (Proc.devRef .tc main_arg15) = (m ((c : Thread nD τ).loc main_arg15)) :=
  (Keep.args7 m ρ c).2.2.2.2.2.2.2.2.2.2.2.2.2.2.2.1

/-! ## The first host stretch -/

/-- The source words: row 0 of the edge words. -/
theorem words_src :
    W1 m ρ c (Proc.devRef .tc main_v1) = Gnn.rowWords (0 : Fin 2) (m ((c : Thread nD τ).loc main_arg2)) := by
  show StableHlo.after hostOps0 (W0 m ρ c) (Proc.devRef .tc main_v1) = _
  simp only [hostOps0]
  after_results
  exact Gnn.Ops.slice_rowWords 0 (by decide) _ _ _

/-- The destination words: row 1 of the edge words. -/
theorem words_dst :
    W1 m ρ c (Proc.devRef .tc main_v3) = Gnn.rowWords (1 : Fin 2) (m ((c : Thread nD τ).loc main_arg2)) := by
  show StableHlo.after hostOps0 (W0 m ρ c) (Proc.devRef .tc main_v3) = _
  simp only [hostOps0]
  after_results
  exact Gnn.Ops.slice_rowWords 1 (by decide) _ _ _

/-- The first bias of the node perceptron as a one-row matrix. -/
theorem w1_v4 : W1 m ρ c (Proc.devRef .tc main_v4) = Gnn.rowVec (m ((c : Thread nD τ).loc main_arg5)) := by
  show StableHlo.after hostOps0 (W0 m ρ c) (Proc.devRef .tc main_v4) = _
  simp only [hostOps0]
  after_results
  exact Gnn.Ops.reshape_rowVec _ _

/-- The second bias of the node perceptron as a one-row matrix. -/
theorem w1_v5 : W1 m ρ c (Proc.devRef .tc main_v5) = Gnn.rowVec (m ((c : Thread nD τ).loc main_arg7)) := by
  show StableHlo.after hostOps0 (W0 m ρ c) (Proc.devRef .tc main_v5) = _
  simp only [hostOps0]
  after_results
  exact Gnn.Ops.reshape_rowVec _ _

/-! ## The first region -/

/-- After the first region the node features are the two-layer perceptron of the input features. -/
theorem stage0 :
    W2 m ρ c (Proc.devRef .tc main_v6)
      = Gnn.mlp (m ((c : Thread nD τ).loc main_arg0)) (m ((c : Thread nD τ).loc main_arg4)) (m ((c : Thread nD τ).loc main_arg5)) (m ((c : Thread nD τ).loc main_arg6)) (m ((c : Thread nD τ).loc main_arg7)) := by
  refine ((W2_arr m ρ c 5).trans (RegionValue.final0 (V1 m ρ) c)).trans ?_
  show Gnn.denseRow (Gnn.relu (Gnn.denseRow (W1 m ρ c (Proc.devRef .tc main_arg0)) (W1 m ρ c (Proc.devRef .tc main_arg4))
      (W1 m ρ c (Proc.devRef .tc main_v4)))) (W1 m ρ c (Proc.devRef .tc main_arg6)) (W1 m ρ c (Proc.devRef .tc main_v5)) = _
  rw [ag_1_0 m ρ c, ag_1_4 m ρ c, ag_1_6 m ρ c, w1_v4 m ρ c, w1_v5 m ρ c,
    Gnn.Ops.denseRow_rowVec, Gnn.Ops.denseRow_rowVec]
  rfl

/-! ## The words and the features carried to the gathers -/

theorem src_at4 : W4 m ρ c (Proc.devRef .tc main_v1) = (Gnn.rowWords (0 : Fin 2) (m ((c : Thread nD τ).loc main_arg2))) :=
  (kp_4_v1 m ρ c).trans ((kp_3_v1 m ρ c).trans ((kp_2_v1 m ρ c).trans (words_src m ρ c)))
theorem src_at3 : W3 m ρ c (Proc.devRef .tc main_v1) = (Gnn.rowWords (0 : Fin 2) (m ((c : Thread nD τ).loc main_arg2))) :=
  (kp_3_v1 m ρ c).trans ((kp_2_v1 m ρ c).trans (words_src m ρ c))
theorem dst_at2 : W2 m ρ c (Proc.devRef .tc main_v3) = (Gnn.rowWords (1 : Fin 2) (m ((c : Thread nD τ).loc main_arg2))) :=
  (kp_2_v3 m ρ c).trans (words_dst m ρ c)
theorem dst_at7 : W7 m ρ c (Proc.devRef .tc main_v3) = (Gnn.rowWords (1 : Fin 2) (m ((c : Thread nD τ).loc main_arg2))) :=
  (kp_7_v3 m ρ c).trans ((kp_6_v3 m ρ c).trans ((kp_5_v3 m ρ c).trans ((kp_4_v3 m ρ c).trans
    ((kp_3_v3 m ρ c).trans (dst_at2 m ρ c)))))

/-- A row of in-range words is in range. -/
theorem row_in_range (hidx : ∀ i, 0 ≤ ((m ((c : Thread nD τ).loc main_arg2)) i).toInt ∧ ((m ((c : Thread nD τ).loc main_arg2)) i).toInt < 50000) (r : Fin 2) :
    ∀ i, 0 ≤ (Gnn.rowWords r (m ((c : Thread nD τ).loc main_arg2)) i).toInt ∧ (Gnn.rowWords r (m ((c : Thread nD τ).loc main_arg2)) i).toInt < ((50000 : ℕ) : ℤ) :=
  fun i => hidx (ix2 r (i 0))

/-! ## The three gathers -/

theorem w6_v7 (hidx : ∀ i, 0 ≤ ((m ((c : Thread nD τ).loc main_arg2)) i).toInt ∧ ((m ((c : Thread nD τ).loc main_arg2)) i).toInt < 50000) :
    W6 m ρ c (Proc.devRef .tc main_v7) = Gnn.takeRows (N := 50000) (by decide) (W2 m ρ c (Proc.devRef .tc main_v6)) (Gnn.rowWords (1 : Fin 2) (m ((c : Thread nD τ).loc main_arg2))) :=
  (kp_6_v7 m ρ c).trans ((kp_5_v7 m ρ c).trans ((kp_4_v7 m ρ c).trans
    (take_a (W2 m ρ c) _ _ rfl (dst_at2 m ρ c) (row_in_range m c hidx 1))))

theorem w6_v8 (hidx : ∀ i, 0 ≤ ((m ((c : Thread nD τ).loc main_arg2)) i).toInt ∧ ((m ((c : Thread nD τ).loc main_arg2)) i).toInt < 50000) :
    W6 m ρ c (Proc.devRef .tc main_v8) = Gnn.takeRows (N := 50000) (by decide) (W2 m ρ c (Proc.devRef .tc main_v6)) (Gnn.rowWords (0 : Fin 2) (m ((c : Thread nD τ).loc main_arg2))) :=
  (kp_6_v8 m ρ c).trans ((kp_5_v8 m ρ c).trans
    (take_b (W3 m ρ c) _ _ (kp_3_v6 m ρ c) (src_at3 m ρ c) (row_in_range m c hidx 0)))

theorem w6_v9 (hidx : ∀ i, 0 ≤ ((m ((c : Thread nD τ).loc main_arg2)) i).toInt ∧ ((m ((c : Thread nD τ).loc main_arg2)) i).toInt < 50000) :
    W6 m ρ c (Proc.devRef .tc main_v9) = Gnn.takeRows (N := 50000) (by decide) (m ((c : Thread nD τ).loc main_arg1)) (Gnn.rowWords (0 : Fin 2) (m ((c : Thread nD τ).loc main_arg2))) :=
  (kp_6_v9 m ρ c).trans
    (take_c (W4 m ρ c) _ _ (ag_4_1 m ρ c) (src_at4 m ρ c) (row_in_range m c hidx 0))

/-! ## The layer-0 weights of the edge perceptron -/

theorem w6_v12 : W6 m ρ c (Proc.devRef .tc main_v12)
    = extractStridedSlice ⟨2, ![64, 64]⟩ ![0, 0] (Gnn.layerMat (0 : Fin 3) (m ((c : Thread nD τ).loc main_arg8))) slices_S131x64_S64x64_0_0 :=
  lw_v12 (W5 m ρ c) _ (ag_5_8 m ρ c) _
theorem w6_v13 : W6 m ρ c (Proc.devRef .tc main_v13)
    = extractStridedSlice ⟨2, ![64, 64]⟩ ![64, 0] (Gnn.layerMat (0 : Fin 3) (m ((c : Thread nD τ).loc main_arg8))) slices_S131x64_S64x64_64_0 :=
  lw_v13 (W5 m ρ c) _ (ag_5_8 m ρ c) _
theorem w6_v14 : W6 m ρ c (Proc.devRef .tc main_v14)
    = extractStridedSlice ⟨2, ![3, 64]⟩ ![128, 0] (Gnn.layerMat (0 : Fin 3) (m ((c : Thread nD τ).loc main_arg8))) slices_S131x64_S3x64_128_0 :=
  lw_v14 (W5 m ρ c) _ (ag_5_8 m ρ c) _
theorem w6_v21 : W6 m ρ c (Proc.devRef .tc main_v21) = Gnn.rowVec (Gnn.layerVec (0 : Fin 3) (m ((c : Thread nD τ).loc main_arg9))) :=
  lw_v21 (W5 m ρ c) _ (ag_5_9 m ρ c)
theorem w6_v18 : W6 m ρ c (Proc.devRef .tc main_v18) = Gnn.layerMat (0 : Fin 3) (m ((c : Thread nD τ).loc main_arg10)) :=
  lw_v18 (W5 m ρ c) _ (ag_5_10 m ρ c)
theorem w6_v22 : W6 m ρ c (Proc.devRef .tc main_v22) = Gnn.rowVec (Gnn.layerVec (0 : Fin 3) (m ((c : Thread nD τ).loc main_arg11))) :=
  lw_v22 (W5 m ρ c) _ (ag_5_11 m ρ c)

/-! ## The second region: the messages -/

theorem w7_v23 (hidx : ∀ i, 0 ≤ ((m ((c : Thread nD τ).loc main_arg2)) i).toInt ∧ ((m ((c : Thread nD τ).loc main_arg2)) i).toInt < 50000) :
    W7 m ρ c (Proc.devRef .tc main_v23)
      = (Gnn.message (N := 50000) (E := 800000) (by decide) (W2 m ρ c (Proc.devRef .tc main_v6)) (m ((c : Thread nD τ).loc main_arg1)) (Gnn.rowWords (0 : Fin 2) (m ((c : Thread nD τ).loc main_arg2))) (Gnn.rowWords (1 : Fin 2) (m ((c : Thread nD τ).loc main_arg2)))
        (Gnn.layerMat (0 : Fin 3) (m ((c : Thread nD τ).loc main_arg8))) (Gnn.layerVec (0 : Fin 3) (m ((c : Thread nD τ).loc main_arg9)))
        (Gnn.layerMat (0 : Fin 3) (m ((c : Thread nD τ).loc main_arg10))) (Gnn.layerVec (0 : Fin 3) (m ((c : Thread nD τ).loc main_arg11)))) := by
  refine ((W7_arr m ρ c 9).trans (RegionValue.final1 (V6 m ρ) c)).trans ?_
  show Gnn.denseRow (Gnn.relu (Gnn.edgePreRow (W6 m ρ c (Proc.devRef .tc main_v7)) (W6 m ρ c (Proc.devRef .tc main_v8)) (W6 m ρ c (Proc.devRef .tc main_v9))
      (W6 m ρ c (Proc.devRef .tc main_v12)) (W6 m ρ c (Proc.devRef .tc main_v13)) (W6 m ρ c (Proc.devRef .tc main_v14)) (W6 m ρ c (Proc.devRef .tc main_v21))))
      (W6 m ρ c (Proc.devRef .tc main_v18)) (W6 m ρ c (Proc.devRef .tc main_v22)) = _
  rw [w6_v7 m ρ c hidx, w6_v8 m ρ c hidx, w6_v9 m ρ c hidx, w6_v12 m ρ c, w6_v13 m ρ c, w6_v14 m ρ c,
    w6_v21 m ρ c, w6_v18 m ρ c, w6_v22 m ρ c, Gnn.Ops.edgePreRow_slices, Gnn.Ops.denseRow_rowVec]
  rfl

/-! ## The sums at the destinations and the layer-0 weights of the node perceptron -/

theorem w8_v26 (hidx : ∀ i, 0 ≤ ((m ((c : Thread nD τ).loc main_arg2)) i).toInt ∧ ((m ((c : Thread nD τ).loc main_arg2)) i).toInt < 50000) :
    W8 m ρ c (Proc.devRef .tc main_v26) = Gnn.scatterRows (N := 50000) (Gnn.rowWords (1 : Fin 2) (m ((c : Thread nD τ).loc main_arg2)))
      (Gnn.message (N := 50000) (E := 800000) (by decide) (W2 m ρ c (Proc.devRef .tc main_v6)) (m ((c : Thread nD τ).loc main_arg1)) (Gnn.rowWords (0 : Fin 2) (m ((c : Thread nD τ).loc main_arg2))) (Gnn.rowWords (1 : Fin 2) (m ((c : Thread nD τ).loc main_arg2)))
        (Gnn.layerMat (0 : Fin 3) (m ((c : Thread nD τ).loc main_arg8))) (Gnn.layerVec (0 : Fin 3) (m ((c : Thread nD τ).loc main_arg9)))
        (Gnn.layerMat (0 : Fin 3) (m ((c : Thread nD τ).loc main_arg10))) (Gnn.layerVec (0 : Fin 3) (m ((c : Thread nD τ).loc main_arg11)))) :=
  sc_v26 (W7 m ρ c) _ _ (dst_at7 m ρ c) (w7_v23 m ρ c hidx)
theorem w8_v28 : W8 m ρ c (Proc.devRef .tc main_v28) = Gnn.layerMat (0 : Fin 3) (m ((c : Thread nD τ).loc main_arg12)) :=
  gw_v28 (W7 m ρ c) _ (ag_7_12 m ρ c)
theorem w8_v35 : W8 m ρ c (Proc.devRef .tc main_v35) = Gnn.rowVec (Gnn.layerVec (0 : Fin 3) (m ((c : Thread nD τ).loc main_arg13))) :=
  gw_v35 (W7 m ρ c) _ (ag_7_13 m ρ c)
theorem w8_v32 : W8 m ρ c (Proc.devRef .tc main_v32) = Gnn.layerMat (0 : Fin 3) (m ((c : Thread nD τ).loc main_arg14)) :=
  gw_v32 (W7 m ρ c) _ (ag_7_14 m ρ c)
theorem w8_v36 : W8 m ρ c (Proc.devRef .tc main_v36) = Gnn.rowVec (Gnn.layerVec (0 : Fin 3) (m ((c : Thread nD τ).loc main_arg15))) :=
  gw_v36 (W7 m ρ c) _ (ag_7_15 m ρ c)

/-! ## The third region: the features after round 0 -/

/-- After the third region the node features are round 0 of the network applied to the features before it. -/
theorem round0 (hidx : ∀ i, 0 ≤ ((m ((c : Thread nD τ).loc main_arg2)) i).toInt ∧ ((m ((c : Thread nD τ).loc main_arg2)) i).toInt < 50000) :
    W9 m ρ c (Proc.devRef .tc main_v37)
      = Gnn.roundAt 0 (W2 m ρ c (Proc.devRef .tc main_v6)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) := by
  refine ((W9_arr m ρ c 5).trans (RegionValue.final2 (V8 m ρ) c)).trans ?_
  show Gnn.relu (Gnn.denseRow (Gnn.relu (Gnn.denseRow (W8 m ρ c (Proc.devRef .tc main_v26)) (W8 m ρ c (Proc.devRef .tc main_v28)) (W8 m ρ c (Proc.devRef .tc main_v35))))
      (W8 m ρ c (Proc.devRef .tc main_v32)) (W8 m ρ c (Proc.devRef .tc main_v36))) = _
  rw [w8_v26 m ρ c hidx, w8_v28 m ρ c, w8_v35 m ρ c, w8_v32 m ρ c, w8_v36 m ρ c,
    Gnn.Ops.denseRow_rowVec, Gnn.Ops.denseRow_rowVec]
  rfl

end Cert.KernelIdeal.Chain

end
-- ==== Proof.KChainB.lean ====
/-
  The second round of message passing in the program's run.

  The node features after the first round are gathered at the destination words and at the source words, and the
  positions at the source words; every word is a node number, so the gathers' out-of-range masks keep every row.
  The layer-1 weights are cut out of the stacks; one region computes the messages; a scatter-add into zeros sums them
  at the destination words; the next region sends the sums through the node perceptron and a positive part.  Each
  buffer a later step reads is carried across the steps that do not write it.
-/
import proofs.«429355_j34995393528525_1_alg».proof.Proof.Gen.KernelIdeal.Frame
import proofs.«429355_j34995393528525_1_alg».proof.Proof.Spec
import proofs.«429355_j34995393528525_1_alg».proof.Proof.LibRowOps
import proofs.«429355_j34995393528525_1_alg».proof.Proof.OpsDense
import proofs.«429355_j34995393528525_1_alg».proof.Proof.OpsEdge
import proofs.«429355_j34995393528525_1_alg».proof.Proof.OpsIndex
import proofs.«429355_j34995393528525_1_alg».proof.Proof.RegEdge3
import proofs.«429355_j34995393528525_1_alg».proof.Proof.RegMlp4
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Chain

open Cert.KernelIdeal Cert.KernelIdeal.Gen Idealize.ShloMosaic Idealize.ShloMosaic.ValueIdx Idealize.SL.Sem
open Idealize.ShloMosaic.StableHlo Idealize.ShloMosaic.TcCoe

namespace Round1

/-! ## A row gather with every word in range -/

/-- The row words as the gather reads them: a negative word moved up by the table's height, laid out as a column. -/
def takeIdx (w : Gnn.Words 800000) : Gnn.WordsCol 800000 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- The gather of the rows of a [50000, C] table at 800000 words, masked: a row whose wrapped word falls outside
    [0, 49999] is replaced by the fill value. -/
def takeTerm {C : Nat} (d : GatherDims ⟨2, ![50000, C]⟩ ⟨2, ![800000, 1]⟩ ⟨2, ![800000, C]⟩)
    (hbm : (⟨1, ![800000]⟩ : Shape).BroadcastsInDim ⟨2, ![800000, C]⟩ (![0] : Fin 1 → Fin 2))
    (hbn : (⟨0, ![]⟩ : Shape).BroadcastsInDim ⟨2, ![800000, C]⟩ (![] : Fin 0 → Fin 2))
    (h : Gnn.Mat 50000 C) (w : Gnn.Words 800000) : Gnn.Mat 800000 C :=
  select
    (broadcastInDim ⟨2, ![800000, C]⟩ ![0] hbm
      (Host.reduce IntOp.andi
        (andi (cmpi .sge (takeIdx w) (broadcastInDim S800000x1 ![] bcast_S_S800000x1 (constantI S_ 32 0#32)))
          (cmpi .sle (takeIdx w)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather d h (takeIdx w))
    (broadcastInDim ⟨2, ![800000, C]⟩ ![] hbn (constant (F := Ideal) S_ .f32 0x7FC00000#32))

theorem takeIdx_eq (w : Gnn.Words 800000) : takeIdx w = Gnn.colWords (fun i => Gnn.wrapWord 50000 (w i)) := by
  unfold takeIdx
  rw [Gnn.Ops.wrap_words (N := 50000) (by norm_num) w bcast_S_S800000]
  exact Gnn.Ops.bcast_colWords _ _

/-- With every word a row number of the table, the masked gather is the plain row gather. -/
theorem takeTerm_eq {C : Nat} (d : GatherDims ⟨2, ![50000, C]⟩ ⟨2, ![800000, 1]⟩ ⟨2, ![800000, C]⟩)
    (wf : GatherDims.WF ⟨2, ![50000, C]⟩ ⟨2, ![800000, 1]⟩ ⟨2, ![800000, C]⟩ [1] [0] [] [0] [] 1 ![1, C])
    (hd : d = RowOps.rowGather 50000 800000 C wf)
    (hbm : (⟨1, ![800000]⟩ : Shape).BroadcastsInDim ⟨2, ![800000, C]⟩ (![0] : Fin 1 → Fin 2))
    (hbn : (⟨0, ![]⟩ : Shape).BroadcastsInDim ⟨2, ![800000, C]⟩ (![] : Fin 0 → Fin 2))
    (h : Gnn.Mat 50000 C) (w : Gnn.Words 800000)
    (hin : ∀ i, 0 ≤ (w i).toInt ∧ (w i).toInt < ((50000 : ℕ) : ℤ)) :
    takeTerm d hbm hbn h w = Gnn.takeRows (N := 50000) (by decide) h w := by
  unfold takeTerm
  rw [takeIdx_eq w, Gnn.Ops.host_gather (N := 50000) (by decide) wf d hd h w]
  exact Gnn.Ops.take_in_range (N := 50000) (by decide) (by norm_num) w hin _ _ _ _ _ _ _ _

/-- A row of the edge words inherits the range of the words. -/
theorem rowWords_in_range (ei : Gnn.WordsMat 2 800000)
    (hidx : ∀ i, 0 ≤ (ei i).toInt ∧ (ei i).toInt < 50000) (r : Fin 2) :
    ∀ i, 0 ≤ (Gnn.rowWords r ei i).toInt ∧ (Gnn.rowWords r ei i).toInt < ((50000 : ℕ) : ℤ) := fun i =>
  ⟨(hidx (ix2 r (i 0))).1, lt_of_lt_of_le (hidx (ix2 r (i 0))).2 (by norm_num)⟩

/-! ## Typed references

A typed reference moves contents between the type it carries and its buffer's own type along the equation of the two;
for a literal reference that equation holds by computation and the transport is the identity. -/

theorem tref_ofBuf_toBuf {T : BufTy} (x : StableHlo.TRef sig T) (v : T.Contents (Elt Ideal)) : x.ofBuf (x.toBuf v) = v := by
  obtain ⟨r, h, a, b⟩ := x
  subst h
  rfl

theorem leaf_v1 (V : Valuation τ sig (Elt Ideal)) :
    (TRef.of main_v1 : TRef sig ⟨S800000, .i32⟩).ofBuf (V (Proc.devRef .tc main_v1)) = V (Proc.devRef .tc main_v1) := rfl
theorem leaf_v3 (V : Valuation τ sig (Elt Ideal)) :
    (TRef.of main_v3 : TRef sig ⟨S800000, .i32⟩).ofBuf (V (Proc.devRef .tc main_v3)) = V (Proc.devRef .tc main_v3) := rfl
theorem leaf_v37 (V : Valuation τ sig (Elt Ideal)) :
    (TRef.of main_v37 : TRef sig ⟨S50000x64, .f32⟩).ofBuf (V (Proc.devRef .tc main_v37)) = V (Proc.devRef .tc main_v37) := rfl
theorem leaf_arg1 (V : Valuation τ sig (Elt Ideal)) :
    (TRef.of main_arg1 : TRef sig ⟨S50000x3, .f32⟩).ofBuf (V (Proc.devRef .tc main_arg1)) = V (Proc.devRef .tc main_arg1) := rfl
theorem root_v38 (X : (⟨S800000x64, .f32⟩ : BufTy).Contents (Elt Ideal)) :
    (TRef.of main_v38 : TRef sig ⟨S800000x64, .f32⟩).toBuf X = X := rfl
theorem root_v39 (X : (⟨S800000x64, .f32⟩ : BufTy).Contents (Elt Ideal)) :
    (TRef.of main_v39 : TRef sig ⟨S800000x64, .f32⟩).toBuf X = X := rfl
theorem root_v40 (X : (⟨S800000x3, .f32⟩ : BufTy).Contents (Elt Ideal)) :
    (TRef.of main_v40 : TRef sig ⟨S800000x3, .f32⟩).toBuf X = X := rfl

variable (m : (ℓ : Loc nD τ sig) → Buf (Elt Ideal) ℓ) (ρ : Dev nD → PrngReg) (c : Dev nD)

/-! ## What the round reads of the buffers written before it -/

/-- A buffer no region before the round's entry writes and no host stretch before it writes holds at the round's
    entry what it held when first written: read back boundary by boundary. -/
theorem at9_v1 : W9 m ρ c (Proc.devRef .tc main_v1) = W1 m ρ c (Proc.devRef .tc main_v1) := by
  rw [W9_of_ne m ρ c main_v1 (by decide)]
  show StableHlo.after hostOps2 (W7 m ρ c) (Proc.devRef .tc main_v1) = _
  simp only [hostOps2]
  after_results_simp
  rw [W7_of_ne m ρ c main_v1 (by decide)]
  show StableHlo.after hostOps1_3 (W5 m ρ c) (Proc.devRef .tc main_v1) = _
  simp only [hostOps1_3]
  after_results_simp
  exact W2_of_ne m ρ c main_v1 (by decide)

theorem at9_v3 : W9 m ρ c (Proc.devRef .tc main_v3) = W1 m ρ c (Proc.devRef .tc main_v3) := by
  rw [W9_of_ne m ρ c main_v3 (by decide)]
  show StableHlo.after hostOps2 (W7 m ρ c) (Proc.devRef .tc main_v3) = _
  simp only [hostOps2]
  after_results_simp
  rw [W7_of_ne m ρ c main_v3 (by decide)]
  show StableHlo.after hostOps1_3 (W5 m ρ c) (Proc.devRef .tc main_v3) = _
  simp only [hostOps1_3]
  after_results_simp
  exact W2_of_ne m ρ c main_v3 (by decide)

set_option hygiene false in
/-- Reads an argument at the round's entry back to the launch memory: no region and no host operation before the
    entry writes an argument. -/
local macro "launch_read " r:term : tactic => `(tactic| (
  rw [W9_of_ne m ρ c $r (by decide)]
  show StableHlo.after hostOps2 (W7 m ρ c) (Proc.devRef .tc $r) = _
  simp only [hostOps2]
  after_results_simp
  rw [W7_of_ne m ρ c $r (by decide)]
  show StableHlo.after hostOps1_3 (W5 m ρ c) (Proc.devRef .tc $r) = _
  simp only [hostOps1_3]
  after_results_simp
  rw [W2_of_ne m ρ c $r (by decide)]
  show StableHlo.after hostOps0 (W0 m ρ c) (Proc.devRef .tc $r) = _
  simp only [hostOps0]
  after_results_simp
  first | done | rfl))

theorem at9_arg1 : W9 m ρ c (Proc.devRef .tc main_arg1) = m ((c : Thread nD τ).loc main_arg1) := by
  launch_read main_arg1
theorem at9_arg8 : W9 m ρ c (Proc.devRef .tc main_arg8) = m ((c : Thread nD τ).loc main_arg8) := by
  launch_read main_arg8
theorem at9_arg9 : W9 m ρ c (Proc.devRef .tc main_arg9) = m ((c : Thread nD τ).loc main_arg9) := by
  launch_read main_arg9
theorem at9_arg10 : W9 m ρ c (Proc.devRef .tc main_arg10) = m ((c : Thread nD τ).loc main_arg10) := by
  launch_read main_arg10
theorem at9_arg11 : W9 m ρ c (Proc.devRef .tc main_arg11) = m ((c : Thread nD τ).loc main_arg11) := by
  launch_read main_arg11
theorem at9_arg12 : W9 m ρ c (Proc.devRef .tc main_arg12) = m ((c : Thread nD τ).loc main_arg12) := by
  launch_read main_arg12
theorem at9_arg13 : W9 m ρ c (Proc.devRef .tc main_arg13) = m ((c : Thread nD τ).loc main_arg13) := by
  launch_read main_arg13
theorem at9_arg14 : W9 m ρ c (Proc.devRef .tc main_arg14) = m ((c : Thread nD τ).loc main_arg14) := by
  launch_read main_arg14
theorem at9_arg15 : W9 m ρ c (Proc.devRef .tc main_arg15) = m ((c : Thread nD τ).loc main_arg15) := by
  launch_read main_arg15

set_option hygiene false in
/-- Reads a buffer at the second region's entry back to the round's entry. -/
local macro "entry_read " r:term : tactic => `(tactic| (
  rw [W14_of_ne m ρ c $r (by decide)]
  show StableHlo.after hostOps3_3 (W12 m ρ c) (Proc.devRef .tc $r) = _
  simp only [hostOps3_3]
  after_results_simp))

theorem at14_v3 : W14 m ρ c (Proc.devRef .tc main_v3) = W9 m ρ c (Proc.devRef .tc main_v3) := by
  entry_read main_v3
theorem at14_arg12 : W14 m ρ c (Proc.devRef .tc main_arg12) = W9 m ρ c (Proc.devRef .tc main_arg12) := by
  entry_read main_arg12
theorem at14_arg13 : W14 m ρ c (Proc.devRef .tc main_arg13) = W9 m ρ c (Proc.devRef .tc main_arg13) := by
  entry_read main_arg13
theorem at14_arg14 : W14 m ρ c (Proc.devRef .tc main_arg14) = W9 m ρ c (Proc.devRef .tc main_arg14) := by
  entry_read main_arg14
theorem at14_arg15 : W14 m ρ c (Proc.devRef .tc main_arg15) = W9 m ρ c (Proc.devRef .tc main_arg15) := by
  entry_read main_arg15

/-! ## The two rows of the edge words -/

/-- The source words: row 0 of the edge words, cut out by the first host stretch. -/
theorem src_words_w1 :
    W1 m ρ c (Proc.devRef .tc main_v1) = Gnn.rowWords (0 : Fin 2) (m ((c : Thread nD τ).loc main_arg2)) := by
  show StableHlo.after hostOps0 (W0 m ρ c) (Proc.devRef .tc main_v1) = _
  simp only [hostOps0]
  after_results
  exact Gnn.Ops.slice_rowWords 0 (by decide) _ _ _

/-- The destination words: row 1 of the edge words. -/
theorem dst_words_w1 :
    W1 m ρ c (Proc.devRef .tc main_v3) = Gnn.rowWords (1 : Fin 2) (m ((c : Thread nD τ).loc main_arg2)) := by
  show StableHlo.after hostOps0 (W0 m ρ c) (Proc.devRef .tc main_v3) = _
  simp only [hostOps0]
  after_results
  exact Gnn.Ops.slice_rowWords 1 (by decide) _ _ _

/-! ## The words at the round's entry -/

theorem v1_words : W9 m ρ c (Proc.devRef .tc main_v1) = Gnn.rowWords (0 : Fin 2) (m ((c : Thread nD τ).loc main_arg2)) :=
  (at9_v1 m ρ c).trans (src_words_w1 m ρ c)

theorem v3_words : W9 m ρ c (Proc.devRef .tc main_v3) = Gnn.rowWords (1 : Fin 2) (m ((c : Thread nD τ).loc main_arg2)) :=
  (at9_v3 m ρ c).trans (dst_words_w1 m ρ c)

/-! ## The three gathers: the features at the destination words, the features at the source words, the positions
at the source words -/

set_option maxHeartbeats 1000000 in
theorem v38_eq (hidx : ∀ i, 0 ≤ ((m ((c : Thread nD τ).loc main_arg2)) i).toInt ∧ ((m ((c : Thread nD τ).loc main_arg2)) i).toInt < 50000) :
    W13 m ρ c (Proc.devRef .tc main_v38)
      = Gnn.takeRows (N := 50000) (by decide) (W9 m ρ c (Proc.devRef .tc main_v37)) (Gnn.rowWords (1 : Fin 2) (m ((c : Thread nD τ).loc main_arg2))) := by
  show StableHlo.after hostOps3_3 (W12 m ρ c) (Proc.devRef .tc main_v38) = _
  simp only [hostOps3_3]
  after_results_simp
  simp only [tref_ofBuf_toBuf, leaf_v3, leaf_v37, root_v38]
  rw [v3_words m ρ c]
  exact takeTerm_eq gather_S50000x64_S800000x1_S800000x64_1_0_n_n_0_1_164 _ rfl bcast_S800000_S800000x64_0 bcast_S_S800000x64
    (W9 m ρ c (Proc.devRef .tc main_v37)) (Gnn.rowWords (1 : Fin 2) (m ((c : Thread nD τ).loc main_arg2))) (rowWords_in_range _ hidx 1)

set_option maxHeartbeats 1000000 in
theorem v39_eq (hidx : ∀ i, 0 ≤ ((m ((c : Thread nD τ).loc main_arg2)) i).toInt ∧ ((m ((c : Thread nD τ).loc main_arg2)) i).toInt < 50000) :
    W13 m ρ c (Proc.devRef .tc main_v39)
      = Gnn.takeRows (N := 50000) (by decide) (W9 m ρ c (Proc.devRef .tc main_v37)) (Gnn.rowWords (0 : Fin 2) (m ((c : Thread nD τ).loc main_arg2))) := by
  show StableHlo.after hostOps3_3 (W12 m ρ c) (Proc.devRef .tc main_v39) = _
  simp only [hostOps3_3]
  after_results_simp
  simp only [tref_ofBuf_toBuf, leaf_v1, leaf_v37, root_v39]
  rw [v1_words m ρ c]
  exact takeTerm_eq gather_S50000x64_S800000x1_S800000x64_1_0_n_n_0_1_164 _ rfl bcast_S800000_S800000x64_0 bcast_S_S800000x64
    (W9 m ρ c (Proc.devRef .tc main_v37)) (Gnn.rowWords (0 : Fin 2) (m ((c : Thread nD τ).loc main_arg2))) (rowWords_in_range _ hidx 0)

set_option maxHeartbeats 1000000 in
theorem v40_eq (hidx : ∀ i, 0 ≤ ((m ((c : Thread nD τ).loc main_arg2)) i).toInt ∧ ((m ((c : Thread nD τ).loc main_arg2)) i).toInt < 50000) :
    W13 m ρ c (Proc.devRef .tc main_v40)
      = Gnn.takeRows (N := 50000) (by decide) (m ((c : Thread nD τ).loc main_arg1)) (Gnn.rowWords (0 : Fin 2) (m ((c : Thread nD τ).loc main_arg2))) := by
  show StableHlo.after hostOps3_3 (W12 m ρ c) (Proc.devRef .tc main_v40) = _
  simp only [hostOps3_3]
  after_results_simp
  simp only [tref_ofBuf_toBuf, leaf_v1, leaf_arg1, root_v40]
  rw [v1_words m ρ c, at9_arg1 m ρ c]
  exact takeTerm_eq gather_S50000x3_S800000x1_S800000x3_1_0_n_n_0_1_13 _ rfl bcast_S800000_S800000x3_0 bcast_S_S800000x3
    (m ((c : Thread nD τ).loc main_arg1)) (Gnn.rowWords (0 : Fin 2) (m ((c : Thread nD τ).loc main_arg2))) (rowWords_in_range _ hidx 0)

/-! ## The layer-1 weights of the edge perceptron -/

/-- Layer 1 of the stacked first weights of the edge perceptron, as the host cuts it out. -/
theorem layer1_edge_weight :
    shapeCast S131x64 (extractStridedSlice S1x131x64 ![1, 0, 0] (m ((c : Thread nD τ).loc main_arg8)) slices_S3x131x64_S1x131x64_1_0_0)
        shapeCasts_S1x131x64_S131x64
      = Gnn.layerMat (1 : Fin 3) (m ((c : Thread nD τ).loc main_arg8)) :=
  Gnn.Ops.slice_layerMat 1 (by decide) (m ((c : Thread nD τ).loc main_arg8)) slices_S3x131x64_S1x131x64_1_0_0 shapeCasts_S1x131x64_S131x64

set_option maxHeartbeats 1000000 in
theorem v43_raw :
    W13 m ρ c (Proc.devRef .tc main_v43)
      = extractStridedSlice S64x64 ![0, 0]
          (shapeCast S131x64 (extractStridedSlice S1x131x64 ![1, 0, 0] (W9 m ρ c (Proc.devRef .tc main_arg8)) slices_S3x131x64_S1x131x64_1_0_0)
            shapeCasts_S1x131x64_S131x64) slices_S131x64_S64x64_0_0 := by
  show StableHlo.after hostOps3_3 (W12 m ρ c) (Proc.devRef .tc main_v43) = _
  simp only [hostOps3_3]
  after_results_simp
  rfl

theorem v43_eq :
    W13 m ρ c (Proc.devRef .tc main_v43)
      = extractStridedSlice S64x64 ![0, 0] (Gnn.layerMat (1 : Fin 3) (m ((c : Thread nD τ).loc main_arg8))) slices_S131x64_S64x64_0_0 := by
  rw [v43_raw m ρ c, at9_arg8 m ρ c, layer1_edge_weight m c]

set_option maxHeartbeats 1000000 in
theorem v44_raw :
    W13 m ρ c (Proc.devRef .tc main_v44)
      = extractStridedSlice S64x64 ![64, 0]
          (shapeCast S131x64 (extractStridedSlice S1x131x64 ![1, 0, 0] (W9 m ρ c (Proc.devRef .tc main_arg8)) slices_S3x131x64_S1x131x64_1_0_0)
            shapeCasts_S1x131x64_S131x64) slices_S131x64_S64x64_64_0 := by
  show StableHlo.after hostOps3_3 (W12 m ρ c) (Proc.devRef .tc main_v44) = _
  simp only [hostOps3_3]
  after_results_simp
  rfl

theorem v44_eq :
    W13 m ρ c (Proc.devRef .tc main_v44)
      = extractStridedSlice S64x64 ![64, 0] (Gnn.layerMat (1 : Fin 3) (m ((c : Thread nD τ).loc main_arg8))) slices_S131x64_S64x64_64_0 := by
  rw [v44_raw m ρ c, at9_arg8 m ρ c, layer1_edge_weight m c]

set_option maxHeartbeats 1000000 in
theorem v45_raw :
    W13 m ρ c (Proc.devRef .tc main_v45)
      = extractStridedSlice S3x64 ![128, 0]
          (shapeCast S131x64 (extractStridedSlice S1x131x64 ![1, 0, 0] (W9 m ρ c (Proc.devRef .tc main_arg8)) slices_S3x131x64_S1x131x64_1_0_0)
            shapeCasts_S1x131x64_S131x64) slices_S131x64_S3x64_128_0 := by
  show StableHlo.after hostOps3_3 (W12 m ρ c) (Proc.devRef .tc main_v45) = _
  simp only [hostOps3_3]
  after_results_simp
  rfl

theorem v45_eq :
    W13 m ρ c (Proc.devRef .tc main_v45)
      = extractStridedSlice S3x64 ![128, 0] (Gnn.layerMat (1 : Fin 3) (m ((c : Thread nD τ).loc main_arg8))) slices_S131x64_S3x64_128_0 := by
  rw [v45_raw m ρ c, at9_arg8 m ρ c, layer1_edge_weight m c]

set_option maxHeartbeats 1000000 in
theorem v52_eq :
    W13 m ρ c (Proc.devRef .tc main_v52) = Gnn.rowVec (Gnn.layerVec (1 : Fin 3) (m ((c : Thread nD τ).loc main_arg9))) := by
  show StableHlo.after hostOps3_3 (W12 m ρ c) (Proc.devRef .tc main_v52) = _
  simp only [hostOps3_3]
  after_results_simp
  rw [at9_arg9 m ρ c]
  exact (congrArg (fun b : Gnn.Vc 64 => shapeCast ⟨2, ![1, 64]⟩ b shapeCasts_S64_S1x64)
    (Gnn.Ops.slice_layerVec 1 (by decide) (m ((c : Thread nD τ).loc main_arg9)) slices_S3x64_S1x64_1_0 shapeCasts_S1x64_S64)).trans
    (Gnn.Ops.reshape_rowVec _ _)

set_option maxHeartbeats 1000000 in
theorem v49_eq :
    W13 m ρ c (Proc.devRef .tc main_v49) = Gnn.layerMat (1 : Fin 3) (m ((c : Thread nD τ).loc main_arg10)) := by
  show StableHlo.after hostOps3_3 (W12 m ρ c) (Proc.devRef .tc main_v49) = _
  simp only [hostOps3_3]
  after_results_simp
  rw [at9_arg10 m ρ c]
  exact Gnn.Ops.slice_layerMat 1 (by decide) (m ((c : Thread nD τ).loc main_arg10)) slices_S3x64x64_S1x64x64_1_0_0 shapeCasts_S1x64x64_S64x64

set_option maxHeartbeats 1000000 in
theorem v53_eq :
    W13 m ρ c (Proc.devRef .tc main_v53) = Gnn.rowVec (Gnn.layerVec (1 : Fin 3) (m ((c : Thread nD τ).loc main_arg11))) := by
  show StableHlo.after hostOps3_3 (W12 m ρ c) (Proc.devRef .tc main_v53) = _
  simp only [hostOps3_3]
  after_results_simp
  rw [at9_arg11 m ρ c]
  exact (congrArg (fun b : Gnn.Vc 64 => shapeCast ⟨2, ![1, 64]⟩ b shapeCasts_S64_S1x64)
    (Gnn.Ops.slice_layerVec 1 (by decide) (m ((c : Thread nD τ).loc main_arg11)) slices_S3x64_S1x64_1_0 shapeCasts_S1x64_S64)).trans
    (Gnn.Ops.reshape_rowVec _ _)

/-! ## The messages -/

/-- The first region of the round leaves the messages of the round: the edge perceptron on the gathered rows. -/
theorem v54_eq (hidx : ∀ i, 0 ≤ ((m ((c : Thread nD τ).loc main_arg2)) i).toInt ∧ ((m ((c : Thread nD τ).loc main_arg2)) i).toInt < 50000) :
    W14 m ρ c (Proc.devRef .tc main_v54)
      = Gnn.message (N := 50000) (by decide) (W9 m ρ c (Proc.devRef .tc main_v37)) (m ((c : Thread nD τ).loc main_arg1))
          (Gnn.rowWords (0 : Fin 2) (m ((c : Thread nD τ).loc main_arg2))) (Gnn.rowWords (1 : Fin 2) (m ((c : Thread nD τ).loc main_arg2)))
          (Gnn.layerMat (1 : Fin 3) (m ((c : Thread nD τ).loc main_arg8))) (Gnn.layerVec (1 : Fin 3) (m ((c : Thread nD τ).loc main_arg9)))
          (Gnn.layerMat (1 : Fin 3) (m ((c : Thread nD τ).loc main_arg10))) (Gnn.layerVec (1 : Fin 3) (m ((c : Thread nD τ).loc main_arg11))) := by
  refine (W14_arr m ρ c 9).trans ((RegionValue.final3 (V13 m ρ) c).trans ?_)
  show Gnn.denseRow (Gnn.relu (Gnn.edgePreRow (W13 m ρ c (Proc.devRef .tc main_v38)) (W13 m ρ c (Proc.devRef .tc main_v39))
      (W13 m ρ c (Proc.devRef .tc main_v40)) (W13 m ρ c (Proc.devRef .tc main_v43)) (W13 m ρ c (Proc.devRef .tc main_v44))
      (W13 m ρ c (Proc.devRef .tc main_v45)) (W13 m ρ c (Proc.devRef .tc main_v52)))) (W13 m ρ c (Proc.devRef .tc main_v49))
      (W13 m ρ c (Proc.devRef .tc main_v53)) = _
  rw [v38_eq m ρ c hidx, v39_eq m ρ c hidx, v40_eq m ρ c hidx, v43_eq m ρ c, v44_eq m ρ c, v45_eq m ρ c,
    v52_eq m ρ c, v49_eq m ρ c, v53_eq m ρ c]
  rw [Gnn.Ops.edgePreRow_slices, Gnn.Ops.denseRow_rowVec]
  rfl

/-! ## The sums at the destinations and the node perceptron's weights -/

set_option maxHeartbeats 1000000 in
theorem v57_eq :
    W15 m ρ c (Proc.devRef .tc main_v57)
      = Gnn.scatterRows (N := 50000) (Gnn.rowWords (1 : Fin 2) (m ((c : Thread nD τ).loc main_arg2))) (W14 m ρ c (Proc.devRef .tc main_v54)) := by
  show StableHlo.after hostOps4 (W14 m ρ c) (Proc.devRef .tc main_v57) = _
  simp only [hostOps4]
  after_results_simp
  rw [at14_v3 m ρ c, v3_words m ρ c, Gnn.Ops.bcast_colWords]
  exact Gnn.Ops.host_scatter _ _ rfl _ _ _

set_option maxHeartbeats 1000000 in
theorem v59_eq :
    W15 m ρ c (Proc.devRef .tc main_v59) = Gnn.layerMat (1 : Fin 3) (m ((c : Thread nD τ).loc main_arg12)) := by
  show StableHlo.after hostOps4 (W14 m ρ c) (Proc.devRef .tc main_v59) = _
  simp only [hostOps4]
  after_results_simp
  rw [at14_arg12 m ρ c, at9_arg12 m ρ c]
  exact Gnn.Ops.slice_layerMat 1 (by decide) (m ((c : Thread nD τ).loc main_arg12)) slices_S3x64x64_S1x64x64_1_0_0 shapeCasts_S1x64x64_S64x64

set_option maxHeartbeats 1000000 in
theorem v66_eq :
    W15 m ρ c (Proc.devRef .tc main_v66) = Gnn.rowVec (Gnn.layerVec (1 : Fin 3) (m ((c : Thread nD τ).loc main_arg13))) := by
  show StableHlo.after hostOps4 (W14 m ρ c) (Proc.devRef .tc main_v66) = _
  simp only [hostOps4]
  after_results_simp
  rw [at14_arg13 m ρ c, at9_arg13 m ρ c]
  exact (congrArg (fun b : Gnn.Vc 64 => shapeCast ⟨2, ![1, 64]⟩ b shapeCasts_S64_S1x64)
    (Gnn.Ops.slice_layerVec 1 (by decide) (m ((c : Thread nD τ).loc main_arg13)) slices_S3x64_S1x64_1_0 shapeCasts_S1x64_S64)).trans
    (Gnn.Ops.reshape_rowVec _ _)

set_option maxHeartbeats 1000000 in
theorem v63_eq :
    W15 m ρ c (Proc.devRef .tc main_v63) = Gnn.layerMat (1 : Fin 3) (m ((c : Thread nD τ).loc main_arg14)) := by
  show StableHlo.after hostOps4 (W14 m ρ c) (Proc.devRef .tc main_v63) = _
  simp only [hostOps4]
  after_results_simp
  rw [at14_arg14 m ρ c, at9_arg14 m ρ c]
  exact Gnn.Ops.slice_layerMat 1 (by decide) (m ((c : Thread nD τ).loc main_arg14)) slices_S3x64x64_S1x64x64_1_0_0 shapeCasts_S1x64x64_S64x64

set_option maxHeartbeats 1000000 in
theorem v67_eq :
    W15 m ρ c (Proc.devRef .tc main_v67) = Gnn.rowVec (Gnn.layerVec (1 : Fin 3) (m ((c : Thread nD τ).loc main_arg15))) := by
  show StableHlo.after hostOps4 (W14 m ρ c) (Proc.devRef .tc main_v67) = _
  simp only [hostOps4]
  after_results_simp
  rw [at14_arg15 m ρ c, at9_arg15 m ρ c]
  exact (congrArg (fun b : Gnn.Vc 64 => shapeCast ⟨2, ![1, 64]⟩ b shapeCasts_S64_S1x64)
    (Gnn.Ops.slice_layerVec 1 (by decide) (m ((c : Thread nD τ).loc main_arg15)) slices_S3x64_S1x64_1_0 shapeCasts_S1x64_S64)).trans
    (Gnn.Ops.reshape_rowVec _ _)

end Round1

open Round1

variable (m : (ℓ : Loc nD τ sig) → Buf (Elt Ideal) ℓ) (ρ : Dev nD → PrngReg) (c : Dev nD)

/-! ## The round -/

/-- The second region of the round leaves the network's round 1 of the features after the first round. -/
theorem round1
    (hidx : ∀ i, 0 ≤ ((m ((c : Thread nD τ).loc main_arg2)) i).toInt ∧ ((m ((c : Thread nD τ).loc main_arg2)) i).toInt < 50000) :
    W16 m ρ c (Proc.devRef .tc main_v68)
      = Gnn.roundAt 1 (W9 m ρ c (Proc.devRef .tc main_v37)) (m ((c : Thread nD τ).loc main_arg1))
          (m ((c : Thread nD τ).loc main_arg2)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) := by
  refine (W16_arr m ρ c 5).trans ((RegionValue.final4 (V15 m ρ) c).trans ?_)
  show Gnn.relu (Gnn.denseRow (Gnn.relu (Gnn.denseRow (W15 m ρ c (Proc.devRef .tc main_v57)) (W15 m ρ c (Proc.devRef .tc main_v59))
      (W15 m ρ c (Proc.devRef .tc main_v66)))) (W15 m ρ c (Proc.devRef .tc main_v63)) (W15 m ρ c (Proc.devRef .tc main_v67))) = _
  rw [v57_eq m ρ c, v54_eq m ρ c hidx, v59_eq m ρ c, v66_eq m ρ c, v63_eq m ρ c, v67_eq m ρ c,
    Gnn.Ops.denseRow_rowVec, Gnn.Ops.denseRow_rowVec]
  rfl

end Cert.KernelIdeal.Chain

end
-- ==== Proof.RegMlp7.lean ====
/-
  Region 7: the head perceptron, row tile by row tile.

  The grid has ten points; point t holds rows [5000 t, 5000 t + 5000) of the [50000, 64] input, the two weight
  matrices and the two bias rows whole, and writes rows [5000 t, 5000 t + 5000) of the [50000, 8] output.
  On its tile the body computes x W1 + b1, the positive part, then (.) W2 + b2.  Entry (r, j) of each of these
  layers reads only row r of its argument, so the tile of the layers of the whole input is the layers of the tile,
  and the ten tiles fill the output: the array after the region is the two-layer perceptron of the whole input.
-/
import proofs.«429355_j34995393528525_1_alg».proof.Proof.Gen.KernelIdeal.Frame
import proofs.«429355_j34995393528525_1_alg».proof.Proof.Spec
import proofs.«429355_j34995393528525_1_alg».proof.Proof.OpsDense
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace Mlp7

/-! ## The layers read one row at a time -/

/-- Entry (r, j) of a linear layer reads only row r of its argument: if row p of xt is row r of x, the layer of xt
    at (p, j) is the layer of x at (r, j). -/
theorem denseRow_row {T N A B : Nat} (xt : Gnn.Mat T A) (x : Gnn.Mat N A) (W : Gnn.Mat A B) (b : Gnn.Mat 1 B)
    (p : Fin T) (r : Fin N) (hx : ∀ a : Fin A, xt (ix2 p a) = x (ix2 r a)) (q : Fin B) :
    Gnn.denseRow xt W b (ix2 p q) = Gnn.denseRow x W b (ix2 r q) := by
  show (∑ a : Fin A, xt (ix2 p a) * W (ix2 a q)) + b (ix2 (0 : Fin 1) q)
      = (∑ a : Fin A, x (ix2 r a) * W (ix2 a q)) + b (ix2 (0 : Fin 1) q)
  simp only [hx]

/-- The same for the two layers with the positive part between them. -/
theorem mlp2_row {T N A H O : Nat} (xt : Gnn.Mat T A) (x : Gnn.Mat N A) (W1 : Gnn.Mat A H) (b1 : Gnn.Mat 1 H)
    (W2 : Gnn.Mat H O) (b2 : Gnn.Mat 1 O) (p : Fin T) (r : Fin N) (hx : ∀ a : Fin A, xt (ix2 p a) = x (ix2 r a)) (q : Fin O) :
    Gnn.denseRow (Gnn.relu (Gnn.denseRow xt W1 b1)) W2 b2 (ix2 p q)
      = Gnn.denseRow (Gnn.relu (Gnn.denseRow x W1 b1)) W2 b2 (ix2 r q) :=
  denseRow_row _ _ W2 b2 p r (fun a => by
    show max (Gnn.denseRow xt W1 b1 (ix2 p a)) 0 = max (Gnn.denseRow x W1 b1 (ix2 r a)) 0
    rw [denseRow_row xt x W1 b1 p r hx a]) q

/-! ## The body on one tile -/

/-- The two contractions of the body are the plain [T, A] by [A, B] products. -/
theorem dims_first : dot_S5000x64_S64x32_S5000x32_1_0_0_1_n_n = DotDims.plain 5000 64 32 := rfl
theorem dims_second : dot_S5000x32_S32x8_S5000x8_1_0_0_1_n_n = DotDims.plain 5000 32 8 := rfl

/-- What the body stores: the two-layer perceptron of its input tile. -/
theorem tile_mlp2 (x0 : Vec Ideal S5000x64 .f32) (x1 : Vec Ideal S64x32 .f32) (x2 : Vec Ideal S1x32 .f32)
    (x3 : Vec Ideal S32x8 .f32) (x4 : Vec Ideal S1x8 .f32) :
    k7_pay1 x0 x1 x2 x3 x4 = Gnn.denseRow (Gnn.relu (Gnn.denseRow x0 x1 x2)) x3 x4 := by
  -- the input tile first passes through a reshape to its own shape, which is the identity
  have e1 := (Gnn.Ops.tile_dense (T := 5000) (A := 64) (B := 32) dot_S5000x64_S64x32_S5000x32_1_0_0_1_n_n dims_first
      (shapeCast S5000x64 x0 shapeCasts_S5000x64_S5000x64) x1 x2
      bitsLt_bf16_f32 bitsLt_bf16_f32 shapeCasts_S1x32_S1x32 broadcasts_S1x32_S5000x32).trans
    (congrArg (fun z : Gnn.Mat 5000 64 => Gnn.denseRow z x1 x2) (shapeCast_self x0 shapeCasts_S5000x64_S5000x64))
  have e2 := Gnn.Ops.tile_relu (T := 5000) (B := 32) (Gnn.denseRow x0 x1 x2)
  have e3 := Gnn.Ops.tile_dense (T := 5000) (A := 32) (B := 8) dot_S5000x32_S32x8_S5000x8_1_0_0_1_n_n dims_second (Gnn.relu (Gnn.denseRow x0 x1 x2)) x3 x4
    bitsLt_bf16_f32 bitsLt_bf16_f32 shapeCasts_S1x8_S1x8 broadcasts_S1x8_S5000x8
  refine Eq.trans ?_ e3
  rw [← e2, ← e1]
  rfl

/-! ## The tiles in the arrays -/

theorem zero_offsets : (![0, 0] : Fin 2 → Nat) = fun _ => 0 := funext fun a => by fin_cases a <;> rfl

/-- The block indices at point t, decided over the ten points: the input and the output are at row block t, the
    weights and biases at their one block. -/
theorem tile_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The input's block at point t is rows 5000 t … 5000 t + 4999 of its array. -/
theorem x_block (c : Dev nD) (t : Fin cfg7.N) (y : S5000x64.Idx) (k : S50000x64.Idx)
    (hk0 : (k 0).val = 5000 * t.val + (y 0).val) (hk1 : (k 1).val = (y 1).val) :
    (iblk7 V c 0 t : Vec Ideal S5000x64 .f32) y = (V c main_v99 : S50000x64.Idx → Elt Ideal .f32) k := by
  obtain ⟨e0, e1, -⟩ := tile_index t
  unfold iblk7
  rw [View.read_apply]
  show V c main_v99 _ = V c main_v99 _
  congr 1
  funext a
  apply Fin.ext
  match a with
  | ⟨0, _⟩ => show win7_0.index t (0 : Fin 2) * 5000 + 1 * (y 0).val = (k 0).val; rw [e0, hk0]; omega
  | ⟨1, _⟩ => show win7_0.index t (1 : Fin 2) * 64 + 1 * (y 1).val = (k 1).val; rw [e1, hk1]; omega

/-- The first weight matrix is held whole at every point. -/
theorem W1_block (c : Dev nD) (t : Fin cfg7.N) :
    (iblk7 V c 1 t : Vec Ideal S64x32 .f32) = (V c main_arg16 : S64x32.Idx → Elt Ideal .f32) := by
  obtain ⟨-, -, e0, e1, -, -, -, -, -, -, -⟩ := tile_index t
  funext y
  unfold iblk7
  rw [View.read_apply]
  show V c main_arg16 _ = V c main_arg16 y
  congr 1
  funext a
  apply Fin.ext
  match a with
  | ⟨0, _⟩ => show win7_1.index t (0 : Fin 2) * 64 + 1 * (y 0).val = (y 0).val; rw [e0]; omega
  | ⟨1, _⟩ => show win7_1.index t (1 : Fin 2) * 32 + 1 * (y 1).val = (y 1).val; rw [e1]; omega

/-- The first bias row is held whole at every point. -/
theorem b1_block (c : Dev nD) (t : Fin cfg7.N) :
    (iblk7 V c 2 t : Vec Ideal S1x32 .f32) = (V c main_v100 : S1x32.Idx → Elt Ideal .f32) := by
  obtain ⟨-, -, -, -, e0, e1, -, -, -, -, -⟩ := tile_index t
  funext y
  unfold iblk7
  rw [View.read_apply]
  show V c main_v100 _ = V c main_v100 y
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 32 + 1 * (y 1).val = (y 1).val; rw [e1]; omega

/-- The second weight matrix is held whole at every point. -/
theorem W2_block (c : Dev nD) (t : Fin cfg7.N) :
    (iblk7 V c 3 t : Vec Ideal S32x8 .f32) = (V c main_arg18 : S32x8.Idx → Elt Ideal .f32) := by
  obtain ⟨-, -, -, -, -, -, e0, e1, -, -, -⟩ := tile_index t
  funext y
  unfold iblk7
  rw [View.read_apply]
  show V c main_arg18 _ = V c main_arg18 y
  congr 1
  funext a
  apply Fin.ext
  match a with
  | ⟨0, _⟩ => show win7_3.index t (0 : Fin 2) * 32 + 1 * (y 0).val = (y 0).val; rw [e0]; omega
  | ⟨1, _⟩ => show win7_3.index t (1 : Fin 2) * 8 + 1 * (y 1).val = (y 1).val; rw [e1]; omega

/-- The second bias row is held whole at every point. -/
theorem b2_block (c : Dev nD) (t : Fin cfg7.N) :
    (iblk7 V c 4 t : Vec Ideal S1x8 .f32) = (V c main_v101 : S1x8.Idx → Elt Ideal .f32) := by
  obtain ⟨-, -, -, -, -, -, -, -, e0, e1, -⟩ := tile_index t
  funext y
  unfold iblk7
  rw [View.read_apply]
  show V c main_v101 _ = V c main_v101 y
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 8 + 1 * (y 1).val = (y 1).val; rw [e1]; omega

/-- What point t writes back is block t of the two-layer perceptron of the whole input. -/
theorem tile_written (c : Dev nD) (t : Fin cfg7.N) :
    (dat7 V c).flushed 5 t = ((cfg7.win 5).blk t).view.read (Elt Ideal)
      (Gnn.denseRow (Gnn.relu (Gnn.denseRow (V c main_v99) (V c main_arg16) (V c main_v100))) (V c main_arg18) (V c main_v101)) := by
  show (cfg7.win 5).cut (grid7.coords t) ((dat7 V c).after 5 t) = _
  rw [after7_5]
  unfold out7_5
  rw [View.canon_unit_zero zero_offsets]
  simp only [View.ld_unit_zero (S := S5000x64) zero_offsets, View.ld_unit_zero (S := S64x32) zero_offsets, View.ld_unit_zero (S := S1x32) zero_offsets, View.ld_unit_zero (S := S32x8) zero_offsets, View.ld_unit_zero (S := S1x8) zero_offsets]
  rw [tile_mlp2, W1_block, b1_block, W2_block, b2_block]
  obtain ⟨-, -, -, -, -, -, -, -, -, -, e0, e1⟩ := tile_index t
  funext j
  obtain ⟨p, q, rfl⟩ : ∃ (p : Fin 5000) (q : Fin 8), j = ix2 p q := ⟨j 0, j 1, eq_ix2 j⟩
  have hN : cfg7.N = 10 := N_7
  have hr : 5000 * t.val + p.val < 50000 := by have := t.isLt; have := p.isLt; omega
  have hemb : ((cfg7.win 5).blk t).view.emb (ix2 p q) = ix2 (⟨5000 * t.val + p.val, hr⟩ : Fin 50000) q := by
    funext a
    apply Fin.ext
    match a with
    | ⟨0, _⟩ => show win7_5.index t (0 : Fin 2) * 5000 + 1 * p.val = 5000 * t.val + p.val; rw [e0]; omega
    | ⟨1, _⟩ => show win7_5.index t (1 : Fin 2) * 8 + 1 * q.val = q.val; rw [e1]; omega
  show Gnn.denseRow (Gnn.relu (Gnn.denseRow (iblk7 V c 0 t) (V c main_arg16) (V c main_v100))) (V c main_arg18) (V c main_v101) (ix2 p q)
    = Gnn.denseRow (Gnn.relu (Gnn.denseRow (V c main_v99) (V c main_arg16) (V c main_v100))) (V c main_arg18) (V c main_v101)
        (((cfg7.win 5).blk t).view.emb (ix2 p q))
  rw [hemb]
  exact mlp2_row _ _ _ _ _ _ p ⟨5000 * t.val + p.val, hr⟩
    (fun a => x_block V c t (ix2 p a) (ix2 (⟨5000 * t.val + p.val, hr⟩ : Fin 50000) a) rfl rfl) q

/-- An index of the output array is in point t's block iff each coordinate is in the block's range on its axis. -/
theorem mem_tile (t : Fin cfg7.N) (i : S50000x8.Idx) :
    i ∈ ((cfg7.win 5).blk t).view.set ↔ ∀ a : Fin 2, win7_5.index t a * S5000x8.size a ≤ (i a).val
      ∧ (i a).val < win7_5.index t a * S5000x8.size a + S5000x8.size a := by
  show i ∈ ((View.whole main_v102).slice (win7_5.rect t)).set ↔ _
  rw [View.set_slice_whole, Rect.mem_set_unit]
  exact Iff.rfl

/-- The ten row tiles fill the output array: row r is in the tile of point r / 5000. -/
theorem tiles_cover (i : S50000x8.Idx) :
    ∃ t : Fin cfg7.N, (cfg7.win 5).flush t = true ∧ i ∈ ((cfg7.win 5).blk t).view.set := by
  have hi0 : (i 0).val < 50000 := (i 0).isLt
  have hi1 : (i 1).val < 8 := (i 1).isLt
  have hN : cfg7.N = 10 := N_7
  have ht : (i 0).val / 5000 < cfg7.N := lt_of_lt_of_eq (by omega : (i 0).val / 5000 < 10) hN.symm
  obtain ⟨-, -, -, -, -, -, -, -, -, -, e0, e1⟩ := tile_index ⟨(i 0).val / 5000, ht⟩
  have e0' : win7_5.index ⟨(i 0).val / 5000, ht⟩ (0 : Fin 2) = (i 0).val / 5000 := e0
  refine ⟨⟨(i 0).val / 5000, ht⟩, flush7_5 _, ?_⟩
  rw [mem_tile]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [e0']; omega
  | ⟨1, _⟩ =>
    show win7_5.index ⟨(i 0).val / 5000, ht⟩ (1 : Fin 2) * 8 ≤ (i 1).val
      ∧ (i 1).val < win7_5.index ⟨(i 0).val / 5000, ht⟩ (1 : Fin 2) * 8 + 8
    rw [e1]; omega

end Mlp7

/-- The output array after region 7: the two-layer perceptron of the input array as the region finds it. -/
theorem final7 (c : Dev nD) :
    (dat7 V c).arrAt 5 cfg7.N
      = Gnn.denseRow (Gnn.relu (Gnn.denseRow (V c main_v99) (V c main_arg16) (V c main_v100))) (V c main_arg18) (V c main_v101) :=
  (dat7 V c).arrAt_eq_of_cover 5 _ (fun t _ => Mlp7.tile_written V c t) Mlp7.tiles_cover

end Cert.KernelIdeal.RegionValue

end
-- ==== Proof.RegReadout8.lean ====
/-
  The readout region: ten grid points in sequence, each adding to ONE [128, 8] block the product of the
  indicator matrix of its row tile's graph words with the tile's rows; the block is zeroed at the first
  point and written back at the last.  Its final contents are, entry (g, j), the sum over ALL rows e of
  [word e = g] times entry j of row e.
-/
import proofs.«429355_j34995393528525_1_alg».proof.Proof.Gen.KernelIdeal.Frame
import proofs.«429355_j34995393528525_1_alg».proof.Proof.Spec
import proofs.«429355_j34995393528525_1_alg».proof.Proof.OpsDense
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

namespace Cert.KernelIdeal.RegionValue

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-block rectangle, as a constant function. -/
theorem zeroOffsets : (![0, 0] : Fin 2 → Nat) = fun _ => 0 := funext fun a => by fin_cases a <;> rfl

/-! ## What one grid point leaves in the output block -/

section Pieces
variable {F : FTy → Type} [FloatOps F]

/-- A later point: the block holding `xo` is replaced by the update of `xo` with the tile's words and rows. -/
theorem block_of_later_point (c : Dev nD) (i : grid8.Coords) (a1 : Memref sig .tc .vmem S5000x8 .f32) (h1 : a1.IsWhole)
    (a2 : Memref sig .tc .vmem S5000x1 .i32) (h2 : a2.IsWhole) (a3 : Memref sig .tc .vmem S128x8 .f32) (h3 : a3.IsWhole)
    (hc : ¬cond8_0 i) (x0 : Vec F S5000x8 .f32) (x1 : Vec F S5000x1 .i32) (xo : Vec F S128x8 .f32) :
    out8_B_2 c i a1 h1 a2 h2 a3 h3 hc x0 x1 xo = k8_pay2 x1 x0 xo := by
  unfold out8_B_2
  rw [View.read_writes_eq_canon _ _ _ (cover8_B_2 c i a1 h1 a2 h2 a3 h3 hc x0 x1 xo)]
  unfold kernelRun8_B
  dsimp only
  sl_unfold_words
  rw [View.canon_unit_zero zeroOffsets]
  simp only [View.readAt_eq_ld, h1.read_unread, h2.read_unread, h3.read_unread, View.ld_unit_zero (S := S5000x8) zeroOffsets,
    View.ld_unit_zero (S := S5000x1) zeroOffsets, View.ld_unit_zero (S := S128x8) zeroOffsets]

/-- The first point: the block is reset to the zero block, read back, and updated with the tile's words and rows. -/
theorem block_of_first_point (c : Dev nD) (i : grid8.Coords) (a1 : Memref sig .tc .vmem S5000x8 .f32) (h1 : a1.IsWhole)
    (a2 : Memref sig .tc .vmem S5000x1 .i32) (h2 : a2.IsWhole) (a3 : Memref sig .tc .vmem S128x8 .f32) (h3 : a3.IsWhole)
    (hc : cond8_0 i) (x0 : Vec F S5000x8 .f32) (x1 : Vec F S5000x1 .i32) :
    out8_A_2 c i a1 h1 a2 h2 a3 h3 hc x0 x1 = k8_pay2 x1 x0 (k8_pay1 (F := F)) := by
  unfold out8_A_2
  rw [View.read_writes_eq_canon _ _ _ (cover8_A_2 c i a1 h1 a2 h2 a3 h3 hc x0 x1)]
  unfold kernelRun8_A
  dsimp only
  sl_unfold_words
  rw [View.canon_cons_unit_zero (S := S128x8) zeroOffsets, View.readCov_unit_zero (S := S128x8) _ zeroOffsets]
  simp only [View.readAt_eq_ld, h1.read_unread, h2.read_unread, View.ld_unit_zero (S := S5000x8) zeroOffsets,
    View.ld_unit_zero (S := S5000x1) zeroOffsets, View.ld_unit_zero (S := S128x8) zeroOffsets]

end Pieces

/-! ## The update, entry by entry -/

/-- The one-bit comparison of two words, widened and read as a number: 1 where the words agree, 0 elsewhere. -/
theorem indicator_word (u v : BitVec 32) :
    ((((IntOp.cmpi .eq u v).setWidth 32).toInt : ℝ) : EReal) = if v = u then (1 : EReal) else 0 := by
  by_cases h : v = u
  · subst h
    have e : IntOp.cmpi .eq v v = 1#1 := by simp [IntOp.cmpi]
    rw [e, if_pos rfl]
    have e1 : ((1#1 : BitVec 1).setWidth 32).toInt = 1 := by decide
    rw [e1]; simp
  · have hne : (u == v) = false := by
      rw [beq_eq_false_iff_ne]; exact fun e => h e.symm
    have e : IntOp.cmpi .eq u v = 0#1 := by simp [IntOp.cmpi, hne]
    rw [e, if_neg h]
    have e0 : ((0#1 : BitVec 1).setWidth 32).toInt = 0 := by decide
    rw [e0]; simp

/-- The transposed indicator matrix of a tile's words: entry (g, r) is [word r = g]. -/
abbrev indicatorT (w : Vec Ideal S5000x1 .i32) : FVec Ideal S128x5000 .bf16 :=
  transpose S128x5000 [1, 0]
    (truncf .bf16 (sitofp (F := Ideal) .f32 (extui 32 (cmpi .eq (iota .tc S5000x128 32 [1] iota_S5000x128_d1_w32)
      (broadcastTo S5000x128 (shapeCast S5000x1 w shapeCasts_S5000x1_S5000x1) broadcasts_S5000x1_S5000x128)) natLt_1_32))
      bitsLt_bf16_f32)
    transposes_S5000x128_p1_0_S128x5000

theorem indicatorT_apply (w : Vec Ideal S5000x1 .i32) (g : Fin 128) (r : Fin 5000) :
    indicatorT w (ix2 g r) = if w (ix2 r (0 : Fin 1)) = BitVec.ofNat 32 g.val then (1 : EReal) else 0 := by
  refine (transpose_ix2_apply _ transposes_S5000x128_p1_0_S128x5000 g r).trans ?_
  show ((((IntOp.cmpi .eq (iota .tc S5000x128 32 [1] iota_S5000x128_d1_w32 (ix2 r g))
      (broadcastTo S5000x128 (shapeCast S5000x1 w shapeCasts_S5000x1_S5000x1) broadcasts_S5000x1_S5000x128 (ix2 r g))).setWidth 32).toInt : ℝ) : EReal) = _
  rw [iota_single_apply, broadcastTo_apply _ broadcasts_S5000x1_S5000x128 (ix2 r g) (ix2 r (0 : Fin 1))
    (fun a => match a with | ⟨0, _⟩ => rfl | ⟨1, _⟩ => rfl), shapeCast_self]
  exact indicator_word _ _

/-- The update at entry (g, j): the block's entry plus the sum over the tile's rows r of [word r = g] times row r's entry j. -/
theorem update_apply (w : Vec Ideal S5000x1 .i32) (x : Vec Ideal S5000x8 .f32) (acc : Vec Ideal S128x8 .f32)
    (g : Fin 128) (j : Fin 8) :
    k8_pay2 (F := Ideal) w x acc (ix2 g j)
      = acc (ix2 g j) + ∑ r : Fin 5000, (if w (ix2 r (0 : Fin 1)) = BitVec.ofNat 32 g.val then (1 : EReal) else 0) * x (ix2 r j) := by
  have e : k8_pay2 (F := Ideal) w x acc
      = addf (shapeCast S128x8 acc shapeCasts_S128x8_S128x8)
          (matmul (φ₁ := .bf16) (φ₂ := .bf16) (DotDims.plain 128 5000 8) none (indicatorT w)
            (truncf .bf16 (shapeCast S5000x8 x shapeCasts_S5000x8_S5000x8) bitsLt_bf16_f32)
            (constant S128x8 .f32 0x00000000#32)) := rfl
  rw [e, shapeCast_self, shapeCast_self]
  refine (addf_apply _ _ (ix2 g j)).trans ?_
  refine congrArg (acc (ix2 g j) + ·) ?_
  refine (Gnn.Ops.plain_matmul_zero_apply_fmt (T := 128) (A := 5000) (B := 8) (φ₁ := .bf16) (φ₂ := .bf16)
    (indicatorT w) (truncf (F := Ideal) (s := S5000x8) (φ := .f32) .bf16 x bitsLt_bf16_f32) g j).trans ?_
  exact Finset.sum_congr rfl fun r _ => by rw [indicatorT_apply]; rfl

/-- The reset block is zero at every entry. -/
theorem reset_apply (i : S128x8.Idx) : k8_pay1 (F := Ideal) i = 0 := by
  show Ideal.ofBits .f32 0x00000000#32 = 0
  exact Ideal.ofBits_zero_f32

/-! ## The tiles of the two input arrays -/

/-- The rows to sum, and each row's graph word: the whole arrays as the region finds them. -/
abbrev rowsArr (c : Dev nD) : Gnn.Mat 50000 8 := V c main_v102
abbrev wordsArr (c : Dev nD) : Gnn.WordsCol 50000 := V c main_v103
/-- Their tiles at grid point t. -/
abbrev rowsBlk (c : Dev nD) (t : Fin cfg8.N) : Vec Ideal S5000x8 .f32 := iblk8 V c 0 t
abbrev wordsBlk (c : Dev nD) (t : Fin cfg8.N) : Vec Ideal S5000x1 .i32 := iblk8 V c 1 t

/-- At point t both input windows sit at row tile t, column tile 0. -/
theorem tile_index : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

/-- Row r of tile t is row 5000 t + r of the array. -/
theorem rowsBlk_apply (c : Dev nD) (t : Fin cfg8.N) (r : Fin 5000) (j : Fin 8) (h : 5000 * t.val + r.val < 50000) :
    rowsBlk V c t (ix2 r j) = rowsArr V c (ix2 ⟨5000 * t.val + r.val, h⟩ j) := by
  obtain ⟨e0, e1, -, -⟩ := tile_index t
  show V c main_v102 (((cfg8.win 0).blk t).view.emb (ix2 r j)) = V c main_v102 (ix2 ⟨5000 * t.val + r.val, h⟩ j)
  refine congrArg (V c main_v102) (funext fun a => Fin.ext ?_)
  match a with
  | ⟨0, _⟩ => show win8_0.index t (0 : Fin 2) * 5000 + 1 * r.val = 5000 * t.val + r.val; rw [e0]; omega
  | ⟨1, _⟩ => show win8_0.index t (1 : Fin 2) * 8 + 1 * j.val = j.val; rw [e1]; omega

theorem wordsBlk_apply (c : Dev nD) (t : Fin cfg8.N) (r : Fin 5000) (h : 5000 * t.val + r.val < 50000) :
    wordsBlk V c t (ix2 r (0 : Fin 1)) = wordsArr V c (ix2 ⟨5000 * t.val + r.val, h⟩ (0 : Fin 1)) := by
  obtain ⟨-, -, e0, e1⟩ := tile_index t
  show V c main_v103 (((cfg8.win 1).blk t).view.emb (ix2 r (0 : Fin 1))) = V c main_v103 (ix2 ⟨5000 * t.val + r.val, h⟩ (0 : Fin 1))
  refine congrArg (V c main_v103) (funext fun a => Fin.ext ?_)
  match a with
  | ⟨0, _⟩ => show win8_1.index t (0 : Fin 2) * 5000 + 1 * r.val = 5000 * t.val + r.val; rw [e0]; omega
  | ⟨1, _⟩ => show win8_1.index t (1 : Fin 2) * 1 + 1 * 0 = 0; rw [e1]

/-! ## The running sum -/

/-- Row e's addend to entry (g, j): [word e = g] times row e's entry j; nothing past the last row. -/
def addend (c : Dev nD) (g : Fin 128) (j : Fin 8) (e : ℕ) : EReal :=
  if h : e < 50000 then
    (if wordsArr V c (ix2 ⟨e, h⟩ (0 : Fin 1)) = BitVec.ofNat 32 g.val then (1 : EReal) else 0) * rowsArr V c (ix2 ⟨e, h⟩ j)
  else 0

/-- The sum over tile t's rows is the sum of the addends of rows 5000 t .. 5000 t + 4999. -/
theorem tile_sum (c : Dev nD) (t : Fin cfg8.N) (g : Fin 128) (j : Fin 8) :
    (∑ r : Fin 5000, (if wordsBlk V c t (ix2 r (0 : Fin 1)) = BitVec.ofNat 32 g.val then (1 : EReal) else 0)
        * rowsBlk V c t (ix2 r j))
      = ∑ r ∈ Finset.range 5000, addend V c g j (5000 * t.val + r) := by
  have hN : t.val < 10 := lt_of_lt_of_eq t.isLt (show cfg8.N = 10 from N_8)
  rw [Finset.sum_range]
  refine Finset.sum_congr rfl fun r _ => ?_
  have h : 5000 * t.val + r.val < 50000 := by have := r.isLt; omega
  rw [wordsBlk_apply V c t r h, rowsBlk_apply V c t r j h]
  unfold addend
  rw [dif_pos h]

/-- After point n the block holds, at (g, j), the sum of the addends of the rows below 5000 (n + 1). -/
theorem block_after (c : Dev nD) : ∀ (n : ℕ) (h : n < cfg8.N) (g : Fin 128) (j : Fin 8),
    outsAt8 V c n h (ix2 g j) = ∑ e ∈ Finset.range (5000 * (n + 1)), addend V c g j e
  | 0, h, g, j => by
    rw [outsAt8_A V c ⟨0, h⟩ (Nat.zero_mod 10)]
    refine (congrFun (block_of_first_point (F := Ideal) c (grid8.coords ⟨0, h⟩) (ms8_0 ⟨0, h⟩) (hs8_0 ⟨0, h⟩)
      (ms8_1 ⟨0, h⟩) (hs8_1 ⟨0, h⟩) (ms8_2 ⟨0, h⟩) (hs8_2 ⟨0, h⟩) ((hcond8_0 ⟨0, h⟩).mpr (Nat.zero_mod 10))
      (rowsBlk V c ⟨0, h⟩) (wordsBlk V c ⟨0, h⟩)) (ix2 g j)).trans ?_
    refine (update_apply (wordsBlk V c ⟨0, h⟩) (rowsBlk V c ⟨0, h⟩) (k8_pay1 (F := Ideal)) g j).trans ?_
    rw [reset_apply, zero_add, tile_sum V c ⟨0, h⟩ g j]
    show ∑ r ∈ Finset.range 5000, addend V c g j (5000 * 0 + r) = ∑ e ∈ Finset.range (5000 * (0 + 1)), addend V c g j e
    refine Finset.sum_congr rfl fun r _ => ?_
    rw [Nat.mul_zero, Nat.zero_add]
  | n + 1, h, g, j => by
    have hN : cfg8.N = 10 := N_8
    have hB : ¬(⟨n + 1, h⟩ : Fin cfg8.N).val % 10 = 0 := by dsimp only; omega
    rw [outsAt8_B V c ⟨n + 1, h⟩ hB]
    dsimp only
    refine (congrFun (block_of_later_point (F := Ideal) c (grid8.coords ⟨n + 1, h⟩) (ms8_0 ⟨n + 1, h⟩) (hs8_0 ⟨n + 1, h⟩)
      (ms8_1 ⟨n + 1, h⟩) (hs8_1 ⟨n + 1, h⟩) (ms8_2 ⟨n + 1, h⟩) (hs8_2 ⟨n + 1, h⟩)
      (fun hc => hB ((hcond8_0 ⟨n + 1, h⟩).mp hc))
      (rowsBlk V c ⟨n + 1, h⟩) (wordsBlk V c ⟨n + 1, h⟩) (outsAt8 V c n (Nat.lt_of_succ_lt h))) (ix2 g j)).trans ?_
    refine (update_apply (wordsBlk V c ⟨n + 1, h⟩) (rowsBlk V c ⟨n + 1, h⟩) (outsAt8 V c n (Nat.lt_of_succ_lt h)) g j).trans ?_
    rw [block_after c n (Nat.lt_of_succ_lt h) g j, tile_sum V c ⟨n + 1, h⟩ g j]
    show _ + ∑ r ∈ Finset.range 5000, addend V c g j (5000 * (n + 1) + r) = ∑ e ∈ Finset.range (5000 * (n + 1) + 5000), addend V c g j e
    exact (Finset.sum_range_add (addend V c g j) (5000 * (n + 1)) 5000).symm

/-- After the last point the block is the whole sum: every row's indicator times the row. -/
theorem last_block (c : Dev nD) (h : 9 < cfg8.N) :
    outsAt8 V c 9 h = Gnn.onehotRows (N := 128) (rowsArr V c) (wordsArr V c) := by
  funext i
  obtain ⟨g, j, rfl⟩ : ∃ (g : Fin 128) (j : Fin 8), i = ix2 g j := ⟨i 0, i 1, eq_ix2 i⟩
  rw [block_after V c 9 h g j]
  show ∑ e ∈ Finset.range 50000, addend V c g j e
    = ∑ e : Fin 50000, (if wordsArr V c (ix2 e (0 : Fin 1)) = BitVec.ofNat 32 g.val then (1 : EReal) else 0) * rowsArr V c (ix2 e j)
  rw [Finset.sum_range]
  exact Finset.sum_congr rfl fun e _ => by unfold addend; rw [dif_pos e.isLt]

/-! ## The array the region leaves -/

/-- The one write-back, at the last point, writes the whole sum: the block is the whole array. -/
theorem written_back (c : Dev nD) (t : Fin cfg8.N) (hf : (cfg8.win 2).flush t = true) :
    (dat8 V c).flushed 2 t
      = ((cfg8.win 2).blk t).view.read (Elt Ideal) (Gnn.onehotRows (N := 128) (rowsArr V c) (wordsArr V c)) := by
  have hN : cfg8.N = 10 := N_8
  have h9 : t.val = 9 := by have := (flush8_2 t).mp hf; have := t.isLt; omega
  obtain rfl : t = t8_9 := Fin.ext h9
  show (cfg8.win 2).cut (grid8.coords t8_9) ((dat8 V c).after 2 t8_9) = _
  rw [after8_2, show outsAt8 V c t8_9.val t8_9.isLt = Gnn.onehotRows (N := 128) (rowsArr V c) (wordsArr V c) from
    last_block V c t8_9.isLt]
  have hz' : (fun a => win8_2.index t8_9 a * main_v104.ty.shape.size a) = fun _ => 0 :=
    funext fun a => by fin_cases a <;> decide
  exact (Memref.read_access_unit_zero (Elt Ideal) main_v104 hz' (fun a => by rw [congrFun hz' a]; simp)
    (Gnn.onehotRows (N := 128) (rowsArr V c) (wordsArr V c))).symm

theorem final8 (c : Dev nD) : (dat8 V c).arrAt 2 cfg8.N = Gnn.onehotRows (N := 128) (V c main_v102) (V c main_v103) :=
  (dat8 V c).arrAt_eq_of_cover 2 (Gnn.onehotRows (N := 128) (rowsArr V c) (wordsArr V c)) (written_back V c) fun i =>
    ⟨t8_9, (flush8_2 t8_9).mpr rfl, by
      show i ∈ ((View.whole main_v104).slice (win8_2.rect t8_9)).set
      rw [View.set_slice_whole, Rect.mem_set_unit]
      intro a
      have h0 : (i 0 : Nat) < 128 := (i 0).isLt
      have h1 : (i 1 : Nat) < 8 := (i 1).isLt
      match a with
      | ⟨0, _⟩ =>
        show win8_2.index t8_9 0 * win8_2.size 0 ≤ (i 0 : Nat)
          ∧ (i 0 : Nat) < win8_2.index t8_9 0 * win8_2.size 0 + win8_2.xsize (grid8.coords t8_9) 0
        rw [show win8_2.index t8_9 0 * win8_2.size 0 = 0 from by decide +kernel,
          show win8_2.xsize (grid8.coords t8_9) 0 = 128 from by decide +kernel]
        omega
      | ⟨1, _⟩ =>
        show win8_2.index t8_9 1 * win8_2.size 1 ≤ (i 1 : Nat)
          ∧ (i 1 : Nat) < win8_2.index t8_9 1 * win8_2.size 1 + win8_2.xsize (grid8.coords t8_9) 1
        rw [show win8_2.index t8_9 1 * win8_2.size 1 = 0 from by decide +kernel,
          show win8_2.xsize (grid8.coords t8_9) 1 = 8 from by decide +kernel]
        omega⟩

end Cert.KernelIdeal.RegionValue

end
-- ==== Proof.KChainC.lean ====
/-
  The kernel program's buffers from the start of the third round to the result: the third round of message passing
  read off the program as one round of the network, then the head and the per-graph sums.
-/
import proofs.«429355_j34995393528525_1_alg».proof.Proof.Gen.KernelIdeal.Frame
import proofs.«429355_j34995393528525_1_alg».proof.Proof.Spec
import proofs.«429355_j34995393528525_1_alg».proof.Proof.LibRowOps
import proofs.«429355_j34995393528525_1_alg».proof.Proof.OpsDense
import proofs.«429355_j34995393528525_1_alg».proof.Proof.OpsEdge
import proofs.«429355_j34995393528525_1_alg».proof.Proof.OpsIndex
import proofs.«429355_j34995393528525_1_alg».proof.Proof.KKeep
import proofs.«429355_j34995393528525_1_alg».proof.Proof.RegMlp7
import proofs.«429355_j34995393528525_1_alg».proof.Proof.RegEdge5
import proofs.«429355_j34995393528525_1_alg».proof.Proof.RegReadout8
import proofs.«429355_j34995393528525_1_alg».proof.Proof.RegMlp6
import Idealize.ShloMosaic.Lib.StableHlo.Run

set_option maxRecDepth 16384
set_option maxHeartbeats 2000000

noncomputable section

namespace Cert.KernelIdeal.Chain

open Cert.KernelIdeal Cert.KernelIdeal.Gen Idealize.ShloMosaic Idealize.ShloMosaic.ValueIdx Idealize.SL.Sem Idealize.ShloMosaic.StableHlo
open Idealize.ShloMosaic.TcCoe

variable (m : (ℓ : Loc nD τ sig) → Buf (Elt Ideal) ℓ) (ρ : Dev nD → PrngReg) (c : Dev nD)

namespace PartC

/-! ### The sum of update rows at the rows their words name (all sizes generic) -/

/-- Adding update rows into zeros at the rows their words name: the words laid as a column, then the scatter. -/
theorem scatter_read {N E C : Nat}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = RowOps.rowScatter N E C wf)
    (dst : Gnn.Words E) (u : Gnn.Mat E C)
    (h0 : (⟨0, ![]⟩ : Shape).BroadcastsInDim ⟨2, ![N, C]⟩ (![] : Fin 0 → Fin 2))
    (hb : (⟨1, ![E]⟩ : Shape).BroadcastsInDim ⟨2, ![E, 1]⟩ (![0] : Fin 1 → Fin 2)) :
    Host.scatterAdd (F := Ideal) d
        (broadcastInDim ⟨2, ![N, C]⟩ ![] h0 (constant (F := Ideal) ⟨0, ![]⟩ .f32 0x00000000#32))
        (broadcastInDim ⟨2, ![E, 1]⟩ ![0] hb dst) (u : FVec Ideal _ .f32)
      = Gnn.scatterRows dst u := by
  rw [Gnn.Ops.bcast_colWords dst hb]
  exact Gnn.Ops.host_scatter wf d hd dst u h0

/-! ### A typed reference's transport

A typed reference carries contents between the type it names and the type of its buffer along the equation of the two;
for a reference written out in full the equation holds by computation, and the transport does nothing. -/

theorem back_and_forth {T : BufTy} (x : StableHlo.TRef sig T) (v : T.Contents (Elt Ideal)) : x.ofBuf (x.toBuf v) = v := by
  obtain ⟨r, h, hd, hs⟩ := x
  subst h
  rfl

section Ends

variable (V : Valuation τ sig (Elt Ideal))

theorem in_v1 : (TRef.of main_v1 : TRef sig ⟨S800000, .i32⟩).ofBuf (V (Proc.devRef .tc main_v1)) = V (Proc.devRef .tc main_v1) := rfl
theorem in_v3 : (TRef.of main_v3 : TRef sig ⟨S800000, .i32⟩).ofBuf (V (Proc.devRef .tc main_v3)) = V (Proc.devRef .tc main_v3) := rfl
theorem in_v68 : (TRef.of main_v68 : TRef sig ⟨S50000x64, .f32⟩).ofBuf (V (Proc.devRef .tc main_v68)) = V (Proc.devRef .tc main_v68) := rfl
theorem in_arg1 : (TRef.of main_arg1 : TRef sig ⟨S50000x3, .f32⟩).ofBuf (V (Proc.devRef .tc main_arg1)) = V (Proc.devRef .tc main_arg1) := rfl
theorem out_v69 (X : (⟨S800000x64, .f32⟩ : BufTy).Contents (Elt Ideal)) :
    (TRef.of main_v69 : TRef sig ⟨S800000x64, .f32⟩).toBuf X = X := rfl
theorem out_v70 (X : (⟨S800000x64, .f32⟩ : BufTy).Contents (Elt Ideal)) :
    (TRef.of main_v70 : TRef sig ⟨S800000x64, .f32⟩).toBuf X = X := rfl
theorem out_v71 (X : (⟨S800000x3, .f32⟩ : BufTy).Contents (Elt Ideal)) :
    (TRef.of main_v71 : TRef sig ⟨S800000x3, .f32⟩).toBuf X = X := rfl

end Ends

/-! ### Taking rows of a table of 50000 rows at 800000 words -/

/-- The words as the gather reads them: a negative word counted from the end, the words laid as a column. -/
def wordCol (w : Gnn.Words 800000) : Gnn.WordsCol 800000 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- The rows gathered at the words, a row whose wrapped word is not in [0, 49999] replaced by the fill. -/
def takenRows {C : Nat} (d : GatherDims ⟨2, ![50000, C]⟩ ⟨2, ![800000, 1]⟩ ⟨2, ![800000, C]⟩)
    (hbm : (⟨1, ![800000]⟩ : Shape).BroadcastsInDim ⟨2, ![800000, C]⟩ (![0] : Fin 1 → Fin 2))
    (hbn : (⟨0, ![]⟩ : Shape).BroadcastsInDim ⟨2, ![800000, C]⟩ (![] : Fin 0 → Fin 2))
    (tbl : Gnn.Mat 50000 C) (w : Gnn.Words 800000) : Gnn.Mat 800000 C :=
  select
    (broadcastInDim ⟨2, ![800000, C]⟩ ![0] hbm
      (Host.reduce IntOp.andi
        (andi (cmpi .sge (wordCol w) (broadcastInDim S800000x1 ![] bcast_S_S800000x1 (constantI S_ 32 0#32)))
          (cmpi .sle (wordCol w)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather d tbl (wordCol w))
    (broadcastInDim ⟨2, ![800000, C]⟩ ![] hbn (constant (F := Ideal) S_ .f32 0x7FC00000#32))

theorem wordCol_eq (w : Gnn.Words 800000) : wordCol w = Gnn.colWords (fun i => Gnn.wrapWord 50000 (w i)) := by
  unfold wordCol
  rw [Gnn.Ops.wrap_words (N := 50000) (by norm_num) w bcast_S_S800000]
  exact Gnn.Ops.bcast_colWords _ _

/-- With every word in [0, 50000) no row is replaced, and the rows are the network's row gather. -/
theorem takenRows_eq {C : Nat} (d : GatherDims ⟨2, ![50000, C]⟩ ⟨2, ![800000, 1]⟩ ⟨2, ![800000, C]⟩)
    (wf : GatherDims.WF ⟨2, ![50000, C]⟩ ⟨2, ![800000, 1]⟩ ⟨2, ![800000, C]⟩ [1] [0] [] [0] [] 1 ![1, C])
    (hd : d = RowOps.rowGather 50000 800000 C wf)
    (hbm : (⟨1, ![800000]⟩ : Shape).BroadcastsInDim ⟨2, ![800000, C]⟩ (![0] : Fin 1 → Fin 2))
    (hbn : (⟨0, ![]⟩ : Shape).BroadcastsInDim ⟨2, ![800000, C]⟩ (![] : Fin 0 → Fin 2))
    (tbl : Gnn.Mat 50000 C) (w : Gnn.Words 800000)
    (hin : ∀ i, 0 ≤ (w i).toInt ∧ (w i).toInt < ((50000 : ℕ) : ℤ)) :
    takenRows d hbm hbn tbl w = Gnn.takeRows (N := 50000) (by decide) tbl w := by
  unfold takenRows
  rw [wordCol_eq w, Gnn.Ops.host_gather (N := 50000) (by decide) wf d hd tbl w]
  exact Gnn.Ops.take_in_range (N := 50000) (by decide) (by norm_num) w hin _ _ _ _ _ _ _ _

/-! ### Each stretch of host operations, read over arbitrary entry contents -/

section Stretches

variable (V : Valuation τ sig (Elt Ideal))

set_option maxHeartbeats 4000000 in
/-- The first take of the round: rows of the features at the destination words. -/
theorem ops5_v69
    (hin : ∀ i, 0 ≤ ((V (Proc.devRef .tc main_v3) : Gnn.Words 800000) i).toInt
      ∧ ((V (Proc.devRef .tc main_v3) : Gnn.Words 800000) i).toInt < ((50000 : ℕ) : ℤ)) :
    StableHlo.after (hostOps5 (F := Ideal)) V (Proc.devRef .tc main_v69)
      = Gnn.takeRows (N := 50000) (by decide) (V (Proc.devRef .tc main_v68)) (V (Proc.devRef .tc main_v3)) := by
  simp only [hostOps5]
  after_results_simp
  simp only [back_and_forth, in_v3, in_v68, out_v69]
  exact takenRows_eq gather_S50000x64_S800000x1_S800000x64_1_0_n_n_0_1_164 _ rfl bcast_S800000_S800000x64_0 bcast_S_S800000x64
    (V (Proc.devRef .tc main_v68)) (V (Proc.devRef .tc main_v3)) hin

set_option maxHeartbeats 4000000 in
/-- The second take: rows of the features at the source words. -/
theorem ops5_1_v70
    (hin : ∀ i, 0 ≤ ((V (Proc.devRef .tc main_v1) : Gnn.Words 800000) i).toInt
      ∧ ((V (Proc.devRef .tc main_v1) : Gnn.Words 800000) i).toInt < ((50000 : ℕ) : ℤ)) :
    StableHlo.after (hostOps5_1 (F := Ideal)) V (Proc.devRef .tc main_v70)
      = Gnn.takeRows (N := 50000) (by decide) (V (Proc.devRef .tc main_v68)) (V (Proc.devRef .tc main_v1)) := by
  simp only [hostOps5_1]
  after_results_simp
  simp only [back_and_forth, in_v1, in_v68, out_v70]
  exact takenRows_eq gather_S50000x64_S800000x1_S800000x64_1_0_n_n_0_1_164 _ rfl bcast_S800000_S800000x64_0 bcast_S_S800000x64
    (V (Proc.devRef .tc main_v68)) (V (Proc.devRef .tc main_v1)) hin

set_option maxHeartbeats 4000000 in
/-- The third take: rows of the positions at the source words. -/
theorem ops5_2_v71
    (hin : ∀ i, 0 ≤ ((V (Proc.devRef .tc main_v1) : Gnn.Words 800000) i).toInt
      ∧ ((V (Proc.devRef .tc main_v1) : Gnn.Words 800000) i).toInt < ((50000 : ℕ) : ℤ)) :
    StableHlo.after (hostOps5_2 (F := Ideal)) V (Proc.devRef .tc main_v71)
      = Gnn.takeRows (N := 50000) (by decide) (V (Proc.devRef .tc main_arg1)) (V (Proc.devRef .tc main_v1)) := by
  simp only [hostOps5_2]
  after_results_simp
  simp only [back_and_forth, in_v1, in_arg1, out_v71]
  exact takenRows_eq gather_S50000x3_S800000x1_S800000x3_1_0_n_n_0_1_13 _ rfl bcast_S800000_S800000x3_0 bcast_S_S800000x3
    (V (Proc.devRef .tc main_arg1)) (V (Proc.devRef .tc main_v1)) hin

/-- Layer 2 of the stacked first edge weights, as the host cuts it out. -/
theorem edge_weight2 (W : Gnn.Cube 3 131 64) :
    shapeCast S131x64 (extractStridedSlice S1x131x64 ![2, 0, 0] W slices_S3x131x64_S1x131x64_2_0_0) shapeCasts_S1x131x64_S131x64
      = Gnn.layerMat (2 : Fin 3) W :=
  Gnn.Ops.slice_layerMat 2 (by decide) W slices_S3x131x64_S1x131x64_2_0_0 shapeCasts_S1x131x64_S131x64

/-- The three row blocks of the third layer's edge weights. -/
theorem ops5_3_v74 :
    StableHlo.after (hostOps5_3 (F := Ideal)) V (Proc.devRef .tc main_v74)
      = extractStridedSlice S64x64 ![0, 0] (Gnn.layerMat (2 : Fin 3) (V (Proc.devRef .tc main_arg8))) slices_S131x64_S64x64_0_0 := by
  have raw : StableHlo.after (hostOps5_3 (F := Ideal)) V (Proc.devRef .tc main_v74)
      = extractStridedSlice S64x64 ![0, 0]
          (shapeCast S131x64 (extractStridedSlice S1x131x64 ![2, 0, 0] (V (Proc.devRef .tc main_arg8)) slices_S3x131x64_S1x131x64_2_0_0)
            shapeCasts_S1x131x64_S131x64) slices_S131x64_S64x64_0_0 := by
    simp only [hostOps5_3]
    after_results_simp
    rfl
  rw [raw, edge_weight2 (V (Proc.devRef .tc main_arg8))]

theorem ops5_3_v75 :
    StableHlo.after (hostOps5_3 (F := Ideal)) V (Proc.devRef .tc main_v75)
      = extractStridedSlice S64x64 ![64, 0] (Gnn.layerMat (2 : Fin 3) (V (Proc.devRef .tc main_arg8))) slices_S131x64_S64x64_64_0 := by
  have raw : StableHlo.after (hostOps5_3 (F := Ideal)) V (Proc.devRef .tc main_v75)
      = extractStridedSlice S64x64 ![64, 0]
          (shapeCast S131x64 (extractStridedSlice S1x131x64 ![2, 0, 0] (V (Proc.devRef .tc main_arg8)) slices_S3x131x64_S1x131x64_2_0_0)
            shapeCasts_S1x131x64_S131x64) slices_S131x64_S64x64_64_0 := by
    simp only [hostOps5_3]
    after_results_simp
    rfl
  rw [raw, edge_weight2 (V (Proc.devRef .tc main_arg8))]

theorem ops5_3_v76 :
    StableHlo.after (hostOps5_3 (F := Ideal)) V (Proc.devRef .tc main_v76)
      = extractStridedSlice S3x64 ![128, 0] (Gnn.layerMat (2 : Fin 3) (V (Proc.devRef .tc main_arg8))) slices_S131x64_S3x64_128_0 := by
  have raw : StableHlo.after (hostOps5_3 (F := Ideal)) V (Proc.devRef .tc main_v76)
      = extractStridedSlice S3x64 ![128, 0]
          (shapeCast S131x64 (extractStridedSlice S1x131x64 ![2, 0, 0] (V (Proc.devRef .tc main_arg8)) slices_S3x131x64_S1x131x64_2_0_0)
            shapeCasts_S1x131x64_S131x64) slices_S131x64_S3x64_128_0 := by
    simp only [hostOps5_3]
    after_results_simp
    rfl
  rw [raw, edge_weight2 (V (Proc.devRef .tc main_arg8))]

/-- The third layer's first edge bias, as a one-row matrix. -/
theorem ops5_3_v83 :
    StableHlo.after (hostOps5_3 (F := Ideal)) V (Proc.devRef .tc main_v83)
      = Gnn.rowVec (Gnn.layerVec (2 : Fin 3) (V (Proc.devRef .tc main_arg9))) := by
  simp only [hostOps5_3]
  after_results_simp
  exact (congrArg (fun b : Gnn.Vc 64 => shapeCast S1x64 b shapeCasts_S64_S1x64)
    (Gnn.Ops.slice_layerVec 2 (by decide) _ slices_S3x64_S1x64_2_0 shapeCasts_S1x64_S64)).trans
    (Gnn.Ops.reshape_rowVec _ shapeCasts_S64_S1x64)

/-- The third layer's second edge weights. -/
theorem ops5_3_v80 :
    StableHlo.after (hostOps5_3 (F := Ideal)) V (Proc.devRef .tc main_v80)
      = Gnn.layerMat (2 : Fin 3) (V (Proc.devRef .tc main_arg10)) := by
  simp only [hostOps5_3]
  after_results_simp
  exact Gnn.Ops.slice_layerMat 2 (by decide) _ slices_S3x64x64_S1x64x64_2_0_0 shapeCasts_S1x64x64_S64x64

/-- The third layer's second edge bias, as a one-row matrix. -/
theorem ops5_3_v84 :
    StableHlo.after (hostOps5_3 (F := Ideal)) V (Proc.devRef .tc main_v84)
      = Gnn.rowVec (Gnn.layerVec (2 : Fin 3) (V (Proc.devRef .tc main_arg11))) := by
  simp only [hostOps5_3]
  after_results_simp
  exact (congrArg (fun b : Gnn.Vc 64 => shapeCast S1x64 b shapeCasts_S64_S1x64)
    (Gnn.Ops.slice_layerVec 2 (by decide) _ slices_S3x64_S1x64_2_0 shapeCasts_S1x64_S64)).trans
    (Gnn.Ops.reshape_rowVec _ shapeCasts_S64_S1x64)

/-- The messages summed at their destination words. -/
theorem ops6_v88 :
    StableHlo.after (hostOps6 (F := Ideal)) V (Proc.devRef .tc main_v88)
      = Gnn.scatterRows (N := 50000) (V (Proc.devRef .tc main_v3)) (V (Proc.devRef .tc main_v85)) := by
  simp only [hostOps6]
  after_results_simp
  exact scatter_read scatter_S50000x64_S800000x1_S800000x64_1_0_0_1_wf scatter_S50000x64_S800000x1_S800000x64_1_0_0_1 rfl
    _ _ bcast_S_S50000x64 bcast_S800000_S800000x1_0

/-- The third layer's node weights and biases. -/
theorem ops6_v90 :
    StableHlo.after (hostOps6 (F := Ideal)) V (Proc.devRef .tc main_v90)
      = Gnn.layerMat (2 : Fin 3) (V (Proc.devRef .tc main_arg12)) := by
  simp only [hostOps6]
  after_results_simp
  exact Gnn.Ops.slice_layerMat 2 (by decide) _ slices_S3x64x64_S1x64x64_2_0_0 shapeCasts_S1x64x64_S64x64

theorem ops6_v97 :
    StableHlo.after (hostOps6 (F := Ideal)) V (Proc.devRef .tc main_v97)
      = Gnn.rowVec (Gnn.layerVec (2 : Fin 3) (V (Proc.devRef .tc main_arg13))) := by
  simp only [hostOps6]
  after_results_simp
  exact (congrArg (fun b : Gnn.Vc 64 => shapeCast S1x64 b shapeCasts_S64_S1x64)
    (Gnn.Ops.slice_layerVec 2 (by decide) _ slices_S3x64_S1x64_2_0 shapeCasts_S1x64_S64)).trans
    (Gnn.Ops.reshape_rowVec _ shapeCasts_S64_S1x64)

theorem ops6_v94 :
    StableHlo.after (hostOps6 (F := Ideal)) V (Proc.devRef .tc main_v94)
      = Gnn.layerMat (2 : Fin 3) (V (Proc.devRef .tc main_arg14)) := by
  simp only [hostOps6]
  after_results_simp
  exact Gnn.Ops.slice_layerMat 2 (by decide) _ slices_S3x64x64_S1x64x64_2_0_0 shapeCasts_S1x64x64_S64x64

theorem ops6_v98 :
    StableHlo.after (hostOps6 (F := Ideal)) V (Proc.devRef .tc main_v98)
      = Gnn.rowVec (Gnn.layerVec (2 : Fin 3) (V (Proc.devRef .tc main_arg15))) := by
  simp only [hostOps6]
  after_results_simp
  exact (congrArg (fun b : Gnn.Vc 64 => shapeCast S1x64 b shapeCasts_S64_S1x64)
    (Gnn.Ops.slice_layerVec 2 (by decide) _ slices_S3x64_S1x64_2_0 shapeCasts_S1x64_S64)).trans
    (Gnn.Ops.reshape_rowVec _ shapeCasts_S64_S1x64)

/-- The head's two biases, as one-row matrices. -/
theorem ops7_v100 :
    StableHlo.after (hostOps7 (F := Ideal)) V (Proc.devRef .tc main_v100) = Gnn.rowVec (V (Proc.devRef .tc main_arg17)) := by
  simp only [hostOps7]
  after_results_simp
  exact Gnn.Ops.reshape_rowVec _ shapeCasts_S32_S1x32

theorem ops7_v101 :
    StableHlo.after (hostOps7 (F := Ideal)) V (Proc.devRef .tc main_v101) = Gnn.rowVec (V (Proc.devRef .tc main_arg19)) := by
  simp only [hostOps7]
  after_results_simp
  exact Gnn.Ops.reshape_rowVec _ shapeCasts_S8_S1x8

/-- The graph words, as a one-column matrix. -/
theorem ops8_v103 :
    StableHlo.after (hostOps8 (F := Ideal)) V (Proc.devRef .tc main_v103) = Gnn.colWords (V (Proc.devRef .tc main_arg3)) := by
  simp only [hostOps8]
  after_results_simp
  exact Gnn.Ops.reshape_colWords _ shapeCasts_S50000_S50000x1

end Stretches

/-! ### The boundaries of the third round -/

theorem arg0_of {W : Valuation τ sig (Elt Ideal)} (h : Keep.ArgsAt m W c) :
    W (Proc.devRef .tc main_arg0) = m ((c : Thread nD τ).loc main_arg0) := h.1
theorem arg1_of {W : Valuation τ sig (Elt Ideal)} (h : Keep.ArgsAt m W c) :
    W (Proc.devRef .tc main_arg1) = m ((c : Thread nD τ).loc main_arg1) := h.2.1
theorem arg2_of {W : Valuation τ sig (Elt Ideal)} (h : Keep.ArgsAt m W c) :
    W (Proc.devRef .tc main_arg2) = m ((c : Thread nD τ).loc main_arg2) := h.2.2.1
theorem arg3_of {W : Valuation τ sig (Elt Ideal)} (h : Keep.ArgsAt m W c) :
    W (Proc.devRef .tc main_arg3) = m ((c : Thread nD τ).loc main_arg3) := h.2.2.2.1
theorem arg4_of {W : Valuation τ sig (Elt Ideal)} (h : Keep.ArgsAt m W c) :
    W (Proc.devRef .tc main_arg4) = m ((c : Thread nD τ).loc main_arg4) := h.2.2.2.2.1
theorem arg5_of {W : Valuation τ sig (Elt Ideal)} (h : Keep.ArgsAt m W c) :
    W (Proc.devRef .tc main_arg5) = m ((c : Thread nD τ).loc main_arg5) := h.2.2.2.2.2.1
theorem arg6_of {W : Valuation τ sig (Elt Ideal)} (h : Keep.ArgsAt m W c) :
    W (Proc.devRef .tc main_arg6) = m ((c : Thread nD τ).loc main_arg6) := h.2.2.2.2.2.2.1
theorem arg7_of {W : Valuation τ sig (Elt Ideal)} (h : Keep.ArgsAt m W c) :
    W (Proc.devRef .tc main_arg7) = m ((c : Thread nD τ).loc main_arg7) := h.2.2.2.2.2.2.2.1
theorem arg8_of {W : Valuation τ sig (Elt Ideal)} (h : Keep.ArgsAt m W c) :
    W (Proc.devRef .tc main_arg8) = m ((c : Thread nD τ).loc main_arg8) := h.2.2.2.2.2.2.2.2.1
theorem arg9_of {W : Valuation τ sig (Elt Ideal)} (h : Keep.ArgsAt m W c) :
    W (Proc.devRef .tc main_arg9) = m ((c : Thread nD τ).loc main_arg9) := h.2.2.2.2.2.2.2.2.2.1
theorem arg10_of {W : Valuation τ sig (Elt Ideal)} (h : Keep.ArgsAt m W c) :
    W (Proc.devRef .tc main_arg10) = m ((c : Thread nD τ).loc main_arg10) := h.2.2.2.2.2.2.2.2.2.2.1
theorem arg11_of {W : Valuation τ sig (Elt Ideal)} (h : Keep.ArgsAt m W c) :
    W (Proc.devRef .tc main_arg11) = m ((c : Thread nD τ).loc main_arg11) := h.2.2.2.2.2.2.2.2.2.2.2.1
theorem arg12_of {W : Valuation τ sig (Elt Ideal)} (h : Keep.ArgsAt m W c) :
    W (Proc.devRef .tc main_arg12) = m ((c : Thread nD τ).loc main_arg12) := h.2.2.2.2.2.2.2.2.2.2.2.2.1
theorem arg13_of {W : Valuation τ sig (Elt Ideal)} (h : Keep.ArgsAt m W c) :
    W (Proc.devRef .tc main_arg13) = m ((c : Thread nD τ).loc main_arg13) := h.2.2.2.2.2.2.2.2.2.2.2.2.2.1
theorem arg14_of {W : Valuation τ sig (Elt Ideal)} (h : Keep.ArgsAt m W c) :
    W (Proc.devRef .tc main_arg14) = m ((c : Thread nD τ).loc main_arg14) := h.2.2.2.2.2.2.2.2.2.2.2.2.2.2.1
theorem arg15_of {W : Valuation τ sig (Elt Ideal)} (h : Keep.ArgsAt m W c) :
    W (Proc.devRef .tc main_arg15) = m ((c : Thread nD τ).loc main_arg15) := h.2.2.2.2.2.2.2.2.2.2.2.2.2.2.2.1
theorem arg16_of {W : Valuation τ sig (Elt Ideal)} (h : Keep.ArgsAt m W c) :
    W (Proc.devRef .tc main_arg16) = m ((c : Thread nD τ).loc main_arg16) := h.2.2.2.2.2.2.2.2.2.2.2.2.2.2.2.2.1
theorem arg17_of {W : Valuation τ sig (Elt Ideal)} (h : Keep.ArgsAt m W c) :
    W (Proc.devRef .tc main_arg17) = m ((c : Thread nD τ).loc main_arg17) := h.2.2.2.2.2.2.2.2.2.2.2.2.2.2.2.2.2.1
theorem arg18_of {W : Valuation τ sig (Elt Ideal)} (h : Keep.ArgsAt m W c) :
    W (Proc.devRef .tc main_arg18) = m ((c : Thread nD τ).loc main_arg18) := h.2.2.2.2.2.2.2.2.2.2.2.2.2.2.2.2.2.2.1
theorem arg19_of {W : Valuation τ sig (Elt Ideal)} (h : Keep.ArgsAt m W c) :
    W (Proc.devRef .tc main_arg19) = m ((c : Thread nD τ).loc main_arg19) := h.2.2.2.2.2.2.2.2.2.2.2.2.2.2.2.2.2.2.2

/-- Every word of a row of the edge words lies in [0, 50000). -/
theorem rowWords_in (r : Fin 2) (hidx : ∀ i, 0 ≤ ((m ((c : Thread nD τ).loc main_arg2)) i).toInt ∧ ((m ((c : Thread nD τ).loc main_arg2)) i).toInt < 50000) :
    ∀ i, 0 ≤ (Gnn.rowWords r (m ((c : Thread nD τ).loc main_arg2)) i).toInt ∧ (Gnn.rowWords r (m ((c : Thread nD τ).loc main_arg2)) i).toInt < ((50000 : ℕ) : ℤ) := by
  intro i
  show 0 ≤ ((m ((c : Thread nD τ).loc main_arg2)) (ix2 r (i 0))).toInt ∧ ((m ((c : Thread nD τ).loc main_arg2)) (ix2 r (i 0))).toInt < ((50000 : ℕ) : ℤ)
  exact ⟨(hidx _).1, by exact_mod_cast (hidx _).2⟩

/-- The source words: row 0 of the edge words, cut out before the first region. -/
theorem src_w1 : W1 m ρ c (Proc.devRef .tc main_v1) = Gnn.rowWords (0 : Fin 2) (m ((c : Thread nD τ).loc main_arg2)) := by
  show StableHlo.after hostOps0 (W0 m ρ c) (Proc.devRef .tc main_v1) = _
  simp only [hostOps0]
  after_results
  exact Gnn.Ops.slice_rowWords 0 (by decide) _ _ _

/-- The destination words: row 1 of the edge words. -/
theorem dst_w1 : W1 m ρ c (Proc.devRef .tc main_v3) = Gnn.rowWords (1 : Fin 2) (m ((c : Thread nD τ).loc main_arg2)) := by
  show StableHlo.after hostOps0 (W0 m ρ c) (Proc.devRef .tc main_v3) = _
  simp only [hostOps0]
  after_results
  exact Gnn.Ops.slice_rowWords 1 (by decide) _ _ _

/-- The destination words stay in their buffer up to the third round's first take. -/
theorem dst16 : W16 m ρ c (Proc.devRef .tc main_v3) = Gnn.rowWords (1 : Fin 2) (m ((c : Thread nD τ).loc main_arg2)) :=
  (Keep.keep16 m ρ c main_v3 (by decide)).trans <|
  (Keep.keep15 m ρ c main_v3 (by decide)).trans <|
  (Keep.keep14 m ρ c main_v3 (by decide)).trans <|
  (Keep.keep13 m ρ c main_v3 (by decide)).trans <|
  (Keep.keep12 m ρ c main_v3 (by decide)).trans <|
  (Keep.keep11 m ρ c main_v3 (by decide)).trans <|
  (Keep.keep10 m ρ c main_v3 (by decide)).trans <|
  (Keep.keep9 m ρ c main_v3 (by decide)).trans <|
  (Keep.keep8 m ρ c main_v3 (by decide)).trans <|
  (Keep.keep7 m ρ c main_v3 (by decide)).trans <|
  (Keep.keep6 m ρ c main_v3 (by decide)).trans <|
  (Keep.keep5 m ρ c main_v3 (by decide)).trans <|
  (Keep.keep4 m ρ c main_v3 (by decide)).trans <|
  (Keep.keep3 m ρ c main_v3 (by decide)).trans <|
  (Keep.keep2 m ρ c main_v3 (by decide)).trans <|
  dst_w1 m ρ c

/-- … and up to the third round's sum at the destinations. -/
theorem dst21 : W21 m ρ c (Proc.devRef .tc main_v3) = Gnn.rowWords (1 : Fin 2) (m ((c : Thread nD τ).loc main_arg2)) :=
  (Keep.keep21 m ρ c main_v3 (by decide)).trans <|
  (Keep.keep20 m ρ c main_v3 (by decide)).trans <|
  (Keep.keep19 m ρ c main_v3 (by decide)).trans <|
  (Keep.keep18 m ρ c main_v3 (by decide)).trans <|
  (Keep.keep17 m ρ c main_v3 (by decide)).trans <|
  dst16 m ρ c

/-- The source words stay in their buffer up to the third round's second and third takes. -/
theorem src17 : W17 m ρ c (Proc.devRef .tc main_v1) = Gnn.rowWords (0 : Fin 2) (m ((c : Thread nD τ).loc main_arg2)) :=
  (Keep.keep17 m ρ c main_v1 (by decide)).trans <|
  (Keep.keep16 m ρ c main_v1 (by decide)).trans <|
  (Keep.keep15 m ρ c main_v1 (by decide)).trans <|
  (Keep.keep14 m ρ c main_v1 (by decide)).trans <|
  (Keep.keep13 m ρ c main_v1 (by decide)).trans <|
  (Keep.keep12 m ρ c main_v1 (by decide)).trans <|
  (Keep.keep11 m ρ c main_v1 (by decide)).trans <|
  (Keep.keep10 m ρ c main_v1 (by decide)).trans <|
  (Keep.keep9 m ρ c main_v1 (by decide)).trans <|
  (Keep.keep8 m ρ c main_v1 (by decide)).trans <|
  (Keep.keep7 m ρ c main_v1 (by decide)).trans <|
  (Keep.keep6 m ρ c main_v1 (by decide)).trans <|
  (Keep.keep5 m ρ c main_v1 (by decide)).trans <|
  (Keep.keep4 m ρ c main_v1 (by decide)).trans <|
  (Keep.keep3 m ρ c main_v1 (by decide)).trans <|
  (Keep.keep2 m ρ c main_v1 (by decide)).trans <|
  src_w1 m ρ c

theorem src18 : W18 m ρ c (Proc.devRef .tc main_v1) = Gnn.rowWords (0 : Fin 2) (m ((c : Thread nD τ).loc main_arg2)) :=
  (Keep.keep18 m ρ c main_v1 (by decide)).trans (src17 m ρ c)

/-- Region 5's inputs at its entry. -/
theorem in5_v69 (hidx : ∀ i, 0 ≤ ((m ((c : Thread nD τ).loc main_arg2)) i).toInt ∧ ((m ((c : Thread nD τ).loc main_arg2)) i).toInt < 50000) :
    W20 m ρ c (Proc.devRef .tc main_v69) = Gnn.takeRows (N := 50000) (by decide) (W16 m ρ c (Proc.devRef .tc main_v68)) (Gnn.rowWords (1 : Fin 2) (m ((c : Thread nD τ).loc main_arg2))) := by
  have hd := dst16 m ρ c
  refine (Keep.keep20 m ρ c main_v69 (by decide)).trans ?_
  refine (Keep.keep19 m ρ c main_v69 (by decide)).trans ?_
  refine (Keep.keep18 m ρ c main_v69 (by decide)).trans ?_
  refine (ops5_v69 (W16 m ρ c) ?_).trans ?_
  · rw [hd]; exact rowWords_in m c 1 hidx
  · rw [hd]

theorem in5_v70 (hidx : ∀ i, 0 ≤ ((m ((c : Thread nD τ).loc main_arg2)) i).toInt ∧ ((m ((c : Thread nD τ).loc main_arg2)) i).toInt < 50000) :
    W20 m ρ c (Proc.devRef .tc main_v70) = Gnn.takeRows (N := 50000) (by decide) (W16 m ρ c (Proc.devRef .tc main_v68)) (Gnn.rowWords (0 : Fin 2) (m ((c : Thread nD τ).loc main_arg2))) := by
  have hs := src17 m ρ c
  refine (Keep.keep20 m ρ c main_v70 (by decide)).trans ?_
  refine (Keep.keep19 m ρ c main_v70 (by decide)).trans ?_
  refine (ops5_1_v70 (W17 m ρ c) ?_).trans ?_
  · rw [hs]; exact rowWords_in m c 0 hidx
  · rw [hs, Keep.keep17 m ρ c main_v68 (by decide)]

theorem in5_v71 (hidx : ∀ i, 0 ≤ ((m ((c : Thread nD τ).loc main_arg2)) i).toInt ∧ ((m ((c : Thread nD τ).loc main_arg2)) i).toInt < 50000) :
    W20 m ρ c (Proc.devRef .tc main_v71) = Gnn.takeRows (N := 50000) (by decide) (m ((c : Thread nD τ).loc main_arg1)) (Gnn.rowWords (0 : Fin 2) (m ((c : Thread nD τ).loc main_arg2))) := by
  have hs := src18 m ρ c
  refine (Keep.keep20 m ρ c main_v71 (by decide)).trans ?_
  refine (ops5_2_v71 (W18 m ρ c) ?_).trans ?_
  · rw [hs]; exact rowWords_in m c 0 hidx
  · rw [hs, arg1_of m c (Keep.args18 m ρ c)]

theorem in5_v74 : W20 m ρ c (Proc.devRef .tc main_v74)
    = extractStridedSlice S64x64 ![0, 0] (Gnn.layerMat (2 : Fin 3) (m ((c : Thread nD τ).loc main_arg8))) slices_S131x64_S64x64_0_0 :=
  (ops5_3_v74 (W19 m ρ c)).trans (by rw [arg8_of m c (Keep.args19 m ρ c)])

theorem in5_v75 : W20 m ρ c (Proc.devRef .tc main_v75)
    = extractStridedSlice S64x64 ![64, 0] (Gnn.layerMat (2 : Fin 3) (m ((c : Thread nD τ).loc main_arg8))) slices_S131x64_S64x64_64_0 :=
  (ops5_3_v75 (W19 m ρ c)).trans (by rw [arg8_of m c (Keep.args19 m ρ c)])

theorem in5_v76 : W20 m ρ c (Proc.devRef .tc main_v76)
    = extractStridedSlice S3x64 ![128, 0] (Gnn.layerMat (2 : Fin 3) (m ((c : Thread nD τ).loc main_arg8))) slices_S131x64_S3x64_128_0 :=
  (ops5_3_v76 (W19 m ρ c)).trans (by rw [arg8_of m c (Keep.args19 m ρ c)])

theorem in5_v83 : W20 m ρ c (Proc.devRef .tc main_v83) = Gnn.rowVec (Gnn.layerVec (2 : Fin 3) (m ((c : Thread nD τ).loc main_arg9))) :=
  (ops5_3_v83 (W19 m ρ c)).trans (by rw [arg9_of m c (Keep.args19 m ρ c)])

theorem in5_v80 : W20 m ρ c (Proc.devRef .tc main_v80) = Gnn.layerMat (2 : Fin 3) (m ((c : Thread nD τ).loc main_arg10)) :=
  (ops5_3_v80 (W19 m ρ c)).trans (by rw [arg10_of m c (Keep.args19 m ρ c)])

theorem in5_v84 : W20 m ρ c (Proc.devRef .tc main_v84) = Gnn.rowVec (Gnn.layerVec (2 : Fin 3) (m ((c : Thread nD τ).loc main_arg11))) :=
  (ops5_3_v84 (W19 m ρ c)).trans (by rw [arg11_of m c (Keep.args19 m ρ c)])

/-- Region 5 leaves the third round's messages. -/
theorem msgs (hidx : ∀ i, 0 ≤ ((m ((c : Thread nD τ).loc main_arg2)) i).toInt ∧ ((m ((c : Thread nD τ).loc main_arg2)) i).toInt < 50000) :
    W21 m ρ c (Proc.devRef .tc main_v85)
      = Gnn.message (N := 50000) (E := 800000) (by decide) (W16 m ρ c (Proc.devRef .tc main_v68)) (m ((c : Thread nD τ).loc main_arg1)) (Gnn.rowWords (0 : Fin 2) (m ((c : Thread nD τ).loc main_arg2))) (Gnn.rowWords (1 : Fin 2) (m ((c : Thread nD τ).loc main_arg2)))
          (Gnn.layerMat (2 : Fin 3) (m ((c : Thread nD τ).loc main_arg8))) (Gnn.layerVec (2 : Fin 3) (m ((c : Thread nD τ).loc main_arg9)))
          (Gnn.layerMat (2 : Fin 3) (m ((c : Thread nD τ).loc main_arg10))) (Gnn.layerVec (2 : Fin 3) (m ((c : Thread nD τ).loc main_arg11))) := by
  refine ((W21_arr m ρ c 9).trans (RegionValue.final5 (V20 m ρ) c)).trans ?_
  show Gnn.denseRow (Gnn.relu (Gnn.edgePreRow (W20 m ρ c (Proc.devRef .tc main_v69)) (W20 m ρ c (Proc.devRef .tc main_v70)) (W20 m ρ c (Proc.devRef .tc main_v71))
      (W20 m ρ c (Proc.devRef .tc main_v74)) (W20 m ρ c (Proc.devRef .tc main_v75)) (W20 m ρ c (Proc.devRef .tc main_v76)) (W20 m ρ c (Proc.devRef .tc main_v83))))
      (W20 m ρ c (Proc.devRef .tc main_v80)) (W20 m ρ c (Proc.devRef .tc main_v84)) = _
  rw [in5_v69 m ρ c hidx, in5_v70 m ρ c hidx, in5_v71 m ρ c hidx, in5_v74 m ρ c, in5_v75 m ρ c, in5_v76 m ρ c,
    in5_v83 m ρ c, in5_v80 m ρ c, in5_v84 m ρ c,
    Gnn.Ops.edgePreRow_slices _ _ _ (Gnn.layerMat (2 : Fin 3) (m ((c : Thread nD τ).loc main_arg8))) (Gnn.layerVec (2 : Fin 3) (m ((c : Thread nD τ).loc main_arg9)))
      slices_S131x64_S64x64_0_0 slices_S131x64_S64x64_64_0 slices_S131x64_S3x64_128_0,
    Gnn.Ops.denseRow_rowVec]
  rfl

/-- Region 6's inputs at its entry. -/
theorem in6_v88 (hidx : ∀ i, 0 ≤ ((m ((c : Thread nD τ).loc main_arg2)) i).toInt ∧ ((m ((c : Thread nD τ).loc main_arg2)) i).toInt < 50000) :
    W22 m ρ c (Proc.devRef .tc main_v88)
      = Gnn.scatterRows (N := 50000) (Gnn.rowWords (1 : Fin 2) (m ((c : Thread nD τ).loc main_arg2)))
          (Gnn.message (N := 50000) (E := 800000) (by decide) (W16 m ρ c (Proc.devRef .tc main_v68)) (m ((c : Thread nD τ).loc main_arg1)) (Gnn.rowWords (0 : Fin 2) (m ((c : Thread nD τ).loc main_arg2))) (Gnn.rowWords (1 : Fin 2) (m ((c : Thread nD τ).loc main_arg2)))
            (Gnn.layerMat (2 : Fin 3) (m ((c : Thread nD τ).loc main_arg8))) (Gnn.layerVec (2 : Fin 3) (m ((c : Thread nD τ).loc main_arg9)))
            (Gnn.layerMat (2 : Fin 3) (m ((c : Thread nD τ).loc main_arg10))) (Gnn.layerVec (2 : Fin 3) (m ((c : Thread nD τ).loc main_arg11)))) :=
  (ops6_v88 (W21 m ρ c)).trans (by rw [dst21 m ρ c, msgs m ρ c hidx])

theorem in6_v90 : W22 m ρ c (Proc.devRef .tc main_v90) = Gnn.layerMat (2 : Fin 3) (m ((c : Thread nD τ).loc main_arg12)) :=
  (ops6_v90 (W21 m ρ c)).trans (by rw [arg12_of m c (Keep.args21 m ρ c)])

theorem in6_v97 : W22 m ρ c (Proc.devRef .tc main_v97) = Gnn.rowVec (Gnn.layerVec (2 : Fin 3) (m ((c : Thread nD τ).loc main_arg13))) :=
  (ops6_v97 (W21 m ρ c)).trans (by rw [arg13_of m c (Keep.args21 m ρ c)])

theorem in6_v94 : W22 m ρ c (Proc.devRef .tc main_v94) = Gnn.layerMat (2 : Fin 3) (m ((c : Thread nD τ).loc main_arg14)) :=
  (ops6_v94 (W21 m ρ c)).trans (by rw [arg14_of m c (Keep.args21 m ρ c)])

theorem in6_v98 : W22 m ρ c (Proc.devRef .tc main_v98) = Gnn.rowVec (Gnn.layerVec (2 : Fin 3) (m ((c : Thread nD τ).loc main_arg15))) :=
  (ops6_v98 (W21 m ρ c)).trans (by rw [arg15_of m c (Keep.args21 m ρ c)])

/-! ### The boundaries of the head and of the per-graph sums -/

theorem in7_v100 : W24 m ρ c (Proc.devRef .tc main_v100) = Gnn.rowVec (m ((c : Thread nD τ).loc main_arg17)) :=
  (ops7_v100 (W23 m ρ c)).trans (by rw [arg17_of m c (Keep.args23 m ρ c)])

theorem in7_v101 : W24 m ρ c (Proc.devRef .tc main_v101) = Gnn.rowVec (m ((c : Thread nD τ).loc main_arg19)) :=
  (ops7_v101 (W23 m ρ c)).trans (by rw [arg19_of m c (Keep.args23 m ρ c)])

/-- Region 7 leaves the head's output. -/
theorem headOut : W25 m ρ c (Proc.devRef .tc main_v102)
    = Gnn.mlp (W23 m ρ c (Proc.devRef .tc main_v99)) (m ((c : Thread nD τ).loc main_arg16)) (m ((c : Thread nD τ).loc main_arg17)) (m ((c : Thread nD τ).loc main_arg18)) (m ((c : Thread nD τ).loc main_arg19)) := by
  refine ((W25_arr m ρ c 5).trans (RegionValue.final7 (V24 m ρ) c)).trans ?_
  show Gnn.denseRow (Gnn.relu (Gnn.denseRow (W24 m ρ c (Proc.devRef .tc main_v99)) (W24 m ρ c (Proc.devRef .tc main_arg16)) (W24 m ρ c (Proc.devRef .tc main_v100))))
      (W24 m ρ c (Proc.devRef .tc main_arg18)) (W24 m ρ c (Proc.devRef .tc main_v101)) = _
  rw [Keep.keep24 m ρ c main_v99 (by decide), arg16_of m c (Keep.args24 m ρ c), arg18_of m c (Keep.args24 m ρ c),
    in7_v100 m ρ c, in7_v101 m ρ c, Gnn.Ops.denseRow_rowVec, Gnn.Ops.denseRow_rowVec]
  rfl

theorem in8_v102 : W26 m ρ c (Proc.devRef .tc main_v102)
    = Gnn.mlp (W23 m ρ c (Proc.devRef .tc main_v99)) (m ((c : Thread nD τ).loc main_arg16)) (m ((c : Thread nD τ).loc main_arg17)) (m ((c : Thread nD τ).loc main_arg18)) (m ((c : Thread nD τ).loc main_arg19)) :=
  (Keep.keep26 m ρ c main_v102 (by decide)).trans (headOut m ρ c)

theorem in8_v103 : W26 m ρ c (Proc.devRef .tc main_v103) = Gnn.colWords (m ((c : Thread nD τ).loc main_arg3)) :=
  (ops8_v103 (W25 m ρ c)).trans (by rw [arg3_of m c (Keep.args25 m ρ c)])

end PartC

open PartC

/-- The third round: the takes, region 5's messages, their sums at the destinations, and region 6's node perceptron
    are one round of the network on the features the second round left. -/
theorem round2
    (hidx : ∀ i, 0 ≤ ((m ((c : Thread nD τ).loc main_arg2)) i).toInt ∧ ((m ((c : Thread nD τ).loc main_arg2)) i).toInt < 50000) :
    W23 m ρ c (Proc.devRef .tc main_v99)
      = Gnn.roundAt 2 (W16 m ρ c (Proc.devRef .tc main_v68)) (m ((c : Thread nD τ).loc main_arg1)) (m ((c : Thread nD τ).loc main_arg2))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) := by
  refine ((W23_arr m ρ c 5).trans (RegionValue.final6 (V22 m ρ) c)).trans ?_
  show Gnn.relu (Gnn.denseRow (Gnn.relu (Gnn.denseRow (W22 m ρ c (Proc.devRef .tc main_v88)) (W22 m ρ c (Proc.devRef .tc main_v90)) (W22 m ρ c (Proc.devRef .tc main_v97))))
      (W22 m ρ c (Proc.devRef .tc main_v94)) (W22 m ρ c (Proc.devRef .tc main_v98))) = _
  rw [in6_v88 m ρ c hidx, in6_v90 m ρ c, in6_v97 m ρ c, in6_v94 m ρ c, in6_v98 m ρ c,
    Gnn.Ops.denseRow_rowVec, Gnn.Ops.denseRow_rowVec]
  rfl

/-- The head and the per-graph sums: region 7's perceptron on the third round's features, then region 8's indicator
    sums, which are the sums of the rows whose graph word names the graph. -/
theorem tail :
    W27 m ρ c (Proc.devRef .tc main_v104)
      = Gnn.scatterRows (m ((c : Thread nD τ).loc main_arg3))
          (Gnn.mlp (W23 m ρ c (Proc.devRef .tc main_v99)) (m ((c : Thread nD τ).loc main_arg16)) (m ((c : Thread nD τ).loc main_arg17))
            (m ((c : Thread nD τ).loc main_arg18)) (m ((c : Thread nD τ).loc main_arg19))) := by
  refine ((W27_arr m ρ c 2).trans (RegionValue.final8 (V26 m ρ) c)).trans ?_
  show Gnn.onehotRows (N := 128) (W26 m ρ c (Proc.devRef .tc main_v102)) (W26 m ρ c (Proc.devRef .tc main_v103)) = _
  rw [in8_v102 m ρ c, in8_v103 m ρ c]
  exact Gnn.Ops.onehot_scatter (by norm_num) _ _

end Cert.KernelIdeal.Chain

end
-- ==== Proof.KChain.lean ====
/-
  The idealized kernel program's result, read through the run's fold of buffer contents, is the network of Spec.lean
  applied to the launch contents of the twenty arguments: the node perceptron (region 0), three rounds of gather,
  edge perceptron, sum at the destinations and node perceptron (two regions and the host stretches between them per
  round), the head (region 7) and the per-graph sums (region 8).  Each step is its own lemma; here they are composed.
-/
import proofs.«429355_j34995393528525_1_alg».proof.Proof.KChainA
import proofs.«429355_j34995393528525_1_alg».proof.Proof.KChainB
import proofs.«429355_j34995393528525_1_alg».proof.Proof.KChainC

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- With every edge word a node number, the result buffer at the last boundary holds the network's value at the arguments. -/
theorem result_eq
    (hidx : ∀ i, 0 ≤ ((m ((c : Thread nD τ).loc main_arg2)) i).toInt ∧ ((m ((c : Thread nD τ).loc main_arg2)) i).toInt < 50000) :
    W27 m ρ c (Proc.devRef .tc main_v104)
      = Gnn.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [tail m ρ c, round2 m ρ c hidx, round1 m ρ c hidx, round0 m ρ c hidx, stage0 m ρ c]
  rfl

end Cert.KernelIdeal.Chain

end
-- ==== Proof.RefValue.lean ====
/-
  The reference program's result, stage by stage, is the network of the specification applied to the arguments.

  The source and destination words are the two rows of the edge table; the first named value is the node perceptron of
  the input features; each of the next two is one round of message passing applied to the value before it; the last
  term is the head's perceptron of the third round, summed per graph.  Every step joins a composition of array
  operations to the stage function it computes: a product plus a stretched bias row is a linear layer, a maximum with
  a zero splat is the positive part, a slice with its unit axis dropped is a layer of a stack, a select on the sign
  followed by a gather is the row gather at wrapped words, a scatter-add into zeros is the sum at the destinations.
-/
import proofs.«429355_j34995393528525_1_alg».proof.Proof.Gen.ReferenceIdeal.Run
import proofs.«429355_j34995393528525_1_alg».proof.Proof.Spec
import proofs.«429355_j34995393528525_1_alg».proof.Proof.LibRowOps
import proofs.«429355_j34995393528525_1_alg».proof.Proof.OpsDense
import proofs.«429355_j34995393528525_1_alg».proof.Proof.OpsIndex
import proofs.«429355_j34995393528525_1_alg».proof.Proof.OpsEdge

noncomputable section

namespace Cert.ReferenceIdeal.RefValue

open Cert.ReferenceIdeal Cert.ReferenceIdeal.Gen Cert.ReferenceIdeal.Value Idealize.ShloMosaic Idealize.ShloMosaic.ValueIdx

theorem words_src (V0 : Valuation τ sig (Elt Ideal)) :
    res_main_v1 V0 = Gnn.rowWords (0 : Fin 2) (V0 (Proc.devRef .tc main_arg2)) :=
  Gnn.Ops.slice_rowWords 0 (by decide) (V0 (Proc.devRef .tc main_arg2)) slices_S2x800000_S1x800000_0_0
    shapeCasts_S1x800000_S800000

theorem words_dst (V0 : Valuation τ sig (Elt Ideal)) :
    res_main_v3 V0 = Gnn.rowWords (1 : Fin 2) (V0 (Proc.devRef .tc main_arg2)) :=
  Gnn.Ops.slice_rowWords 1 (by decide) (V0 (Proc.devRef .tc main_arg2)) slices_S2x800000_S1x800000_1_0
    shapeCasts_S1x800000_S800000

theorem stage0 (V0 : Valuation τ sig (Elt Ideal)) :
    res_main_v13 V0 = Gnn.mlp (V0 (Proc.devRef .tc main_arg0)) (V0 (Proc.devRef .tc main_arg4))
      (V0 (Proc.devRef .tc main_arg5)) (V0 (Proc.devRef .tc main_arg6)) (V0 (Proc.devRef .tc main_arg7)) := by
  unfold res_main_v13
  rw [Gnn.Ops.host_dense dot_S50000x16_S16x64_S50000x64_1_0_0_1_n_n rfl, Gnn.Ops.host_relu,
    Gnn.Ops.host_dense dot_S50000x64_S64x64_S50000x64_1_0_0_1_n_n rfl]
  rfl

/-- One round's composition of array operations, rewritten stage by stage: the sign select is the wrap of a word, the
    stretched word vector its column, the gathers the rows at the wrapped words, the sliced stacks the layer's weights,
    the products with their bias rows the linear layers, the maxima with zero the positive parts, and the scatter-add
    into zeros the sum at the destinations.  `l` is the layer, `h` the features entering the round. -/
local macro "round_steps" l:term "," h:term "," V0:term : tactic => `(tactic| (
  rw [Gnn.Ops.wrap_words (N := 50000) (by decide) (res_main_v3 $V0), Gnn.Ops.wrap_words (N := 50000) (by decide) (res_main_v1 $V0)]
  rw [Gnn.Ops.bcast_colWords (fun i => Gnn.wrapWord 50000 (res_main_v3 $V0 i)),
    Gnn.Ops.bcast_colWords (fun i => Gnn.wrapWord 50000 (res_main_v1 $V0 i)),
    Gnn.Ops.bcast_colWords (res_main_v3 $V0)]
  rw [Gnn.Ops.host_gather (by decide) _ gather_S50000x64_S800000x1_S800000x64_1_0_n_n_0_1_164 rfl $h (res_main_v3 $V0),
    Gnn.Ops.host_gather (by decide) _ gather_S50000x64_S800000x1_S800000x64_1_0_n_n_0_1_164 rfl $h (res_main_v1 $V0),
    Gnn.Ops.host_gather (by decide) _ gather_S50000x3_S800000x1_S800000x3_1_0_n_n_0_1_13 rfl ($V0 (Proc.devRef .tc main_arg1)) (res_main_v1 $V0)]
  rw [Gnn.Ops.slice_layerMat $l (by decide) ($V0 (Proc.devRef .tc main_arg8)),
    Gnn.Ops.slice_layerVec $l (by decide) ($V0 (Proc.devRef .tc main_arg9)),
    Gnn.Ops.slice_layerMat $l (by decide) ($V0 (Proc.devRef .tc main_arg10)),
    Gnn.Ops.slice_layerVec $l (by decide) ($V0 (Proc.devRef .tc main_arg11)),
    Gnn.Ops.slice_layerMat $l (by decide) ($V0 (Proc.devRef .tc main_arg12)),
    Gnn.Ops.slice_layerVec $l (by decide) ($V0 (Proc.devRef .tc main_arg13)),
    Gnn.Ops.slice_layerMat $l (by decide) ($V0 (Proc.devRef .tc main_arg14)),
    Gnn.Ops.slice_layerVec $l (by decide) ($V0 (Proc.devRef .tc main_arg15))]
  rw [Gnn.Ops.host_edgePre dot_S800000x131_S131x64_S800000x64_1_0_0_1_n_n rfl]
  rw [Gnn.Ops.host_relu (N := 800000)]
  rw [Gnn.Ops.host_dense dot_S800000x64_S64x64_S800000x64_1_0_0_1_n_n rfl]
  rw [Gnn.Ops.host_scatter _ scatter_S50000x64_S800000x1_S800000x64_1_0_0_1 rfl]))

theorem round0 (V0 : Valuation τ sig (Elt Ideal)) :
    res_main_v76 V0 = Gnn.roundAt 0 (res_main_v13 V0) (V0 (Proc.devRef .tc main_arg1)) (V0 (Proc.devRef .tc main_arg2))
      (V0 (Proc.devRef .tc main_arg8)) (V0 (Proc.devRef .tc main_arg9)) (V0 (Proc.devRef .tc main_arg10))
      (V0 (Proc.devRef .tc main_arg11)) (V0 (Proc.devRef .tc main_arg12)) (V0 (Proc.devRef .tc main_arg13))
      (V0 (Proc.devRef .tc main_arg14)) (V0 (Proc.devRef .tc main_arg15)) := by
  unfold res_main_v76
  round_steps 0, (res_main_v13 V0), V0
  rw [Gnn.Ops.host_relu, Gnn.Ops.host_dense dot_S50000x64_S64x64_S50000x64_1_0_0_1_n_n rfl, Gnn.Ops.host_relu,
    Gnn.Ops.host_dense dot_S50000x64_S64x64_S50000x64_1_0_0_1_n_n rfl]
  rw [words_src V0, words_dst V0]
  rfl

theorem round1 (V0 : Valuation τ sig (Elt Ideal)) :
    res_main_v139 V0 = Gnn.roundAt 1 (res_main_v76 V0) (V0 (Proc.devRef .tc main_arg1)) (V0 (Proc.devRef .tc main_arg2))
      (V0 (Proc.devRef .tc main_arg8)) (V0 (Proc.devRef .tc main_arg9)) (V0 (Proc.devRef .tc main_arg10))
      (V0 (Proc.devRef .tc main_arg11)) (V0 (Proc.devRef .tc main_arg12)) (V0 (Proc.devRef .tc main_arg13))
      (V0 (Proc.devRef .tc main_arg14)) (V0 (Proc.devRef .tc main_arg15)) := by
  unfold res_main_v139
  round_steps 1, (res_main_v76 V0), V0
  rw [Gnn.Ops.host_relu, Gnn.Ops.host_dense dot_S50000x64_S64x64_S50000x64_1_0_0_1_n_n rfl, Gnn.Ops.host_relu,
    Gnn.Ops.host_dense dot_S50000x64_S64x64_S50000x64_1_0_0_1_n_n rfl]
  rw [words_src V0, words_dst V0]
  rfl

theorem result_eq (V0 : Valuation τ sig (Elt Ideal)) :
    Host.scatterAdd scatter_S128x8_S50000x1_S50000x8_1_0_0_1 (broadcastInDim S128x8 ![] bcast_S_S128x8 (constant S_ .f32 0x00000000#32)) (broadcastInDim S50000x1 ![0] bcast_S50000_S50000x1_0 (V0 (Proc.devRef .tc main_arg3))) (addf (res_main_v209 V0) (broadcastInDim S50000x8 ![0, 1] bcast_S1x8_S50000x8_0_1 (broadcastInDim S1x8 ![1] bcast_S8_S1x8_1 (V0 (Proc.devRef .tc main_arg19)))))
      = Gnn.forward (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14))
          (V0 (Proc.devRef .tc main_arg15)) (V0 (Proc.devRef .tc main_arg16)) (V0 (Proc.devRef .tc main_arg17))
          (V0 (Proc.devRef .tc main_arg18)) (V0 (Proc.devRef .tc main_arg19)) := by
  unfold res_main_v209
  round_steps 2, (res_main_v139 V0), V0
  rw [Gnn.Ops.host_dense dot_S50000x32_S32x8_S50000x8_1_0_0_1_n_n rfl, Gnn.Ops.host_relu,
    Gnn.Ops.host_dense dot_S50000x64_S64x32_S50000x32_1_0_0_1_n_n rfl]
  rw [Gnn.Ops.host_relu, Gnn.Ops.host_dense dot_S50000x64_S64x64_S50000x64_1_0_0_1_n_n rfl, Gnn.Ops.host_relu,
    Gnn.Ops.host_dense dot_S50000x64_S64x64_S50000x64_1_0_0_1_n_n rfl]
  rw [Gnn.Ops.bcast_colWords (V0 (Proc.devRef .tc main_arg3)),
    Gnn.Ops.host_scatter _ scatter_S128x8_S50000x1_S50000x8_1_0_0_1 rfl]
  rw [round1 V0, round0 V0, stage0 V0, words_src V0, words_dst V0]
  rfl

end Cert.ReferenceIdeal.RefValue

end
-- ==== Proof.PreDecode.lean ====
/-
  The precondition of the certificate, read back at the edge table.

  The precondition is one i1 word: the conjunction (by `and`) of nineteen `all`-reductions.  The last
  conjunct is the reduction, over both axes of the [2, 800000] table of edge words, of
  (word ≥ 0) ∧ (word < 50000), both comparisons signed.  The precondition being 1 therefore makes
  every word w of the table satisfy 0 ≤ w < 50000 as a signed integer.
-/
import proofs.«429355_j34995393528525_1_alg».proof.Defs
import proofs.«429355_j34995393528525_1_alg».proof.Proof.Gen.Pre_finite_inputs
import Idealize.ShloMosaic.Lib.ReduceAll
import Idealize.ShloMosaic.Lib.StableHlo.Predicate
import Idealize.ShloMosaic.Lib.ValueIdx

namespace Cert.Proof.PreDecode

open Idealize.ShloMosaic Idealize.SL.Sem
open Cert.Pre_finite_inputs

/-- The rank-0 shape has exactly one index. -/
instance subsingleton_scalar_idx : Subsingleton S_.Idx := ⟨fun a b => funext fun d => d.elim0⟩

/-- The signed value of the word 0 is 0, and of the word 50000 is 50000. -/
theorem toInt_zero_word : (0#32 : BitVec 32).toInt = 0 := by decide
theorem toInt_bound_word : (50000#32 : BitVec 32).toInt = 50000 := by decide

/-- The tail of the conjunction: if it is 1 at the one index, its last conjunct is 1; that conjunct is an
    `and`-reduction over every index of the table, so the compared bit is 1 at every index; the bit at an index is the
    `and` of the two signed comparisons of the word there, against the scalars 0 and 50000 broadcast over the table. -/
theorem tail_words [hP : Cert.Pre_finite_inputs.Facts] {F : FTy → Type} [FloatOps F] (a2 : IVec S2x800000 32) (v83 : IVec S_ 1)
    (v84 : FVec F S8 .f32) (c32 : FVec F S_ .f32) (j : S_.Idx)
    (h : fn_part5 (F := F) a2 v83 v84 c32 j = 1#1) (i : S2x800000.Idx) :
    0 ≤ (a2 i).toInt ∧ (a2 i).toInt < 50000 := by
  unfold fn_part5 at h
  have hall := (IntOp.andi_eq_one.1 h).2
  have hbit := Host.reduce_andi_all _ _ _ _ j hall i
  obtain ⟨hge, hlt⟩ := IntOp.andi_eq_one.1 hbit
  have h0 : (0#32 : BitVec 32).toInt ≤ (a2 i).toInt := IntOp.cmpi_sge.1 hge
  have h1 : (a2 i).toInt < (50000#32 : BitVec 32).toInt := IntOp.cmpi_slt.1 hlt
  rw [toInt_zero_word] at h0
  rw [toInt_bound_word] at h1
  exact ⟨h0, h1⟩

/-- Every word of the edge table lies in [0, 50000), read signed, on every device, under the precondition. -/
theorem idx_in_range [hP : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, 0 ≤ ((m ((c.tc : Thread Cert.KernelIdeal.nD Cert.KernelIdeal.τ).loc Cert.KernelIdeal.main_arg2)) i).toInt ∧ ((m ((c.tc : Thread Cert.KernelIdeal.nD Cert.KernelIdeal.τ).loc Cert.KernelIdeal.main_arg2)) i).toInt < 50000 := by
  intro i
  have e := congrFun (hpre c) (fun d => d.elim0)
  unfold Cert.Pre_finite_inputs.fn fn_part1 fn_part2 fn_part3 fn_part4 at e
  exact tail_words _ _ _ _ _ e i

end Cert.Proof.PreDecode
-- ==== Proof.lean ====
/-
  The certificate: a message-passing network on a graph (a node perceptron, three rounds of "gather along the edges,
  edge perceptron, sum at the destinations, node perceptron", a head, and the sum of the nodes' rows per graph),
  computed once as a program of nine tiled kernels with host glue and once as plain array operations, gives the same
  [128, 8] array over the extended reals whenever the float inputs are finite and every edge word is a node number.
  The three frames are the generated ones (the reference's is its generated run with the result dropped); the ledger
  of idealizations is empty.  For the value claim both programs' results are shown to be ONE function of the
  arguments, `Gnn.forward` (Proof/Spec.lean): the kernel program's through the run's fold of buffer contents
  (Proof/KChain.lean over the regions' values, Proof/Reg*.lean), the reference's through its generated run
  (Proof/RefValue.lean).  Where the two programs differ — a matrix product tiled by rows against one whole product;
  one product with three stacked weight blocks against three products summed; a gather that fills rows of words
  out of range against one that clamps them; an indicator-matrix product against a scatter-add — the joining laws are
  commutativity and associativity of the extended reals' sums, 0 · x = 0, and, for the gather, the range of the words.
-/
import proofs.«429355_j34995393528525_1_alg».proof.Defs
import proofs.«429355_j34995393528525_1_alg».proof.Proof.Gen.Kernel
import proofs.«429355_j34995393528525_1_alg».proof.Proof.Gen.Kernel.Frame
import proofs.«429355_j34995393528525_1_alg».proof.Proof.Gen.KernelIdeal
import proofs.«429355_j34995393528525_1_alg».proof.Proof.Gen.KernelIdeal.Frame
import proofs.«429355_j34995393528525_1_alg».proof.Proof.Gen.ReferenceIdeal
import proofs.«429355_j34995393528525_1_alg».proof.Proof.Gen.ReferenceIdeal.Run
import proofs.«429355_j34995393528525_1_alg».proof.Proof.Gen.Pre_finite_inputs
import proofs.«429355_j34995393528525_1_alg».proof.Proof.KernelRun
import proofs.«429355_j34995393528525_1_alg».proof.Proof.KChain
import proofs.«429355_j34995393528525_1_alg».proof.Proof.RefValue
import proofs.«429355_j34995393528525_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the network's value at the (agreeing) arguments in their result buffers. -/
theorem algebraic : Cert.algebraic_KernelIdeal_ReferenceIdeal := by
  intro m ρ m' ρ' hpre hagree
  refine ⟨fun c => Cert.KernelIdeal.Gen.W27 m ρ c (Proc.devRef .tc Cert.KernelIdeal.main_v104),
    Cert.KernelIdeal.GenRun.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W27 m ρ c (Proc.devRef .tc Cert.KernelIdeal.main_v104)
  rw [Cert.ReferenceIdeal.RefValue.result_eq,
    Cert.KernelIdeal.Chain.result_eq m ρ c (Cert.Proof.PreDecode.idx_in_range m hpre c)]
  obtain ⟨h0, h1, h2, h3, h4, h5, h6, h7, h8, h9, h10, h11, h12, h13, h14, h15, h16, h17, h18, h19⟩ := hagree c
  rw [← h0, ← h1, ← h2, ← h3, ← h4, ← h5, ← h6, ← h7, ← h8, ← h9, ← h10, ← h11, ← h12, ← h13, ← h14, ← h15, ← h16, ← h17, ← h18, ← h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
